-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x12000 : Shape := ⟨2, ![12000, 12000]⟩
abbrev S16000x16000 : Shape := ⟨2, ![16000, 16000]⟩
abbrev S12000x64 : Shape := ⟨2, ![12000, 64]⟩
abbrev S16000x64 : Shape := ⟨2, ![16000, 64]⟩
abbrev S1024x12000 : Shape := ⟨2, ![1024, 12000]⟩
abbrev S1024x16000 : Shape := ⟨2, ![1024, 16000]⟩
abbrev S1024 : Shape := ⟨1, ![1024]⟩
abbrev S_ : Shape := ⟨0, ![]⟩

class Facts : Prop where
  bcast_S_S12000x12000 : S_.BroadcastsInDim S12000x12000 (![] : Fin 0 → Fin S12000x12000.rank)
  reducesTo_S12000x12000_S_d0_1 : S12000x12000.ReducesTo [0, 1] S_
  h_S_ : 0 < S_.numel
  bcast_S_S16000x16000 : S_.BroadcastsInDim S16000x16000 (![] : Fin 0 → Fin S16000x16000.rank)
  reducesTo_S16000x16000_S_d0_1 : S16000x16000.ReducesTo [0, 1] S_
  bcast_S_S12000x64 : S_.BroadcastsInDim S12000x64 (![] : Fin 0 → Fin S12000x64.rank)
  reducesTo_S12000x64_S_d0_1 : S12000x64.ReducesTo [0, 1] S_
  bcast_S_S16000x64 : S_.BroadcastsInDim S16000x64 (![] : Fin 0 → Fin S16000x64.rank)
  reducesTo_S16000x64_S_d0_1 : S16000x64.ReducesTo [0, 1] S_
  bcast_S_S1024x12000 : S_.BroadcastsInDim S1024x12000 (![] : Fin 0 → Fin S1024x12000.rank)
  reducesTo_S1024x12000_S_d0_1 : S1024x12000.ReducesTo [0, 1] S_
  bcast_S_S1024x16000 : S_.BroadcastsInDim S1024x16000 (![] : Fin 0 → Fin S1024x16000.rank)
  reducesTo_S1024x16000_S_d0_1 : S1024x16000.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg9 : IVec S1024 32) (main_v47 : IVec S_ 1) (main_v49 : IVec S1024 1) (main_c_19 : IVec S_ 32) : IVec S_ 1 :=
  let main_v50 : IVec S1024 32 := broadcastInDim S1024 ![] bcast_S_S1024 main_c_19
  let main_v51 : IVec S1024 1 := cmpi .slt main_arg9 main_v50
  let main_v52 : IVec S1024 1 := andi main_v49 main_v51
  let main_c_20 : IVec S_ 1 := constantI S_ 1 1#1
  let main_v53 : IVec S_ 1 := (fun x v => Host.reduce IntOp.andi x v reducesTo_S1024_S_d0 h_S_) main_v52 main_c_20
  let main_v54 : IVec S_ 1 := andi main_v47 main_v53
  main_v54

def fn_part2 {F : FTy → Type} [FloatOps F] (main_arg7 : IVec S1024 32) (main_arg8 : IVec S1024 32) (main_arg9 : IVec S1024 32) (main_v33 : IVec S_ 1) : IVec S_ 1 :=
  let main_c_12 : IVec S_ 32 := constantI S_ 32 0#32
  let main_v34 : IVec S1024 32 := broadcastInDim S1024 ![] bcast_S_S1024 main_c_12
  let main_v35 : IVec S1024 1 := cmpi .sge main_arg7 main_v34
  let main_c_13 : IVec S_ 32 := constantI S_ 32 12000#32
  let main_v36 : IVec S1024 32 := broadcastInDim S1024 ![] bcast_S_S1024 main_c_13
  let main_v37 : IVec S1024 1 := cmpi .slt main_arg7 main_v36
  let main_v38 : IVec S1024 1 := andi main_v35 main_v37
  let main_c_14 : IVec S_ 1 := constantI S_ 1 1#1
  let main_v39 : IVec S_ 1 := (fun x v => Host.reduce IntOp.andi x v reducesTo_S1024_S_d0 h_S_) main_v38 main_c_14
  let main_v40 : IVec S_ 1 := andi main_v33 main_v39
  let main_c_15 : IVec S_ 32 := constantI S_ 32 0#32
  let main_v41 : IVec S1024 32 := broadcastInDim S1024 ![] bcast_S_S1024 main_c_15
  let main_v42 : IVec S1024 1 := cmpi .sge main_arg8 main_v41
  let main_c_16 : IVec S_ 32 := constantI S_ 32 16000#32
  let main_v43 : IVec S1024 32 := broadcastInDim S1024 ![] bcast_S_S1024 main_c_16
  let main_v44 : IVec S1024 1 := cmpi .slt main_arg8 main_v43
  let main_v45 : IVec S1024 1 := andi main_v42 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v40 main_v46
  let main_c_18 : IVec S_ 32 := constantI S_ 32 0#32
  let main_v48 : IVec S1024 32 := broadcastInDim S1024 ![] bcast_S_S1024 main_c_18
  let main_v49 : IVec S1024 1 := cmpi .sge main_arg9 main_v48
  let main_c_19 : IVec S_ 32 := constantI S_ 32 16000#32
  fn_part3 (F := F) main_arg9 main_v47 main_v49 main_c_19

def fn_part1 {F : FTy → Type} [FloatOps F] (main_arg4 : FVec F S1024x12000 .f32) (main_arg5 : FVec F S1024x16000 .f32) (main_arg6 : FVec F S1024x16000 .f32) (main_arg7 : IVec S1024 32) (main_arg8 : IVec S1024 32) (main_arg9 : IVec S1024 32) (main_v13 : IVec S_ 1) (main_v16 : IVec S16000x64 1) : IVec S_ 1 :=
  let main_c_5 : IVec S_ 1 := constantI S_ 1 1#1
  let main_v17 : IVec S_ 1 := (fun x v => Host.reduce IntOp.andi x v reducesTo_S16000x64_S_d0_1 h_S_) main_v16 main_c_5
  let main_v18 : IVec S_ 1 := andi main_v13 main_v17
  let main_v19 : FVec F S1024x12000 .f32 := Host.absf main_arg4
  let main_cst_6 : FVec F S_ .f32 := constant S_ .f32 0x7F800000#32
  let main_v20 : FVec F S1024x12000 .f32 := broadcastInDim S1024x12000 ![] bcast_S_S1024x12000 main_cst_6
  let main_v21 : IVec S1024x12000 1 := cmpf .olt main_v19 main_v20
  let main_c_7 : IVec S_ 1 := constantI S_ 1 1#1
  let main_v22 : IVec S_ 1 := (fun x v => Host.reduce IntOp.andi x v reducesTo_S1024x12000_S_d0_1 h_S_) main_v21 main_c_7
  let main_v23 : IVec S_ 1 := andi main_v18 main_v22
  let main_v24 : FVec F S1024x16000 .f32 := Host.absf main_arg5
  let main_cst_8 : FVec F S_ .f32 := constant S_ .f32 0x7F800000#32
  let main_v25 : FVec F S1024x16000 .f32 := broadcastInDim S1024x16000 ![] bcast_S_S1024x16000 main_cst_8
  let main_v26 : IVec S1024x16000 1 := cmpf .olt main_v24 main_v25
  let main_c_9 : IVec S_ 1 := constantI S_ 1 1#1
  let main_v27 : IVec S_ 1 := (fun x v => Host.reduce IntOp.andi x v reducesTo_S1024x16000_S_d0_1 h_S_) main_v26 main_c_9
  let main_v28 : IVec S_ 1 := andi main_v23 main_v27
  let main_v29 : FVec F S1024x16000 .f32 := Host.absf main_arg6
  let main_cst_10 : FVec F S_ .f32 := constant S_ .f32 0x7F800000#32
  let main_v30 : FVec F S1024x16000 .f32 := broadcastInDim S1024x16000 ![] bcast_S_S1024x16000 main_cst_10
  let main_v31 : IVec S1024x16000 1 := cmpf .olt main_v29 main_v30
  let main_c_11 : IVec S_ 1 := constantI S_ 1 1#1
  let main_v32 : IVec S_ 1 := (fun x v => Host.reduce IntOp.andi x v reducesTo_S1024x16000_S_d0_1 h_S_) main_v31 main_c_11
  let main_v33 : IVec S_ 1 := andi main_v28 main_v32
  fn_part2 (F := F) main_arg7 main_arg8 main_arg9 main_v33

def fn {F : FTy → Type} [FloatOps F] (main_arg0 : FVec F S12000x12000 .f32) (main_arg1 : FVec F S16000x16000 .f32) (main_arg2 : FVec F S12000x64 .f32) (main_arg3 : FVec F S16000x64 .f32) (main_arg4 : FVec F S1024x12000 .f32) (main_arg5 : FVec F S1024x16000 .f32) (main_arg6 : FVec F S1024x16000 .f32) (main_arg7 : IVec S1024 32) (main_arg8 : IVec S1024 32) (main_arg9 : IVec S1024 32) : IVec S_ 1 :=
  let main_v0 : FVec F S12000x12000 .f32 := Host.absf main_arg0
  let main_cst : FVec F S_ .f32 := constant S_ .f32 0x7F800000#32
  let main_v1 : FVec F S12000x12000 .f32 := broadcastInDim S12000x12000 ![] bcast_S_S12000x12000 main_cst
  let main_v2 : IVec S12000x12000 1 := cmpf .olt main_v0 main_v1
  let main_c : IVec S_ 1 := constantI S_ 1 1#1
  let main_v3 : IVec S_ 1 := (fun x v => Host.reduce IntOp.andi x v reducesTo_S12000x12000_S_d0_1 h_S_) main_v2 main_c
  let main_v4 : FVec F S16000x16000 .f32 := Host.absf main_arg1
  let main_cst_0 : FVec F S_ .f32 := constant S_ .f32 0x7F800000#32
  let main_v5 : FVec F S16000x16000 .f32 := broadcastInDim S16000x16000 ![] bcast_S_S16000x16000 main_cst_0
  let main_v6 : IVec S16000x16000 1 := cmpf .olt main_v4 main_v5
  let main_c_1 : IVec S_ 1 := constantI S_ 1 1#1
  let main_v7 : IVec S_ 1 := (fun x v => Host.reduce IntOp.andi x v reducesTo_S16000x16000_S_d0_1 h_S_) main_v6 main_c_1
  let main_v8 : IVec S_ 1 := andi main_v3 main_v7
  let main_v9 : FVec F S12000x64 .f32 := Host.absf main_arg2
  let main_cst_2 : FVec F S_ .f32 := constant S_ .f32 0x7F800000#32
  let main_v10 : FVec F S12000x64 .f32 := broadcastInDim S12000x64 ![] bcast_S_S12000x64 main_cst_2
  let main_v11 : IVec S12000x64 1 := cmpf .olt main_v9 main_v10
  let main_c_3 : IVec S_ 1 := constantI S_ 1 1#1
  let main_v12 : IVec S_ 1 := (fun x v => Host.reduce IntOp.andi x v reducesTo_S12000x64_S_d0_1 h_S_) main_v11 main_c_3
  let main_v13 : IVec S_ 1 := andi main_v8 main_v12
  let main_v14 : FVec F S16000x64 .f32 := Host.absf main_arg3
  let main_cst_4 : FVec F S_ .f32 := constant S_ .f32 0x7F800000#32
  let main_v15 : FVec F S16000x64 .f32 := broadcastInDim S16000x64 ![] bcast_S_S16000x64 main_cst_4
  let main_v16 : IVec S16000x64 1 := cmpf .olt main_v14 main_v15
  fn_part1 (F := F) main_arg4 main_arg5 main_arg6 main_arg7 main_arg8 main_arg9 main_v13 main_v16
-- ==== Kernel.lean ====
abbrev S12000x12000 : Shape := ⟨2, ![12000, 12000]⟩
abbrev S16000x16000 : Shape := ⟨2, ![16000, 16000]⟩
abbrev S12000x64 : Shape := ⟨2, ![12000, 64]⟩
abbrev S16000x64 : Shape := ⟨2, ![16000, 64]⟩
abbrev S1024x12000 : Shape := ⟨2, ![1024, 12000]⟩
abbrev S1024x16000 : Shape := ⟨2, ![1024, 16000]⟩
abbrev S1024 : Shape := ⟨1, ![1024]⟩
abbrev S1024x64 : Shape := ⟨2, ![1024, 64]⟩
abbrev S8x12000 : Shape := ⟨2, ![8, 12000]⟩
abbrev S8x64 : Shape := ⟨2, ![8, 64]⟩
abbrev S8 : Shape := ⟨1, ![8]⟩
abbrev S1 : Shape := ⟨1, ![1]⟩
abbrev S_ : Shape := ⟨0, ![]⟩
abbrev S1x12000 : Shape := ⟨2, ![1, 12000]⟩
abbrev S8x16000 : Shape := ⟨2, ![8, 16000]⟩
abbrev S1x16000 : Shape := ⟨2, ![1, 16000]⟩
abbrev S1x1 : Shape := ⟨2, ![1, 1]⟩
abbrev S1024x1 : Shape := ⟨2, ![1024, 1]⟩

abbrev nBuf : Space → Nat
  | .hbm => 12
  | .vmem => 22
  | .smem => 3
  | _ => 0

abbrev bufTy : (tb : Table) → Fin (tcTables nBuf tb) → BufTy
  | .hbm, ⟨0, _⟩ => ⟨S12000x12000, .f32⟩
  | .hbm, ⟨1, _⟩ => ⟨S16000x16000, .f32⟩
  | .hbm, ⟨2, _⟩ => ⟨S12000x64, .f32⟩
  | .hbm, ⟨3, _⟩ => ⟨S16000x64, .f32⟩
  | .hbm, ⟨4, _⟩ => ⟨S1024x12000, .f32⟩
  | .hbm, ⟨5, _⟩ => ⟨S1024x16000, .f32⟩
  | .hbm, ⟨6, _⟩ => ⟨S1024x16000, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1x1, .f32⟩
  | .hbm, ⟨11, _⟩ => ⟨S_, .f32⟩
  | .local _ .vmem, ⟨0, _⟩ => ⟨S8x12000, .f32⟩
  | .local _ .vmem, ⟨1, _⟩ => ⟨S8x12000, .f32⟩
  | .local _ .vmem, ⟨2, _⟩ => ⟨S12000x64, .f32⟩
  | .local _ .vmem, ⟨3, _⟩ => ⟨S8x64, .f32⟩
  | .local _ .vmem, ⟨4, _⟩ => ⟨S8x64, .f32⟩
  | .local _ .vmem, ⟨5, _⟩ => ⟨S8x12000, .f32⟩
  | .local _ .vmem, ⟨6, _⟩ => ⟨S8x16000, .f32⟩
  | .local _ .vmem, ⟨7, _⟩ => ⟨S8x16000, .f32⟩
  | .local _ .vmem, ⟨8, _⟩ => ⟨S16000x64, .f32⟩
  | .local _ .vmem, ⟨9, _⟩ => ⟨S8x64, .f32⟩
  | .local _ .vmem, ⟨10, _⟩ => ⟨S8x64, .f32⟩
  | .local _ .vmem, ⟨11, _⟩ => ⟨S8x16000, .f32⟩
  | .local _ .vmem, ⟨12, _⟩ => ⟨S8x16000, .f32⟩
  | .local _ .vmem, ⟨13, _⟩ => ⟨S8x16000, .f32⟩
  | .local _ .vmem, ⟨14, _⟩ => ⟨S16000x64, .f32⟩
  | .local _ .vmem, ⟨15, _⟩ => ⟨S8x64, .f32⟩
  | .local _ .vmem, ⟨16, _⟩ => ⟨S8x64, .f32⟩
  | .local _ .vmem, ⟨17, _⟩ => ⟨S8x16000, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1x1, .f32⟩
  | .local _ .smem, ⟨0, _⟩ => ⟨S1024, .i32⟩
  | .local _ .smem, ⟨1, _⟩ => ⟨S1024, .i32⟩
  | .local _ .smem, ⟨2, _⟩ => ⟨S1024, .i32⟩
  | _, _ => ⟨S12000x12000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg7 : Ref sig .tc := ⟨.smem, 0, rfl⟩
abbrev main_arg8 : Ref sig .tc := ⟨.smem, 1, rfl⟩
abbrev main_arg9 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc3_sem0_0 : DmaSem sig := 39
abbrev cc3_sem1_0 : DmaSem sig := 40
abbrev cc3_sem2_0 : DmaSem sig := 41
abbrev cc3_sem3_0 : DmaSem sig := 42

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k0_off4 (v10 : BitVec 32) : Fin 2 → Nat :=
  let c0_i32_7 : BitVec 32 := 0#32
  ![v10.toNat, 0]

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k0_off6 (v17 : BitVec 32) : Fin 2 → Nat :=
  let c0_i32_11 : BitVec 32 := 0#32
  ![v17.toNat, 0]

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k0_off8 (v24 : BitVec 32) : Fin 2 → Nat :=
  let c0_i32_15 : BitVec 32 := 0#32
  ![v24.toNat, 0]

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k0_off10 (v31 : BitVec 32) : Fin 2 → Nat :=
  let c0_i32_19 : BitVec 32 := 0#32
  ![v31.toNat, 0]

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k0_off12 (v38 : BitVec 32) : Fin 2 → Nat :=
  let c0_i32_23 : BitVec 32 := 0#32
  ![v38.toNat, 0]

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k0_off14 (v45 : BitVec 32) : Fin 2 → Nat :=
  let c0_i32_27 : BitVec 32 := 0#32
  ![v45.toNat, 0]

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k0_off16 (v52 : BitVec 32) : Fin 2 → Nat :=
  let c0_i32_31 : BitVec 32 := 0#32
  ![v52.toNat, 0]

def k0_chk8 (v52 : BitVec 32) : Prop :=
  (∀ a, (k0_off16 v52) a + S1x12000.size a ≤ S12000x12000.size a)
instance k0_chk8.dec : ∀ (v52 : BitVec 32), Decidable (k0_chk8 v52) := fun v52 => decidable_of_iff' _ (Iff.of_eq (k0_chk8.eq_1 v52))
theorem k0_off16_inb : ∀ (v52 : BitVec 32) (k0_hw8 : k0_chk8 v52), ∀ a, (k0_off16 v52) a + S1x12000.size a ≤ S12000x12000.size a := fun v52 k0_hw8 => k0_hw8

def k0_off17 (v3 : BitVec 32) : Fin 2 → Nat :=
  let c0_i32_35 : BitVec 32 := 0#32
  ![v3.toNat, 0]

def k0_chk1 (v3 : BitVec 32) : Prop :=
  (∀ a, (k0_off2 v3) a + S1x12000.size a ≤ S12000x12000.size a) ∧
  (∀ a, (k0_off17 v3) a + S1x12000.size a ≤ S12000x12000.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x12000.size a ≤ S12000x12000.size a := fun v3 k0_hw1 => k0_hw1.1
theorem k0_off17_inb : ∀ (v3 : BitVec 32) (k0_hw1 : k0_chk1 v3), ∀ a, (k0_off17 v3) a + S1x12000.size a ≤ S12000x12000.size a := fun v3 k0_hw1 => k0_hw1.2

def k0_off18 (v10 : BitVec 32) : Fin 2 → Nat :=
  let c0_i32_39 : BitVec 32 := 0#32
  ![v10.toNat, 0]

def k0_chk2 (v10 : BitVec 32) : Prop :=
  (∀ a, (k0_off4 v10) a + S1x12000.size a ≤ S12000x12000.size a) ∧
  (∀ a, (k0_off18 v10) a + S1x12000.size a ≤ S12000x12000.size a)
instance k0_chk2.dec : ∀ (v10 : BitVec 32), Decidable (k0_chk2 v10) := fun v10 => decidable_of_iff' _ (Iff.of_eq (k0_chk2.eq_1 v10))
theorem k0_off4_inb : ∀ (v10 : BitVec 32) (k0_hw2 : k0_chk2 v10), ∀ a, (k0_off4 v10) a + S1x12000.size a ≤ S12000x12000.size a := fun v10 k0_hw2 => k0_hw2.1
theorem k0_off18_inb : ∀ (v10 : BitVec 32) (k0_hw2 : k0_chk2 v10), ∀ a, (k0_off18 v10) a + S1x12000.size a ≤ S12000x12000.size a := fun v10 k0_hw2 => k0_hw2.2

def k0_off19 (v17 : BitVec 32) : Fin 2 → Nat :=
  let c0_i32_43 : BitVec 32 := 0#32
  ![v17.toNat, 0]

def k0_chk3 (v17 : BitVec 32) : Prop :=
  (∀ a, (k0_off6 v17) a + S1x12000.size a ≤ S12000x12000.size a) ∧
  (∀ a, (k0_off19 v17) a + S1x12000.size a ≤ S12000x12000.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S1x12000.size a ≤ S12000x12000.size a := fun v17 k0_hw3 => k0_hw3.1
theorem k0_off19_inb : ∀ (v17 : BitVec 32) (k0_hw3 : k0_chk3 v17), ∀ a, (k0_off19 v17) a + S1x12000.size a ≤ S12000x12000.size a := fun v17 k0_hw3 => k0_hw3.2

def k0_off20 (v24 : BitVec 32) : Fin 2 → Nat :=
  let c0_i32_47 : BitVec 32 := 0#32
  ![v24.toNat, 0]

def k0_chk4 (v24 : BitVec 32) : Prop :=
  (∀ a, (k0_off8 v24) a + S1x12000.size a ≤ S12000x12000.size a) ∧
  (∀ a, (k0_off20 v24) a + S1x12000.size a ≤ S12000x12000.size a)
instance k0_chk4.dec : ∀ (v24 : BitVec 32), Decidable (k0_chk4 v24) := fun v24 => decidable_of_iff' _ (Iff.of_eq (k0_chk4.eq_1 v24))
theorem k0_off8_inb : ∀ (v24 : BitVec 32) (k0_hw4 : k0_chk4 v24), ∀ a, (k0_off8 v24) a + S1x12000.size a ≤ S12000x12000.size a := fun v24 k0_hw4 => k0_hw4.1
theorem k0_off20_inb : ∀ (v24 : BitVec 32) (k0_hw4 : k0_chk4 v24), ∀ a, (k0_off20 v24) a + S1x12000.size a ≤ S12000x12000.size a := fun v24 k0_hw4 => k0_hw4.2

def k0_off21 (v31 : BitVec 32) : Fin 2 → Nat :=
  let c0_i32_51 : BitVec 32 := 0#32
  ![v31.toNat, 0]

def k0_chk5 (v31 : BitVec 32) : Prop :=
  (∀ a, (k0_off10 v31) a + S1x12000.size a ≤ S12000x12000.size a) ∧
  (∀ a, (k0_off21 v31) a + S1x12000.size a ≤ S12000x12000.size a)
instance k0_chk5.dec : ∀ (v31 : BitVec 32), Decidable (k0_chk5 v31) := fun v31 => decidable_of_iff' _ (Iff.of_eq (k0_chk5.eq_1 v31))
theorem k0_off10_inb : ∀ (v31 : BitVec 32) (k0_hw5 : k0_chk5 v31), ∀ a, (k0_off10 v31) a + S1x12000.size a ≤ S12000x12000.size a := fun v31 k0_hw5 => k0_hw5.1
theorem k0_off21_inb : ∀ (v31 : BitVec 32) (k0_hw5 : k0_chk5 v31), ∀ a, (k0_off21 v31) a + S1x12000.size a ≤ S12000x12000.size a := fun v31 k0_hw5 => k0_hw5.2

def k0_off22 (v38 : BitVec 32) : Fin 2 → Nat :=
  let c0_i32_55 : BitVec 32 := 0#32
  ![v38.toNat, 0]

def k0_chk6 (v38 : BitVec 32) : Prop :=
  (∀ a, (k0_off12 v38) a + S1x12000.size a ≤ S12000x12000.size a) ∧
  (∀ a, (k0_off22 v38) a + S1x12000.size a ≤ S12000x12000.size a)
instance k0_chk6.dec : ∀ (v38 : BitVec 32), Decidable (k0_chk6 v38) := fun v38 => decidable_of_iff' _ (Iff.of_eq (k0_chk6.eq_1 v38))
theorem k0_off12_inb : ∀ (v38 : BitVec 32) (k0_hw6 : k0_chk6 v38), ∀ a, (k0_off12 v38) a + S1x12000.size a ≤ S12000x12000.size a := fun v38 k0_hw6 => k0_hw6.1
theorem k0_off22_inb : ∀ (v38 : BitVec 32) (k0_hw6 : k0_chk6 v38), ∀ a, (k0_off22 v38) a + S1x12000.size a ≤ S12000x12000.size a := fun v38 k0_hw6 => k0_hw6.2

def k0_off23 (v45 : BitVec 32) : Fin 2 → Nat :=
  let c0_i32_59 : BitVec 32 := 0#32
  ![v45.toNat, 0]

def k0_chk7 (v45 : BitVec 32) : Prop :=
  (∀ a, (k0_off14 v45) a + S1x12000.size a ≤ S12000x12000.size a) ∧
  (∀ a, (k0_off23 v45) a + S1x12000.size a ≤ S12000x12000.size a)
instance k0_chk7.dec : ∀ (v45 : BitVec 32), Decidable (k0_chk7 v45) := fun v45 => decidable_of_iff' _ (Iff.of_eq (k0_chk7.eq_1 v45))
theorem k0_off14_inb : ∀ (v45 : BitVec 32) (k0_hw7 : k0_chk7 v45), ∀ a, (k0_off14 v45) a + S1x12000.size a ≤ S12000x12000.size a := fun v45 k0_hw7 => k0_hw7.1
theorem k0_off23_inb : ∀ (v45 : BitVec 32) (k0_hw7 : k0_chk7 v45), ∀ a, (k0_off23 v45) a + S1x12000.size a ≤ S12000x12000.size a := fun v45 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x12000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

abbrev pre1 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k1_off4 (v10 : BitVec 32) : Fin 2 → Nat :=
  let c0_i32_7 : BitVec 32 := 0#32
  ![v10.toNat, 0]

def k1_off5 (i : grid1.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k1_off6 (v17 : BitVec 32) : Fin 2 → Nat :=
  let c0_i32_11 : BitVec 32 := 0#32
  ![v17.toNat, 0]

def k1_off7 (i : grid1.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k1_off8 (v24 : BitVec 32) : Fin 2 → Nat :=
  let c0_i32_15 : BitVec 32 := 0#32
  ![v24.toNat, 0]

def k1_off9 (i : grid1.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k1_off10 (v31 : BitVec 32) : Fin 2 → Nat :=
  let c0_i32_19 : BitVec 32 := 0#32
  ![v31.toNat, 0]

def k1_off11 (i : grid1.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k1_off12 (v38 : BitVec 32) : Fin 2 → Nat :=
  let c0_i32_23 : BitVec 32 := 0#32
  ![v38.toNat, 0]

def k1_off13 (i : grid1.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k1_off14 (v45 : BitVec 32) : Fin 2 → Nat :=
  let c0_i32_27 : BitVec 32 := 0#32
  ![v45.toNat, 0]

def k1_off15 (i : grid1.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k1_off16 (v52 : BitVec 32) : Fin 2 → Nat :=
  let c0_i32_31 : BitVec 32 := 0#32
  ![v52.toNat, 0]

def k1_chk8 (v52 : BitVec 32) : Prop :=
  (∀ a, (k1_off16 v52) a + S1x16000.size a ≤ S16000x16000.size a)
instance k1_chk8.dec : ∀ (v52 : BitVec 32), Decidable (k1_chk8 v52) := fun v52 => decidable_of_iff' _ (Iff.of_eq (k1_chk8.eq_1 v52))
theorem k1_off16_inb : ∀ (v52 : BitVec 32) (k1_hw8 : k1_chk8 v52), ∀ a, (k1_off16 v52) a + S1x16000.size a ≤ S16000x16000.size a := fun v52 k1_hw8 => k1_hw8

def k1_off17 (v3 : BitVec 32) : Fin 2 → Nat :=
  let c0_i32_35 : BitVec 32 := 0#32
  ![v3.toNat, 0]

def k1_chk1 (v3 : BitVec 32) : Prop :=
  (∀ a, (k1_off2 v3) a + S1x16000.size a ≤ S16000x16000.size a) ∧
  (∀ a, (k1_off17 v3) a + S1x16000.size a ≤ S16000x16000.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x16000.size a ≤ S16000x16000.size a := fun v3 k1_hw1 => k1_hw1.1
theorem k1_off17_inb : ∀ (v3 : BitVec 32) (k1_hw1 : k1_chk1 v3), ∀ a, (k1_off17 v3) a + S1x16000.size a ≤ S16000x16000.size a := fun v3 k1_hw1 => k1_hw1.2

def k1_off18 (v10 : BitVec 32) : Fin 2 → Nat :=
  let c0_i32_39 : BitVec 32 := 0#32
  ![v10.toNat, 0]

def k1_chk2 (v10 : BitVec 32) : Prop :=
  (∀ a, (k1_off4 v10) a + S1x16000.size a ≤ S16000x16000.size a) ∧
  (∀ a, (k1_off18 v10) a + S1x16000.size a ≤ S16000x16000.size a)
instance k1_chk2.dec : ∀ (v10 : BitVec 32), Decidable (k1_chk2 v10) := fun v10 => decidable_of_iff' _ (Iff.of_eq (k1_chk2.eq_1 v10))
theorem k1_off4_inb : ∀ (v10 : BitVec 32) (k1_hw2 : k1_chk2 v10), ∀ a, (k1_off4 v10) a + S1x16000.size a ≤ S16000x16000.size a := fun v10 k1_hw2 => k1_hw2.1
theorem k1_off18_inb : ∀ (v10 : BitVec 32) (k1_hw2 : k1_chk2 v10), ∀ a, (k1_off18 v10) a + S1x16000.size a ≤ S16000x16000.size a := fun v10 k1_hw2 => k1_hw2.2

def k1_off19 (v17 : BitVec 32) : Fin 2 → Nat :=
  let c0_i32_43 : BitVec 32 := 0#32
  ![v17.toNat, 0]

def k1_chk3 (v17 : BitVec 32) : Prop :=
  (∀ a, (k1_off6 v17) a + S1x16000.size a ≤ S16000x16000.size a) ∧
  (∀ a, (k1_off19 v17) a + S1x16000.size a ≤ S16000x16000.size a)
instance k1_chk3.dec : ∀ (v17 : BitVec 32), Decidable (k1_chk3 v17) := fun v17 => decidable_of_iff' _ (Iff.of_eq (k1_chk3.eq_1 v17))
theorem k1_off6_inb : ∀ (v17 : BitVec 32) (k1_hw3 : k1_chk3 v17), ∀ a, (k1_off6 v17) a + S1x16000.size a ≤ S16000x16000.size a := fun v17 k1_hw3 => k1_hw3.1
theorem k1_off19_inb : ∀ (v17 : BitVec 32) (k1_hw3 : k1_chk3 v17), ∀ a, (k1_off19 v17) a + S1x16000.size a ≤ S16000x16000.size a := fun v17 k1_hw3 => k1_hw3.2

def k1_off20 (v24 : BitVec 32) : Fin 2 → Nat :=
  let c0_i32_47 : BitVec 32 := 0#32
  ![v24.toNat, 0]

def k1_chk4 (v24 : BitVec 32) : Prop :=
  (∀ a, (k1_off8 v24) a + S1x16000.size a ≤ S16000x16000.size a) ∧
  (∀ a, (k1_off20 v24) a + S1x16000.size a ≤ S16000x16000.size a)
instance k1_chk4.dec : ∀ (v24 : BitVec 32), Decidable (k1_chk4 v24) := fun v24 => decidable_of_iff' _ (Iff.of_eq (k1_chk4.eq_1 v24))
theorem k1_off8_inb : ∀ (v24 : BitVec 32) (k1_hw4 : k1_chk4 v24), ∀ a, (k1_off8 v24) a + S1x16000.size a ≤ S16000x16000.size a := fun v24 k1_hw4 => k1_hw4.1
theorem k1_off20_inb : ∀ (v24 : BitVec 32) (k1_hw4 : k1_chk4 v24), ∀ a, (k1_off20 v24) a + S1x16000.size a ≤ S16000x16000.size a := fun v24 k1_hw4 => k1_hw4.2

def k1_off21 (v31 : BitVec 32) : Fin 2 → Nat :=
  let c0_i32_51 : BitVec 32 := 0#32
  ![v31.toNat, 0]

def k1_chk5 (v31 : BitVec 32) : Prop :=
  (∀ a, (k1_off10 v31) a + S1x16000.size a ≤ S16000x16000.size a) ∧
  (∀ a, (k1_off21 v31) a + S1x16000.size a ≤ S16000x16000.size a)
instance k1_chk5.dec : ∀ (v31 : BitVec 32), Decidable (k1_chk5 v31) := fun v31 => decidable_of_iff' _ (Iff.of_eq (k1_chk5.eq_1 v31))
theorem k1_off10_inb : ∀ (v31 : BitVec 32) (k1_hw5 : k1_chk5 v31), ∀ a, (k1_off10 v31) a + S1x16000.size a ≤ S16000x16000.size a := fun v31 k1_hw5 => k1_hw5.1
theorem k1_off21_inb : ∀ (v31 : BitVec 32) (k1_hw5 : k1_chk5 v31), ∀ a, (k1_off21 v31) a + S1x16000.size a ≤ S16000x16000.size a := fun v31 k1_hw5 => k1_hw5.2

def k1_off22 (v38 : BitVec 32) : Fin 2 → Nat :=
  let c0_i32_55 : BitVec 32 := 0#32
  ![v38.toNat, 0]

def k1_chk6 (v38 : BitVec 32) : Prop :=
  (∀ a, (k1_off12 v38) a + S1x16000.size a ≤ S16000x16000.size a) ∧
  (∀ a, (k1_off22 v38) a + S1x16000.size a ≤ S16000x16000.size a)
instance k1_chk6.dec : ∀ (v38 : BitVec 32), Decidable (k1_chk6 v38) := fun v38 => decidable_of_iff' _ (Iff.of_eq (k1_chk6.eq_1 v38))
theorem k1_off12_inb : ∀ (v38 : BitVec 32) (k1_hw6 : k1_chk6 v38), ∀ a, (k1_off12 v38) a + S1x16000.size a ≤ S16000x16000.size a := fun v38 k1_hw6 => k1_hw6.1
theorem k1_off22_inb : ∀ (v38 : BitVec 32) (k1_hw6 : k1_chk6 v38), ∀ a, (k1_off22 v38) a + S1x16000.size a ≤ S16000x16000.size a := fun v38 k1_hw6 => k1_hw6.2

def k1_off23 (v45 : BitVec 32) : Fin 2 → Nat :=
  let c0_i32_59 : BitVec 32 := 0#32
  ![v45.toNat, 0]

def k1_chk7 (v45 : BitVec 32) : Prop :=
  (∀ a, (k1_off14 v45) a + S1x16000.size a ≤ S16000x16000.size a) ∧
  (∀ a, (k1_off23 v45) a + S1x16000.size a ≤ S16000x16000.size a)
instance k1_chk7.dec : ∀ (v45 : BitVec 32), Decidable (k1_chk7 v45) := fun v45 => decidable_of_iff' _ (Iff.of_eq (k1_chk7.eq_1 v45))
theorem k1_off14_inb : ∀ (v45 : BitVec 32) (k1_hw7 : k1_chk7 v45), ∀ a, (k1_off14 v45) a + S1x16000.size a ≤ S16000x16000.size a := fun v45 k1_hw7 => k1_hw7.1
theorem k1_off23_inb : ∀ (v45 : BitVec 32) (k1_hw7 : k1_chk7 v45), ∀ a, (k1_off23 v45) a + S1x16000.size a ≤ S16000x16000.size a := fun v45 k1_hw7 => k1_hw7.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![128], ![false]⟩

abbrev pre2 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k2_off4 (v10 : BitVec 32) : Fin 2 → Nat :=
  let c0_i32_7 : BitVec 32 := 0#32
  ![v10.toNat, 0]

def k2_off5 (i : grid2.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k2_off6 (v17 : BitVec 32) : Fin 2 → Nat :=
  let c0_i32_11 : BitVec 32 := 0#32
  ![v17.toNat, 0]

def k2_off7 (i : grid2.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k2_off8 (v24 : BitVec 32) : Fin 2 → Nat :=
  let c0_i32_15 : BitVec 32 := 0#32
  ![v24.toNat, 0]

def k2_off9 (i : grid2.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k2_off10 (v31 : BitVec 32) : Fin 2 → Nat :=
  let c0_i32_19 : BitVec 32 := 0#32
  ![v31.toNat, 0]

def k2_off11 (i : grid2.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k2_off12 (v38 : BitVec 32) : Fin 2 → Nat :=
  let c0_i32_23 : BitVec 32 := 0#32
  ![v38.toNat, 0]

def k2_off13 (i : grid2.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k2_off14 (v45 : BitVec 32) : Fin 2 → Nat :=
  let c0_i32_27 : BitVec 32 := 0#32
  ![v45.toNat, 0]

def k2_off15 (i : grid2.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k2_off16 (v52 : BitVec 32) : Fin 2 → Nat :=
  let c0_i32_31 : BitVec 32 := 0#32
  ![v52.toNat, 0]

def k2_chk8 (v52 : BitVec 32) : Prop :=
  (∀ a, (k2_off16 v52) a + S1x16000.size a ≤ S16000x16000.size a)
instance k2_chk8.dec : ∀ (v52 : BitVec 32), Decidable (k2_chk8 v52) := fun v52 => decidable_of_iff' _ (Iff.of_eq (k2_chk8.eq_1 v52))
theorem k2_off16_inb : ∀ (v52 : BitVec 32) (k2_hw8 : k2_chk8 v52), ∀ a, (k2_off16 v52) a + S1x16000.size a ≤ S16000x16000.size a := fun v52 k2_hw8 => k2_hw8

def k2_off17 (v3 : BitVec 32) : Fin 2 → Nat :=
  let c0_i32_35 : BitVec 32 := 0#32
  ![v3.toNat, 0]

def k2_chk1 (v3 : BitVec 32) : Prop :=
  (∀ a, (k2_off2 v3) a + S1x16000.size a ≤ S16000x16000.size a) ∧
  (∀ a, (k2_off17 v3) a + S1x16000.size a ≤ S16000x16000.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x16000.size a ≤ S16000x16000.size a := fun v3 k2_hw1 => k2_hw1.1
theorem k2_off17_inb : ∀ (v3 : BitVec 32) (k2_hw1 : k2_chk1 v3), ∀ a, (k2_off17 v3) a + S1x16000.size a ≤ S16000x16000.size a := fun v3 k2_hw1 => k2_hw1.2

def k2_off18 (v10 : BitVec 32) : Fin 2 → Nat :=
  let c0_i32_39 : BitVec 32 := 0#32
  ![v10.toNat, 0]

def k2_chk2 (v10 : BitVec 32) : Prop :=
  (∀ a, (k2_off4 v10) a + S1x16000.size a ≤ S16000x16000.size a) ∧
  (∀ a, (k2_off18 v10) a + S1x16000.size a ≤ S16000x16000.size a)
instance k2_chk2.dec : ∀ (v10 : BitVec 32), Decidable (k2_chk2 v10) := fun v10 => decidable_of_iff' _ (Iff.of_eq (k2_chk2.eq_1 v10))
theorem k2_off4_inb : ∀ (v10 : BitVec 32) (k2_hw2 : k2_chk2 v10), ∀ a, (k2_off4 v10) a + S1x16000.size a ≤ S16000x16000.size a := fun v10 k2_hw2 => k2_hw2.1
theorem k2_off18_inb : ∀ (v10 : BitVec 32) (k2_hw2 : k2_chk2 v10), ∀ a, (k2_off18 v10) a + S1x16000.size a ≤ S16000x16000.size a := fun v10 k2_hw2 => k2_hw2.2

def k2_off19 (v17 : BitVec 32) : Fin 2 → Nat :=
  let c0_i32_43 : BitVec 32 := 0#32
  ![v17.toNat, 0]

def k2_chk3 (v17 : BitVec 32) : Prop :=
  (∀ a, (k2_off6 v17) a + S1x16000.size a ≤ S16000x16000.size a) ∧
  (∀ a, (k2_off19 v17) a + S1x16000.size a ≤ S16000x16000.size a)
instance k2_chk3.dec : ∀ (v17 : BitVec 32), Decidable (k2_chk3 v17) := fun v17 => decidable_of_iff' _ (Iff.of_eq (k2_chk3.eq_1 v17))
theorem k2_off6_inb : ∀ (v17 : BitVec 32) (k2_hw3 : k2_chk3 v17), ∀ a, (k2_off6 v17) a + S1x16000.size a ≤ S16000x16000.size a := fun v17 k2_hw3 => k2_hw3.1
theorem k2_off19_inb : ∀ (v17 : BitVec 32) (k2_hw3 : k2_chk3 v17), ∀ a, (k2_off19 v17) a + S1x16000.size a ≤ S16000x16000.size a := fun v17 k2_hw3 => k2_hw3.2

def k2_off20 (v24 : BitVec 32) : Fin 2 → Nat :=
  let c0_i32_47 : BitVec 32 := 0#32
  ![v24.toNat, 0]

def k2_chk4 (v24 : BitVec 32) : Prop :=
  (∀ a, (k2_off8 v24) a + S1x16000.size a ≤ S16000x16000.size a) ∧
  (∀ a, (k2_off20 v24) a + S1x16000.size a ≤ S16000x16000.size a)
instance k2_chk4.dec : ∀ (v24 : BitVec 32), Decidable (k2_chk4 v24) := fun v24 => decidable_of_iff' _ (Iff.of_eq (k2_chk4.eq_1 v24))
theorem k2_off8_inb : ∀ (v24 : BitVec 32) (k2_hw4 : k2_chk4 v24), ∀ a, (k2_off8 v24) a + S1x16000.size a ≤ S16000x16000.size a := fun v24 k2_hw4 => k2_hw4.1
theorem k2_off20_inb : ∀ (v24 : BitVec 32) (k2_hw4 : k2_chk4 v24), ∀ a, (k2_off20 v24) a + S1x16000.size a ≤ S16000x16000.size a := fun v24 k2_hw4 => k2_hw4.2

def k2_off21 (v31 : BitVec 32) : Fin 2 → Nat :=
  let c0_i32_51 : BitVec 32 := 0#32
  ![v31.toNat, 0]

def k2_chk5 (v31 : BitVec 32) : Prop :=
  (∀ a, (k2_off10 v31) a + S1x16000.size a ≤ S16000x16000.size a) ∧
  (∀ a, (k2_off21 v31) a + S1x16000.size a ≤ S16000x16000.size a)
instance k2_chk5.dec : ∀ (v31 : BitVec 32), Decidable (k2_chk5 v31) := fun v31 => decidable_of_iff' _ (Iff.of_eq (k2_chk5.eq_1 v31))
theorem k2_off10_inb : ∀ (v31 : BitVec 32) (k2_hw5 : k2_chk5 v31), ∀ a, (k2_off10 v31) a + S1x16000.size a ≤ S16000x16000.size a := fun v31 k2_hw5 => k2_hw5.1
theorem k2_off21_inb : ∀ (v31 : BitVec 32) (k2_hw5 : k2_chk5 v31), ∀ a, (k2_off21 v31) a + S1x16000.size a ≤ S16000x16000.size a := fun v31 k2_hw5 => k2_hw5.2

def k2_off22 (v38 : BitVec 32) : Fin 2 → Nat :=
  let c0_i32_55 : BitVec 32 := 0#32
  ![v38.toNat, 0]

def k2_chk6 (v38 : BitVec 32) : Prop :=
  (∀ a, (k2_off12 v38) a + S1x16000.size a ≤ S16000x16000.size a) ∧
  (∀ a, (k2_off22 v38) a + S1x16000.size a ≤ S16000x16000.size a)
instance k2_chk6.dec : ∀ (v38 : BitVec 32), Decidable (k2_chk6 v38) := fun v38 => decidable_of_iff' _ (Iff.of_eq (k2_chk6.eq_1 v38))
theorem k2_off12_inb : ∀ (v38 : BitVec 32) (k2_hw6 : k2_chk6 v38), ∀ a, (k2_off12 v38) a + S1x16000.size a ≤ S16000x16000.size a := fun v38 k2_hw6 => k2_hw6.1
theorem k2_off22_inb : ∀ (v38 : BitVec 32) (k2_hw6 : k2_chk6 v38), ∀ a, (k2_off22 v38) a + S1x16000.size a ≤ S16000x16000.size a := fun v38 k2_hw6 => k2_hw6.2

def k2_off23 (v45 : BitVec 32) : Fin 2 → Nat :=
  let c0_i32_59 : BitVec 32 := 0#32
  ![v45.toNat, 0]

def k2_chk7 (v45 : BitVec 32) : Prop :=
  (∀ a, (k2_off14 v45) a + S1x16000.size a ≤ S16000x16000.size a) ∧
  (∀ a, (k2_off23 v45) a + S1x16000.size a ≤ S16000x16000.size a)
instance k2_chk7.dec : ∀ (v45 : BitVec 32), Decidable (k2_chk7 v45) := fun v45 => decidable_of_iff' _ (Iff.of_eq (k2_chk7.eq_1 v45))
theorem k2_off14_inb : ∀ (v45 : BitVec 32) (k2_hw7 : k2_chk7 v45), ∀ a, (k2_off14 v45) a + S1x16000.size a ≤ S16000x16000.size a := fun v45 k2_hw7 => k2_hw7.1
theorem k2_off23_inb : ∀ (v45 : BitVec 32) (k2_hw7 : k2_chk7 v45), ∀ a, (k2_off23 v45) a + S1x16000.size a ≤ S16000x16000.size a := fun v45 k2_hw7 => k2_hw7.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x16000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  numel1_S1 : S1.numel = 1
  inb_S8_S1_0 : ∀ a, (![0] : Fin 1 → Nat) a + S1.size a ≤ S8.size a
  squeezes_S1_S_ : S1.Squeezes S_
  inb_S8x12000_S1x12000_0_0 : ∀ a, (![0, 0] : Fin 2 → Nat) a + S1x12000.size a ≤ S8x12000.size a
  inb_S8_S1_1 : ∀ a, (![1] : Fin 1 → Nat) a + S1.size a ≤ S8.size a
  inb_S8x12000_S1x12000_1_0 : ∀ a, (![1, 0] : Fin 2 → Nat) a + S1x12000.size a ≤ S8x12000.size a
  inb_S8_S1_2 : ∀ a, (![2] : Fin 1 → Nat) a + S1.size a ≤ S8.size a
  inb_S8x12000_S1x12000_2_0 : ∀ a, (![2, 0] : Fin 2 → Nat) a + S1x12000.size a ≤ S8x12000.size a
  inb_S8_S1_3 : ∀ a, (![3] : Fin 1 → Nat) a + S1.size a ≤ S8.size a
  inb_S8x12000_S1x12000_3_0 : ∀ a, (![3, 0] : Fin 2 → Nat) a + S1x12000.size a ≤ S8x12000.size a
  inb_S8_S1_4 : ∀ a, (![4] : Fin 1 → Nat) a + S1.size a ≤ S8.size a
  inb_S8x12000_S1x12000_4_0 : ∀ a, (![4, 0] : Fin 2 → Nat) a + S1x12000.size a ≤ S8x12000.size a
  inb_S8_S1_5 : ∀ a, (![5] : Fin 1 → Nat) a + S1.size a ≤ S8.size a
  inb_S8x12000_S1x12000_5_0 : ∀ a, (![5, 0] : Fin 2 → Nat) a + S1x12000.size a ≤ S8x12000.size a
  inb_S8_S1_6 : ∀ a, (![6] : Fin 1 → Nat) a + S1.size a ≤ S8.size a
  inb_S8x12000_S1x12000_6_0 : ∀ a, (![6, 0] : Fin 2 → Nat) a + S1x12000.size a ≤ S8x12000.size a
  inb_S8_S1_7 : ∀ a, (![7] : Fin 1 → Nat) a + S1.size a ≤ S8.size a
  inb_S8x12000_S1x12000_7_0 : ∀ a, (![7, 0] : Fin 2 → Nat) a + S1x12000.size a ≤ S8x12000.size a
  inb_S8x12000_S8x12000_0_0 : ∀ a, (![0, 0] : Fin 2 → Nat) a + S8x12000.size a ≤ S8x12000.size a
  h_S8x12000 : 0 < S8x12000.numel
  natLt_1_32 : 1 < 32
  bitsLt_bf16_f32 : FTy.bits .bf16 < FTy.bits .f32
  inb_S12000x64_S12000x64_0_0 : ∀ a, (![0, 0] : Fin 2 → Nat) a + S12000x64.size a ≤ S12000x64.size a
  h_S12000x64 : 0 < S12000x64.numel
  inb_S8x64_S8x64_0_0 : ∀ a, (![0, 0] : Fin 2 → Nat) a + S8x64.size a ≤ S8x64.size a
  h_S8x64 : 0 < S8x64.numel
  inb_S8x16000_S1x16000_0_0 : ∀ a, (![0, 0] : Fin 2 → Nat) a + S1x16000.size a ≤ S8x16000.size a
  inb_S8x16000_S1x16000_1_0 : ∀ a, (![1, 0] : Fin 2 → Nat) a + S1x16000.size a ≤ S8x16000.size a
  inb_S8x16000_S1x16000_2_0 : ∀ a, (![2, 0] : Fin 2 → Nat) a + S1x16000.size a ≤ S8x16000.size a
  inb_S8x16000_S1x16000_3_0 : ∀ a, (![3, 0] : Fin 2 → Nat) a + S1x16000.size a ≤ S8x16000.size a
  inb_S8x16000_S1x16000_4_0 : ∀ a, (![4, 0] : Fin 2 → Nat) a + S1x16000.size a ≤ S8x16000.size a
  inb_S8x16000_S1x16000_5_0 : ∀ a, (![5, 0] : Fin 2 → Nat) a + S1x16000.size a ≤ S8x16000.size a
  inb_S8x16000_S1x16000_6_0 : ∀ a, (![6, 0] : Fin 2 → Nat) a + S1x16000.size a ≤ S8x16000.size a
  inb_S8x16000_S1x16000_7_0 : ∀ a, (![7, 0] : Fin 2 → Nat) a + S1x16000.size a ≤ S8x16000.size a
  inb_S8x16000_S8x16000_0_0 : ∀ a, (![0, 0] : Fin 2 → Nat) a + S8x16000.size a ≤ S8x16000.size a
  h_S8x16000 : 0 < S8x16000.numel
  inb_S16000x64_S16000x64_0_0 : ∀ a, (![0, 0] : Fin 2 → Nat) a + S16000x64.size a ≤ S16000x64.size a
  h_S16000x64 : 0 < S16000x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S8x12000_S12000x64_S8x64_1_0_0_1_n_n_wf : DotDims.WF S8x12000 S12000x64 S8x64 [1] [0] [0] [1] [] []
  dot_S8x16000_S16000x64_S8x64_1_0_0_1_n_n_wf : DotDims.WF S8x16000 S16000x64 S8x64 [1] [0] [0] [1] [] []
  hcc0_scratch1 : 5 + S8.numel ≤ 43
  hcc1_scratch1 : 18 + S8.numel ≤ 43
  hcc2_scratch1 : 31 + S8.numel ≤ 43
  hrank0 : 0 < grid0.rank
  k0_off1_inb : ∀ i : grid0.Coords, ∀ a, (k0_off1 i) a + S1.size a ≤ S1024.size a
  k0_off3_inb : ∀ i : grid0.Coords, ∀ a, (k0_off3 i) a + S1.size a ≤ S1024.size a
  k0_off5_inb : ∀ i : grid0.Coords, ∀ a, (k0_off5 i) a + S1.size a ≤ S1024.size a
  k0_off7_inb : ∀ i : grid0.Coords, ∀ a, (k0_off7 i) a + S1.size a ≤ S1024.size a
  k0_off9_inb : ∀ i : grid0.Coords, ∀ a, (k0_off9 i) a + S1.size a ≤ S1024.size a
  k0_off11_inb : ∀ i : grid0.Coords, ∀ a, (k0_off11 i) a + S1.size a ≤ S1024.size a
  k0_off13_inb : ∀ i : grid0.Coords, ∀ a, (k0_off13 i) a + S1.size a ≤ S1024.size a
  k0_off15_inb : ∀ i : grid0.Coords, ∀ a, (k0_off15 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x12000.size a ≤ S1024x12000.size a
  hwx0_0 : ∀ i : grid0.Coords, EltTy.bits .f32 = 32 ∨ (Rect.block (s := S1024x12000) S8x12000.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S12000x64.size a ≤ S12000x64.size a
  hwx0_1 : ∀ i : grid0.Coords, EltTy.bits .f32 = 32 ∨ (Rect.block (s := S12000x64) S12000x64.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S8x64.size a ≤ S1024x64.size a
  hwx0_2 : ∀ i : grid0.Coords, EltTy.bits .f32 = 32 ∨ (Rect.block (s := S1024x64) S8x64.size (cc0_transform_3 i) (hinb0_2 i)).WholeWords (EltTy.packing .f32)
  hrank1 : 0 < grid1.rank
  k1_off1_inb : ∀ i : grid1.Coords, ∀ a, (k1_off1 i) a + S1.size a ≤ S1024.size a
  k1_off3_inb : ∀ i : grid1.Coords, ∀ a, (k1_off3 i) a + S1.size a ≤ S1024.size a
  k1_off5_inb : ∀ i : grid1.Coords, ∀ a, (k1_off5 i) a + S1.size a ≤ S1024.size a
  k1_off7_inb : ∀ i : grid1.Coords, ∀ a, (k1_off7 i) a + S1.size a ≤ S1024.size a
  k1_off9_inb : ∀ i : grid1.Coords, ∀ a, (k1_off9 i) a + S1.size a ≤ S1024.size a
  k1_off11_inb : ∀ i : grid1.Coords, ∀ a, (k1_off11 i) a + S1.size a ≤ S1024.size a
  k1_off13_inb : ∀ i : grid1.Coords, ∀ a, (k1_off13 i) a + S1.size a ≤ S1024.size a
  k1_off15_inb : ∀ i : grid1.Coords, ∀ a, (k1_off15 i) a + S1.size a ≤ S1024.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S8x16000.size a ≤ S1024x16000.size a
  hwx1_0 : ∀ i : grid1.Coords, EltTy.bits .f32 = 32 ∨ (Rect.block (s := S1024x16000) S8x16000.size (cc1_transform_1 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S16000x64.size a ≤ S16000x64.size a
  hwx1_1 : ∀ i : grid1.Coords, EltTy.bits .f32 = 32 ∨ (Rect.block (s := S16000x64) S16000x64.size (cc1_transform_2 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S8x64.size a ≤ S1024x64.size a
  hwx1_2 : ∀ i : grid1.Coords, EltTy.bits .f32 = 32 ∨ (Rect.block (s := S1024x64) S8x64.size (cc1_transform_3 i) (hinb1_2 i)).WholeWords (EltTy.packing .f32)
  hrank2 : 0 < grid2.rank
  k2_off1_inb : ∀ i : grid2.Coords, ∀ a, (k2_off1 i) a + S1.size a ≤ S1024.size a
  k2_off3_inb : ∀ i : grid2.Coords, ∀ a, (k2_off3 i) a + S1.size a ≤ S1024.size a
  k2_off5_inb : ∀ i : grid2.Coords, ∀ a, (k2_off5 i) a + S1.size a ≤ S1024.size a
  k2_off7_inb : ∀ i : grid2.Coords, ∀ a, (k2_off7 i) a + S1.size a ≤ S1024.size a
  k2_off9_inb : ∀ i : grid2.Coords, ∀ a, (k2_off9 i) a + S1.size a ≤ S1024.size a
  k2_off11_inb : ∀ i : grid2.Coords, ∀ a, (k2_off11 i) a + S1.size a ≤ S1024.size a
  k2_off13_inb : ∀ i : grid2.Coords, ∀ a, (k2_off13 i) a + S1.size a ≤ S1024.size a
  k2_off15_inb : ∀ i : grid2.Coords, ∀ a, (k2_off15 i) a + S1.size a ≤ S1024.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x16000.size a ≤ S1024x16000.size a
  hwx2_0 : ∀ i : grid2.Coords, EltTy.bits .f32 = 32 ∨ (Rect.block (s := S1024x16000) S8x16000.size (cc2_transform_1 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_2 i = cc2_transform_2 i'
  hinb2_1 : ∀ (i : grid2.Coords) a, (cc2_transform_2 i a + 1) * S16000x64.size a ≤ S16000x64.size a
  hwx2_1 : ∀ i : grid2.Coords, EltTy.bits .f32 = 32 ∨ (Rect.block (s := S16000x64) S16000x64.size (cc2_transform_2 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_3 i = cc2_transform_3 i'
  hinb2_2 : ∀ (i : grid2.Coords) a, (cc2_transform_3 i a + 1) * S8x64.size a ≤ S1024x64.size a
  hwx2_2 : ∀ i : grid2.Coords, EltTy.bits .f32 = 32 ∨ (Rect.block (s := S1024x64) S8x64.size (cc2_transform_3 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S1024x64.size a
  hwx3_0 : ∀ i : grid3.Coords, EltTy.bits .f32 = 32 ∨ (Rect.block (s := S1024x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S1024x64.size a
  hwx3_1 : ∀ i : grid3.Coords, EltTy.bits .f32 = 32 ∨ (Rect.block (s := S1024x64) S1024x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S1024x64.size a
  hwx3_2 : ∀ i : grid3.Coords, EltTy.bits .f32 = 32 ∨ (Rect.block (s := S1024x64) S1024x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)

variable [Facts₀]

abbrev cc0_scratch1 : DmaSems sig S8 := SemArray.consecutive 5 S8 hcc0_scratch1
abbrev cc1_scratch1 : DmaSems sig S8 := SemArray.consecutive 18 S8 hcc1_scratch1
abbrev cc2_scratch1 : DmaSems sig S8 := SemArray.consecutive 31 S8 hcc2_scratch1
def dot_S8x12000_S12000x64_S8x64_1_0_0_1_n_n : DotDims S8x12000 S12000x64 S8x64 where
  lhsContracting := [1]
  rhsContracting := [0]
  lhsNonContracting := [0]
  rhsNonContracting := [1]
  lhsBatch := []
  rhsBatch := []
  wf := dot_S8x12000_S12000x64_S8x64_1_0_0_1_n_n_wf
def dot_S8x16000_S16000x64_S8x64_1_0_0_1_n_n : DotDims S8x16000 S16000x64 S8x64 where
  lhsContracting := [1]
  rhsContracting := [0]
  lhsNonContracting := [0]
  rhsNonContracting := [1]
  lhsBatch := []
  rhsBatch := []
  wf := dot_S8x16000_S16000x64_S8x64_1_0_0_1_n_n_wf

abbrev spec0_0 : Pipeline.WinSpec sig grid0.rank :=
  Pipeline.WinSpec.ofSpec (Memref.whole main_arg4) S8x12000.size reads0_0 false false 2 stage0_0 sem0_0 nbuf0_0 hstage0_0

abbrev spec0_1 : Pipeline.WinSpec sig grid0.rank :=
  Pipeline.WinSpec.ofSpec (Memref.whole main_arg2) S12000x64.size reads0_1 false true 1 stage0_1 sem0_1 nbuf0_1 hstage0_1

abbrev spec0_2 : Pipeline.WinSpec sig grid0.rank :=
  Pipeline.WinSpec.ofSpec (Memref.whole main_v0) S8x64.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))
abbrev spec1_0 : Pipeline.WinSpec sig grid1.rank :=
  Pipeline.WinSpec.ofSpec (Memref.whole main_arg5) S8x16000.size reads1_0 false false 2 stage1_0 sem1_0 nbuf1_0 hstage1_0

abbrev spec1_1 : Pipeline.WinSpec sig grid1.rank :=
  Pipeline.WinSpec.ofSpec (Memref.whole main_arg3) S16000x64.size reads1_1 false true 1 stage1_1 sem1_1 nbuf1_1 hstage1_1

abbrev spec1_2 : Pipeline.WinSpec sig grid1.rank :=
  Pipeline.WinSpec.ofSpec (Memref.whole main_v1) S8x64.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_1 | 1 => cc1_transform_2 | 2 => cc1_transform_3 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev spec2_0 : Pipeline.WinSpec sig grid2.rank :=
  Pipeline.WinSpec.ofSpec (Memref.whole main_arg6) S8x16000.size reads2_0 false false 2 stage2_0 sem2_0 nbuf2_0 hstage2_0

abbrev spec2_1 : Pipeline.WinSpec sig grid2.rank :=
  Pipeline.WinSpec.ofSpec (Memref.whole main_arg3) S16000x64.size reads2_1 false true 1 stage2_1 sem2_1 nbuf2_1 hstage2_1

abbrev spec2_2 : Pipeline.WinSpec sig grid2.rank :=
  Pipeline.WinSpec.ofSpec (Memref.whole main_v2) S8x64.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_1 | 1 => cc2_transform_2 | 2 => cc2_transform_3 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | ⟨_ + 3, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | ⟨_ + 3, h⟩ => absurd h (Nat.not_lt.2 (Nat.le_add_left _ _))
abbrev win3_0 : Pipeline.Window sig grid3 :=
  Pipeline.Window.ofSpec (Memref.whole main_v0) S1024x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1024x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where
  harr0 : ∀ w, (spec0 w).arr.IsWhole
  harr1 : ∀ w, (spec1 w).arr.IsWhole
  harr2 : ∀ w, (spec2 w).arr.IsWhole

variable [Facts]
-- ==== ReferenceIdeal.lean ====
abbrev S12000x12000 : Shape := ⟨2, ![12000, 12000]⟩
abbrev S16000x16000 : Shape := ⟨2, ![16000, 16000]⟩
abbrev S12000x64 : Shape := ⟨2, ![12000, 64]⟩
abbrev S16000x64 : Shape := ⟨2, ![16000, 64]⟩
abbrev S1024x12000 : Shape := ⟨2, ![1024, 12000]⟩
abbrev S1024x16000 : Shape := ⟨2, ![1024, 16000]⟩
abbrev S1024 : Shape := ⟨1, ![1024]⟩
abbrev S_ : Shape := ⟨0, ![]⟩
abbrev S1024x1 : Shape := ⟨2, ![1024, 1]⟩
abbrev S1024x64 : Shape := ⟨2, ![1024, 64]⟩

abbrev nBuf : Space → Nat
  | .hbm => 112
  | .vmem => 0
  | .smem => 0
  | _ => 0

abbrev bufTy : (tb : Table) → Fin (tcTables nBuf tb) → BufTy
  | .hbm, ⟨0, _⟩ => ⟨S12000x12000, .f32⟩
  | .hbm, ⟨1, _⟩ => ⟨S16000x16000, .f32⟩
  | .hbm, ⟨2, _⟩ => ⟨S12000x64, .f32⟩
  | .hbm, ⟨3, _⟩ => ⟨S16000x64, .f32⟩
  | .hbm, ⟨4, _⟩ => ⟨S1024x12000, .f32⟩
  | .hbm, ⟨5, _⟩ => ⟨S1024x16000, .f32⟩
  | .hbm, ⟨6, _⟩ => ⟨S1024x16000, .f32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .f32⟩
  | .hbm, ⟨11, _⟩ => ⟨S1024x12000, .f32⟩
  | .hbm, ⟨12, _⟩ => ⟨S1024x12000, .i1⟩
  | .hbm, ⟨13, _⟩ => ⟨S1024x12000, .f32⟩
  | .hbm, ⟨14, _⟩ => ⟨S_, .f32⟩
  | .hbm, ⟨15, _⟩ => ⟨S1024x16000, .f32⟩
  | .hbm, ⟨16, _⟩ => ⟨S1024x16000, .i1⟩
  | .hbm, ⟨17, _⟩ => ⟨S1024x16000, .f32⟩
  | .hbm, ⟨18, _⟩ => ⟨S_, .f32⟩
  | .hbm, ⟨19, _⟩ => ⟨S1024x16000, .f32⟩
  | .hbm, ⟨20, _⟩ => ⟨S1024x16000, .i1⟩
  | .hbm, ⟨21, _⟩ => ⟨S1024x16000, .f32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024x12000, .f32⟩
  | .hbm, ⟨31, _⟩ => ⟨S1024x12000, .f32⟩
  | .hbm, ⟨32, _⟩ => ⟨S1024x64, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1024x16000, .f32⟩
  | .hbm, ⟨42, _⟩ => ⟨S1024x16000, .f32⟩
  | .hbm, ⟨43, _⟩ => ⟨S1024x64, .f32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024x16000, .f32⟩
  | .hbm, ⟨53, _⟩ => ⟨S1024x16000, .f32⟩
  | .hbm, ⟨54, _⟩ => ⟨S1024x64, .f32⟩
  | .hbm, ⟨55, _⟩ => ⟨S1024x64, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024x64, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024x64, .f32⟩
  | .hbm, ⟨93, _⟩ => ⟨S_, .f32⟩
  | .hbm, ⟨94, _⟩ => ⟨S_, .f32⟩
  | .hbm, ⟨95, _⟩ => ⟨S1024x64, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1024x64, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S1024, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S12000x12000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_17 : Ref sig .tc := ⟨.hbm, 93, rfl⟩
abbrev main_v64 : Ref sig .tc := ⟨.hbm, 94, rfl⟩
abbrev main_v65 : Ref sig .tc := ⟨.hbm, 95, rfl⟩
abbrev main_cst_18 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_v70 : Ref sig .tc := ⟨.hbm, 102, rfl⟩
abbrev main_cst_20 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_22 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  bcast_S_S1024x12000 : S_.BroadcastsInDim S1024x12000 (![] : Fin 0 → Fin S1024x12000.rank)
  bcast_S_S1024x16000 : S_.BroadcastsInDim S1024x16000 (![] : Fin 0 → Fin S1024x16000.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S1024x64_S1024_d1 : S1024x64.ReducesTo [1] S1024
  h_S_ : 0 < S_.numel
  reducesTo_S1024x64_S_d0_1 : S1024x64.ReducesTo [0, 1] S_
  reducesTo_S1024_S_d0 : S1024.ReducesTo [0] S_
  gather_S12000x12000_S1024x1_S1024x12000_1_0_n_n_0_1_112000_wf : GatherDims.WF S12000x12000 S1024x1 S1024x12000 [1] [0] [] [0] [] 1 ![1, 12000]
  dot_S1024x12000_S12000x64_S1024x64_1_0_0_1_n_n_wf : DotDims.WF S1024x12000 S12000x64 S1024x64 [1] [0] [0] [1] [] []
  gather_S16000x16000_S1024x1_S1024x16000_1_0_n_n_0_1_116000_wf : GatherDims.WF S16000x16000 S1024x1 S1024x16000 [1] [0] [] [0] [] 1 ![1, 16000]
  dot_S1024x16000_S16000x64_S1024x64_1_0_0_1_n_n_wf : DotDims.WF S1024x16000 S16000x64 S1024x64 [1] [0] [0] [1] [] []

variable [Facts₀]

def gather_S12000x12000_S1024x1_S1024x12000_1_0_n_n_0_1_112000 : GatherDims S12000x12000 S1024x1 S1024x12000 where
  offsetDims := [1]
  collapsedSliceDims := [0]
  operandBatchingDims := []
  startIndicesBatchingDims := []
  startIndexMap := [0]
  indexVectorDim := 1
  sliceSizes := ![1, 12000]
  wf := gather_S12000x12000_S1024x1_S1024x12000_1_0_n_n_0_1_112000_wf
def dot_S1024x12000_S12000x64_S1024x64_1_0_0_1_n_n : DotDims S1024x12000 S12000x64 S1024x64 where
  lhsContracting := [1]
  rhsContracting := [0]
  lhsNonContracting := [0]
  rhsNonContracting := [1]
  lhsBatch := []
  rhsBatch := []
  wf := dot_S1024x12000_S12000x64_S1024x64_1_0_0_1_n_n_wf
def gather_S16000x16000_S1024x1_S1024x16000_1_0_n_n_0_1_116000 : GatherDims S16000x16000 S1024x1 S1024x16000 where
  offsetDims := [1]
  collapsedSliceDims := [0]
  operandBatchingDims := []
  startIndicesBatchingDims := []
  startIndexMap := [0]
  indexVectorDim := 1
  sliceSizes := ![1, 16000]
  wf := gather_S16000x16000_S1024x1_S1024x16000_1_0_n_n_0_1_116000_wf
def dot_S1024x16000_S16000x64_S1024x64_1_0_0_1_n_n : DotDims S1024x16000 S16000x64 S1024x64 where
  lhsContracting := [1]
  rhsContracting := [0]
  lhsNonContracting := [0]
  rhsNonContracting := [1]
  lhsBatch := []
  rhsBatch := []
  wf := dot_S1024x16000_S16000x64_S1024x64_1_0_0_1_n_n_wf

class Facts : Prop extends Facts₀ where

variable [Facts]
-- ==== Proof.IdxRange.lean ====
/-
  THE INDEX WORDS ARE IN RANGE.

  The precondition is printed as one function `fn` of the ten argument arrays to a single `i1` word: a chain of
  `and`s of ten `jnp.all`s. Seven are float tests; the last three are, for each index vector `x` with its table's
  row count `N` (12000 for the user indices, 16000 for the positive and the negative item indices),
  `jnp.all((x >= 0) & (x < N))` with both comparisons signed. This module reads those three back: if the printed word
  is 1, every word of each index vector, read UNSIGNED, is below its bound (`of_pre`).

  At one word: `0 ≤ x` signed says the top bit of `x` is clear, so `x` reads the same signed and unsigned; the bound
  is below 2³¹ and reads the same too; so `x < N` signed is `x.toNat < N`. The float conjuncts are never opened: from
  its second part on the chain is a function of the three index vectors and of ONE word standing for all that came before.
-/
import proofs.«421540_j73229192397035_2_alg».proof.Pre_finite_inputs
import Idealize.ShloMosaic.Lib.Affine
import Idealize.ShloMosaic.Lib.ReduceAll
import Idealize.ShloMosaic.Lib.ValueIdx

namespace Cert.IdxRange

open Idealize.ShloMosaic

/-! ## One word -/

/-- A word that tests `0 ≤ x` and `x < N`, both signed, against a bound `N` below 2³¹, is below `N` read unsigned:
    the first test clears its top bit, so its signed and unsigned readings agree, as the bound's do. -/
theorem toNat_lt_of_signed {x : BitVec 32} {N : Nat} (hN : N < 2 ^ 31)
    (h0 : IntOp.cmpi .sge x 0#32 = 1#1) (h1 : IntOp.cmpi .slt x (BitVec.ofNat 32 N) = 1#1) : x.toNat < N := by
  have hc : (BitVec.ofNat 32 N).toNat = N := by
    rw [BitVec.toNat_ofNat]; exact Nat.mod_eq_of_lt (by omega)
  have hc2 : 2 * (BitVec.ofNat 32 N).toNat < 2 ^ 32 := by rw [hc]; omega
  rw [IntOp.cmpi_sge, show (0#32 : BitVec 32).toInt = 0 from by decide, BitVec.toInt_pos_iff] at h0
  rw [IntOp.cmpi_slt, BitVec.toInt_eq_toNat_of_lt h0, BitVec.toInt_eq_toNat_of_lt hc2, hc] at h1
  omega

/-! ## One vector -/

/-- The elementwise `and` of two `i1` vectors is 1 at an index exactly when both are. -/
theorem andi_apply_eq_one {s : Shape} (a b : IVec s 1) (i : s.Idx) : andi a b i = 1#1 ↔ a i = 1#1 ∧ b i = 1#1 :=
  IntOp.andi_eq_one

/-- A vector compared with a broadcast scalar constant: at an index, that element compared with the constant. -/
theorem cmpi_splat_apply {s : Shape} (p : CmpIPredicate) (x : IVec s 32) (c : BitVec 32)
    (hb : (⟨0, ![]⟩ : Shape).BroadcastsInDim s ![]) (i : s.Idx) :
    cmpi p x (broadcastInDim s ![] hb (constantI ⟨0, ![]⟩ 32 c)) i = IntOp.cmpi p (x i) c := rfl

/-- `jnp.all((x >= 0) & (x < N))` of a vector of words, both comparisons signed and `N` below 2³¹: when the reduction's
    one word is 1, every word of `x` is below `N` read unsigned. -/
theorem all_in_range {s : Shape} {axes : List (Fin s.rank)} {N : Nat} (hN : N < 2 ^ 31) (x : IVec s 32)
    (hb : (⟨0, ![]⟩ : Shape).BroadcastsInDim s ![]) (hr : s.ReducesTo axes ⟨0, ![]⟩)
    (h0 : 0 < (⟨0, ![]⟩ : Shape).numel) (j : (⟨0, ![]⟩ : Shape).Idx)
    (e : Host.reduce IntOp.andi
          (andi (cmpi .sge x (broadcastInDim s ![] hb (constantI ⟨0, ![]⟩ 32 0#32)))
            (cmpi .slt x (broadcastInDim s ![] hb (constantI ⟨0, ![]⟩ 32 (BitVec.ofNat 32 N)))))
          (constantI ⟨0, ![]⟩ 1 1#1) hr h0 j = 1#1) (i : s.Idx) : (x i).toNat < N := by
  haveI : Subsingleton (⟨0, ![]⟩ : Shape).Idx := ⟨fun a b => funext fun d => d.elim0⟩
  have hi := Host.reduce_andi_all _ _ hr h0 j e i
  obtain ⟨hge, hlt⟩ := (andi_apply_eq_one _ _ i).1 hi
  exact toNat_lt_of_signed hN ((cmpi_splat_apply .sge x 0#32 hb i).symm.trans hge)
    ((cmpi_splat_apply .slt x (BitVec.ofNat 32 N) hb i).symm.trans hlt)

/-! ## The printed chain -/

open Cert.Pre_finite_inputs

/-- The chain from its second part on is a function of the three index vectors and of one word `v` that stands for
    the conjunction of everything before (the seven float tests): `((v ∧ all₇) ∧ all₈) ∧ all₉`. If it is 1, each of the
    three `all`s is, and each gives its vector's range. -/
theorem of_part2 {F : FTy → Type} [FloatOps F] [Facts] (a7 a8 a9 : IVec S1024 32) (v : IVec S_ 1)
    (h : fn_part2 (F := F) a7 a8 a9 v ValueIdx.ix0 = 1#1) :
    (∀ i, (a7 i).toNat < 12000) ∧ (∀ i, (a8 i).toNat < 16000) ∧ (∀ i, (a9 i).toNat < 16000) := by
  dsimp only [fn_part2, fn_part3] at h
  obtain ⟨h, h9⟩ := (andi_apply_eq_one _ _ _).1 h
  obtain ⟨h, h8⟩ := (andi_apply_eq_one _ _ _).1 h
  obtain ⟨-, h7⟩ := (andi_apply_eq_one _ _ _).1 h
  exact ⟨all_in_range (N := 12000) (by decide) a7 _ _ _ _ h7, all_in_range (N := 16000) (by decide) a8 _ _ _ _ h8,
    all_in_range (N := 16000) (by decide) a9 _ _ _ _ h9⟩

/-- THE PRECONDITION DECODED: if the printed predicate of the ten argument arrays is all ones, every user index is below
    12000 and every positive and negative item index below 16000, read unsigned. The float arrays are not looked at. -/
theorem of_pre {F : FTy → Type} [FloatOps F] [Cert.Pre_finite_inputs.Facts]
    (a0 : FVec F Cert.Pre_finite_inputs.S12000x12000 .f32) (a1 : FVec F Cert.Pre_finite_inputs.S16000x16000 .f32)
    (a2 : FVec F Cert.Pre_finite_inputs.S12000x64 .f32) (a3 : FVec F Cert.Pre_finite_inputs.S16000x64 .f32)
    (a4 : FVec F Cert.Pre_finite_inputs.S1024x12000 .f32) (a5 a6 : FVec F Cert.Pre_finite_inputs.S1024x16000 .f32)
    (a7 a8 a9 : IVec Cert.Pre_finite_inputs.S1024 32)
    (h : Cert.Pre_finite_inputs.fn (F := F) a0 a1 a2 a3 a4 a5 a6 a7 a8 a9 = (fun _ => 1#1)) :
    (∀ i, (a7 i).toNat < 12000) ∧ (∀ i, (a8 i).toNat < 16000) ∧ (∀ i, (a9 i).toNat < 16000) := by
  have h0 := congrFun h ValueIdx.ix0
  dsimp only [Cert.Pre_finite_inputs.fn, Cert.Pre_finite_inputs.fn_part1] at h0
  exact of_part2 (F := F) a7 a8 a9 _ h0

end Cert.IdxRange
-- ==== Proof.Reg0.lean ====
/-
  Region 0 (the user features): what one grid point of the gather, mask and multiply kernel does, and the proof data
  of its pipeline.

  At grid point `t` the body reads eight words `idx[8t], …, idx[8t+7]` of the row-number table, copies row `idx[8t+j]`
  of the filter matrix (left in the large memory) into row `j` of an 8-row scratch, each copy on a semaphore of its own,
  and waits for all eight. Every copy's source row lies inside the matrix because the word is below the row count: that
  is the side condition the body assumes of each word, and here it is a hypothesis of the run. Then it multiplies the
  scratch entry by entry with the 0/1 pattern `mask ≥ 0.1` of the point's mask block, multiplies the result by the
  whole embedding table, and stores the 8 × 64 product as the point's output block. Nothing is in flight between
  points, the table, the filter matrix and the scratch are only read or rewritten whole, so the region's invariant is the
  same at every point: the core's other scoped buffers at some contents, the eight semaphores at zero, the filter matrix
  and the row-number table at their entry contents.
-/
import proofs.«421540_j73229192397035_2_alg».proof.Proof.Gen.KernelIdeal.Launch
import proofs.«421540_j73229192397035_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

-- the core's buffer contents when the region is entered, and the row-number table's contents with the (empty) side
-- condition the pipeline asks of them: both parameters, instantiated by the launch
variable (V : (c : Dev nD) → (b : Ref sig .tc) → Buf (Elt F) ((c : Thread nD τ).loc b))
variable (a : (pcfg0 (F := F)).Adm)

/-! ## The windows' blocks -/

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The mask window's staging buffer holds its block at every point, for any proof data whose array is the entry
    contents and whose body leaves the block in place. -/
theorem before0_0_of {c : Dev nD} (dat : Dat τ (Elt F) Unit ℕ (Pipeline.UD sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the embedding table's window (one block, the whole table). -/
theorem before0_1_of {c : Dev nD} (dat : Dat τ (Elt F) Unit ℕ (Pipeline.UD sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

/-- One staging buffer of the output window, through which its contents are stated (the choice does not matter). -/
abbrev VO0_2 : View sig .tc .vmem S8x64 .f32 := (Memref.whole cc0_stg2_0 : Memref sig .tc .vmem S8x64 .f32).view
/-- Each window's current staging memref at point `t`, as the pipeline passes it, and its wholeness. -/
abbrev ms0_0 (t : Fin (cfg0 a).N) : Memref sig .tc .vmem S8x12000 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S12000x64 .f32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S8x64 .f32 := spec0_2.stage ((cfg0 a).slots t 2)
abbrev hs0_2 (t : Fin (cfg0 a).N) : (ms0_2 a t).IsWhole := hstage0_2 (((cfg0 a).slots t 2).cast nbuf0_2)
/-- The row scratch: a whole scoped buffer of the kernel's own. -/
abbrev scM0 : Memref sig .tc .vmem S8x12000 .f32 := Memref.whole cc0_scratch0
/-- The row-number table and the filter matrix, whole. -/
abbrev tbM0 : Memref sig .tc .smem S1024 .i32 := Memref.whole main_arg7
abbrev hbM0 : Memref sig .tc .hbm S12000x12000 .f32 := Memref.whole main_arg0
/-- A memref's buffer on core `c`, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The filter matrix held at a share `q`: eight copies read it at once, each through a share of its own. -/
abbrev hbTok0 (c : Dev nD) (q : PosShare TreeShare) (f : HbBuf0 (F := F) c hbM0) : sProp 𝕄 :=
  hbM0.view.loc (c : Thread nD τ) ↦{q} f
/-- The numbers of the eight copy semaphores: each copy reads the matrix through the read share of its semaphore's number. -/
abbrev cells0 : List ℕ := [5, 6, 7, 8, 9, 10, 11, 12]
/-- The read shares below the first semaphore's number: split off and put back, never lent. -/
abbrev lowToks0 (c : Dev nD) (f : HbBuf0 (F := F) c hbM0) : sProp 𝕄 :=
  bigSep (Finset.range 5) fun i => hbM0.view.loc (c : Thread nD τ) ↦{Transfers.shareTokN fullShare i} f
/-- The matrix whole is the remainder, the low shares, and one read share per copy semaphore. -/
theorem hbToks0_eq (c : Dev nD) (f : HbBuf0 (F := F) c hbM0) :
    (iprop(hbTok0 c (Transfers.shareDrop fullShare 13) f ∗ bigSep (Finset.range 13) fun i => hbM0.view.loc (c : Thread nD τ) ↦{Transfers.shareTokN fullShare i} f) : sProp 𝕄)
      = iprop(hbTok0 c (Transfers.shareDrop fullShare 13) f ∗ lowToks0 c f
          ∗ hbTok0 c (Transfers.shareTokN fullShare 5) f ∗ hbTok0 c (Transfers.shareTokN fullShare 6) f ∗ hbTok0 c (Transfers.shareTokN fullShare 7) f ∗ hbTok0 c (Transfers.shareTokN fullShare 8) f ∗ hbTok0 c (Transfers.shareTokN fullShare 9) f ∗ hbTok0 c (Transfers.shareTokN fullShare 10) f ∗ hbTok0 c (Transfers.shareTokN fullShare 11) f ∗ hbTok0 c (Transfers.shareTokN fullShare 12) f) := by
  rw [BI.bigSep_sdiff_split (show Finset.range 5 ⊆ Finset.range 13 from by decide),
    BI.bigSep_eq_bigSepL_of_eq (S := Finset.range 13 \ Finset.range 5) cells0 (by decide) (by decide)]
  rfl

/-- The kernel body at point `t`, on what the pipeline calls it with. -/
abbrev bodyAt0 (t : Fin (cfg0 a).N) : Prog (TpuEff nD τ sig (Elt F) Λ₀ .tc) PUnit :=
  cc0__gather_mask_matmul_kernel (grid0.coords t) (Memref.whole main_arg7) (Memref.isWhole_whole _) (Memref.whole main_arg0) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) cc0_scratch1

/-! ## The kernel's own semaphores and the operand it moves itself -/

/-- The eight copy semaphores, cell by cell. -/
abbrev osem0 : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl
/-- The filter matrix: unscoped, no window's array, no table. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V c b) : sProp 𝕄) = iprop(hbPt0 c hbM0 (V c main_arg0)) := by
  rw [BI.bigSep_eq_bigSepL_of_eq [main_arg0] (by decide) (by decide)]; rfl
/-- The one table, listed. -/
theorem prefHeld0_eq (c : Dev nD) (v : pre0.Contents (Elt F)) :
    (Pipeline.prefHeld (Ix := Unit) (Name := ℕ) (U := Pipeline.UD sig nD τ) (Lvl := ℕ) pre0 c (fun _ => fullShare) v : sProp 𝕄)
      = iprop(((c : Thread nD τ).loc (pre0.ref 0)) ↦{fullShare} v 0) := by
  unfold Pipeline.prefHeld
  rw [BI.bigSep_eq_bigSepL_of_eq [(0 : Fin 1)] (by decide) (by decide)]; rfl

/-- The row scratch among the core's scoped buffers that are no staging buffer of this region. -/
def Sc0 : Finset (Ref sig .tc) := {cc0_scratch0}
theorem Sc0_sub : Sc0 ⊆ (Finset.univ.filter fun b : Ref sig .tc => b.isScoped) \ Finset.univ.image (Pipeline.stageRef spec0) := by decide
/-- The core's other scoped buffers (no staging buffer of this region, not its scratch), each whole at some contents. -/
def others0 (c : Dev nD) : sProp 𝕄 :=
  bigSep (((Finset.univ.filter fun b : Ref sig .tc => b.isScoped) \ Finset.univ.image (Pipeline.stageRef spec0)) \ Sc0)
    fun b => iprop(∃ f : Buf (Elt F) ((c : Thread nD τ).loc b), ((c : Thread nD τ).loc b) ↦{fullShare} f)
/-- The scoped rest is the scratch, owned at some contents, and the others. -/
theorem scopedRest0_split (c : Dev nD) :
    (Pipeline.scopedRest (Ix := Unit) (Name := ℕ) (U := Pipeline.UD sig nD τ) (Lvl := ℕ) (Val := Elt F) spec0 c : sProp 𝕄)
      = iprop((∃ d, owns (c : Thread nD τ) scM0 fullShare d) ∗ others0 c) := by
  unfold Pipeline.scopedRest others0
  rw [BI.bigSep_sdiff_split Sc0_sub, BI.bigSep_eq_bigSepL_of_eq [cc0_scratch0] (by decide) (by decide)]
  simp only [scM0, owns_whole]; try rfl

/-- The region's invariant: what the copies need (the scoped rest with the scratch in it, the eight cells at zero, the
    filter matrix at its entry contents) and the row-number table at the contents the pipeline was pinned at. -/
def Phi0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

end Region0

/-! ## The body's run -/

-- (the run's proof term is large; the eight copies land in eight rows of ONE scratch and are all in flight before the
-- first wait, so each lends only its own row of the scratch and the rest stays behind for the next copy to issue into)
set_option maxHeartbeats 4000000 in
set_option sl_exec.dmaWindow true in
set_option sl_exec.dmaWindowSet true in
/-- What the body's one store leaves in the output's staging memref, as pieces, WITH the proof that on whole memrefs —
    the table at `x0`, the mask's and the embedding's at their contents, the output's and the scratch at anything, the
    filter matrix whole at `fh0`, the eight cells at zero — and under the side condition of each of the eight words, the
    body runs to the continuation holding all of that as it was, the scratch at some contents, and the output's buffer
    with its pieces written. -/
noncomputable def kernelRun0 (c : Dev nD) (i : grid0.Coords) (arg1 : Memref sig .tc .smem S1024 .i32) (harg1 : arg1.IsWhole)
    (arg3 : Memref sig .tc .vmem S8x12000 .f32) (harg3 : arg3.IsWhole) (arg4 : Memref sig .tc .vmem S12000x64 .f32) (harg4 : arg4.IsWhole)
    (arg5 : Memref sig .tc .vmem S8x64 .f32) (harg5 : arg5.IsWhole) (arg6 : Memref sig .tc .vmem S8x12000 .f32) (harg6 : arg6.IsWhole)
    (x0 : Vec F S1024 .i32) (x1 : Vec F S8x12000 .f32) (x2 : Vec F S12000x64 .f32) (fh0 : HbBuf0 (F := F) c hbM0)
    (k0_hw1 : k0_chk1 (arg1.view.readAt (Elt F) (Rect.unit (s := S1024) (k0_off1 i) S1.size (k0_off1_inb i)).toLoadRect (harg1.unread x0) (Shape.Idx.first (numel1_S1.symm ▸ Nat.one_pos))))
    (k0_hw2 : k0_chk2 (arg1.view.readAt (Elt F) (Rect.unit (s := S1024) (k0_off3 i) S1.size (k0_off3_inb i)).toLoadRect (harg1.unread x0) (Shape.Idx.first (numel1_S1.symm ▸ Nat.one_pos))))
    (k0_hw3 : k0_chk3 (arg1.view.readAt (Elt F) (Rect.unit (s := S1024) (k0_off5 i) S1.size (k0_off5_inb i)).toLoadRect (harg1.unread x0) (Shape.Idx.first (numel1_S1.symm ▸ Nat.one_pos))))
    (k0_hw4 : k0_chk4 (arg1.view.readAt (Elt F) (Rect.unit (s := S1024) (k0_off7 i) S1.size (k0_off7_inb i)).toLoadRect (harg1.unread x0) (Shape.Idx.first (numel1_S1.symm ▸ Nat.one_pos))))
    (k0_hw5 : k0_chk5 (arg1.view.readAt (Elt F) (Rect.unit (s := S1024) (k0_off9 i) S1.size (k0_off9_inb i)).toLoadRect (harg1.unread x0) (Shape.Idx.first (numel1_S1.symm ▸ Nat.one_pos))))
    (k0_hw6 : k0_chk6 (arg1.view.readAt (Elt F) (Rect.unit (s := S1024) (k0_off11 i) S1.size (k0_off11_inb i)).toLoadRect (harg1.unread x0) (Shape.Idx.first (numel1_S1.symm ▸ Nat.one_pos))))
    (k0_hw7 : k0_chk7 (arg1.view.readAt (Elt F) (Rect.unit (s := S1024) (k0_off13 i) S1.size (k0_off13_inb i)).toLoadRect (harg1.unread x0) (Shape.Idx.first (numel1_S1.symm ▸ Nat.one_pos))))
    (k0_hw8 : k0_chk8 (arg1.view.readAt (Elt F) (Rect.unit (s := S1024) (k0_off15 i) S1.size (k0_off15_inb i)).toLoadRect (harg1.unread x0) (Shape.Idx.first (numel1_S1.symm ▸ Nat.one_pos)))) :
    { L2 : List (View.Piece (Elt F) S8x64 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
            ∗ hbPt0 c hbM0 fh0 ∗ owes (c : Thread nD τ) 0 W
            ∗ (iprop(owns (c : Thread nD τ) arg1 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L2) ∗ (∃ d, owns (c : Thread nD τ) arg6 fullShare d)
                ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
                ∗ hbPt0 c hbM0 fh0 ∗ (∃ W', owes (c : Thread nD τ) 0 W')) -∗ K ⟨⟩))
          ⊢ wp frame (wpE (defs₀ (F := F)) Variants.none c none) Set.univ
              (cc0__gather_mask_matmul_kernel i arg1 harg1 (Memref.whole main_arg0) (Memref.isWhole_whole _) arg3 harg3 arg4 harg4 arg5 harg5 arg6 harg6 cc0_scratch1) K } := by
  refine ⟨?_, fun W K => ?run⟩
  case run =>
    simp only [cc0__gather_mask_matmul_kernel_eq_skeleton]; unfold cc0__gather_mask_matmul_kernel_skel
    simp only [k0_part1_eq_skeleton, k0_part2_eq_skeleton, k0_part3_eq_skeleton]
    unfold owns
    iintro ⟨⟨%f0, %hf0, Hw0⟩, ⟨%f1, %hf1, Hw1⟩, ⟨%f2, %hf2, Hw2⟩, ⟨%d3, %f3, -, Hw3⟩, ⟨%ds0, %fs0, -, HS0⟩, Hq0, Hq1, Hq2, Hq3, Hq4, Hq5, Hq6, Hq7, Hh0, HW, Hk⟩
    obtain rfl := harg1.eq_unread hf0; obtain rfl := harg3.eq_unread hf1; obtain rfl := harg4.eq_unread hf2
    -- the filter matrix as the remainder, the low shares, and one read share per copy semaphore
    ihave Hh' := ((Transfers.pointsTo_toks_range (Ix := Unit) (Name := ℕ) (U := Pipeline.UD sig nD τ) (Lvl := ℕ) (q := fullShare) (k := 13)).1.trans
      (Entails.of_eq (hbToks0_eq c fh0))) $$ Hh0
    icases Hh' with ⟨Hhr, Hhl, Ht0, Ht1, Ht2, Ht3, Ht4, Ht5, Ht6, Ht7⟩
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [Hw0]
    · iexists _; isplitr; · ipureintro; exact harg1.read_unread _
      iexact Hw0
    isplitl [Hw1]
    · iexists _; isplitr; · ipureintro; exact harg3.read_unread _
      iexact Hw1
    isplitl [Hw2]
    · iexists _; isplitr; · ipureintro; exact harg4.read_unread _
      iexact Hw2
    isplitl [Hw3]; · iexists _; iexact Hw3
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhr Hhl Ht0 Ht1 Ht2 Ht3 Ht4 Ht5 Ht6 Ht7]
    · iapply ((Entails.of_eq (hbToks0_eq c fh0).symm).trans
        (Transfers.pointsTo_toks_range (Ix := Unit) (Name := ℕ) (U := Pipeline.UD sig nD τ) (Lvl := ℕ) (q := fullShare) (k := 13)).2)
      isplitl [Hhr]; · iexact Hhr
      isplitl [Hhl]; · iexact Hhl
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    iexists _; iexact HW

/-! ## The side condition of each word -/

/-- A word read through the table's view is a word of the table: below the row count when every word is. -/
theorem word_lt0 (arg1 : Memref sig .tc .smem S1024 .i32) (harg1 : arg1.IsWhole) (x0 : Vec F S1024 .i32)
    (hT : ∀ j, (x0 j).toNat < 12000) (r : LoadRect S1024) (y : r.shape.Idx) :
    (arg1.view.readAt (Elt F) r (harg1.unread x0) y).toNat < 12000 := by
  simp only [View.readAt_apply, Memref.IsWhole.read_unread]; exact hT _

/-- A row number below the row count names a row inside the filter matrix: copy 1's side condition. -/
theorem r0chk1_of_lt (w : BitVec 32) (h : w.toNat < 12000) : k0_chk1 w := by
  unfold k0_chk1 k0_off2 k0_off17
  refine ⟨fun a => ?_, fun a => ?_⟩ <;> (fin_cases a <;> simp <;> omega)
/-- A row number below the row count names a row inside the filter matrix: copy 2's side condition. -/
theorem r0chk2_of_lt (w : BitVec 32) (h : w.toNat < 12000) : k0_chk2 w := by
  unfold k0_chk2 k0_off4 k0_off18
  refine ⟨fun a => ?_, fun a => ?_⟩ <;> (fin_cases a <;> simp <;> omega)
/-- A row number below the row count names a row inside the filter matrix: copy 3's side condition. -/
theorem r0chk3_of_lt (w : BitVec 32) (h : w.toNat < 12000) : k0_chk3 w := by
  unfold k0_chk3 k0_off6 k0_off19
  refine ⟨fun a => ?_, fun a => ?_⟩ <;> (fin_cases a <;> simp <;> omega)
/-- A row number below the row count names a row inside the filter matrix: copy 4's side condition. -/
theorem r0chk4_of_lt (w : BitVec 32) (h : w.toNat < 12000) : k0_chk4 w := by
  unfold k0_chk4 k0_off8 k0_off20
  refine ⟨fun a => ?_, fun a => ?_⟩ <;> (fin_cases a <;> simp <;> omega)
/-- A row number below the row count names a row inside the filter matrix: copy 5's side condition. -/
theorem r0chk5_of_lt (w : BitVec 32) (h : w.toNat < 12000) : k0_chk5 w := by
  unfold k0_chk5 k0_off10 k0_off21
  refine ⟨fun a => ?_, fun a => ?_⟩ <;> (fin_cases a <;> simp <;> omega)
/-- A row number below the row count names a row inside the filter matrix: copy 6's side condition. -/
theorem r0chk6_of_lt (w : BitVec 32) (h : w.toNat < 12000) : k0_chk6 w := by
  unfold k0_chk6 k0_off12 k0_off22
  refine ⟨fun a => ?_, fun a => ?_⟩ <;> (fin_cases a <;> simp <;> omega)
/-- A row number below the row count names a row inside the filter matrix: copy 7's side condition. -/
theorem r0chk7_of_lt (w : BitVec 32) (h : w.toNat < 12000) : k0_chk7 w := by
  unfold k0_chk7 k0_off14 k0_off23
  refine ⟨fun a => ?_, fun a => ?_⟩ <;> (fin_cases a <;> simp <;> omega)
theorem r0chk8_of_lt (w : BitVec 32) (h : w.toNat < 12000) : k0_chk8 w := by
  unfold k0_chk8 k0_off16
  intro a; fin_cases a <;> simp <;> omega

section Region0Data

variable (V : (c : Dev nD) → (b : Ref sig .tc) → Buf (Elt F) ((c : Thread nD τ).loc b))
variable (a : (pcfg0 (F := F)).Adm)
-- every word of the row-number table, as the pipeline was pinned at it, is a row number of the filter matrix
variable (hT : ∀ j, ((a.1 (0 : Fin 1) : Vec F S1024 .i32) j).toNat < 12000)

/-! ## What the output holds after each point -/

/-- The run at point `t`: the point's memrefs and blocks, the table at its pinned contents, every word's side condition
    from the table's range. -/
abbrev runAt0 (c : Dev nD) (t : Fin (cfg0 a).N) :=
  kernelRun0 (F := F) c (grid0.coords t) tbM0 (Memref.isWhole_whole _) (ms0_0 a t) (hs0_0 a t) (ms0_1 a t) (hs0_1 a t) (ms0_2 a t) (hs0_2 a t)
    scM0 (Memref.isWhole_whole _) (a.1 (0 : Fin 1)) (iblk0 V a c 0 t) (iblk0 V a c 1 t) (V c main_arg0)
    (r0chk1_of_lt _ (word_lt0 _ _ _ hT _ _)) (r0chk2_of_lt _ (word_lt0 _ _ _ hT _ _)) (r0chk3_of_lt _ (word_lt0 _ _ _ hT _ _)) (r0chk4_of_lt _ (word_lt0 _ _ _ hT _ _)) (r0chk5_of_lt _ (word_lt0 _ _ _ hT _ _)) (r0chk6_of_lt _ (word_lt0 _ _ _ hT _ _)) (r0chk7_of_lt _ (word_lt0 _ _ _ hT _ _)) (r0chk8_of_lt _ (word_lt0 _ _ _ hT _ _))

/-- The run's pieces tile the output block (one store of the whole block), so they cover it. -/
theorem cover0_2 (c : Dev nD) (t : Fin (cfg0 a).N) (y : S8x64.Idx) :
    ∃ pc ∈ (runAt0 V a hT c t).1, y ∈ pc.1.set :=
  View.cover_of_tiledL (runAt0 V a hT c t).1 S8x64.size (by sl_kernel_rfl) y

/-- What the output window's staging buffer holds after the body at point `t`: the run's pieces read back. -/
def outsAt0 (c : Dev nD) (t : Fin (cfg0 a).N) : Vec F S8x64 .f32 :=
  VO0_2.read (Elt F) (VO0_2.writes (Elt F) VO0_2.junk (runAt0 V a hT c t).1)

/-! ## The pipeline's proof data -/

/-- The proof data of the pipeline on core `c`: the arrays as the region finds them; after the body at point `t` each
    input's buffer at its block and the output's at `outsAt0`; the invariant `Phi0`; nothing owed; full shares. -/
def dat0 (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => outsAt0 V a hT c t
  Φ _ := Phi0 V a c
  q _ := fullShare
  owed _ := 0

theorem A_eq0 (c : Dev nD) (w : Fin (cfg0 a).W) : (dat0 V a hT c).A w = V c (Pipeline.arrRef spec0 w) := by
  dsimp only [dat0]
theorem after0_0 (c : Dev nD) (t : Fin (cfg0 a).N) : (dat0 V a hT c).after 0 t = iblk0 V a c 0 t := rfl
theorem after0_1 (c : Dev nD) (t : Fin (cfg0 a).N) : (dat0 V a hT c).after 1 t = iblk0 V a c 1 t := rfl
theorem after0_2 (c : Dev nD) (t : Fin (cfg0 a).N) : (dat0 V a hT c).after 2 t = outsAt0 V a hT c t := rfl
theorem before0_0 (c : Dev nD) (t : Fin (cfg0 a).N) (d) : (dat0 V a hT c).before 0 t d = iblk0 V a c 0 t :=
  before0_0_of V a (dat0 V a hT c) (A_eq0 V a hT c 0) (after0_0 V a hT c) t d
theorem before0_1 (c : Dev nD) (t : Fin (cfg0 a).N) (d) : (dat0 V a hT c).before 1 t d = iblk0 V a c 1 t :=
  before0_1_of V a (dat0 V a hT c) (A_eq0 V a hT c 1) (after0_1 V a hT c) t d

/-! ## The invariant, conjunct by conjunct -/

theorem Phi0_eq (c : Dev nD) :
    (Phi0 V a c : sProp 𝕄)
      = iprop(iprop(iprop((∃ d, owns (c : Thread nD τ) scM0 fullShare d) ∗ others0 c)
          ∗ (∃ r, prngReg c r)
          ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
          ∗ hbPt0 c hbM0 (V c main_arg0))
        ∗ owns (c : Thread nD τ) tbM0 fullShare (a.1 (0 : Fin 1))) := by
  unfold Phi0
  rw [Pipeline.ΦD_eq, scopedRest0_split, ownSems00_eq, hbmPts0_eq, prefHeld0_eq,
    show (owns (c : Thread nD τ) tbM0 fullShare (a.1 (0 : Fin 1)) : sProp 𝕄) = (((c : Thread nD τ).loc main_arg7) ↦{fullShare} a.1 (0 : Fin 1))
      from owns_whole _ _ _ _]
  rfl

/-! ## The body obligation -/

def bodyPre0 (c : Dev nD) (t : Fin (cfg0 a).N) : sProp 𝕄 :=
  iprop((dat0 V a hT c).Φ t.castSucc ∗ (dat0 V a hT c).owesAt () t.castSucc
    ∗ (∃ d, owns (c : Thread nD τ) (ms0_0 a t) fullShare ((dat0 V a hT c).before 0 t d))
    ∗ (∃ d, owns (c : Thread nD τ) (ms0_1 a t) fullShare ((dat0 V a hT c).before 1 t d))
    ∗ (∃ d, owns (c : Thread nD τ) (ms0_2 a t) fullShare ((dat0 V a hT c).before 2 t d)))

def bodyPost0 (c : Dev nD) (t : Fin (cfg0 a).N) : sProp 𝕄 :=
  iprop((dat0 V a hT c).Φ t.succ ∗ (dat0 V a hT c).owesAt () t.succ
    ∗ owns (c : Thread nD τ) (ms0_0 a t) fullShare ((dat0 V a hT c).after 0 t)
    ∗ owns (c : Thread nD τ) (ms0_1 a t) fullShare ((dat0 V a hT c).after 1 t)
    ∗ owns (c : Thread nD τ) (ms0_2 a t) fullShare ((dat0 V a hT c).after 2 t))

set_option maxHeartbeats 4000000 in
/-- The body at any point: the inputs' memrefs hold their blocks, the invariant hands the body its scratch, its eight
    cells at zero, the filter matrix and the table, and takes them back as they were; the core's `owes` goes in at what
    the points before recorded and comes back with this point's waits. -/
theorem sound_body0 (c : Dev nD) (t : Fin (cfg0 a).N) :
    bodyPre0 V a hT c t ⊢ wp frame (wpE (defs₀ (F := F)) Variants.none c none) Set.univ (bodyAt0 a t) (fun _ => bodyPost0 V a hT c t) := by
  unfold bodyPre0 bodyPost0 bodyAt0
  simp only [before0_0, before0_1]
  rw [show (dat0 V a hT c).Φ t.succ = (dat0 V a hT c).Φ t.castSucc from rfl,
    after0_0, after0_1, after0_2]
  rw [show (dat0 V a hT c).Φ t.castSucc = Phi0 V a c from rfl, Phi0_eq]
  unfold Dat.owesAt Pipeline.owesWithin
  rw [show (dat0 V a hT c).owed t.castSucc = 0 from rfl, show (dat0 V a hT c).owed t.succ = 0 from rfl]
  unfold outsAt0
  iintro ⟨⟨⟨⟨HS0, HR⟩, Hg, ⟨Hq0, Hq1, Hq2, Hq3, Hq4, Hq5, Hq6, Hq7⟩, Hh0⟩, HT⟩, ⟨%W, -, HW⟩, ⟨%d0, Hw0⟩, ⟨%d1, Hw1⟩, ⟨%d2, Hw2⟩⟩
  iapply ((runAt0 V a hT c t).2 W _)
  isplitl [HT]; · iexact HT
  isplitl [Hw0]; · iexact Hw0
  isplitl [Hw1]; · iexact Hw1
  isplitl [Hw2]; · iexists _; iexact Hw2
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨HT, Hw0, Hw1, ⟨%e2, Hw2⟩, HS0, Hq0, Hq1, Hq2, Hq3, Hq4, Hq5, Hq6, Hq7, Hh0, ⟨%W', HW'⟩⟩
  isplitl [HS0 HR Hg Hq0 Hq1 Hq2 Hq3 Hq4 Hq5 Hq6 Hq7 Hh0 HT]
  · isplitl [HS0 HR Hg Hq0 Hq1 Hq2 Hq3 Hq4 Hq5 Hq6 Hq7 Hh0]
    · isplitl [HS0 HR]
      · isplitl [HS0]; · iexact HS0
        iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact HT
  isplitl [HW']
  · iexists W'; isplitr; · ipureintro; exact fun _ _ => Or.inl trivial
    iexact HW'
  isplitl [Hw0]; · iexact Hw0
  isplitl [Hw1]; · iexact Hw1
  unfold owns; iexists _; isplitr
  swap; · iexact Hw2
  ipureintro; exact View.read_writes_of_cover _ _ _ _ _ (cover0_2 V a hT c t)

/-- The library's body obligation, at every point. -/
theorem body_obligation0 (c : Dev nD) : BodyObligation (dat0 (F := F) V a hT c) (defs₀ (F := F)) Variants.none () Set.univ := fun t => by
  rw [bigSep_W0, bigSep_W0]
  exact sound_body0 V a hT c t

end Region0Data

end Cert.KernelIdeal.Hand

end
-- ==== Proof.Reg1.lean ====
/-
  Region 1 (the positive-item features): what one grid point of the gather, mask and multiply kernel does, and the proof data
  of its pipeline.

  At grid point `t` the body reads eight words `idx[8t], …, idx[8t+7]` of the row-number table, copies row `idx[8t+j]`
  of the filter matrix (left in the large memory) into row `j` of an 8-row scratch, each copy on a semaphore of its own,
  and waits for all eight. Every copy's source row lies inside the matrix because the word is below the row count: that
  is the side condition the body assumes of each word, and here it is a hypothesis of the run. Then it multiplies the
  scratch entry by entry with the 0/1 pattern `mask ≥ 0.1` of the point's mask block, multiplies the result by the
  whole embedding table, and stores the 8 × 64 product as the point's output block. Nothing is in flight between
  points, the table, the filter matrix and the scratch are only read or rewritten whole, so the region's invariant is the
  same at every point: the core's other scoped buffers at some contents, the eight semaphores at zero, the filter matrix
  and the row-number table at their entry contents.
-/
import proofs.«421540_j73229192397035_2_alg».proof.Proof.Gen.KernelIdeal.Launch
import proofs.«421540_j73229192397035_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1

-- the core's buffer contents when the region is entered, and the row-number table's contents with the (empty) side
-- condition the pipeline asks of them: both parameters, instantiated by the launch
variable (V : (c : Dev nD) → (b : Ref sig .tc) → Buf (Elt F) ((c : Thread nD τ).loc b))
variable (a : (pcfg1 (F := F)).Adm)

/-! ## The windows' blocks -/

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The mask window's staging buffer holds its block at every point, for any proof data whose array is the entry
    contents and whose body leaves the block in place. -/
theorem before1_0_of {c : Dev nD} (dat : Dat τ (Elt F) Unit ℕ (Pipeline.UD sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the embedding table's window (one block, the whole table). -/
theorem before1_1_of {c : Dev nD} (dat : Dat τ (Elt F) Unit ℕ (Pipeline.UD sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_2 : View sig .tc .vmem S8x64 .f32 := (Memref.whole cc1_stg2_0 : Memref sig .tc .vmem S8x64 .f32).view
/-- Each window's current staging memref at point `t`, as the pipeline passes it, and its wholeness. -/
abbrev ms1_0 (t : Fin (cfg1 a).N) : Memref sig .tc .vmem S8x16000 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S16000x64 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S8x64 .f32 := spec1_2.stage ((cfg1 a).slots t 2)
abbrev hs1_2 (t : Fin (cfg1 a).N) : (ms1_2 a t).IsWhole := hstage1_2 (((cfg1 a).slots t 2).cast nbuf1_2)
/-- The row scratch: a whole scoped buffer of the kernel's own. -/
abbrev scM1 : Memref sig .tc .vmem S8x16000 .f32 := Memref.whole cc1_scratch0
/-- The row-number table and the filter matrix, whole. -/
abbrev tbM1 : Memref sig .tc .smem S1024 .i32 := Memref.whole main_arg8
abbrev hbM1 : Memref sig .tc .hbm S16000x16000 .f32 := Memref.whole main_arg1
/-- A memref's buffer on core `c`, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The filter matrix held at a share `q`: eight copies read it at once, each through a share of its own. -/
abbrev hbTok1 (c : Dev nD) (q : PosShare TreeShare) (f : HbBuf1 (F := F) c hbM1) : sProp 𝕄 :=
  hbM1.view.loc (c : Thread nD τ) ↦{q} f
/-- The numbers of the eight copy semaphores: each copy reads the matrix through the read share of its semaphore's number. -/
abbrev cells1 : List ℕ := [18, 19, 20, 21, 22, 23, 24, 25]
/-- The read shares below the first semaphore's number: split off and put back, never lent. -/
abbrev lowToks1 (c : Dev nD) (f : HbBuf1 (F := F) c hbM1) : sProp 𝕄 :=
  bigSep (Finset.range 18) fun i => hbM1.view.loc (c : Thread nD τ) ↦{Transfers.shareTokN fullShare i} f
/-- The matrix whole is the remainder, the low shares, and one read share per copy semaphore. -/
theorem hbToks1_eq (c : Dev nD) (f : HbBuf1 (F := F) c hbM1) :
    (iprop(hbTok1 c (Transfers.shareDrop fullShare 26) f ∗ bigSep (Finset.range 26) fun i => hbM1.view.loc (c : Thread nD τ) ↦{Transfers.shareTokN fullShare i} f) : sProp 𝕄)
      = iprop(hbTok1 c (Transfers.shareDrop fullShare 26) f ∗ lowToks1 c f
          ∗ hbTok1 c (Transfers.shareTokN fullShare 18) f ∗ hbTok1 c (Transfers.shareTokN fullShare 19) f ∗ hbTok1 c (Transfers.shareTokN fullShare 20) f ∗ hbTok1 c (Transfers.shareTokN fullShare 21) f ∗ hbTok1 c (Transfers.shareTokN fullShare 22) f ∗ hbTok1 c (Transfers.shareTokN fullShare 23) f ∗ hbTok1 c (Transfers.shareTokN fullShare 24) f ∗ hbTok1 c (Transfers.shareTokN fullShare 25) f) := by
  rw [BI.bigSep_sdiff_split (show Finset.range 18 ⊆ Finset.range 26 from by decide),
    BI.bigSep_eq_bigSepL_of_eq (S := Finset.range 26 \ Finset.range 18) cells1 (by decide) (by decide)]
  rfl

/-- The kernel body at point `t`, on what the pipeline calls it with. -/
abbrev bodyAt1 (t : Fin (cfg1 a).N) : Prog (TpuEff nD τ sig (Elt F) Λ₀ .tc) PUnit :=
  cc1__gather_mask_matmul_kernel (grid1.coords t) (Memref.whole main_arg8) (Memref.isWhole_whole _) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (Memref.whole cc1_scratch0) (Memref.isWhole_whole _) cc1_scratch1

/-! ## The kernel's own semaphores and the operand it moves itself -/

/-- The eight copy semaphores, cell by cell. -/
abbrev osem1 : Fin 8 → SemLoc sig := fun j => (![SemLoc.dma 18, SemLoc.dma 19, SemLoc.dma 20, SemLoc.dma 21, SemLoc.dma 22, SemLoc.dma 23, SemLoc.dma 24, SemLoc.dma 25] : Fin 8 → SemLoc sig) j
theorem ownSemFacts1 : Pipeline.OwnSemFacts spec1 osem1 := by decide
/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem1 [0, 1, 2, 3, 4, 5, 6, 7] (by decide) (by decide)]; rfl
/-- The filter matrix: unscoped, no window's array, no table. -/
def H1 : Finset (Ref sig .tc) := {main_arg1}
theorem H1_sub : H1 ⊆ Pipeline.restRefsP sig pre1 spec1 := by decide
theorem hbmPts1_eq (c : Dev nD) :
    (bigSep H1 (fun b => ((c : Thread nD τ).loc b) ↦{fullShare} V c b) : sProp 𝕄) = iprop(hbPt1 c hbM1 (V c main_arg1)) := by
  rw [BI.bigSep_eq_bigSepL_of_eq [main_arg1] (by decide) (by decide)]; rfl
/-- The one table, listed. -/
theorem prefHeld1_eq (c : Dev nD) (v : pre1.Contents (Elt F)) :
    (Pipeline.prefHeld (Ix := Unit) (Name := ℕ) (U := Pipeline.UD sig nD τ) (Lvl := ℕ) pre1 c (fun _ => fullShare) v : sProp 𝕄)
      = iprop(((c : Thread nD τ).loc (pre1.ref 0)) ↦{fullShare} v 0) := by
  unfold Pipeline.prefHeld
  rw [BI.bigSep_eq_bigSepL_of_eq [(0 : Fin 1)] (by decide) (by decide)]; rfl

/-- The row scratch among the core's scoped buffers that are no staging buffer of this region. -/
def Sc1 : Finset (Ref sig .tc) := {cc1_scratch0}
theorem Sc1_sub : Sc1 ⊆ (Finset.univ.filter fun b : Ref sig .tc => b.isScoped) \ Finset.univ.image (Pipeline.stageRef spec1) := by decide
/-- The core's other scoped buffers (no staging buffer of this region, not its scratch), each whole at some contents. -/
def others1 (c : Dev nD) : sProp 𝕄 :=
  bigSep (((Finset.univ.filter fun b : Ref sig .tc => b.isScoped) \ Finset.univ.image (Pipeline.stageRef spec1)) \ Sc1)
    fun b => iprop(∃ f : Buf (Elt F) ((c : Thread nD τ).loc b), ((c : Thread nD τ).loc b) ↦{fullShare} f)
/-- The scoped rest is the scratch, owned at some contents, and the others. -/
theorem scopedRest1_split (c : Dev nD) :
    (Pipeline.scopedRest (Ix := Unit) (Name := ℕ) (U := Pipeline.UD sig nD τ) (Lvl := ℕ) (Val := Elt F) spec1 c : sProp 𝕄)
      = iprop((∃ d, owns (c : Thread nD τ) scM1 fullShare d) ∗ others1 c) := by
  unfold Pipeline.scopedRest others1
  rw [BI.bigSep_sdiff_split Sc1_sub, BI.bigSep_eq_bigSepL_of_eq [cc1_scratch0] (by decide) (by decide)]
  simp only [scM1, owns_whole]; try rfl

/-- The region's invariant: what the copies need (the scoped rest with the scratch in it, the eight cells at zero, the
    filter matrix at its entry contents) and the row-number table at the contents the pipeline was pinned at. -/
def Phi1 (c : Dev nD) : sProp 𝕄 :=
  iprop(Pipeline.ΦD osem1 spec1 H1 V c ∗ Pipeline.prefHeld (Ix := Unit) (Name := ℕ) (U := Pipeline.UD sig nD τ) (Lvl := ℕ) pre1 c (fun _ => fullShare) a.1)

end Region1

/-! ## The body's run -/

-- (the run's proof term is large; the eight copies land in eight rows of ONE scratch and are all in flight before the
-- first wait, so each lends only its own row of the scratch and the rest stays behind for the next copy to issue into)
set_option maxHeartbeats 4000000 in
set_option sl_exec.dmaWindow true in
set_option sl_exec.dmaWindowSet true in
/-- What the body's one store leaves in the output's staging memref, as pieces, WITH the proof that on whole memrefs —
    the table at `x0`, the mask's and the embedding's at their contents, the output's and the scratch at anything, the
    filter matrix whole at `fh0`, the eight cells at zero — and under the side condition of each of the eight words, the
    body runs to the continuation holding all of that as it was, the scratch at some contents, and the output's buffer
    with its pieces written. -/
noncomputable def kernelRun1 (c : Dev nD) (i : grid1.Coords) (arg1 : Memref sig .tc .smem S1024 .i32) (harg1 : arg1.IsWhole)
    (arg3 : Memref sig .tc .vmem S8x16000 .f32) (harg3 : arg3.IsWhole) (arg4 : Memref sig .tc .vmem S16000x64 .f32) (harg4 : arg4.IsWhole)
    (arg5 : Memref sig .tc .vmem S8x64 .f32) (harg5 : arg5.IsWhole) (arg6 : Memref sig .tc .vmem S8x16000 .f32) (harg6 : arg6.IsWhole)
    (x0 : Vec F S1024 .i32) (x1 : Vec F S8x16000 .f32) (x2 : Vec F S16000x64 .f32) (fh0 : HbBuf1 (F := F) c hbM1)
    (k1_hw1 : k1_chk1 (arg1.view.readAt (Elt F) (Rect.unit (s := S1024) (k1_off1 i) S1.size (k1_off1_inb i)).toLoadRect (harg1.unread x0) (Shape.Idx.first (numel1_S1.symm ▸ Nat.one_pos))))
    (k1_hw2 : k1_chk2 (arg1.view.readAt (Elt F) (Rect.unit (s := S1024) (k1_off3 i) S1.size (k1_off3_inb i)).toLoadRect (harg1.unread x0) (Shape.Idx.first (numel1_S1.symm ▸ Nat.one_pos))))
    (k1_hw3 : k1_chk3 (arg1.view.readAt (Elt F) (Rect.unit (s := S1024) (k1_off5 i) S1.size (k1_off5_inb i)).toLoadRect (harg1.unread x0) (Shape.Idx.first (numel1_S1.symm ▸ Nat.one_pos))))
    (k1_hw4 : k1_chk4 (arg1.view.readAt (Elt F) (Rect.unit (s := S1024) (k1_off7 i) S1.size (k1_off7_inb i)).toLoadRect (harg1.unread x0) (Shape.Idx.first (numel1_S1.symm ▸ Nat.one_pos))))
    (k1_hw5 : k1_chk5 (arg1.view.readAt (Elt F) (Rect.unit (s := S1024) (k1_off9 i) S1.size (k1_off9_inb i)).toLoadRect (harg1.unread x0) (Shape.Idx.first (numel1_S1.symm ▸ Nat.one_pos))))
    (k1_hw6 : k1_chk6 (arg1.view.readAt (Elt F) (Rect.unit (s := S1024) (k1_off11 i) S1.size (k1_off11_inb i)).toLoadRect (harg1.unread x0) (Shape.Idx.first (numel1_S1.symm ▸ Nat.one_pos))))
    (k1_hw7 : k1_chk7 (arg1.view.readAt (Elt F) (Rect.unit (s := S1024) (k1_off13 i) S1.size (k1_off13_inb i)).toLoadRect (harg1.unread x0) (Shape.Idx.first (numel1_S1.symm ▸ Nat.one_pos))))
    (k1_hw8 : k1_chk8 (arg1.view.readAt (Elt F) (Rect.unit (s := S1024) (k1_off15 i) S1.size (k1_off15_inb i)).toLoadRect (harg1.unread x0) (Shape.Idx.first (numel1_S1.symm ▸ Nat.one_pos)))) :
    { L2 : List (View.Piece (Elt F) S8x64 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0
            ∗ hbPt1 c hbM1 fh0 ∗ owes (c : Thread nD τ) 0 W
            ∗ (iprop(owns (c : Thread nD τ) arg1 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L2) ∗ (∃ d, owns (c : Thread nD τ) arg6 fullShare d)
                ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0
                ∗ hbPt1 c hbM1 fh0 ∗ (∃ W', owes (c : Thread nD τ) 0 W')) -∗ K ⟨⟩))
          ⊢ wp frame (wpE (defs₀ (F := F)) Variants.none c none) Set.univ
              (cc1__gather_mask_matmul_kernel i arg1 harg1 (Memref.whole main_arg1) (Memref.isWhole_whole _) arg3 harg3 arg4 harg4 arg5 harg5 arg6 harg6 cc1_scratch1) K } := by
  refine ⟨?_, fun W K => ?run⟩
  case run =>
    simp only [cc1__gather_mask_matmul_kernel_eq_skeleton]; unfold cc1__gather_mask_matmul_kernel_skel
    simp only [k1_part1_eq_skeleton, k1_part2_eq_skeleton, k1_part3_eq_skeleton]
    unfold owns
    iintro ⟨⟨%f0, %hf0, Hw0⟩, ⟨%f1, %hf1, Hw1⟩, ⟨%f2, %hf2, Hw2⟩, ⟨%d3, %f3, -, Hw3⟩, ⟨%ds0, %fs0, -, HS0⟩, Hq0, Hq1, Hq2, Hq3, Hq4, Hq5, Hq6, Hq7, Hh0, HW, Hk⟩
    obtain rfl := harg1.eq_unread hf0; obtain rfl := harg3.eq_unread hf1; obtain rfl := harg4.eq_unread hf2
    -- the filter matrix as the remainder, the low shares, and one read share per copy semaphore
    ihave Hh' := ((Transfers.pointsTo_toks_range (Ix := Unit) (Name := ℕ) (U := Pipeline.UD sig nD τ) (Lvl := ℕ) (q := fullShare) (k := 26)).1.trans
      (Entails.of_eq (hbToks1_eq c fh0))) $$ Hh0
    icases Hh' with ⟨Hhr, Hhl, Ht0, Ht1, Ht2, Ht3, Ht4, Ht5, Ht6, Ht7⟩
    sl_exec (disch := first | sl_exact k1_hw1 | sl_exact k1_hw2 | sl_exact k1_hw3 | sl_exact k1_hw4 | sl_exact k1_hw5 | sl_exact k1_hw6 | sl_exact k1_hw7 | sl_exact k1_hw8)
    sl_step
    iapply Hk
    isplitl [Hw0]
    · iexists _; isplitr; · ipureintro; exact harg1.read_unread _
      iexact Hw0
    isplitl [Hw1]
    · iexists _; isplitr; · ipureintro; exact harg3.read_unread _
      iexact Hw1
    isplitl [Hw2]
    · iexists _; isplitr; · ipureintro; exact harg4.read_unread _
      iexact Hw2
    isplitl [Hw3]; · iexists _; iexact Hw3
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhr Hhl Ht0 Ht1 Ht2 Ht3 Ht4 Ht5 Ht6 Ht7]
    · iapply ((Entails.of_eq (hbToks1_eq c fh0).symm).trans
        (Transfers.pointsTo_toks_range (Ix := Unit) (Name := ℕ) (U := Pipeline.UD sig nD τ) (Lvl := ℕ) (q := fullShare) (k := 26)).2)
      isplitl [Hhr]; · iexact Hhr
      isplitl [Hhl]; · iexact Hhl
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    iexists _; iexact HW

/-! ## The side condition of each word -/

/-- A word read through the table's view is a word of the table: below the row count when every word is. -/
theorem word_lt1 (arg1 : Memref sig .tc .smem S1024 .i32) (harg1 : arg1.IsWhole) (x0 : Vec F S1024 .i32)
    (hT : ∀ j, (x0 j).toNat < 16000) (r : LoadRect S1024) (y : r.shape.Idx) :
    (arg1.view.readAt (Elt F) r (harg1.unread x0) y).toNat < 16000 := by
  simp only [View.readAt_apply, Memref.IsWhole.read_unread]; exact hT _

/-- A row number below the row count names a row inside the filter matrix: copy 1's side condition. -/
theorem r1chk1_of_lt (w : BitVec 32) (h : w.toNat < 16000) : k1_chk1 w := by
  unfold k1_chk1 k1_off2 k1_off17
  refine ⟨fun a => ?_, fun a => ?_⟩ <;> (fin_cases a <;> simp <;> omega)
/-- A row number below the row count names a row inside the filter matrix: copy 2's side condition. -/
theorem r1chk2_of_lt (w : BitVec 32) (h : w.toNat < 16000) : k1_chk2 w := by
  unfold k1_chk2 k1_off4 k1_off18
  refine ⟨fun a => ?_, fun a => ?_⟩ <;> (fin_cases a <;> simp <;> omega)
/-- A row number below the row count names a row inside the filter matrix: copy 3's side condition. -/
theorem r1chk3_of_lt (w : BitVec 32) (h : w.toNat < 16000) : k1_chk3 w := by
  unfold k1_chk3 k1_off6 k1_off19
  refine ⟨fun a => ?_, fun a => ?_⟩ <;> (fin_cases a <;> simp <;> omega)
/-- A row number below the row count names a row inside the filter matrix: copy 4's side condition. -/
theorem r1chk4_of_lt (w : BitVec 32) (h : w.toNat < 16000) : k1_chk4 w := by
  unfold k1_chk4 k1_off8 k1_off20
  refine ⟨fun a => ?_, fun a => ?_⟩ <;> (fin_cases a <;> simp <;> omega)
/-- A row number below the row count names a row inside the filter matrix: copy 5's side condition. -/
theorem r1chk5_of_lt (w : BitVec 32) (h : w.toNat < 16000) : k1_chk5 w := by
  unfold k1_chk5 k1_off10 k1_off21
  refine ⟨fun a => ?_, fun a => ?_⟩ <;> (fin_cases a <;> simp <;> omega)
/-- A row number below the row count names a row inside the filter matrix: copy 6's side condition. -/
theorem r1chk6_of_lt (w : BitVec 32) (h : w.toNat < 16000) : k1_chk6 w := by
  unfold k1_chk6 k1_off12 k1_off22
  refine ⟨fun a => ?_, fun a => ?_⟩ <;> (fin_cases a <;> simp <;> omega)
/-- A row number below the row count names a row inside the filter matrix: copy 7's side condition. -/
theorem r1chk7_of_lt (w : BitVec 32) (h : w.toNat < 16000) : k1_chk7 w := by
  unfold k1_chk7 k1_off14 k1_off23
  refine ⟨fun a => ?_, fun a => ?_⟩ <;> (fin_cases a <;> simp <;> omega)
theorem r1chk8_of_lt (w : BitVec 32) (h : w.toNat < 16000) : k1_chk8 w := by
  unfold k1_chk8 k1_off16
  intro a; fin_cases a <;> simp <;> omega

section Region1Data

variable (V : (c : Dev nD) → (b : Ref sig .tc) → Buf (Elt F) ((c : Thread nD τ).loc b))
variable (a : (pcfg1 (F := F)).Adm)
-- every word of the row-number table, as the pipeline was pinned at it, is a row number of the filter matrix
variable (hT : ∀ j, ((a.1 (0 : Fin 1) : Vec F S1024 .i32) j).toNat < 16000)

/-! ## What the output holds after each point -/

/-- The run at point `t`: the point's memrefs and blocks, the table at its pinned contents, every word's side condition
    from the table's range. -/
abbrev runAt1 (c : Dev nD) (t : Fin (cfg1 a).N) :=
  kernelRun1 (F := F) c (grid1.coords t) tbM1 (Memref.isWhole_whole _) (ms1_0 a t) (hs1_0 a t) (ms1_1 a t) (hs1_1 a t) (ms1_2 a t) (hs1_2 a t)
    scM1 (Memref.isWhole_whole _) (a.1 (0 : Fin 1)) (iblk1 V a c 0 t) (iblk1 V a c 1 t) (V c main_arg1)
    (r1chk1_of_lt _ (word_lt1 _ _ _ hT _ _)) (r1chk2_of_lt _ (word_lt1 _ _ _ hT _ _)) (r1chk3_of_lt _ (word_lt1 _ _ _ hT _ _)) (r1chk4_of_lt _ (word_lt1 _ _ _ hT _ _)) (r1chk5_of_lt _ (word_lt1 _ _ _ hT _ _)) (r1chk6_of_lt _ (word_lt1 _ _ _ hT _ _)) (r1chk7_of_lt _ (word_lt1 _ _ _ hT _ _)) (r1chk8_of_lt _ (word_lt1 _ _ _ hT _ _))

/-- The run's pieces tile the output block (one store of the whole block), so they cover it. -/
theorem cover1_2 (c : Dev nD) (t : Fin (cfg1 a).N) (y : S8x64.Idx) :
    ∃ pc ∈ (runAt1 V a hT c t).1, y ∈ pc.1.set :=
  View.cover_of_tiledL (runAt1 V a hT c t).1 S8x64.size (by sl_kernel_rfl) y

/-- What the output window's staging buffer holds after the body at point `t`: the run's pieces read back. -/
def outsAt1 (c : Dev nD) (t : Fin (cfg1 a).N) : Vec F S8x64 .f32 :=
  VO1_2.read (Elt F) (VO1_2.writes (Elt F) VO1_2.junk (runAt1 V a hT c t).1)

/-! ## The pipeline's proof data -/

/-- The proof data of the pipeline on core `c`: the arrays as the region finds them; after the body at point `t` each
    input's buffer at its block and the output's at `outsAt1`; the invariant `Phi1`; nothing owed; full shares. -/
def dat1 (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => iblk1 V a c 1 t
    | ⟨2, _⟩ => outsAt1 V a hT c t
  Φ _ := Phi1 V a c
  q _ := fullShare
  owed _ := 0

theorem A_eq1 (c : Dev nD) (w : Fin (cfg1 a).W) : (dat1 V a hT c).A w = V c (Pipeline.arrRef spec1 w) := by
  dsimp only [dat1]
theorem after1_0 (c : Dev nD) (t : Fin (cfg1 a).N) : (dat1 V a hT c).after 0 t = iblk1 V a c 0 t := rfl
theorem after1_1 (c : Dev nD) (t : Fin (cfg1 a).N) : (dat1 V a hT c).after 1 t = iblk1 V a c 1 t := rfl
theorem after1_2 (c : Dev nD) (t : Fin (cfg1 a).N) : (dat1 V a hT c).after 2 t = outsAt1 V a hT c t := rfl
theorem before1_0 (c : Dev nD) (t : Fin (cfg1 a).N) (d) : (dat1 V a hT c).before 0 t d = iblk1 V a c 0 t :=
  before1_0_of V a (dat1 V a hT c) (A_eq1 V a hT c 0) (after1_0 V a hT c) t d
theorem before1_1 (c : Dev nD) (t : Fin (cfg1 a).N) (d) : (dat1 V a hT c).before 1 t d = iblk1 V a c 1 t :=
  before1_1_of V a (dat1 V a hT c) (A_eq1 V a hT c 1) (after1_1 V a hT c) t d

/-! ## The invariant, conjunct by conjunct -/

theorem Phi1_eq (c : Dev nD) :
    (Phi1 V a c : sProp 𝕄)
      = iprop(iprop(iprop((∃ d, owns (c : Thread nD τ) scM1 fullShare d) ∗ others1 c)
          ∗ (∃ r, prngReg c r)
          ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
          ∗ hbPt1 c hbM1 (V c main_arg1))
        ∗ owns (c : Thread nD τ) tbM1 fullShare (a.1 (0 : Fin 1))) := by
  unfold Phi1
  rw [Pipeline.ΦD_eq, scopedRest1_split, ownSems01_eq, hbmPts1_eq, prefHeld1_eq,
    show (owns (c : Thread nD τ) tbM1 fullShare (a.1 (0 : Fin 1)) : sProp 𝕄) = (((c : Thread nD τ).loc main_arg8) ↦{fullShare} a.1 (0 : Fin 1))
      from owns_whole _ _ _ _]
  rfl

/-! ## The body obligation -/

def bodyPre1 (c : Dev nD) (t : Fin (cfg1 a).N) : sProp 𝕄 :=
  iprop((dat1 V a hT c).Φ t.castSucc ∗ (dat1 V a hT c).owesAt () t.castSucc
    ∗ (∃ d, owns (c : Thread nD τ) (ms1_0 a t) fullShare ((dat1 V a hT c).before 0 t d))
    ∗ (∃ d, owns (c : Thread nD τ) (ms1_1 a t) fullShare ((dat1 V a hT c).before 1 t d))
    ∗ (∃ d, owns (c : Thread nD τ) (ms1_2 a t) fullShare ((dat1 V a hT c).before 2 t d)))

def bodyPost1 (c : Dev nD) (t : Fin (cfg1 a).N) : sProp 𝕄 :=
  iprop((dat1 V a hT c).Φ t.succ ∗ (dat1 V a hT c).owesAt () t.succ
    ∗ owns (c : Thread nD τ) (ms1_0 a t) fullShare ((dat1 V a hT c).after 0 t)
    ∗ owns (c : Thread nD τ) (ms1_1 a t) fullShare ((dat1 V a hT c).after 1 t)
    ∗ owns (c : Thread nD τ) (ms1_2 a t) fullShare ((dat1 V a hT c).after 2 t))

set_option maxHeartbeats 4000000 in
/-- The body at any point: the inputs' memrefs hold their blocks, the invariant hands the body its scratch, its eight
    cells at zero, the filter matrix and the table, and takes them back as they were; the core's `owes` goes in at what
    the points before recorded and comes back with this point's waits. -/
theorem sound_body1 (c : Dev nD) (t : Fin (cfg1 a).N) :
    bodyPre1 V a hT c t ⊢ wp frame (wpE (defs₀ (F := F)) Variants.none c none) Set.univ (bodyAt1 a t) (fun _ => bodyPost1 V a hT c t) := by
  unfold bodyPre1 bodyPost1 bodyAt1
  simp only [before1_0, before1_1]
  rw [show (dat1 V a hT c).Φ t.succ = (dat1 V a hT c).Φ t.castSucc from rfl,
    after1_0, after1_1, after1_2]
  rw [show (dat1 V a hT c).Φ t.castSucc = Phi1 V a c from rfl, Phi1_eq]
  unfold Dat.owesAt Pipeline.owesWithin
  rw [show (dat1 V a hT c).owed t.castSucc = 0 from rfl, show (dat1 V a hT c).owed t.succ = 0 from rfl]
  unfold outsAt1
  iintro ⟨⟨⟨⟨HS0, HR⟩, Hg, ⟨Hq0, Hq1, Hq2, Hq3, Hq4, Hq5, Hq6, Hq7⟩, Hh0⟩, HT⟩, ⟨%W, -, HW⟩, ⟨%d0, Hw0⟩, ⟨%d1, Hw1⟩, ⟨%d2, Hw2⟩⟩
  iapply ((runAt1 V a hT c t).2 W _)
  isplitl [HT]; · iexact HT
  isplitl [Hw0]; · iexact Hw0
  isplitl [Hw1]; · iexact Hw1
  isplitl [Hw2]; · iexists _; iexact Hw2
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨HT, Hw0, Hw1, ⟨%e2, Hw2⟩, HS0, Hq0, Hq1, Hq2, Hq3, Hq4, Hq5, Hq6, Hq7, Hh0, ⟨%W', HW'⟩⟩
  isplitl [HS0 HR Hg Hq0 Hq1 Hq2 Hq3 Hq4 Hq5 Hq6 Hq7 Hh0 HT]
  · isplitl [HS0 HR Hg Hq0 Hq1 Hq2 Hq3 Hq4 Hq5 Hq6 Hq7 Hh0]
    · isplitl [HS0 HR]
      · isplitl [HS0]; · iexact HS0
        iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact HT
  isplitl [HW']
  · iexists W'; isplitr; · ipureintro; exact fun _ _ => Or.inl trivial
    iexact HW'
  isplitl [Hw0]; · iexact Hw0
  isplitl [Hw1]; · iexact Hw1
  unfold owns; iexists _; isplitr
  swap; · iexact Hw2
  ipureintro; exact View.read_writes_of_cover _ _ _ _ _ (cover1_2 V a hT c t)

/-- The library's body obligation, at every point. -/
theorem body_obligation1 (c : Dev nD) : BodyObligation (dat1 (F := F) V a hT c) (defs₀ (F := F)) Variants.none () Set.univ := fun t => by
  rw [bigSep_W1, bigSep_W1]
  exact sound_body1 V a hT c t

end Region1Data

end Cert.KernelIdeal.Hand

end
-- ==== Proof.Reg2.lean ====
/-
  Region 2 (the negative-item features): what one grid point of the gather, mask and multiply kernel does, and the proof data
  of its pipeline.

  At grid point `t` the body reads eight words `idx[8t], …, idx[8t+7]` of the row-number table, copies row `idx[8t+j]`
  of the filter matrix (left in the large memory) into row `j` of an 8-row scratch, each copy on a semaphore of its own,
  and waits for all eight. Every copy's source row lies inside the matrix because the word is below the row count: that
  is the side condition the body assumes of each word, and here it is a hypothesis of the run. Then it multiplies the
  scratch entry by entry with the 0/1 pattern `mask ≥ 0.1` of the point's mask block, multiplies the result by the
  whole embedding table, and stores the 8 × 64 product as the point's output block. Nothing is in flight between
  points, the table, the filter matrix and the scratch are only read or rewritten whole, so the region's invariant is the
  same at every point: the core's other scoped buffers at some contents, the eight semaphores at zero, the filter matrix
  and the row-number table at their entry contents.
-/
import proofs.«421540_j73229192397035_2_alg».proof.Proof.Gen.KernelIdeal.Launch
import proofs.«421540_j73229192397035_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2

-- the core's buffer contents when the region is entered, and the row-number table's contents with the (empty) side
-- condition the pipeline asks of them: both parameters, instantiated by the launch
variable (V : (c : Dev nD) → (b : Ref sig .tc) → Buf (Elt F) ((c : Thread nD τ).loc b))
variable (a : (pcfg2 (F := F)).Adm)

/-! ## The windows' blocks -/

/-- Window `w`'s block at point `t`, read off its array as the region finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The mask window's staging buffer holds its block at every point, for any proof data whose array is the entry
    contents and whose body leaves the block in place. -/
theorem before2_0_of {c : Dev nD} (dat : Dat τ (Elt F) Unit ℕ (Pipeline.UD sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the embedding table's window (one block, the whole table). -/
theorem before2_1_of {c : Dev nD} (dat : Dat τ (Elt F) Unit ℕ (Pipeline.UD sig nD τ) ℕ (cfg2 a) c) (hA : dat.A 1 = V c (Pipeline.arrRef spec2 1))
    (hafter : ∀ t, dat.after 1 t = iblk2 V a c 1 t) (t : Fin (cfg2 a).N) (d) : dat.before 1 t d = iblk2 V a c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The memrefs the body is called with -/

/-- One staging buffer of the output window, through which its contents are stated (the choice does not matter). -/
abbrev VO2_2 : View sig .tc .vmem S8x64 .f32 := (Memref.whole cc2_stg2_0 : Memref sig .tc .vmem S8x64 .f32).view
/-- Each window's current staging memref at point `t`, as the pipeline passes it, and its wholeness. -/
abbrev ms2_0 (t : Fin (cfg2 a).N) : Memref sig .tc .vmem S8x16000 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S16000x64 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S8x64 .f32 := spec2_2.stage ((cfg2 a).slots t 2)
abbrev hs2_2 (t : Fin (cfg2 a).N) : (ms2_2 a t).IsWhole := hstage2_2 (((cfg2 a).slots t 2).cast nbuf2_2)
/-- The row scratch: a whole scoped buffer of the kernel's own. -/
abbrev scM2 : Memref sig .tc .vmem S8x16000 .f32 := Memref.whole cc2_scratch0
/-- The row-number table and the filter matrix, whole. -/
abbrev tbM2 : Memref sig .tc .smem S1024 .i32 := Memref.whole main_arg9
abbrev hbM2 : Memref sig .tc .hbm S16000x16000 .f32 := Memref.whole main_arg1
/-- A memref's buffer on core `c`, and it held whole at `f`. -/
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- The filter matrix held at a share `q`: eight copies read it at once, each through a share of its own. -/
abbrev hbTok2 (c : Dev nD) (q : PosShare TreeShare) (f : HbBuf2 (F := F) c hbM2) : sProp 𝕄 :=
  hbM2.view.loc (c : Thread nD τ) ↦{q} f
/-- The numbers of the eight copy semaphores: each copy reads the matrix through the read share of its semaphore's number. -/
abbrev cells2 : List ℕ := [31, 32, 33, 34, 35, 36, 37, 38]
/-- The read shares below the first semaphore's number: split off and put back, never lent. -/
abbrev lowToks2 (c : Dev nD) (f : HbBuf2 (F := F) c hbM2) : sProp 𝕄 :=
  bigSep (Finset.range 31) fun i => hbM2.view.loc (c : Thread nD τ) ↦{Transfers.shareTokN fullShare i} f
/-- The matrix whole is the remainder, the low shares, and one read share per copy semaphore. -/
theorem hbToks2_eq (c : Dev nD) (f : HbBuf2 (F := F) c hbM2) :
    (iprop(hbTok2 c (Transfers.shareDrop fullShare 39) f ∗ bigSep (Finset.range 39) fun i => hbM2.view.loc (c : Thread nD τ) ↦{Transfers.shareTokN fullShare i} f) : sProp 𝕄)
      = iprop(hbTok2 c (Transfers.shareDrop fullShare 39) f ∗ lowToks2 c f
          ∗ hbTok2 c (Transfers.shareTokN fullShare 31) f ∗ hbTok2 c (Transfers.shareTokN fullShare 32) f ∗ hbTok2 c (Transfers.shareTokN fullShare 33) f ∗ hbTok2 c (Transfers.shareTokN fullShare 34) f ∗ hbTok2 c (Transfers.shareTokN fullShare 35) f ∗ hbTok2 c (Transfers.shareTokN fullShare 36) f ∗ hbTok2 c (Transfers.shareTokN fullShare 37) f ∗ hbTok2 c (Transfers.shareTokN fullShare 38) f) := by
  rw [BI.bigSep_sdiff_split (show Finset.range 31 ⊆ Finset.range 39 from by decide),
    BI.bigSep_eq_bigSepL_of_eq (S := Finset.range 39 \ Finset.range 31) cells2 (by decide) (by decide)]
  rfl

/-- The kernel body at point `t`, on what the pipeline calls it with. -/
abbrev bodyAt2 (t : Fin (cfg2 a).N) : Prog (TpuEff nD τ sig (Elt F) Λ₀ .tc) PUnit :=
  cc2__gather_mask_matmul_kernel (grid2.coords t) (Memref.whole main_arg9) (Memref.isWhole_whole _) (Memref.whole main_arg1) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (Memref.whole cc2_scratch0) (Memref.isWhole_whole _) cc2_scratch1

/-! ## The kernel's own semaphores and the operand it moves itself -/

/-- The eight copy semaphores, cell by cell. -/
abbrev osem2 : Fin 8 → SemLoc sig := fun j => (![SemLoc.dma 31, SemLoc.dma 32, SemLoc.dma 33, SemLoc.dma 34, SemLoc.dma 35, SemLoc.dma 36, SemLoc.dma 37, SemLoc.dma 38] : Fin 8 → SemLoc sig) j
theorem ownSemFacts2 : Pipeline.OwnSemFacts spec2 osem2 := by decide
/-- The cells at zero, listed. -/
theorem ownSems02_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem2 [0, 1, 2, 3, 4, 5, 6, 7] (by decide) (by decide)]; rfl
/-- The filter matrix: unscoped, no window's array, no table. -/
def H2 : Finset (Ref sig .tc) := {main_arg1}
theorem H2_sub : H2 ⊆ Pipeline.restRefsP sig pre2 spec2 := by decide
theorem hbmPts2_eq (c : Dev nD) :
    (bigSep H2 (fun b => ((c : Thread nD τ).loc b) ↦{fullShare} V c b) : sProp 𝕄) = iprop(hbPt2 c hbM2 (V c main_arg1)) := by
  rw [BI.bigSep_eq_bigSepL_of_eq [main_arg1] (by decide) (by decide)]; rfl
/-- The one table, listed. -/
theorem prefHeld2_eq (c : Dev nD) (v : pre2.Contents (Elt F)) :
    (Pipeline.prefHeld (Ix := Unit) (Name := ℕ) (U := Pipeline.UD sig nD τ) (Lvl := ℕ) pre2 c (fun _ => fullShare) v : sProp 𝕄)
      = iprop(((c : Thread nD τ).loc (pre2.ref 0)) ↦{fullShare} v 0) := by
  unfold Pipeline.prefHeld
  rw [BI.bigSep_eq_bigSepL_of_eq [(0 : Fin 1)] (by decide) (by decide)]; rfl

/-- The row scratch among the core's scoped buffers that are no staging buffer of this region. -/
def Sc2 : Finset (Ref sig .tc) := {cc2_scratch0}
theorem Sc2_sub : Sc2 ⊆ (Finset.univ.filter fun b : Ref sig .tc => b.isScoped) \ Finset.univ.image (Pipeline.stageRef spec2) := by decide
/-- The core's other scoped buffers (no staging buffer of this region, not its scratch), each whole at some contents. -/
def others2 (c : Dev nD) : sProp 𝕄 :=
  bigSep (((Finset.univ.filter fun b : Ref sig .tc => b.isScoped) \ Finset.univ.image (Pipeline.stageRef spec2)) \ Sc2)
    fun b => iprop(∃ f : Buf (Elt F) ((c : Thread nD τ).loc b), ((c : Thread nD τ).loc b) ↦{fullShare} f)
/-- The scoped rest is the scratch, owned at some contents, and the others. -/
theorem scopedRest2_split (c : Dev nD) :
    (Pipeline.scopedRest (Ix := Unit) (Name := ℕ) (U := Pipeline.UD sig nD τ) (Lvl := ℕ) (Val := Elt F) spec2 c : sProp 𝕄)
      = iprop((∃ d, owns (c : Thread nD τ) scM2 fullShare d) ∗ others2 c) := by
  unfold Pipeline.scopedRest others2
  rw [BI.bigSep_sdiff_split Sc2_sub, BI.bigSep_eq_bigSepL_of_eq [cc2_scratch0] (by decide) (by decide)]
  simp only [scM2, owns_whole]; try rfl

/-- The region's invariant: what the copies need (the scoped rest with the scratch in it, the eight cells at zero, the
    filter matrix at its entry contents) and the row-number table at the contents the pipeline was pinned at. -/
def Phi2 (c : Dev nD) : sProp 𝕄 :=
  iprop(Pipeline.ΦD osem2 spec2 H2 V c ∗ Pipeline.prefHeld (Ix := Unit) (Name := ℕ) (U := Pipeline.UD sig nD τ) (Lvl := ℕ) pre2 c (fun _ => fullShare) a.1)

end Region2

/-! ## The body's run -/

-- (the run's proof term is large; the eight copies land in eight rows of ONE scratch and are all in flight before the
-- first wait, so each lends only its own row of the scratch and the rest stays behind for the next copy to issue into)
set_option maxHeartbeats 4000000 in
set_option sl_exec.dmaWindow true in
set_option sl_exec.dmaWindowSet true in
/-- What the body's one store leaves in the output's staging memref, as pieces, WITH the proof that on whole memrefs —
    the table at `x0`, the mask's and the embedding's at their contents, the output's and the scratch at anything, the
    filter matrix whole at `fh0`, the eight cells at zero — and under the side condition of each of the eight words, the
    body runs to the continuation holding all of that as it was, the scratch at some contents, and the output's buffer
    with its pieces written. -/
noncomputable def kernelRun2 (c : Dev nD) (i : grid2.Coords) (arg1 : Memref sig .tc .smem S1024 .i32) (harg1 : arg1.IsWhole)
    (arg3 : Memref sig .tc .vmem S8x16000 .f32) (harg3 : arg3.IsWhole) (arg4 : Memref sig .tc .vmem S16000x64 .f32) (harg4 : arg4.IsWhole)
    (arg5 : Memref sig .tc .vmem S8x64 .f32) (harg5 : arg5.IsWhole) (arg6 : Memref sig .tc .vmem S8x16000 .f32) (harg6 : arg6.IsWhole)
    (x0 : Vec F S1024 .i32) (x1 : Vec F S8x16000 .f32) (x2 : Vec F S16000x64 .f32) (fh0 : HbBuf2 (F := F) c hbM2)
    (k2_hw1 : k2_chk1 (arg1.view.readAt (Elt F) (Rect.unit (s := S1024) (k2_off1 i) S1.size (k2_off1_inb i)).toLoadRect (harg1.unread x0) (Shape.Idx.first (numel1_S1.symm ▸ Nat.one_pos))))
    (k2_hw2 : k2_chk2 (arg1.view.readAt (Elt F) (Rect.unit (s := S1024) (k2_off3 i) S1.size (k2_off3_inb i)).toLoadRect (harg1.unread x0) (Shape.Idx.first (numel1_S1.symm ▸ Nat.one_pos))))
    (k2_hw3 : k2_chk3 (arg1.view.readAt (Elt F) (Rect.unit (s := S1024) (k2_off5 i) S1.size (k2_off5_inb i)).toLoadRect (harg1.unread x0) (Shape.Idx.first (numel1_S1.symm ▸ Nat.one_pos))))
    (k2_hw4 : k2_chk4 (arg1.view.readAt (Elt F) (Rect.unit (s := S1024) (k2_off7 i) S1.size (k2_off7_inb i)).toLoadRect (harg1.unread x0) (Shape.Idx.first (numel1_S1.symm ▸ Nat.one_pos))))
    (k2_hw5 : k2_chk5 (arg1.view.readAt (Elt F) (Rect.unit (s := S1024) (k2_off9 i) S1.size (k2_off9_inb i)).toLoadRect (harg1.unread x0) (Shape.Idx.first (numel1_S1.symm ▸ Nat.one_pos))))
    (k2_hw6 : k2_chk6 (arg1.view.readAt (Elt F) (Rect.unit (s := S1024) (k2_off11 i) S1.size (k2_off11_inb i)).toLoadRect (harg1.unread x0) (Shape.Idx.first (numel1_S1.symm ▸ Nat.one_pos))))
    (k2_hw7 : k2_chk7 (arg1.view.readAt (Elt F) (Rect.unit (s := S1024) (k2_off13 i) S1.size (k2_off13_inb i)).toLoadRect (harg1.unread x0) (Shape.Idx.first (numel1_S1.symm ▸ Nat.one_pos))))
    (k2_hw8 : k2_chk8 (arg1.view.readAt (Elt F) (Rect.unit (s := S1024) (k2_off15 i) S1.size (k2_off15_inb i)).toLoadRect (harg1.unread x0) (Shape.Idx.first (numel1_S1.symm ▸ Nat.one_pos)))) :
    { L2 : List (View.Piece (Elt F) S8x64 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0
            ∗ hbPt2 c hbM2 fh0 ∗ owes (c : Thread nD τ) 0 W
            ∗ (iprop(owns (c : Thread nD τ) arg1 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L2) ∗ (∃ d, owns (c : Thread nD τ) arg6 fullShare d)
                ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0
                ∗ hbPt2 c hbM2 fh0 ∗ (∃ W', owes (c : Thread nD τ) 0 W')) -∗ K ⟨⟩))
          ⊢ wp frame (wpE (defs₀ (F := F)) Variants.none c none) Set.univ
              (cc2__gather_mask_matmul_kernel i arg1 harg1 (Memref.whole main_arg1) (Memref.isWhole_whole _) arg3 harg3 arg4 harg4 arg5 harg5 arg6 harg6 cc2_scratch1) K } := by
  refine ⟨?_, fun W K => ?run⟩
  case run =>
    simp only [cc2__gather_mask_matmul_kernel_eq_skeleton]; unfold cc2__gather_mask_matmul_kernel_skel
    simp only [k2_part1_eq_skeleton, k2_part2_eq_skeleton, k2_part3_eq_skeleton]
    unfold owns
    iintro ⟨⟨%f0, %hf0, Hw0⟩, ⟨%f1, %hf1, Hw1⟩, ⟨%f2, %hf2, Hw2⟩, ⟨%d3, %f3, -, Hw3⟩, ⟨%ds0, %fs0, -, HS0⟩, Hq0, Hq1, Hq2, Hq3, Hq4, Hq5, Hq6, Hq7, Hh0, HW, Hk⟩
    obtain rfl := harg1.eq_unread hf0; obtain rfl := harg3.eq_unread hf1; obtain rfl := harg4.eq_unread hf2
    -- the filter matrix as the remainder, the low shares, and one read share per copy semaphore
    ihave Hh' := ((Transfers.pointsTo_toks_range (Ix := Unit) (Name := ℕ) (U := Pipeline.UD sig nD τ) (Lvl := ℕ) (q := fullShare) (k := 39)).1.trans
      (Entails.of_eq (hbToks2_eq c fh0))) $$ Hh0
    icases Hh' with ⟨Hhr, Hhl, Ht0, Ht1, Ht2, Ht3, Ht4, Ht5, Ht6, Ht7⟩
    sl_exec (disch := first | sl_exact k2_hw1 | sl_exact k2_hw2 | sl_exact k2_hw3 | sl_exact k2_hw4 | sl_exact k2_hw5 | sl_exact k2_hw6 | sl_exact k2_hw7 | sl_exact k2_hw8)
    sl_step
    iapply Hk
    isplitl [Hw0]
    · iexists _; isplitr; · ipureintro; exact harg1.read_unread _
      iexact Hw0
    isplitl [Hw1]
    · iexists _; isplitr; · ipureintro; exact harg3.read_unread _
      iexact Hw1
    isplitl [Hw2]
    · iexists _; isplitr; · ipureintro; exact harg4.read_unread _
      iexact Hw2
    isplitl [Hw3]; · iexists _; iexact Hw3
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhr Hhl Ht0 Ht1 Ht2 Ht3 Ht4 Ht5 Ht6 Ht7]
    · iapply ((Entails.of_eq (hbToks2_eq c fh0).symm).trans
        (Transfers.pointsTo_toks_range (Ix := Unit) (Name := ℕ) (U := Pipeline.UD sig nD τ) (Lvl := ℕ) (q := fullShare) (k := 39)).2)
      isplitl [Hhr]; · iexact Hhr
      isplitl [Hhl]; · iexact Hhl
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    iexists _; iexact HW

/-! ## The side condition of each word -/

/-- A word read through the table's view is a word of the table: below the row count when every word is. -/
theorem word_lt2 (arg1 : Memref sig .tc .smem S1024 .i32) (harg1 : arg1.IsWhole) (x0 : Vec F S1024 .i32)
    (hT : ∀ j, (x0 j).toNat < 16000) (r : LoadRect S1024) (y : r.shape.Idx) :
    (arg1.view.readAt (Elt F) r (harg1.unread x0) y).toNat < 16000 := by
  simp only [View.readAt_apply, Memref.IsWhole.read_unread]; exact hT _

/-- A row number below the row count names a row inside the filter matrix: copy 1's side condition. -/
theorem r2chk1_of_lt (w : BitVec 32) (h : w.toNat < 16000) : k2_chk1 w := by
  unfold k2_chk1 k2_off2 k2_off17
  refine ⟨fun a => ?_, fun a => ?_⟩ <;> (fin_cases a <;> simp <;> omega)
/-- A row number below the row count names a row inside the filter matrix: copy 2's side condition. -/
theorem r2chk2_of_lt (w : BitVec 32) (h : w.toNat < 16000) : k2_chk2 w := by
  unfold k2_chk2 k2_off4 k2_off18
  refine ⟨fun a => ?_, fun a => ?_⟩ <;> (fin_cases a <;> simp <;> omega)
/-- A row number below the row count names a row inside the filter matrix: copy 3's side condition. -/
theorem r2chk3_of_lt (w : BitVec 32) (h : w.toNat < 16000) : k2_chk3 w := by
  unfold k2_chk3 k2_off6 k2_off19
  refine ⟨fun a => ?_, fun a => ?_⟩ <;> (fin_cases a <;> simp <;> omega)
/-- A row number below the row count names a row inside the filter matrix: copy 4's side condition. -/
theorem r2chk4_of_lt (w : BitVec 32) (h : w.toNat < 16000) : k2_chk4 w := by
  unfold k2_chk4 k2_off8 k2_off20
  refine ⟨fun a => ?_, fun a => ?_⟩ <;> (fin_cases a <;> simp <;> omega)
/-- A row number below the row count names a row inside the filter matrix: copy 5's side condition. -/
theorem r2chk5_of_lt (w : BitVec 32) (h : w.toNat < 16000) : k2_chk5 w := by
  unfold k2_chk5 k2_off10 k2_off21
  refine ⟨fun a => ?_, fun a => ?_⟩ <;> (fin_cases a <;> simp <;> omega)
/-- A row number below the row count names a row inside the filter matrix: copy 6's side condition. -/
theorem r2chk6_of_lt (w : BitVec 32) (h : w.toNat < 16000) : k2_chk6 w := by
  unfold k2_chk6 k2_off12 k2_off22
  refine ⟨fun a => ?_, fun a => ?_⟩ <;> (fin_cases a <;> simp <;> omega)
/-- A row number below the row count names a row inside the filter matrix: copy 7's side condition. -/
theorem r2chk7_of_lt (w : BitVec 32) (h : w.toNat < 16000) : k2_chk7 w := by
  unfold k2_chk7 k2_off14 k2_off23
  refine ⟨fun a => ?_, fun a => ?_⟩ <;> (fin_cases a <;> simp <;> omega)
theorem r2chk8_of_lt (w : BitVec 32) (h : w.toNat < 16000) : k2_chk8 w := by
  unfold k2_chk8 k2_off16
  intro a; fin_cases a <;> simp <;> omega

section Region2Data

variable (V : (c : Dev nD) → (b : Ref sig .tc) → Buf (Elt F) ((c : Thread nD τ).loc b))
variable (a : (pcfg2 (F := F)).Adm)
-- every word of the row-number table, as the pipeline was pinned at it, is a row number of the filter matrix
variable (hT : ∀ j, ((a.1 (0 : Fin 1) : Vec F S1024 .i32) j).toNat < 16000)

/-! ## What the output holds after each point -/

/-- The run at point `t`: the point's memrefs and blocks, the table at its pinned contents, every word's side condition
    from the table's range. -/
abbrev runAt2 (c : Dev nD) (t : Fin (cfg2 a).N) :=
  kernelRun2 (F := F) c (grid2.coords t) tbM2 (Memref.isWhole_whole _) (ms2_0 a t) (hs2_0 a t) (ms2_1 a t) (hs2_1 a t) (ms2_2 a t) (hs2_2 a t)
    scM2 (Memref.isWhole_whole _) (a.1 (0 : Fin 1)) (iblk2 V a c 0 t) (iblk2 V a c 1 t) (V c main_arg1)
    (r2chk1_of_lt _ (word_lt2 _ _ _ hT _ _)) (r2chk2_of_lt _ (word_lt2 _ _ _ hT _ _)) (r2chk3_of_lt _ (word_lt2 _ _ _ hT _ _)) (r2chk4_of_lt _ (word_lt2 _ _ _ hT _ _)) (r2chk5_of_lt _ (word_lt2 _ _ _ hT _ _)) (r2chk6_of_lt _ (word_lt2 _ _ _ hT _ _)) (r2chk7_of_lt _ (word_lt2 _ _ _ hT _ _)) (r2chk8_of_lt _ (word_lt2 _ _ _ hT _ _))

/-- The run's pieces tile the output block (one store of the whole block), so they cover it. -/
theorem cover2_2 (c : Dev nD) (t : Fin (cfg2 a).N) (y : S8x64.Idx) :
    ∃ pc ∈ (runAt2 V a hT c t).1, y ∈ pc.1.set :=
  View.cover_of_tiledL (runAt2 V a hT c t).1 S8x64.size (by sl_kernel_rfl) y

/-- What the output window's staging buffer holds after the body at point `t`: the run's pieces read back. -/
def outsAt2 (c : Dev nD) (t : Fin (cfg2 a).N) : Vec F S8x64 .f32 :=
  VO2_2.read (Elt F) (VO2_2.writes (Elt F) VO2_2.junk (runAt2 V a hT c t).1)

/-! ## The pipeline's proof data -/

/-- The proof data of the pipeline on core `c`: the arrays as the region finds them; after the body at point `t` each
    input's buffer at its block and the output's at `outsAt2`; the invariant `Phi2`; nothing owed; full shares. -/
def dat2 (c : Dev nD) : Dat τ (Elt F) Unit ℕ (Pipeline.UD sig nD τ) ℕ (cfg2 a) c where
  A w := V c (Pipeline.arrRef spec2 w)
  after w t := match w with
    | ⟨0, _⟩ => iblk2 V a c 0 t
    | ⟨1, _⟩ => iblk2 V a c 1 t
    | ⟨2, _⟩ => outsAt2 V a hT c t
  Φ _ := Phi2 V a c
  q _ := fullShare
  owed _ := 0

theorem A_eq2 (c : Dev nD) (w : Fin (cfg2 a).W) : (dat2 V a hT c).A w = V c (Pipeline.arrRef spec2 w) := by
  dsimp only [dat2]
theorem after2_0 (c : Dev nD) (t : Fin (cfg2 a).N) : (dat2 V a hT c).after 0 t = iblk2 V a c 0 t := rfl
theorem after2_1 (c : Dev nD) (t : Fin (cfg2 a).N) : (dat2 V a hT c).after 1 t = iblk2 V a c 1 t := rfl
theorem after2_2 (c : Dev nD) (t : Fin (cfg2 a).N) : (dat2 V a hT c).after 2 t = outsAt2 V a hT c t := rfl
theorem before2_0 (c : Dev nD) (t : Fin (cfg2 a).N) (d) : (dat2 V a hT c).before 0 t d = iblk2 V a c 0 t :=
  before2_0_of V a (dat2 V a hT c) (A_eq2 V a hT c 0) (after2_0 V a hT c) t d
theorem before2_1 (c : Dev nD) (t : Fin (cfg2 a).N) (d) : (dat2 V a hT c).before 1 t d = iblk2 V a c 1 t :=
  before2_1_of V a (dat2 V a hT c) (A_eq2 V a hT c 1) (after2_1 V a hT c) t d

/-! ## The invariant, conjunct by conjunct -/

theorem Phi2_eq (c : Dev nD) :
    (Phi2 V a c : sProp 𝕄)
      = iprop(iprop(iprop((∃ d, owns (c : Thread nD τ) scM2 fullShare d) ∗ others2 c)
          ∗ (∃ r, prngReg c r)
          ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
          ∗ hbPt2 c hbM2 (V c main_arg1))
        ∗ owns (c : Thread nD τ) tbM2 fullShare (a.1 (0 : Fin 1))) := by
  unfold Phi2
  rw [Pipeline.ΦD_eq, scopedRest2_split, ownSems02_eq, hbmPts2_eq, prefHeld2_eq,
    show (owns (c : Thread nD τ) tbM2 fullShare (a.1 (0 : Fin 1)) : sProp 𝕄) = (((c : Thread nD τ).loc main_arg9) ↦{fullShare} a.1 (0 : Fin 1))
      from owns_whole _ _ _ _]
  rfl

/-! ## The body obligation -/

def bodyPre2 (c : Dev nD) (t : Fin (cfg2 a).N) : sProp 𝕄 :=
  iprop((dat2 V a hT c).Φ t.castSucc ∗ (dat2 V a hT c).owesAt () t.castSucc
    ∗ (∃ d, owns (c : Thread nD τ) (ms2_0 a t) fullShare ((dat2 V a hT c).before 0 t d))
    ∗ (∃ d, owns (c : Thread nD τ) (ms2_1 a t) fullShare ((dat2 V a hT c).before 1 t d))
    ∗ (∃ d, owns (c : Thread nD τ) (ms2_2 a t) fullShare ((dat2 V a hT c).before 2 t d)))

def bodyPost2 (c : Dev nD) (t : Fin (cfg2 a).N) : sProp 𝕄 :=
  iprop((dat2 V a hT c).Φ t.succ ∗ (dat2 V a hT c).owesAt () t.succ
    ∗ owns (c : Thread nD τ) (ms2_0 a t) fullShare ((dat2 V a hT c).after 0 t)
    ∗ owns (c : Thread nD τ) (ms2_1 a t) fullShare ((dat2 V a hT c).after 1 t)
    ∗ owns (c : Thread nD τ) (ms2_2 a t) fullShare ((dat2 V a hT c).after 2 t))

set_option maxHeartbeats 4000000 in
/-- The body at any point: the inputs' memrefs hold their blocks, the invariant hands the body its scratch, its eight
    cells at zero, the filter matrix and the table, and takes them back as they were; the core's `owes` goes in at what
    the points before recorded and comes back with this point's waits. -/
theorem sound_body2 (c : Dev nD) (t : Fin (cfg2 a).N) :
    bodyPre2 V a hT c t ⊢ wp frame (wpE (defs₀ (F := F)) Variants.none c none) Set.univ (bodyAt2 a t) (fun _ => bodyPost2 V a hT c t) := by
  unfold bodyPre2 bodyPost2 bodyAt2
  simp only [before2_0, before2_1]
  rw [show (dat2 V a hT c).Φ t.succ = (dat2 V a hT c).Φ t.castSucc from rfl,
    after2_0, after2_1, after2_2]
  rw [show (dat2 V a hT c).Φ t.castSucc = Phi2 V a c from rfl, Phi2_eq]
  unfold Dat.owesAt Pipeline.owesWithin
  rw [show (dat2 V a hT c).owed t.castSucc = 0 from rfl, show (dat2 V a hT c).owed t.succ = 0 from rfl]
  unfold outsAt2
  iintro ⟨⟨⟨⟨HS0, HR⟩, Hg, ⟨Hq0, Hq1, Hq2, Hq3, Hq4, Hq5, Hq6, Hq7⟩, Hh0⟩, HT⟩, ⟨%W, -, HW⟩, ⟨%d0, Hw0⟩, ⟨%d1, Hw1⟩, ⟨%d2, Hw2⟩⟩
  iapply ((runAt2 V a hT c t).2 W _)
  isplitl [HT]; · iexact HT
  isplitl [Hw0]; · iexact Hw0
  isplitl [Hw1]; · iexact Hw1
  isplitl [Hw2]; · iexists _; iexact Hw2
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨HT, Hw0, Hw1, ⟨%e2, Hw2⟩, HS0, Hq0, Hq1, Hq2, Hq3, Hq4, Hq5, Hq6, Hq7, Hh0, ⟨%W', HW'⟩⟩
  isplitl [HS0 HR Hg Hq0 Hq1 Hq2 Hq3 Hq4 Hq5 Hq6 Hq7 Hh0 HT]
  · isplitl [HS0 HR Hg Hq0 Hq1 Hq2 Hq3 Hq4 Hq5 Hq6 Hq7 Hh0]
    · isplitl [HS0 HR]
      · isplitl [HS0]; · iexact HS0
        iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact HT
  isplitl [HW']
  · iexists W'; isplitr; · ipureintro; exact fun _ _ => Or.inl trivial
    iexact HW'
  isplitl [Hw0]; · iexact Hw0
  isplitl [Hw1]; · iexact Hw1
  unfold owns; iexists _; isplitr
  swap; · iexact Hw2
  ipureintro; exact View.read_writes_of_cover _ _ _ _ _ (cover2_2 V a hT c t)

/-- The library's body obligation, at every point. -/
theorem body_obligation2 (c : Dev nD) : BodyObligation (dat2 (F := F) V a hT c) (defs₀ (F := F)) Variants.none () Set.univ := fun t => by
  rw [bigSep_W2, bigSep_W2]
  exact sound_body2 V a hT c t

end Region2Data

end Cert.KernelIdeal.Hand

end
-- ==== Proof.Reg3.lean ====
/-
  Region 3 (the loss): one grid point. The body loads the three feature matrices whole, computes the loss from them
  and stores it as the one entry of its output block. It keeps nothing between points and touches nothing else, so the
  region's invariant is only what the body may use and need not describe: the core's other scoped buffers at some
  contents and the generator register at some state.
-/
import proofs.«421540_j73229192397035_2_alg».proof.Proof.Gen.KernelIdeal.Launch
import proofs.«421540_j73229192397035_2_alg».proof.Proof.Gen.KernelIdeal.Skeleton
import proofs.«421540_j73229192397035_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, for any proof data whose array is the entry
    contents and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's one store -/

abbrev r3_0 : Rect S1x1 := Rect.unit (s := S1x1) ![0, 0] S1x1.size inb_S1x1_S1x1_0_0

/-- The value the body stores, from the three loaded feature matrices: the loss's arithmetic as the body spells it. -/
def lossPay (x0 x1 x2 : Vec F S1024x64 .f32) : FVec F S1x1 .f32 :=
  k3_pay1 (k3_pay5 x0 x1 x2) (k3_pay6 x0) (k3_pay7 x1) (k3_pay8 x2)

/-- The rectangle each feature matrix is loaded through: the whole block. -/
abbrev rIn3 : Rect S1024x64 := Rect.unit (s := S1024x64) ![0, 0] S1024x64.size inb_S1024x64_S1024x64_0_0

/-- The output window's staging buffer after the body: its one store, as a piece, of the three blocks as loaded. -/
def out3_3 (x0 x1 x2 : Vec F S1024x64 .f32) : Vec F S1x1 .f32 :=
  View.canon [⟨r3_0, lossPay (View.ld x0 rIn3) (View.ld x1 rIn3) (View.ld x2 rIn3)⟩]

/-- The store covers the one-entry buffer. -/
theorem cover3_3 (p0 : Vec F S1x1 .f32) (y : S1x1.Idx) :
    ∃ pc ∈ ([⟨r3_0, p0⟩] : List (View.Piece (Elt F) S1x1 .f32)), y ∈ pc.1.set :=
  View.cover_of_tiled [⟨r3_0, p0⟩] S1x1.size (by rfl) y

/-! ## The body's triple -/

set_option maxHeartbeats 4000000 in
/-- The body on whole staging memrefs, the inputs' at read contents and the output's at anything, runs to the
    continuation holding the inputs' as they were and the output's at `out3_3` of them. -/
theorem sound_kernel3 (c : Dev nD) (E : Set ℕ) (i : grid3.Coords) (arg1 : Memref sig .tc .vmem S1024x64 .f32) (harg1 : arg1.IsWhole)
    (arg2 : Memref sig .tc .vmem S1024x64 .f32) (harg2 : arg2.IsWhole) (arg3 : Memref sig .tc .vmem S1024x64 .f32) (harg3 : arg3.IsWhole)
    (arg4 : Memref sig .tc .vmem S1x1 .f32) (harg4 : arg4.IsWhole)
    (x0 x1 x2 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bpr_loss_kernel i arg1 harg1 arg2 harg2 arg3 harg3 arg4 harg4) K := by
  simp only [cc3__bpr_loss_kernel_eq_skeleton]; unfold cc3__bpr_loss_kernel_skel
  simp only [k3_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _ (cover3_3 (F := F) _)

section Region3Data

variable (V : (c : Dev nD) → (b : Ref sig .tc) → Buf (Elt F) ((c : Thread nD τ).loc b))

/-! ## The pipeline's proof data -/

/-- The proof data of the loss pipeline on core `c`: the arrays as the region finds them; after the body each input's
    buffer at its block and the output's at the stored loss; the invariant the scoped rest and the generator register,
    untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at the point: the inputs' memrefs hold their blocks, so the triple applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3Data

end Cert.KernelIdeal.Hand

end
-- ==== Proof.Launch.lean ====
/-
  The whole program: four kernel regions and one closing host operation, from the launch to the return.

  Between two items the core holds every unscoped buffer whole at known contents: the launch memory, then after each
  region that region's arrays at what its pipeline leaves and everything else as before, then the closing reshape. Each
  region is entered from those contents and left at the next ones; the run of the whole program then reads, for EVERY
  unscoped buffer, the final memory at the last contents. The frame (each argument ends as launched) and the value of
  the result are both read off that one statement.
-/
import proofs.«421540_j73229192397035_2_alg».proof.Proof.Reg0
import proofs.«421540_j73229192397035_2_alg».proof.Proof.Reg1
import proofs.«421540_j73229192397035_2_alg».proof.Proof.Reg2
import proofs.«421540_j73229192397035_2_alg».proof.Proof.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The row-number tables the pipelines are pinned at -/

/-- Each table region's table, read at the launch memory (no item writes an argument). -/
def tbl0 : pre0.Contents (Elt F) := fun k => m (((0 : Dev nD) : Thread nD τ).loc (pre0.ref k))
def tbl1 : pre1.Contents (Elt F) := fun k => m (((0 : Dev nD) : Thread nD τ).loc (pre1.ref k))
def tbl2 : pre2.Contents (Elt F) := fun k => m (((0 : Dev nD) : Thread nD τ).loc (pre2.ref k))

/-- The admissible contents of every pipeline's tables: the side condition on them is empty. -/
def adm : (p : Fin 4) → (pcfgs (F := F) p).Adm
  | ⟨0, _⟩ => ⟨tbl0 m, trivial⟩
  | ⟨1, _⟩ => ⟨tbl1 m, trivial⟩
  | ⟨2, _⟩ => ⟨tbl2 m, trivial⟩
  | ⟨3, _⟩ => cfg3.toPCfg_adm

theorem hT0 (hU : ∀ j, ((m (((0 : Dev nD) : Thread nD τ).loc main_arg7) : Vec F S1024 .i32) j).toNat < 12000) :
    ∀ j, (((adm m 0).1 (0 : Fin 1) : Vec F S1024 .i32) j).toNat < 12000 := hU
theorem hT1 (hP : ∀ j, ((m (((0 : Dev nD) : Thread nD τ).loc main_arg8) : Vec F S1024 .i32) j).toNat < 16000) :
    ∀ j, (((adm m 1).1 (0 : Fin 1) : Vec F S1024 .i32) j).toNat < 16000 := hP
theorem hT2 (hN : ∀ j, ((m (((0 : Dev nD) : Thread nD τ).loc main_arg9) : Vec F S1024 .i32) j).toNat < 16000) :
    ∀ j, (((adm m 2).1 (0 : Fin 1) : Vec F S1024 .i32) j).toNat < 16000 := hN

/-- Every word of the three row-number vectors, as launched, is a row number of the filter it indexes. -/
structure Ranges (m : (ℓ : Loc nD τ sig) → Buf (Elt F) ℓ) : Prop where
  hU : ∀ j, ((m (((0 : Dev nD) : Thread nD τ).loc main_arg7) : Vec F S1024 .i32) j).toNat < 12000
  hP : ∀ j, ((m (((0 : Dev nD) : Thread nD τ).loc main_arg8) : Vec F S1024 .i32) j).toNat < 16000
  hN : ∀ j, ((m (((0 : Dev nD) : Thread nD τ).loc main_arg9) : Vec F S1024 .i32) j).toNat < 16000

/-! ## The buffer contents at each boundary -/

/-- Core `c`'s buffers at launch. -/
abbrev W0 (hR : Ranges m) : Dev nD → Valuation τ sig (Elt F) := fun c b => m ((c : Dev nD), b)
abbrev V0 (hR : Ranges m) : (c : Dev nD) → (b : Ref sig .tc) → Buf (Elt F) ((c : Thread nD τ).loc b) := fun c b => W0 m hR c b

/-- After region 0: its arrays at what the pipeline leaves, every other buffer as before it. -/
def W1 (hR : Ranges m) (c : Dev nD) : Valuation τ sig (Elt F) :=
  Pipeline.withArrays spec0 c (W0 m hR c) fun w => (dat0 (V0 m hR) (adm m 0) (hT0 m hR.hU) c).arrAt w (cfg0 (adm m 0)).N
theorem W1_arr (hR : Ranges m) (c : Dev nD) (w : Fin (cfg0 (adm m 0)).W) :
    W1 m hR c (Proc.devRef .tc (Pipeline.arrRef spec0 w)) = (dat0 (V0 m hR) (adm m 0) (hT0 m hR.hU) c).arrAt w (cfg0 (adm m 0)).N := by
  unfold W1; exact Pipeline.withArrays_arr spec0 (launch0 (F := F)).win.arr_inj c _ _ w
theorem W1_of_ne (hR : Ranges m) (c : Dev nD) (b : Ref sig .tc) (hb : ∀ w, Pipeline.arrRef spec0 w ≠ b) :
    W1 m hR c (Proc.devRef .tc b) = W0 m hR c (Proc.devRef .tc b) := by
  unfold W1; exact Pipeline.withArrays_of_ne spec0 c _ _ b hb
abbrev V1 (hR : Ranges m) : (c : Dev nD) → (b : Ref sig .tc) → Buf (Elt F) ((c : Thread nD τ).loc b) := fun c b => W1 m hR c b
theorem hF0 (hR : Ranges m) (c : Dev nD) (w : Fin (cfg0 (adm m 0)).W) : (dat0 (V0 m hR) (adm m 0) (hT0 m hR.hU) c).arrAt w (cfg0 (adm m 0)).N = V1 m hR c (Pipeline.arrRef spec0 w) :=
  (W1_arr m hR c w).symm
theorem hrest0 (hR : Ranges m) (c : Dev nD) : ∀ b, b ∉ Finset.univ.image (Pipeline.arrRef spec0) → V1 m hR c b = V0 m hR c b :=
  fun b hb => W1_of_ne m hR c b fun w e => hb (Finset.mem_image.mpr ⟨w, Finset.mem_univ _, e⟩)

/-- After region 1: its arrays at what the pipeline leaves, every other buffer as before it. -/
def W2 (hR : Ranges m) (c : Dev nD) : Valuation τ sig (Elt F) :=
  Pipeline.withArrays spec1 c (W1 m hR c) fun w => (dat1 (V1 m hR) (adm m 1) (hT1 m hR.hP) c).arrAt w (cfg1 (adm m 1)).N
theorem W2_arr (hR : Ranges m) (c : Dev nD) (w : Fin (cfg1 (adm m 1)).W) :
    W2 m hR c (Proc.devRef .tc (Pipeline.arrRef spec1 w)) = (dat1 (V1 m hR) (adm m 1) (hT1 m hR.hP) c).arrAt w (cfg1 (adm m 1)).N := by
  unfold W2; exact Pipeline.withArrays_arr spec1 (launch1 (F := F)).win.arr_inj c _ _ w
theorem W2_of_ne (hR : Ranges m) (c : Dev nD) (b : Ref sig .tc) (hb : ∀ w, Pipeline.arrRef spec1 w ≠ b) :
    W2 m hR c (Proc.devRef .tc b) = W1 m hR c (Proc.devRef .tc b) := by
  unfold W2; exact Pipeline.withArrays_of_ne spec1 c _ _ b hb
abbrev V2 (hR : Ranges m) : (c : Dev nD) → (b : Ref sig .tc) → Buf (Elt F) ((c : Thread nD τ).loc b) := fun c b => W2 m hR c b
theorem hF1 (hR : Ranges m) (c : Dev nD) (w : Fin (cfg1 (adm m 1)).W) : (dat1 (V1 m hR) (adm m 1) (hT1 m hR.hP) c).arrAt w (cfg1 (adm m 1)).N = V2 m hR c (Pipeline.arrRef spec1 w) :=
  (W2_arr m hR c w).symm
theorem hrest1 (hR : Ranges m) (c : Dev nD) : ∀ b, b ∉ Finset.univ.image (Pipeline.arrRef spec1) → V2 m hR c b = V1 m hR c b :=
  fun b hb => W2_of_ne m hR c b fun w e => hb (Finset.mem_image.mpr ⟨w, Finset.mem_univ _, e⟩)

/-- After region 2: its arrays at what the pipeline leaves, every other buffer as before it. -/
def W3 (hR : Ranges m) (c : Dev nD) : Valuation τ sig (Elt F) :=
  Pipeline.withArrays spec2 c (W2 m hR c) fun w => (dat2 (V2 m hR) (adm m 2) (hT2 m hR.hN) c).arrAt w (cfg2 (adm m 2)).N
theorem W3_arr (hR : Ranges m) (c : Dev nD) (w : Fin (cfg2 (adm m 2)).W) :
    W3 m hR c (Proc.devRef .tc (Pipeline.arrRef spec2 w)) = (dat2 (V2 m hR) (adm m 2) (hT2 m hR.hN) c).arrAt w (cfg2 (adm m 2)).N := by
  unfold W3; exact Pipeline.withArrays_arr spec2 (launch2 (F := F)).win.arr_inj c _ _ w
theorem W3_of_ne (hR : Ranges m) (c : Dev nD) (b : Ref sig .tc) (hb : ∀ w, Pipeline.arrRef spec2 w ≠ b) :
    W3 m hR c (Proc.devRef .tc b) = W2 m hR c (Proc.devRef .tc b) := by
  unfold W3; exact Pipeline.withArrays_of_ne spec2 c _ _ b hb
abbrev V3 (hR : Ranges m) : (c : Dev nD) → (b : Ref sig .tc) → Buf (Elt F) ((c : Thread nD τ).loc b) := fun c b => W3 m hR c b
theorem hF2 (hR : Ranges m) (c : Dev nD) (w : Fin (cfg2 (adm m 2)).W) : (dat2 (V2 m hR) (adm m 2) (hT2 m hR.hN) c).arrAt w (cfg2 (adm m 2)).N = V3 m hR c (Pipeline.arrRef spec2 w) :=
  (W3_arr m hR c w).symm
theorem hrest2 (hR : Ranges m) (c : Dev nD) : ∀ b, b ∉ Finset.univ.image (Pipeline.arrRef spec2) → V3 m hR c b = V2 m hR c b :=
  fun b hb => W3_of_ne m hR c b fun w e => hb (Finset.mem_image.mpr ⟨w, Finset.mem_univ _, e⟩)

/-- After region 3: its arrays at what the pipeline leaves, every other buffer as before it. -/
def W4 (hR : Ranges m) (c : Dev nD) : Valuation τ sig (Elt F) :=
  Pipeline.withArrays spec3 c (W3 m hR c) fun w => (dat3 (V3 m hR) c).arrAt w cfg3.N
theorem W4_arr (hR : Ranges m) (c : Dev nD) (w : Fin cfg3.W) :
    W4 m hR c (Proc.devRef .tc (Pipeline.arrRef spec3 w)) = (dat3 (V3 m hR) c).arrAt w cfg3.N := by
  unfold W4; exact Pipeline.withArrays_arr spec3 (launch3 (F := F)).win.arr_inj c _ _ w
theorem W4_of_ne (hR : Ranges m) (c : Dev nD) (b : Ref sig .tc) (hb : ∀ w, Pipeline.arrRef spec3 w ≠ b) :
    W4 m hR c (Proc.devRef .tc b) = W3 m hR c (Proc.devRef .tc b) := by
  unfold W4; exact Pipeline.withArrays_of_ne spec3 c _ _ b hb
abbrev V4 (hR : Ranges m) : (c : Dev nD) → (b : Ref sig .tc) → Buf (Elt F) ((c : Thread nD τ).loc b) := fun c b => W4 m hR c b
theorem hF3 (hR : Ranges m) (c : Dev nD) (w : Fin cfg3.W) : (dat3 (V3 m hR) c).arrAt w cfg3.N = V4 m hR c (Pipeline.arrRef spec3 w) :=
  (W4_arr m hR c w).symm
theorem hrest3 (hR : Ranges m) (c : Dev nD) : ∀ b, b ∉ Finset.univ.image (Pipeline.arrRef spec3) → V4 m hR c b = V3 m hR c b :=
  fun b hb => W4_of_ne m hR c b fun w e => hb (Finset.mem_image.mpr ⟨w, Finset.mem_univ _, e⟩)

/-- After the closing host operation. -/
abbrev W5 (hR : Ranges m) (c : Dev nD) : Valuation τ sig (Elt F) := StableHlo.after hostOps4 (W4 m hR c)

/-! ### No item writes an argument, so each table region finds its table as launched -/

theorem W0_main_arg7 (hR : Ranges m) (c : Dev nD) : W0 m hR c (Proc.devRef .tc main_arg7) = m ((c : Thread nD τ).loc main_arg7) := by
  rfl
/-- The table region 0 is pinned at is the table it finds. -/
theorem tbl0_eq (hR : Ranges m) : (fun k => V0 m hR (0 : Dev nD) (pre0.ref k)) = (adm m 0).1 := by
  funext k
  match k with
  | ⟨0, _⟩ => exact W0_main_arg7 m hR 0
theorem W1_main_arg8 (hR : Ranges m) (c : Dev nD) : W1 m hR c (Proc.devRef .tc main_arg8) = m ((c : Thread nD τ).loc main_arg8) := by
  rw [W1_of_ne m hR c main_arg8 (by decide)]
/-- The table region 1 is pinned at is the table it finds. -/
theorem tbl1_eq (hR : Ranges m) : (fun k => V1 m hR (0 : Dev nD) (pre1.ref k)) = (adm m 1).1 := by
  funext k
  match k with
  | ⟨0, _⟩ => exact W1_main_arg8 m hR 0
theorem W2_main_arg9 (hR : Ranges m) (c : Dev nD) : W2 m hR c (Proc.devRef .tc main_arg9) = m ((c : Thread nD τ).loc main_arg9) := by
  rw [W2_of_ne m hR c main_arg9 (by decide)]
  rw [W1_of_ne m hR c main_arg9 (by decide)]
/-- The table region 2 is pinned at is the table it finds. -/
theorem tbl2_eq (hR : Ranges m) : (fun k => V2 m hR (0 : Dev nD) (pre2.ref k)) = (adm m 2).1 := by
  funext k
  match k with
  | ⟨0, _⟩ => exact W2_main_arg9 m hR 0

/-! ## The proof data family and the thread state -/

/-- Every pipeline's proof data, each at its region's entry contents. -/
def pdats (hR : Ranges m) : (p : Fin 4) → (c : Dev nD) → Dat τ (Elt F) Unit ℕ (Pipeline.UD sig nD τ) ℕ (Pipeline.pin (pcfgs (F := F)) (adm m) p) c
  | ⟨0, _⟩ => fun c => dat0 (V0 m hR) (adm m 0) (hT0 m hR.hU) c
  | ⟨1, _⟩ => fun c => dat1 (V1 m hR) (adm m 1) (hT1 m hR.hP) c
  | ⟨2, _⟩ => fun c => dat2 (V2 m hR) (adm m 2) (hT2 m hR.hN) c
  | ⟨3, _⟩ => fun c => dat3 (V3 m hR) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at
    nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (hR : Ranges m) (c : Dev nD) : sProp 𝕄 := iprop(StableHlo.held (c : Thread nD τ) (Pipeline.ucRefs τ sig) (W5 m hR c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; of the rest, the
    row-number table goes to the pipeline (and through it to the body) and comes back, the filter matrix goes into the
    invariant beside the eight semaphores and the generator register and comes back, everything else bypasses. -/
def reg0 (hR : Ranges m) : Pipeline.RegionSeg (pcfgs (F := F)) (adm m) (pdats m hR) () defs₀ 𝒱₀ L lv 0 where
  win := (launch0 (F := F)).win.to₀
  block_pos := (launch0 (F := F)).block_pos
  stage_whole := (launch0 (F := F)).stage_whole
  K := Fin 8
  osem := osem0
  ho := ownSemFacts0
  hbody c := (body_obligation0 (V0 m hR) (adm m 0) (hT0 m hR.hU) c).loose
  hwaits := Pipeline.hwaits_of_owed_zero _ _ _ _ L lv 0 fun _ _ => rfl
  pre c := iprop(StableHlo.held (c : Thread nD τ) (Pipeline.ucRefs τ sig) (W0 m hR c) ∗ R c)
  post c := iprop(StableHlo.held (c : Thread nD τ) (Pipeline.ucRefs τ sig) (W1 m hR c) ∗ R c)
  X c := iprop((∃ r, prngReg c r) ∗ Pipeline.ownSems0 (Ix := Unit) (Name := ℕ) (U := Pipeline.UD sig nD τ) (Lvl := ℕ) (Val := Elt F) (τ := τ) osem0 c
      ∗ (bigSep H0 fun b => (((c : Thread nD τ)).loc b) ↦{fullShare} V0 m hR c b))
  Y c := iprop((∃ r, prngReg c r) ∗ (bigSep H0 fun b => (((c : Thread nD τ)).loc b) ↦{fullShare} V0 m hR c b)
      ∗ Pipeline.prefHeld (Ix := Unit) (Name := ℕ) (U := Pipeline.UD sig nD τ) (Lvl := ℕ) pre0 c (fun _ => fullShare) (adm m 0).1)
  Z c := bigSep (Pipeline.restRefsP sig pre0 spec0 \ H0) fun b => (((c : Thread nD τ)).loc b) ↦{fullShare} V0 m hR c b
  hentry c := by
    obtain rfl : c = 0 := Subsingleton.elim _ _
    have hsplit := Pipeline.arrays_of_unscopedBufs (p := 0) (pcfgs (F := F)) (adm m) (pdats m hR) (launch0 (F := F)).win (launch0 (F := F)).arr_whole 0
      ((pdats m hR 0 0).share_full fun _ => rfl) (V0 m hR 0) fun _ => rfl
    rw [Pipeline.unscopedBufs_held] at hsplit
    have hT : (Pipeline.unscopedRest (Ix := Unit) (Name := ℕ) (U := Pipeline.UD sig nD τ) (Lvl := ℕ) spec0 0 (V0 m hR 0) : sProp 𝕄)
        = iprop(Pipeline.prefHeld pre0 0 (fun _ => fullShare) (adm m 0).1 ∗ Pipeline.unscopedRestP pre0 spec0 0 (V0 m hR 0)) :=
      (Pipeline.unscopedRest_split (launch0 (F := F)).pre 0 (V0 m hR 0)).trans
        (congrArg (fun v => (iprop(Pipeline.prefHeld pre0 0 (fun _ => fullShare) v ∗ Pipeline.unscopedRestP pre0 spec0 0 (V0 m hR 0)) : sProp 𝕄)) (tbl0_eq m hR))
    have hH := Pipeline.unscopedRestP_sdiff pre0 spec0 H0 H0_sub (0 : Dev nD) (V0 m hR 0) (Val := Elt F)
    iintro ⟨⟨Hub, Hp, HO⟩, Hos, -⟩
    ihave H := hsplit $$ Hub
    icases H with ⟨Ha, Hrest⟩
    ihave H' := (Entails.of_eq hT) $$ Hrest
    icases H' with ⟨HT, HrP⟩
    ihave H'' := (Entails.of_eq hH) $$ HrP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hR 0 c).Φ 0 = Phi0 (V0 m hR) (adm m 0) c from rfl]; unfold Phi0; rw [Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m hR 0 c).Φ (Fin.last _) = Phi0 (V0 m hR) (adm m 0) c from rfl]; unfold Phi0; rw [Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    obtain rfl : c = 0 := Subsingleton.elim _ _
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole 0 (pdats m hR) ((pdats m hR 0 0).share_full fun _ => rfl)
      (V0 m hR 0) (V1 m hR 0) ((pdats m hR 0 0).arrAt · (cfg0 (adm m 0)).N) (hF0 m hR 0) (hrest0 m hR 0)
    rw [Pipeline.unscopedBufs_held] at hjoin
    have hT : (Pipeline.unscopedRest (Ix := Unit) (Name := ℕ) (U := Pipeline.UD sig nD τ) (Lvl := ℕ) spec0 0 (V0 m hR 0) : sProp 𝕄)
        = iprop(Pipeline.prefHeld pre0 0 (fun _ => fullShare) (adm m 0).1 ∗ Pipeline.unscopedRestP pre0 spec0 0 (V0 m hR 0)) :=
      (Pipeline.unscopedRest_split (launch0 (F := F)).pre 0 (V0 m hR 0)).trans
        (congrArg (fun v => (iprop(Pipeline.prefHeld pre0 0 (fun _ => fullShare) v ∗ Pipeline.unscopedRestP pre0 spec0 0 (V0 m hR 0)) : sProp 𝕄)) (tbl0_eq m hR))
    have hH := Pipeline.unscopedRestP_sdiff pre0 spec0 H0 H0_sub (0 : Dev nD) (V0 m hR 0) (Val := Elt F)
    iintro ⟨Ha, HO, ⟨HY, HH, HT⟩, HR⟩
    ihave HrP := (Entails.of_eq hH.symm) $$ [HH HR]
    · isplitl [HH]; · iexact HH
      iexact HR
    ihave Hrest := (Entails.of_eq hT.symm) $$ [HT HrP]
    · isplitl [HT]; · iexact HT
      iexact HrP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; of the rest, the
    row-number table goes to the pipeline (and through it to the body) and comes back, the filter matrix goes into the
    invariant beside the eight semaphores and the generator register and comes back, everything else bypasses. -/
def reg1 (hR : Ranges m) : Pipeline.RegionSeg (pcfgs (F := F)) (adm m) (pdats m hR) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := (body_obligation1 (V1 m hR) (adm m 1) (hT1 m hR.hP) c).loose
  hwaits := Pipeline.hwaits_of_owed_zero _ _ _ _ L lv 1 fun _ _ => rfl
  pre c := iprop(StableHlo.held (c : Thread nD τ) (Pipeline.ucRefs τ sig) (W1 m hR c) ∗ R c)
  post c := iprop(StableHlo.held (c : Thread nD τ) (Pipeline.ucRefs τ sig) (W2 m hR c) ∗ R c)
  X c := iprop((∃ r, prngReg c r) ∗ Pipeline.ownSems0 (Ix := Unit) (Name := ℕ) (U := Pipeline.UD sig nD τ) (Lvl := ℕ) (Val := Elt F) (τ := τ) osem1 c
      ∗ (bigSep H1 fun b => (((c : Thread nD τ)).loc b) ↦{fullShare} V1 m hR c b))
  Y c := iprop((∃ r, prngReg c r) ∗ (bigSep H1 fun b => (((c : Thread nD τ)).loc b) ↦{fullShare} V1 m hR c b)
      ∗ Pipeline.prefHeld (Ix := Unit) (Name := ℕ) (U := Pipeline.UD sig nD τ) (Lvl := ℕ) pre1 c (fun _ => fullShare) (adm m 1).1)
  Z c := bigSep (Pipeline.restRefsP sig pre1 spec1 \ H1) fun b => (((c : Thread nD τ)).loc b) ↦{fullShare} V1 m hR c b
  hentry c := by
    obtain rfl : c = 0 := Subsingleton.elim _ _
    have hsplit := Pipeline.arrays_of_unscopedBufs (p := 1) (pcfgs (F := F)) (adm m) (pdats m hR) (launch1 (F := F)).win (launch1 (F := F)).arr_whole 0
      ((pdats m hR 1 0).share_full fun _ => rfl) (V1 m hR 0) fun _ => rfl
    rw [Pipeline.unscopedBufs_held] at hsplit
    have hT : (Pipeline.unscopedRest (Ix := Unit) (Name := ℕ) (U := Pipeline.UD sig nD τ) (Lvl := ℕ) spec1 0 (V1 m hR 0) : sProp 𝕄)
        = iprop(Pipeline.prefHeld pre1 0 (fun _ => fullShare) (adm m 1).1 ∗ Pipeline.unscopedRestP pre1 spec1 0 (V1 m hR 0)) :=
      (Pipeline.unscopedRest_split (launch1 (F := F)).pre 0 (V1 m hR 0)).trans
        (congrArg (fun v => (iprop(Pipeline.prefHeld pre1 0 (fun _ => fullShare) v ∗ Pipeline.unscopedRestP pre1 spec1 0 (V1 m hR 0)) : sProp 𝕄)) (tbl1_eq m hR))
    have hH := Pipeline.unscopedRestP_sdiff pre1 spec1 H1 H1_sub (0 : Dev nD) (V1 m hR 0) (Val := Elt F)
    iintro ⟨⟨Hub, Hp, HO⟩, Hos, -⟩
    ihave H := hsplit $$ Hub
    icases H with ⟨Ha, Hrest⟩
    ihave H' := (Entails.of_eq hT) $$ Hrest
    icases H' with ⟨HT, HrP⟩
    ihave H'' := (Entails.of_eq hH) $$ HrP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hR 1 c).Φ 0 = Phi1 (V1 m hR) (adm m 1) c from rfl]; unfold Phi1; rw [Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m hR 1 c).Φ (Fin.last _) = Phi1 (V1 m hR) (adm m 1) c from rfl]; unfold Phi1; rw [Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    obtain rfl : c = 0 := Subsingleton.elim _ _
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole 0 (pdats m hR) ((pdats m hR 1 0).share_full fun _ => rfl)
      (V1 m hR 0) (V2 m hR 0) ((pdats m hR 1 0).arrAt · (cfg1 (adm m 1)).N) (hF1 m hR 0) (hrest1 m hR 0)
    rw [Pipeline.unscopedBufs_held] at hjoin
    have hT : (Pipeline.unscopedRest (Ix := Unit) (Name := ℕ) (U := Pipeline.UD sig nD τ) (Lvl := ℕ) spec1 0 (V1 m hR 0) : sProp 𝕄)
        = iprop(Pipeline.prefHeld pre1 0 (fun _ => fullShare) (adm m 1).1 ∗ Pipeline.unscopedRestP pre1 spec1 0 (V1 m hR 0)) :=
      (Pipeline.unscopedRest_split (launch1 (F := F)).pre 0 (V1 m hR 0)).trans
        (congrArg (fun v => (iprop(Pipeline.prefHeld pre1 0 (fun _ => fullShare) v ∗ Pipeline.unscopedRestP pre1 spec1 0 (V1 m hR 0)) : sProp 𝕄)) (tbl1_eq m hR))
    have hH := Pipeline.unscopedRestP_sdiff pre1 spec1 H1 H1_sub (0 : Dev nD) (V1 m hR 0) (Val := Elt F)
    iintro ⟨Ha, HO, ⟨HY, HH, HT⟩, HR⟩
    ihave HrP := (Entails.of_eq hH.symm) $$ [HH HR]
    · isplitl [HH]; · iexact HH
      iexact HR
    ihave Hrest := (Entails.of_eq hT.symm) $$ [HT HrP]
    · isplitl [HT]; · iexact HT
      iexact HrP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; of the rest, the
    row-number table goes to the pipeline (and through it to the body) and comes back, the filter matrix goes into the
    invariant beside the eight semaphores and the generator register and comes back, everything else bypasses. -/
def reg2 (hR : Ranges m) : Pipeline.RegionSeg (pcfgs (F := F)) (adm m) (pdats m hR) () defs₀ 𝒱₀ L lv 2 where
  win := (launch2 (F := F)).win.to₀
  block_pos := (launch2 (F := F)).block_pos
  stage_whole := (launch2 (F := F)).stage_whole
  K := Fin 8
  osem := osem2
  ho := ownSemFacts2
  hbody c := (body_obligation2 (V2 m hR) (adm m 2) (hT2 m hR.hN) c).loose
  hwaits := Pipeline.hwaits_of_owed_zero _ _ _ _ L lv 2 fun _ _ => rfl
  pre c := iprop(StableHlo.held (c : Thread nD τ) (Pipeline.ucRefs τ sig) (W2 m hR c) ∗ R c)
  post c := iprop(StableHlo.held (c : Thread nD τ) (Pipeline.ucRefs τ sig) (W3 m hR c) ∗ R c)
  X c := iprop((∃ r, prngReg c r) ∗ Pipeline.ownSems0 (Ix := Unit) (Name := ℕ) (U := Pipeline.UD sig nD τ) (Lvl := ℕ) (Val := Elt F) (τ := τ) osem2 c
      ∗ (bigSep H2 fun b => (((c : Thread nD τ)).loc b) ↦{fullShare} V2 m hR c b))
  Y c := iprop((∃ r, prngReg c r) ∗ (bigSep H2 fun b => (((c : Thread nD τ)).loc b) ↦{fullShare} V2 m hR c b)
      ∗ Pipeline.prefHeld (Ix := Unit) (Name := ℕ) (U := Pipeline.UD sig nD τ) (Lvl := ℕ) pre2 c (fun _ => fullShare) (adm m 2).1)
  Z c := bigSep (Pipeline.restRefsP sig pre2 spec2 \ H2) fun b => (((c : Thread nD τ)).loc b) ↦{fullShare} V2 m hR c b
  hentry c := by
    obtain rfl : c = 0 := Subsingleton.elim _ _
    have hsplit := Pipeline.arrays_of_unscopedBufs (p := 2) (pcfgs (F := F)) (adm m) (pdats m hR) (launch2 (F := F)).win (launch2 (F := F)).arr_whole 0
      ((pdats m hR 2 0).share_full fun _ => rfl) (V2 m hR 0) fun _ => rfl
    rw [Pipeline.unscopedBufs_held] at hsplit
    have hT : (Pipeline.unscopedRest (Ix := Unit) (Name := ℕ) (U := Pipeline.UD sig nD τ) (Lvl := ℕ) spec2 0 (V2 m hR 0) : sProp 𝕄)
        = iprop(Pipeline.prefHeld pre2 0 (fun _ => fullShare) (adm m 2).1 ∗ Pipeline.unscopedRestP pre2 spec2 0 (V2 m hR 0)) :=
      (Pipeline.unscopedRest_split (launch2 (F := F)).pre 0 (V2 m hR 0)).trans
        (congrArg (fun v => (iprop(Pipeline.prefHeld pre2 0 (fun _ => fullShare) v ∗ Pipeline.unscopedRestP pre2 spec2 0 (V2 m hR 0)) : sProp 𝕄)) (tbl2_eq m hR))
    have hH := Pipeline.unscopedRestP_sdiff pre2 spec2 H2 H2_sub (0 : Dev nD) (V2 m hR 0) (Val := Elt F)
    iintro ⟨⟨Hub, Hp, HO⟩, Hos, -⟩
    ihave H := hsplit $$ Hub
    icases H with ⟨Ha, Hrest⟩
    ihave H' := (Entails.of_eq hT) $$ Hrest
    icases H' with ⟨HT, HrP⟩
    ihave H'' := (Entails.of_eq hH) $$ HrP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hR 2 c).Φ 0 = Phi2 (V2 m hR) (adm m 2) c from rfl]; unfold Phi2; rw [Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m hR 2 c).Φ (Fin.last _) = Phi2 (V2 m hR) (adm m 2) c from rfl]; unfold Phi2; rw [Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    obtain rfl : c = 0 := Subsingleton.elim _ _
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole 0 (pdats m hR) ((pdats m hR 2 0).share_full fun _ => rfl)
      (V2 m hR 0) (V3 m hR 0) ((pdats m hR 2 0).arrAt · (cfg2 (adm m 2)).N) (hF2 m hR 0) (hrest2 m hR 0)
    rw [Pipeline.unscopedBufs_held] at hjoin
    have hT : (Pipeline.unscopedRest (Ix := Unit) (Name := ℕ) (U := Pipeline.UD sig nD τ) (Lvl := ℕ) spec2 0 (V2 m hR 0) : sProp 𝕄)
        = iprop(Pipeline.prefHeld pre2 0 (fun _ => fullShare) (adm m 2).1 ∗ Pipeline.unscopedRestP pre2 spec2 0 (V2 m hR 0)) :=
      (Pipeline.unscopedRest_split (launch2 (F := F)).pre 0 (V2 m hR 0)).trans
        (congrArg (fun v => (iprop(Pipeline.prefHeld pre2 0 (fun _ => fullShare) v ∗ Pipeline.unscopedRestP pre2 spec2 0 (V2 m hR 0)) : sProp 𝕄)) (tbl2_eq m hR))
    have hH := Pipeline.unscopedRestP_sdiff pre2 spec2 H2 H2_sub (0 : Dev nD) (V2 m hR 0) (Val := Elt F)
    iintro ⟨Ha, HO, ⟨HY, HH, HT⟩, HR⟩
    ihave HrP := (Entails.of_eq hH.symm) $$ [HH HR]
    · isplitl [HH]; · iexact HH
      iexact HR
    ihave Hrest := (Entails.of_eq hT.symm) $$ [HT HrP]
    · isplitl [HT]; · iexact HT
      iexact HrP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the loss) over the thread state: its arrays split out and put back; the generator register into the
    invariant and out; nothing owed; no semaphore of the kernel's own; no table. -/
def reg3 (hR : Ranges m) : Pipeline.RegionSeg (pcfgs (F := F)) (adm m) (pdats m hR) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V3 m hR) c).loose
  hwaits := Pipeline.hwaits_of_owed_zero _ _ _ _ L lv 3 fun _ _ => rfl
  pre c := iprop(StableHlo.held (c : Thread nD τ) (Pipeline.ucRefs τ sig) (W3 m hR c) ∗ R c)
  post c := iprop(StableHlo.held (c : Thread nD τ) (Pipeline.ucRefs τ sig) (W4 m hR c) ∗ R c)
  X c := iprop(∃ r, prngReg c r)
  Y c := iprop(∃ r, prngReg c r)
  Z c := Pipeline.unscopedRest (Ix := Unit) (Name := ℕ) (U := Pipeline.UD sig nD τ) (Lvl := ℕ) spec3 c (V3 m hR c)
  hentry c := by
    rw [Pipeline.ownSems0_none]
    have hsplit := Pipeline.arrays_of_unscopedBufs (p := 3) (pcfgs (F := F)) (adm m) (pdats m hR) (launch3 (F := F)).win (launch3 (F := F)).arr_whole c
      ((pdats m hR 3 c).share_full fun _ => rfl) (V3 m hR c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hR 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hR) ((pdats m hR 3 c).share_full fun _ => rfl)
      (V3 m hR c) (V4 m hR c) ((pdats m hR 3 c).arrAt · cfg3.N) (hF3 m hR c) (hrest3 m hR c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

theorem hostOps4_fresh : (hostOps4 : List (HloOp τ sig (Elt F))).Forall fun op => op.fresh = ∅ := by
  simp only [List.Forall]; repeat' constructor

abbrev segs (hR : Ranges m) : List (Pipeline.Seg (pcfgs (F := F)) (adm m) (pdats m hR) () defs₀ 𝒱₀ L lv) :=
  [ .region (reg0 m hR),
    .region (reg1 m hR),
    .region (reg2 m hR),
    .region (reg3 m hR),
    .host (hseg hostOps4 hostOps4_sub hostOps4_fresh (W4 m hR)) ]
theorem main_run (hR : Ranges m) (c : Dev nD) : main (F := F) c = Pipeline.Seg.run (segs m hR) := (main_chain c).trans (by chain_rfl)

set_option backward.isDefEq.respectTransparency.types false in
/-- THE RUN. From the launch memory with zero counters every weakly fair execution of the program terminates, nothing
    faulting, and every final memory holds EVERY unscoped buffer of the core at the last boundary's contents. -/
theorem run_all (hR : Ranges m) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m hR c b) :=
  Pipeline.θ_run_regions_kit (pcfgs (F := F)) (adm m) (pdats m hR) () (cellOf_inj (adm m)) embL defs₀ 𝒱₀ L lv m ρ main (segs m hR)
    (fun c Q => by rw [main_run m hR c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m hR c) ∗ R c)) (Tₙ := Tₙ m hR)
    (hch := ⟨fun _ => .rfl, fun _ => .rfl, fun _ => .rfl, fun _ => .rfl, fun _ => .rfl, fun c => by
      show (iprop(StableHlo.held (c : Thread nD τ) (Pipeline.ucRefs τ sig) (W5 m hR c) ∗ R c) : sProp 𝕄)
        ⊢ iprop(Tₙ m hR c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m hR c)
        from Pipeline.unscopedBufs_held c (W0 m hR c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hR c b)
    (hfin := fun c s' => by
      iintro ⟨⟨Hh, -⟩, HSI⟩
      unfold StableHlo.held
      imodintro
      iapply (pointsTo_read_all (Pipeline.ucRefs τ sig) (fun b => (((c : Thread nD τ)).1, b)) (W5 m hR c) s')
      isplitl [Hh] <;> iassumption)
    (hQ := fun s h c => h c)

end Cert.KernelIdeal.Hand

end
-- ==== Proof.ReadBack.lean ====
/-
  Reading the last boundary back. No item writes an argument: a region reads it through an input window (whose array
  the pipeline leaves as it found it) or bypasses it, and the closing reshape writes only the result. So at every
  argument the last contents are the launch contents; and the result's buffer is the reshape of the loss region's
  output array, which is what its pipeline leaves there.
-/
import proofs.«421540_j73229192397035_2_alg».proof.Proof.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The closing host operation writes the result's buffer only. -/
abbrev hostOps4_W : List (Ref sig .tc) := [main_v4]
theorem hostOps4_writes : (hostOps4 : List (HloOp τ sig (Elt F))).Forall fun op => op.writes ⊆ (hostOps4_W.map (Proc.devRef (τ := τ) .tc)).toFinset := by
  simp only [List.Forall]; exact (by simp only [StableHlo.reshape_writes, Finset.singleton_subset_iff, List.mem_toFinset]; exact List.mem_map_of_mem (by decide))

variable (m : (ℓ : Loc nD τ sig) → Buf (Elt F) ℓ)

/-! ## Every argument ends as launched -/

theorem W5_main_arg0 (hR : Ranges m) (c : Dev nD) : W5 m hR c (Proc.devRef .tc main_arg0) = m ((c : Thread nD τ).loc main_arg0) :=
  calc W5 m hR c (Proc.devRef .tc main_arg0)
    _ = W4 m hR c (Proc.devRef .tc main_arg0) := StableHlo.after_of_writes_sub hostOps4 _ hostOps4_writes (by decide)
    _ = W3 m hR c (Proc.devRef .tc main_arg0) := W4_of_ne m hR c main_arg0 (by decide)
    _ = W2 m hR c (Proc.devRef .tc main_arg0) := W3_of_ne m hR c main_arg0 (by decide)
    _ = W1 m hR c (Proc.devRef .tc main_arg0) := W2_of_ne m hR c main_arg0 (by decide)
    _ = W0 m hR c (Proc.devRef .tc main_arg0) := W1_of_ne m hR c main_arg0 (by decide)
    _ = m ((c : Thread nD τ).loc main_arg0) := rfl

theorem W5_main_arg1 (hR : Ranges m) (c : Dev nD) : W5 m hR c (Proc.devRef .tc main_arg1) = m ((c : Thread nD τ).loc main_arg1) :=
  calc W5 m hR c (Proc.devRef .tc main_arg1)
    _ = W4 m hR c (Proc.devRef .tc main_arg1) := StableHlo.after_of_writes_sub hostOps4 _ hostOps4_writes (by decide)
    _ = W3 m hR c (Proc.devRef .tc main_arg1) := W4_of_ne m hR c main_arg1 (by decide)
    _ = W2 m hR c (Proc.devRef .tc main_arg1) := W3_of_ne m hR c main_arg1 (by decide)
    _ = W1 m hR c (Proc.devRef .tc main_arg1) := W2_of_ne m hR c main_arg1 (by decide)
    _ = W0 m hR c (Proc.devRef .tc main_arg1) := W1_of_ne m hR c main_arg1 (by decide)
    _ = m ((c : Thread nD τ).loc main_arg1) := rfl

theorem W5_main_arg2 (hR : Ranges m) (c : Dev nD) : W5 m hR c (Proc.devRef .tc main_arg2) = m ((c : Thread nD τ).loc main_arg2) :=
  calc W5 m hR c (Proc.devRef .tc main_arg2)
    _ = W4 m hR c (Proc.devRef .tc main_arg2) := StableHlo.after_of_writes_sub hostOps4 _ hostOps4_writes (by decide)
    _ = W3 m hR c (Proc.devRef .tc main_arg2) := W4_of_ne m hR c main_arg2 (by decide)
    _ = W2 m hR c (Proc.devRef .tc main_arg2) := W3_of_ne m hR c main_arg2 (by decide)
    _ = W1 m hR c (Proc.devRef .tc main_arg2) := W2_of_ne m hR c main_arg2 (by decide)
    _ = W0 m hR c (Proc.devRef .tc main_arg2) := (W1_arr m hR c 1).trans (((dat0 (V0 m hR) (adm m 0) (hT0 m hR.hU) c).arrAt_in 1 rfl _).trans (A_eq0 (V0 m hR) (adm m 0) (hT0 m hR.hU) c 1))
    _ = m ((c : Thread nD τ).loc main_arg2) := rfl

theorem W5_main_arg3 (hR : Ranges m) (c : Dev nD) : W5 m hR c (Proc.devRef .tc main_arg3) = m ((c : Thread nD τ).loc main_arg3) :=
  calc W5 m hR c (Proc.devRef .tc main_arg3)
    _ = W4 m hR c (Proc.devRef .tc main_arg3) := StableHlo.after_of_writes_sub hostOps4 _ hostOps4_writes (by decide)
    _ = W3 m hR c (Proc.devRef .tc main_arg3) := W4_of_ne m hR c main_arg3 (by decide)
    _ = W2 m hR c (Proc.devRef .tc main_arg3) := (W3_arr m hR c 1).trans (((dat2 (V2 m hR) (adm m 2) (hT2 m hR.hN) c).arrAt_in 1 rfl _).trans (A_eq2 (V2 m hR) (adm m 2) (hT2 m hR.hN) c 1))
    _ = W1 m hR c (Proc.devRef .tc main_arg3) := (W2_arr m hR c 1).trans (((dat1 (V1 m hR) (adm m 1) (hT1 m hR.hP) c).arrAt_in 1 rfl _).trans (A_eq1 (V1 m hR) (adm m 1) (hT1 m hR.hP) c 1))
    _ = W0 m hR c (Proc.devRef .tc main_arg3) := W1_of_ne m hR c main_arg3 (by decide)
    _ = m ((c : Thread nD τ).loc main_arg3) := rfl

theorem W5_main_arg4 (hR : Ranges m) (c : Dev nD) : W5 m hR c (Proc.devRef .tc main_arg4) = m ((c : Thread nD τ).loc main_arg4) :=
  calc W5 m hR c (Proc.devRef .tc main_arg4)
    _ = W4 m hR c (Proc.devRef .tc main_arg4) := StableHlo.after_of_writes_sub hostOps4 _ hostOps4_writes (by decide)
    _ = W3 m hR c (Proc.devRef .tc main_arg4) := W4_of_ne m hR c main_arg4 (by decide)
    _ = W2 m hR c (Proc.devRef .tc main_arg4) := W3_of_ne m hR c main_arg4 (by decide)
    _ = W1 m hR c (Proc.devRef .tc main_arg4) := W2_of_ne m hR c main_arg4 (by decide)
    _ = W0 m hR c (Proc.devRef .tc main_arg4) := (W1_arr m hR c 0).trans (((dat0 (V0 m hR) (adm m 0) (hT0 m hR.hU) c).arrAt_in 0 rfl _).trans (A_eq0 (V0 m hR) (adm m 0) (hT0 m hR.hU) c 0))
    _ = m ((c : Thread nD τ).loc main_arg4) := rfl

theorem W5_main_arg5 (hR : Ranges m) (c : Dev nD) : W5 m hR c (Proc.devRef .tc main_arg5) = m ((c : Thread nD τ).loc main_arg5) :=
  calc W5 m hR c (Proc.devRef .tc main_arg5)
    _ = W4 m hR c (Proc.devRef .tc main_arg5) := StableHlo.after_of_writes_sub hostOps4 _ hostOps4_writes (by decide)
    _ = W3 m hR c (Proc.devRef .tc main_arg5) := W4_of_ne m hR c main_arg5 (by decide)
    _ = W2 m hR c (Proc.devRef .tc main_arg5) := W3_of_ne m hR c main_arg5 (by decide)
    _ = W1 m hR c (Proc.devRef .tc main_arg5) := (W2_arr m hR c 0).trans (((dat1 (V1 m hR) (adm m 1) (hT1 m hR.hP) c).arrAt_in 0 rfl _).trans (A_eq1 (V1 m hR) (adm m 1) (hT1 m hR.hP) c 0))
    _ = W0 m hR c (Proc.devRef .tc main_arg5) := W1_of_ne m hR c main_arg5 (by decide)
    _ = m ((c : Thread nD τ).loc main_arg5) := rfl

theorem W5_main_arg6 (hR : Ranges m) (c : Dev nD) : W5 m hR c (Proc.devRef .tc main_arg6) = m ((c : Thread nD τ).loc main_arg6) :=
  calc W5 m hR c (Proc.devRef .tc main_arg6)
    _ = W4 m hR c (Proc.devRef .tc main_arg6) := StableHlo.after_of_writes_sub hostOps4 _ hostOps4_writes (by decide)
    _ = W3 m hR c (Proc.devRef .tc main_arg6) := W4_of_ne m hR c main_arg6 (by decide)
    _ = W2 m hR c (Proc.devRef .tc main_arg6) := (W3_arr m hR c 0).trans (((dat2 (V2 m hR) (adm m 2) (hT2 m hR.hN) c).arrAt_in 0 rfl _).trans (A_eq2 (V2 m hR) (adm m 2) (hT2 m hR.hN) c 0))
    _ = W1 m hR c (Proc.devRef .tc main_arg6) := W2_of_ne m hR c main_arg6 (by decide)
    _ = W0 m hR c (Proc.devRef .tc main_arg6) := W1_of_ne m hR c main_arg6 (by decide)
    _ = m ((c : Thread nD τ).loc main_arg6) := rfl

theorem W5_main_arg7 (hR : Ranges m) (c : Dev nD) : W5 m hR c (Proc.devRef .tc main_arg7) = m ((c : Thread nD τ).loc main_arg7) :=
  calc W5 m hR c (Proc.devRef .tc main_arg7)
    _ = W4 m hR c (Proc.devRef .tc main_arg7) := StableHlo.after_of_writes_sub hostOps4 _ hostOps4_writes (by decide)
    _ = W3 m hR c (Proc.devRef .tc main_arg7) := W4_of_ne m hR c main_arg7 (by decide)
    _ = W2 m hR c (Proc.devRef .tc main_arg7) := W3_of_ne m hR c main_arg7 (by decide)
    _ = W1 m hR c (Proc.devRef .tc main_arg7) := W2_of_ne m hR c main_arg7 (by decide)
    _ = W0 m hR c (Proc.devRef .tc main_arg7) := W1_of_ne m hR c main_arg7 (by decide)
    _ = m ((c : Thread nD τ).loc main_arg7) := rfl

theorem W5_main_arg8 (hR : Ranges m) (c : Dev nD) : W5 m hR c (Proc.devRef .tc main_arg8) = m ((c : Thread nD τ).loc main_arg8) :=
  calc W5 m hR c (Proc.devRef .tc main_arg8)
    _ = W4 m hR c (Proc.devRef .tc main_arg8) := StableHlo.after_of_writes_sub hostOps4 _ hostOps4_writes (by decide)
    _ = W3 m hR c (Proc.devRef .tc main_arg8) := W4_of_ne m hR c main_arg8 (by decide)
    _ = W2 m hR c (Proc.devRef .tc main_arg8) := W3_of_ne m hR c main_arg8 (by decide)
    _ = W1 m hR c (Proc.devRef .tc main_arg8) := W2_of_ne m hR c main_arg8 (by decide)
    _ = W0 m hR c (Proc.devRef .tc main_arg8) := W1_of_ne m hR c main_arg8 (by decide)
    _ = m ((c : Thread nD τ).loc main_arg8) := rfl

theorem W5_main_arg9 (hR : Ranges m) (c : Dev nD) : W5 m hR c (Proc.devRef .tc main_arg9) = m ((c : Thread nD τ).loc main_arg9) :=
  calc W5 m hR c (Proc.devRef .tc main_arg9)
    _ = W4 m hR c (Proc.devRef .tc main_arg9) := StableHlo.after_of_writes_sub hostOps4 _ hostOps4_writes (by decide)
    _ = W3 m hR c (Proc.devRef .tc main_arg9) := W4_of_ne m hR c main_arg9 (by decide)
    _ = W2 m hR c (Proc.devRef .tc main_arg9) := W3_of_ne m hR c main_arg9 (by decide)
    _ = W1 m hR c (Proc.devRef .tc main_arg9) := W2_of_ne m hR c main_arg9 (by decide)
    _ = W0 m hR c (Proc.devRef .tc main_arg9) := W1_of_ne m hR c main_arg9 (by decide)
    _ = m ((c : Thread nD τ).loc main_arg9) := rfl

/-! ## The frame -/

/-- Every weakly fair execution terminates, nothing faulting, and every argument array ends holding its launch
    contents. -/
theorem frame (hR : Ranges m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W5_main_arg0 m hR c),
     (h c _ (mem_uc main_arg1 (by decide))).trans (W5_main_arg1 m hR c),
     (h c _ (mem_uc main_arg2 (by decide))).trans (W5_main_arg2 m hR c),
     (h c _ (mem_uc main_arg3 (by decide))).trans (W5_main_arg3 m hR c),
     (h c _ (mem_uc main_arg4 (by decide))).trans (W5_main_arg4 m hR c),
     (h c _ (mem_uc main_arg5 (by decide))).trans (W5_main_arg5 m hR c),
     (h c _ (mem_uc main_arg6 (by decide))).trans (W5_main_arg6 m hR c),
     (h c _ (mem_uc main_arg7 (by decide))).trans (W5_main_arg7 m hR c),
     (h c _ (mem_uc main_arg8 (by decide))).trans (W5_main_arg8 m hR c),
     (h c _ (mem_uc main_arg9 (by decide))).trans (W5_main_arg9 m hR c)⟩)
    (run_all m hR ρ)

/-! ## The result -/

/-- The result's buffer at the end: the closing reshape of the loss region's output array. -/
theorem W5_main_v4 (hR : Ranges m) (c : Dev nD) :
    W5 m hR c (Proc.devRef .tc main_v4)
      = shapeCast S_ ((dat3 (V3 m hR) c).arrAt 3 cfg3.N : Vec F S1x1 .f32) shapeCasts_S1x1_S_ := by
  show StableHlo.after hostOps4 (W4 m hR c) (Proc.devRef .tc main_v4) = _
  after_results
  rw [show W4 m hR c (Proc.devRef .tc main_v3) = (dat3 (V3 m hR) c).arrAt 3 cfg3.N from W4_arr m hR c 3]
  rfl

/-- What the loss region finds in each feature array: what the table region before it left there. -/
theorem V3_main_v0 (hR : Ranges m) (c : Dev nD) : V3 m hR c main_v0 = (dat0 (V0 m hR) (adm m 0) (hT0 m hR.hU) c).arrAt 2 (cfg0 (adm m 0)).N :=
  (W3_of_ne m hR c main_v0 (by decide)).trans ((W2_of_ne m hR c main_v0 (by decide)).trans (W1_arr m hR c 2))
theorem V3_main_v1 (hR : Ranges m) (c : Dev nD) : V3 m hR c main_v1 = (dat1 (V1 m hR) (adm m 1) (hT1 m hR.hP) c).arrAt 2 (cfg1 (adm m 1)).N :=
  (W3_of_ne m hR c main_v1 (by decide)).trans (W2_arr m hR c 2)
theorem V3_main_v2 (hR : Ranges m) (c : Dev nD) : V3 m hR c main_v2 = (dat2 (V2 m hR) (adm m 2) (hT2 m hR.hN) c).arrAt 2 (cfg2 (adm m 2)).N :=
  W3_arr m hR c 2

/-- What each table region finds in its own arguments: the launch contents. -/
theorem V1_main_arg1 (hR : Ranges m) (c : Dev nD) : V1 m hR c main_arg1 = m ((c : Thread nD τ).loc main_arg1) :=
  (W1_of_ne m hR c main_arg1 (by decide)).trans <| rfl
theorem V1_main_arg3 (hR : Ranges m) (c : Dev nD) : V1 m hR c main_arg3 = m ((c : Thread nD τ).loc main_arg3) :=
  (W1_of_ne m hR c main_arg3 (by decide)).trans <| rfl
theorem V1_main_arg5 (hR : Ranges m) (c : Dev nD) : V1 m hR c main_arg5 = m ((c : Thread nD τ).loc main_arg5) :=
  (W1_of_ne m hR c main_arg5 (by decide)).trans <| rfl
theorem V2_main_arg1 (hR : Ranges m) (c : Dev nD) : V2 m hR c main_arg1 = m ((c : Thread nD τ).loc main_arg1) :=
  (W2_of_ne m hR c main_arg1 (by decide)).trans <| (W1_of_ne m hR c main_arg1 (by decide)).trans <| rfl
theorem V2_main_arg3 (hR : Ranges m) (c : Dev nD) : V2 m hR c main_arg3 = m ((c : Thread nD τ).loc main_arg3) :=
  ((W2_arr m hR c 1).trans (((dat1 (V1 m hR) (adm m 1) (hT1 m hR.hP) c).arrAt_in 1 rfl _).trans (A_eq1 (V1 m hR) (adm m 1) (hT1 m hR.hP) c 1))).trans <|
    (W1_of_ne m hR c main_arg3 (by decide)).trans <| rfl
theorem V2_main_arg6 (hR : Ranges m) (c : Dev nD) : V2 m hR c main_arg6 = m ((c : Thread nD τ).loc main_arg6) :=
  (W2_of_ne m hR c main_arg6 (by decide)).trans <| (W1_of_ne m hR c main_arg6 (by decide)).trans <| rfl

end Cert.KernelIdeal.Hand

end
-- ==== Proof.KReg0.lean ====
/-
  Region 0 (the user features): what one grid point of the gather, mask and multiply kernel does, and the proof data
  of its pipeline.

  At grid point `t` the body reads eight words `idx[8t], …, idx[8t+7]` of the row-number table, copies row `idx[8t+j]`
  of the filter matrix (left in the large memory) into row `j` of an 8-row scratch, each copy on a semaphore of its own,
  and waits for all eight. Every copy's source row lies inside the matrix because the word is below the row count: that
  is the side condition the body assumes of each word, and here it is a hypothesis of the run. Then it multiplies the
  scratch entry by entry with the 0/1 pattern `mask ≥ 0.1` of the point's mask block, multiplies the result by the
  whole embedding table, and stores the 8 × 64 product as the point's output block. Nothing is in flight between
  points, the table, the filter matrix and the scratch are only read or rewritten whole, so the region's invariant is the
  same at every point: the core's other scoped buffers at some contents, the eight semaphores at zero, the filter matrix
  and the row-number table at their entry contents.
-/
import proofs.«421540_j73229192397035_2_alg».proof.Proof.Gen.Kernel.Launch
import proofs.«421540_j73229192397035_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

-- the core's buffer contents when the region is entered, and the row-number table's contents with the (empty) side
-- condition the pipeline asks of them: both parameters, instantiated by the launch
variable (V : (c : Dev nD) → (b : Ref sig .tc) → Buf (Elt F) ((c : Thread nD τ).loc b))
variable (a : (pcfg0 (F := F)).Adm)

/-! ## The windows' blocks -/

/-- Window `w`'s block at point `t`, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The mask window's staging buffer holds its block at every point, for any proof data whose array is the entry
    contents and whose body leaves the block in place. -/
theorem before0_0_of {c : Dev nD} (dat : Dat τ (Elt F) Unit ℕ (Pipeline.UD sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the embedding table's window (one block, the whole table). -/
theorem before0_1_of {c : Dev nD} (dat : Dat τ (Elt F) Unit ℕ (Pipeline.UD sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called with -/

/-- One staging buffer of the output window, through which its contents are stated (the choice does not matter). -/
abbrev VO0_2 : View sig .tc .vmem S8x64 .f32 := (Memref.whole cc0_stg2_0 : Memref sig .tc .vmem S8x64 .f32).view
/-- Each window's current staging memref at point `t`, as the pipeline passes it, and its wholeness. -/
abbrev ms0_0 (t : Fin (cfg0 a).N) : Memref sig .tc .vmem S8x12000 .f32 := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) : Memref sig .tc .vmem S12000x64 .f32 := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) : Memref sig .tc .vmem S8x64 .f32 := spec0_2.stage ((cfg0 a).slots t 2)
abbrev hs0_2 (t : Fin (cfg0 a).N) : (ms0_2 a t).IsWhole := hstage0_2 (((cfg0 a).slots t 2).cast nbuf0_2)
/-- The row scratch: a whole scoped buffer of the kernel's own. -/
abbrev scM0 : Memref sig .tc .vmem S8x12000 .f32 := Memref.whole cc0_scratch0
/-- The row-number table and the filter matrix, whole. -/
abbrev tbM0 : Memref sig .tc .smem S1024 .i32 := Memref.whole main_arg7
abbrev hbM0 : Memref sig .tc .hbm S12000x12000 .f32 := Memref.whole main_arg0
/-- A memref's buffer on core `c`, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The filter matrix held at a share `q`: eight copies read it at once, each through a share of its own. -/
abbrev hbTok0 (c : Dev nD) (q : PosShare TreeShare) (f : HbBuf0 (F := F) c hbM0) : sProp 𝕄 :=
  hbM0.view.loc (c : Thread nD τ) ↦{q} f
/-- The numbers of the eight copy semaphores: each copy reads the matrix through the read share of its semaphore's number. -/
abbrev cells0 : List ℕ := [5, 6, 7, 8, 9, 10, 11, 12]
/-- The read shares below the first semaphore's number: split off and put back, never lent. -/
abbrev lowToks0 (c : Dev nD) (f : HbBuf0 (F := F) c hbM0) : sProp 𝕄 :=
  bigSep (Finset.range 5) fun i => hbM0.view.loc (c : Thread nD τ) ↦{Transfers.shareTokN fullShare i} f
/-- The matrix whole is the remainder, the low shares, and one read share per copy semaphore. -/
theorem hbToks0_eq (c : Dev nD) (f : HbBuf0 (F := F) c hbM0) :
    (iprop(hbTok0 c (Transfers.shareDrop fullShare 13) f ∗ bigSep (Finset.range 13) fun i => hbM0.view.loc (c : Thread nD τ) ↦{Transfers.shareTokN fullShare i} f) : sProp 𝕄)
      = iprop(hbTok0 c (Transfers.shareDrop fullShare 13) f ∗ lowToks0 c f
          ∗ hbTok0 c (Transfers.shareTokN fullShare 5) f ∗ hbTok0 c (Transfers.shareTokN fullShare 6) f ∗ hbTok0 c (Transfers.shareTokN fullShare 7) f ∗ hbTok0 c (Transfers.shareTokN fullShare 8) f ∗ hbTok0 c (Transfers.shareTokN fullShare 9) f ∗ hbTok0 c (Transfers.shareTokN fullShare 10) f ∗ hbTok0 c (Transfers.shareTokN fullShare 11) f ∗ hbTok0 c (Transfers.shareTokN fullShare 12) f) := by
  rw [BI.bigSep_sdiff_split (show Finset.range 5 ⊆ Finset.range 13 from by decide),
    BI.bigSep_eq_bigSepL_of_eq (S := Finset.range 13 \ Finset.range 5) cells0 (by decide) (by decide)]
  rfl

/-- The kernel body at point `t`, on what the pipeline calls it with. -/
abbrev bodyAt0 (t : Fin (cfg0 a).N) : Prog (TpuEff nD τ sig (Elt F) Λ₀ .tc) PUnit :=
  cc0__gather_mask_matmul_kernel (grid0.coords t) (Memref.whole main_arg7) (Memref.isWhole_whole _) (Memref.whole main_arg0) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) cc0_scratch1

/-! ## The kernel's own semaphores and the operand it moves itself -/

/-- The eight copy semaphores, cell by cell. -/
abbrev osem0 : Fin 8 → SemLoc sig := fun j => (![SemLoc.dma 5, SemLoc.dma 6, SemLoc.dma 7, SemLoc.dma 8, SemLoc.dma 9, SemLoc.dma 10, SemLoc.dma 11, SemLoc.dma 12] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl
/-- The filter matrix: unscoped, no window's array, no table. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V c b) : sProp 𝕄) = iprop(hbPt0 c hbM0 (V c main_arg0)) := by
  rw [BI.bigSep_eq_bigSepL_of_eq [main_arg0] (by decide) (by decide)]; rfl
/-- The one table, listed. -/
theorem prefHeld0_eq (c : Dev nD) (v : pre0.Contents (Elt F)) :
    (Pipeline.prefHeld (Ix := Unit) (Name := ℕ) (U := Pipeline.UD sig nD τ) (Lvl := ℕ) pre0 c (fun _ => fullShare) v : sProp 𝕄)
      = iprop(((c : Thread nD τ).loc (pre0.ref 0)) ↦{fullShare} v 0) := by
  unfold Pipeline.prefHeld
  rw [BI.bigSep_eq_bigSepL_of_eq [(0 : Fin 1)] (by decide) (by decide)]; rfl

/-- The row scratch among the core's scoped buffers that are no staging buffer of this region. -/
def Sc0 : Finset (Ref sig .tc) := {cc0_scratch0}
theorem Sc0_sub : Sc0 ⊆ (Finset.univ.filter fun b : Ref sig .tc => b.isScoped) \ Finset.univ.image (Pipeline.stageRef spec0) := by decide
/-- The core's other scoped buffers (no staging buffer of this region, not its scratch), each whole at some contents. -/
def others0 (c : Dev nD) : sProp 𝕄 :=
  bigSep (((Finset.univ.filter fun b : Ref sig .tc => b.isScoped) \ Finset.univ.image (Pipeline.stageRef spec0)) \ Sc0)
    fun b => iprop(∃ f : Buf (Elt F) ((c : Thread nD τ).loc b), ((c : Thread nD τ).loc b) ↦{fullShare} f)
/-- The scoped rest is the scratch, owned at some contents, and the others. -/
theorem scopedRest0_split (c : Dev nD) :
    (Pipeline.scopedRest (Ix := Unit) (Name := ℕ) (U := Pipeline.UD sig nD τ) (Lvl := ℕ) (Val := Elt F) spec0 c : sProp 𝕄)
      = iprop((∃ d, owns (c : Thread nD τ) scM0 fullShare d) ∗ others0 c) := by
  unfold Pipeline.scopedRest others0
  rw [BI.bigSep_sdiff_split Sc0_sub, BI.bigSep_eq_bigSepL_of_eq [cc0_scratch0] (by decide) (by decide)]
  simp only [scM0, owns_whole]; try rfl

/-- The region's invariant: what the copies need (the scoped rest with the scratch in it, the eight cells at zero, the
    filter matrix at its entry contents) and the row-number table at the contents the pipeline was pinned at. -/
def Phi0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

end Region0

/-! ## The body's run -/

-- (the run's proof term is large; the eight copies land in eight rows of ONE scratch and are all in flight before the
-- first wait, so each lends only its own row of the scratch and the rest stays behind for the next copy to issue into)
set_option maxHeartbeats 4000000 in
set_option sl_exec.dmaWindow true in
set_option sl_exec.dmaWindowSet true in
/-- What the body's one store leaves in the output's staging memref, as pieces, WITH the proof that on whole memrefs —
    the table at `x0`, the mask's and the embedding's at their contents, the output's and the scratch at anything, the
    filter matrix whole at `fh0`, the eight cells at zero — and under the side condition of each of the eight words, the
    body runs to the continuation holding all of that as it was, the scratch at some contents, and the output's buffer
    with its pieces written. -/
noncomputable def kernelRun0 (c : Dev nD) (i : grid0.Coords) (arg1 : Memref sig .tc .smem S1024 .i32) (harg1 : arg1.IsWhole)
    (arg3 : Memref sig .tc .vmem S8x12000 .f32) (harg3 : arg3.IsWhole) (arg4 : Memref sig .tc .vmem S12000x64 .f32) (harg4 : arg4.IsWhole)
    (arg5 : Memref sig .tc .vmem S8x64 .f32) (harg5 : arg5.IsWhole) (arg6 : Memref sig .tc .vmem S8x12000 .f32) (harg6 : arg6.IsWhole)
    (x0 : Vec F S1024 .i32) (x1 : Vec F S8x12000 .f32) (x2 : Vec F S12000x64 .f32) (fh0 : HbBuf0 (F := F) c hbM0)
    (k0_hw1 : k0_chk1 (arg1.view.readAt (Elt F) (Rect.unit (s := S1024) (k0_off1 i) S1.size (k0_off1_inb i)).toLoadRect (harg1.unread x0) (Shape.Idx.first (numel1_S1.symm ▸ Nat.one_pos))))
    (k0_hw2 : k0_chk2 (arg1.view.readAt (Elt F) (Rect.unit (s := S1024) (k0_off3 i) S1.size (k0_off3_inb i)).toLoadRect (harg1.unread x0) (Shape.Idx.first (numel1_S1.symm ▸ Nat.one_pos))))
    (k0_hw3 : k0_chk3 (arg1.view.readAt (Elt F) (Rect.unit (s := S1024) (k0_off5 i) S1.size (k0_off5_inb i)).toLoadRect (harg1.unread x0) (Shape.Idx.first (numel1_S1.symm ▸ Nat.one_pos))))
    (k0_hw4 : k0_chk4 (arg1.view.readAt (Elt F) (Rect.unit (s := S1024) (k0_off7 i) S1.size (k0_off7_inb i)).toLoadRect (harg1.unread x0) (Shape.Idx.first (numel1_S1.symm ▸ Nat.one_pos))))
    (k0_hw5 : k0_chk5 (arg1.view.readAt (Elt F) (Rect.unit (s := S1024) (k0_off9 i) S1.size (k0_off9_inb i)).toLoadRect (harg1.unread x0) (Shape.Idx.first (numel1_S1.symm ▸ Nat.one_pos))))
    (k0_hw6 : k0_chk6 (arg1.view.readAt (Elt F) (Rect.unit (s := S1024) (k0_off11 i) S1.size (k0_off11_inb i)).toLoadRect (harg1.unread x0) (Shape.Idx.first (numel1_S1.symm ▸ Nat.one_pos))))
    (k0_hw7 : k0_chk7 (arg1.view.readAt (Elt F) (Rect.unit (s := S1024) (k0_off13 i) S1.size (k0_off13_inb i)).toLoadRect (harg1.unread x0) (Shape.Idx.first (numel1_S1.symm ▸ Nat.one_pos))))
    (k0_hw8 : k0_chk8 (arg1.view.readAt (Elt F) (Rect.unit (s := S1024) (k0_off15 i) S1.size (k0_off15_inb i)).toLoadRect (harg1.unread x0) (Shape.Idx.first (numel1_S1.symm ▸ Nat.one_pos)))) :
    { L2 : List (View.Piece (Elt F) S8x64 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
            ∗ hbPt0 c hbM0 fh0 ∗ owes (c : Thread nD τ) 0 W
            ∗ (iprop(owns (c : Thread nD τ) arg1 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L2) ∗ (∃ d, owns (c : Thread nD τ) arg6 fullShare d)
                ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
                ∗ hbPt0 c hbM0 fh0 ∗ (∃ W', owes (c : Thread nD τ) 0 W')) -∗ K ⟨⟩))
          ⊢ wp frame (wpE (defs₀ (F := F)) Variants.none c none) Set.univ
              (cc0__gather_mask_matmul_kernel i arg1 harg1 (Memref.whole main_arg0) (Memref.isWhole_whole _) arg3 harg3 arg4 harg4 arg5 harg5 arg6 harg6 cc0_scratch1) K } := by
  refine ⟨?_, fun W K => ?run⟩
  case run =>
    simp only [cc0__gather_mask_matmul_kernel_eq_skeleton]; unfold cc0__gather_mask_matmul_kernel_skel
    simp only [k0_part1_eq_skeleton, k0_part2_eq_skeleton, k0_part3_eq_skeleton]
    unfold owns
    iintro ⟨⟨%f0, %hf0, Hw0⟩, ⟨%f1, %hf1, Hw1⟩, ⟨%f2, %hf2, Hw2⟩, ⟨%d3, %f3, -, Hw3⟩, ⟨%ds0, %fs0, -, HS0⟩, Hq0, Hq1, Hq2, Hq3, Hq4, Hq5, Hq6, Hq7, Hh0, HW, Hk⟩
    obtain rfl := harg1.eq_unread hf0; obtain rfl := harg3.eq_unread hf1; obtain rfl := harg4.eq_unread hf2
    -- the filter matrix as the remainder, the low shares, and one read share per copy semaphore
    ihave Hh' := ((Transfers.pointsTo_toks_range (Ix := Unit) (Name := ℕ) (U := Pipeline.UD sig nD τ) (Lvl := ℕ) (q := fullShare) (k := 13)).1.trans
      (Entails.of_eq (hbToks0_eq c fh0))) $$ Hh0
    icases Hh' with ⟨Hhr, Hhl, Ht0, Ht1, Ht2, Ht3, Ht4, Ht5, Ht6, Ht7⟩
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [Hw0]
    · iexists _; isplitr; · ipureintro; exact harg1.read_unread _
      iexact Hw0
    isplitl [Hw1]
    · iexists _; isplitr; · ipureintro; exact harg3.read_unread _
      iexact Hw1
    isplitl [Hw2]
    · iexists _; isplitr; · ipureintro; exact harg4.read_unread _
      iexact Hw2
    isplitl [Hw3]; · iexists _; iexact Hw3
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhr Hhl Ht0 Ht1 Ht2 Ht3 Ht4 Ht5 Ht6 Ht7]
    · iapply ((Entails.of_eq (hbToks0_eq c fh0).symm).trans
        (Transfers.pointsTo_toks_range (Ix := Unit) (Name := ℕ) (U := Pipeline.UD sig nD τ) (Lvl := ℕ) (q := fullShare) (k := 13)).2)
      isplitl [Hhr]; · iexact Hhr
      isplitl [Hhl]; · iexact Hhl
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    iexists _; iexact HW

/-! ## The side condition of each word -/

/-- A word read through the table's view is a word of the table: below the row count when every word is. -/
theorem word_lt0 (arg1 : Memref sig .tc .smem S1024 .i32) (harg1 : arg1.IsWhole) (x0 : Vec F S1024 .i32)
    (hT : ∀ j, (x0 j).toNat < 12000) (r : LoadRect S1024) (y : r.shape.Idx) :
    (arg1.view.readAt (Elt F) r (harg1.unread x0) y).toNat < 12000 := by
  simp only [View.readAt_apply, Memref.IsWhole.read_unread]; exact hT _

/-- A row number below the row count names a row inside the filter matrix: copy 1's side condition. -/
theorem r0chk1_of_lt (w : BitVec 32) (h : w.toNat < 12000) : k0_chk1 w := by
  unfold k0_chk1 k0_off2 k0_off17
  refine ⟨fun a => ?_, fun a => ?_⟩ <;> (fin_cases a <;> simp <;> omega)
/-- A row number below the row count names a row inside the filter matrix: copy 2's side condition. -/
theorem r0chk2_of_lt (w : BitVec 32) (h : w.toNat < 12000) : k0_chk2 w := by
  unfold k0_chk2 k0_off4 k0_off18
  refine ⟨fun a => ?_, fun a => ?_⟩ <;> (fin_cases a <;> simp <;> omega)
/-- A row number below the row count names a row inside the filter matrix: copy 3's side condition. -/
theorem r0chk3_of_lt (w : BitVec 32) (h : w.toNat < 12000) : k0_chk3 w := by
  unfold k0_chk3 k0_off6 k0_off19
  refine ⟨fun a => ?_, fun a => ?_⟩ <;> (fin_cases a <;> simp <;> omega)
/-- A row number below the row count names a row inside the filter matrix: copy 4's side condition. -/
theorem r0chk4_of_lt (w : BitVec 32) (h : w.toNat < 12000) : k0_chk4 w := by
  unfold k0_chk4 k0_off8 k0_off20
  refine ⟨fun a => ?_, fun a => ?_⟩ <;> (fin_cases a <;> simp <;> omega)
/-- A row number below the row count names a row inside the filter matrix: copy 5's side condition. -/
theorem r0chk5_of_lt (w : BitVec 32) (h : w.toNat < 12000) : k0_chk5 w := by
  unfold k0_chk5 k0_off10 k0_off21
  refine ⟨fun a => ?_, fun a => ?_⟩ <;> (fin_cases a <;> simp <;> omega)
/-- A row number below the row count names a row inside the filter matrix: copy 6's side condition. -/
theorem r0chk6_of_lt (w : BitVec 32) (h : w.toNat < 12000) : k0_chk6 w := by
  unfold k0_chk6 k0_off12 k0_off22
  refine ⟨fun a => ?_, fun a => ?_⟩ <;> (fin_cases a <;> simp <;> omega)
/-- A row number below the row count names a row inside the filter matrix: copy 7's side condition. -/
theorem r0chk7_of_lt (w : BitVec 32) (h : w.toNat < 12000) : k0_chk7 w := by
  unfold k0_chk7 k0_off14 k0_off23
  refine ⟨fun a => ?_, fun a => ?_⟩ <;> (fin_cases a <;> simp <;> omega)
theorem r0chk8_of_lt (w : BitVec 32) (h : w.toNat < 12000) : k0_chk8 w := by
  unfold k0_chk8 k0_off16
  intro a; fin_cases a <;> simp <;> omega

section Region0Data

variable (V : (c : Dev nD) → (b : Ref sig .tc) → Buf (Elt F) ((c : Thread nD τ).loc b))
variable (a : (pcfg0 (F := F)).Adm)
-- every word of the row-number table, as the pipeline was pinned at it, is a row number of the filter matrix
variable (hT : ∀ j, ((a.1 (0 : Fin 1) : Vec F S1024 .i32) j).toNat < 12000)

/-! ## What the output holds after each point -/

/-- The run at point `t`: the point's memrefs and blocks, the table at its pinned contents, every word's side condition
    from the table's range. -/
abbrev runAt0 (c : Dev nD) (t : Fin (cfg0 a).N) :=
  kernelRun0 (F := F) c (grid0.coords t) tbM0 (Memref.isWhole_whole _) (ms0_0 a t) (hs0_0 a t) (ms0_1 a t) (hs0_1 a t) (ms0_2 a t) (hs0_2 a t)
    scM0 (Memref.isWhole_whole _) (a.1 (0 : Fin 1)) (iblk0 V a c 0 t) (iblk0 V a c 1 t) (V c main_arg0)
    (r0chk1_of_lt _ (word_lt0 _ _ _ hT _ _)) (r0chk2_of_lt _ (word_lt0 _ _ _ hT _ _)) (r0chk3_of_lt _ (word_lt0 _ _ _ hT _ _)) (r0chk4_of_lt _ (word_lt0 _ _ _ hT _ _)) (r0chk5_of_lt _ (word_lt0 _ _ _ hT _ _)) (r0chk6_of_lt _ (word_lt0 _ _ _ hT _ _)) (r0chk7_of_lt _ (word_lt0 _ _ _ hT _ _)) (r0chk8_of_lt _ (word_lt0 _ _ _ hT _ _))

/-- The run's pieces tile the output block (one store of the whole block), so they cover it. -/
theorem cover0_2 (c : Dev nD) (t : Fin (cfg0 a).N) (y : S8x64.Idx) :
    ∃ pc ∈ (runAt0 V a hT c t).1, y ∈ pc.1.set :=
  View.cover_of_tiledL (runAt0 V a hT c t).1 S8x64.size (by sl_kernel_rfl) y

/-- What the output window's staging buffer holds after the body at point `t`: the run's pieces read back. -/
def outsAt0 (c : Dev nD) (t : Fin (cfg0 a).N) : Vec F S8x64 .f32 :=
  VO0_2.read (Elt F) (VO0_2.writes (Elt F) VO0_2.junk (runAt0 V a hT c t).1)

/-! ## The pipeline's proof data -/

/-- The proof data of the pipeline on core `c`: the arrays as the region finds them; after the body at point `t` each
    input's buffer at its block and the output's at `outsAt0`; the invariant `Phi0`; nothing owed; full shares. -/
def dat0 (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => outsAt0 V a hT c t
  Φ _ := Phi0 V a c
  q _ := fullShare
  owed _ := 0

theorem A_eq0 (c : Dev nD) (w : Fin (cfg0 a).W) : (dat0 V a hT c).A w = V c (Pipeline.arrRef spec0 w) := by
  dsimp only [dat0]
theorem after0_0 (c : Dev nD) (t : Fin (cfg0 a).N) : (dat0 V a hT c).after 0 t = iblk0 V a c 0 t := rfl
theorem after0_1 (c : Dev nD) (t : Fin (cfg0 a).N) : (dat0 V a hT c).after 1 t = iblk0 V a c 1 t := rfl
theorem after0_2 (c : Dev nD) (t : Fin (cfg0 a).N) : (dat0 V a hT c).after 2 t = outsAt0 V a hT c t := rfl
theorem before0_0 (c : Dev nD) (t : Fin (cfg0 a).N) (d) : (dat0 V a hT c).before 0 t d = iblk0 V a c 0 t :=
  before0_0_of V a (dat0 V a hT c) (A_eq0 V a hT c 0) (after0_0 V a hT c) t d
theorem before0_1 (c : Dev nD) (t : Fin (cfg0 a).N) (d) : (dat0 V a hT c).before 1 t d = iblk0 V a c 1 t :=
  before0_1_of V a (dat0 V a hT c) (A_eq0 V a hT c 1) (after0_1 V a hT c) t d

/-! ## The invariant, conjunct by conjunct -/

theorem Phi0_eq (c : Dev nD) :
    (Phi0 V a c : sProp 𝕄)
      = iprop(iprop(iprop((∃ d, owns (c : Thread nD τ) scM0 fullShare d) ∗ others0 c)
          ∗ (∃ r, prngReg c r)
          ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
          ∗ hbPt0 c hbM0 (V c main_arg0))
        ∗ owns (c : Thread nD τ) tbM0 fullShare (a.1 (0 : Fin 1))) := by
  unfold Phi0
  rw [Pipeline.ΦD_eq, scopedRest0_split, ownSems00_eq, hbmPts0_eq, prefHeld0_eq,
    show (owns (c : Thread nD τ) tbM0 fullShare (a.1 (0 : Fin 1)) : sProp 𝕄) = (((c : Thread nD τ).loc main_arg7) ↦{fullShare} a.1 (0 : Fin 1))
      from owns_whole _ _ _ _]
  rfl

/-! ## The body obligation -/

def bodyPre0 (c : Dev nD) (t : Fin (cfg0 a).N) : sProp 𝕄 :=
  iprop((dat0 V a hT c).Φ t.castSucc ∗ (dat0 V a hT c).owesAt () t.castSucc
    ∗ (∃ d, owns (c : Thread nD τ) (ms0_0 a t) fullShare ((dat0 V a hT c).before 0 t d))
    ∗ (∃ d, owns (c : Thread nD τ) (ms0_1 a t) fullShare ((dat0 V a hT c).before 1 t d))
    ∗ (∃ d, owns (c : Thread nD τ) (ms0_2 a t) fullShare ((dat0 V a hT c).before 2 t d)))

def bodyPost0 (c : Dev nD) (t : Fin (cfg0 a).N) : sProp 𝕄 :=
  iprop((dat0 V a hT c).Φ t.succ ∗ (dat0 V a hT c).owesAt () t.succ
    ∗ owns (c : Thread nD τ) (ms0_0 a t) fullShare ((dat0 V a hT c).after 0 t)
    ∗ owns (c : Thread nD τ) (ms0_1 a t) fullShare ((dat0 V a hT c).after 1 t)
    ∗ owns (c : Thread nD τ) (ms0_2 a t) fullShare ((dat0 V a hT c).after 2 t))

set_option maxHeartbeats 4000000 in
/-- The body at any point: the inputs' memrefs hold their blocks, the invariant hands the body its scratch, its eight
    cells at zero, the filter matrix and the table, and takes them back as they were; the core's `owes` goes in at what
    the points before recorded and comes back with this point's waits. -/
theorem sound_body0 (c : Dev nD) (t : Fin (cfg0 a).N) :
    bodyPre0 V a hT c t ⊢ wp frame (wpE (defs₀ (F := F)) Variants.none c none) Set.univ (bodyAt0 a t) (fun _ => bodyPost0 V a hT c t) := by
  unfold bodyPre0 bodyPost0 bodyAt0
  simp only [before0_0, before0_1]
  rw [show (dat0 V a hT c).Φ t.succ = (dat0 V a hT c).Φ t.castSucc from rfl,
    after0_0, after0_1, after0_2]
  rw [show (dat0 V a hT c).Φ t.castSucc = Phi0 V a c from rfl, Phi0_eq]
  unfold Dat.owesAt Pipeline.owesWithin
  rw [show (dat0 V a hT c).owed t.castSucc = 0 from rfl, show (dat0 V a hT c).owed t.succ = 0 from rfl]
  unfold outsAt0
  iintro ⟨⟨⟨⟨HS0, HR⟩, Hg, ⟨Hq0, Hq1, Hq2, Hq3, Hq4, Hq5, Hq6, Hq7⟩, Hh0⟩, HT⟩, ⟨%W, -, HW⟩, ⟨%d0, Hw0⟩, ⟨%d1, Hw1⟩, ⟨%d2, Hw2⟩⟩
  iapply ((runAt0 V a hT c t).2 W _)
  isplitl [HT]; · iexact HT
  isplitl [Hw0]; · iexact Hw0
  isplitl [Hw1]; · iexact Hw1
  isplitl [Hw2]; · iexists _; iexact Hw2
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨HT, Hw0, Hw1, ⟨%e2, Hw2⟩, HS0, Hq0, Hq1, Hq2, Hq3, Hq4, Hq5, Hq6, Hq7, Hh0, ⟨%W', HW'⟩⟩
  isplitl [HS0 HR Hg Hq0 Hq1 Hq2 Hq3 Hq4 Hq5 Hq6 Hq7 Hh0 HT]
  · isplitl [HS0 HR Hg Hq0 Hq1 Hq2 Hq3 Hq4 Hq5 Hq6 Hq7 Hh0]
    · isplitl [HS0 HR]
      · isplitl [HS0]; · iexact HS0
        iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact HT
  isplitl [HW']
  · iexists W'; isplitr; · ipureintro; exact fun _ _ => Or.inl trivial
    iexact HW'
  isplitl [Hw0]; · iexact Hw0
  isplitl [Hw1]; · iexact Hw1
  unfold owns; iexists _; isplitr
  swap; · iexact Hw2
  ipureintro; exact View.read_writes_of_cover _ _ _ _ _ (cover0_2 V a hT c t)

/-- The library's body obligation, at every point. -/
theorem body_obligation0 (c : Dev nD) : BodyObligation (dat0 (F := F) V a hT c) (defs₀ (F := F)) Variants.none () Set.univ := fun t => by
  rw [bigSep_W0, bigSep_W0]
  exact sound_body0 V a hT c t

end Region0Data

end Cert.Kernel.Hand

end
-- ==== Proof.KReg1.lean ====
/-
  Region 1 (the positive-item features): what one grid point of the gather, mask and multiply kernel does, and the proof data
  of its pipeline.

  At grid point `t` the body reads eight words `idx[8t], …, idx[8t+7]` of the row-number table, copies row `idx[8t+j]`
  of the filter matrix (left in the large memory) into row `j` of an 8-row scratch, each copy on a semaphore of its own,
  and waits for all eight. Every copy's source row lies inside the matrix because the word is below the row count: that
  is the side condition the body assumes of each word, and here it is a hypothesis of the run. Then it multiplies the
  scratch entry by entry with the 0/1 pattern `mask ≥ 0.1` of the point's mask block, multiplies the result by the
  whole embedding table, and stores the 8 × 64 product as the point's output block. Nothing is in flight between
  points, the table, the filter matrix and the scratch are only read or rewritten whole, so the region's invariant is the
  same at every point: the core's other scoped buffers at some contents, the eight semaphores at zero, the filter matrix
  and the row-number table at their entry contents.
-/
import proofs.«421540_j73229192397035_2_alg».proof.Proof.Gen.Kernel.Launch
import proofs.«421540_j73229192397035_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1

-- the core's buffer contents when the region is entered, and the row-number table's contents with the (empty) side
-- condition the pipeline asks of them: both parameters, instantiated by the launch
variable (V : (c : Dev nD) → (b : Ref sig .tc) → Buf (Elt F) ((c : Thread nD τ).loc b))
variable (a : (pcfg1 (F := F)).Adm)

/-! ## The windows' blocks -/

/-- Window `w`'s block at point `t`, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The mask window's staging buffer holds its block at every point, for any proof data whose array is the entry
    contents and whose body leaves the block in place. -/
theorem before1_0_of {c : Dev nD} (dat : Dat τ (Elt F) Unit ℕ (Pipeline.UD sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the embedding table's window (one block, the whole table). -/
theorem before1_1_of {c : Dev nD} (dat : Dat τ (Elt F) Unit ℕ (Pipeline.UD sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_2 : View sig .tc .vmem S8x64 .f32 := (Memref.whole cc1_stg2_0 : Memref sig .tc .vmem S8x64 .f32).view
/-- Each window's current staging memref at point `t`, as the pipeline passes it, and its wholeness. -/
abbrev ms1_0 (t : Fin (cfg1 a).N) : Memref sig .tc .vmem S8x16000 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S16000x64 .f32 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S8x64 .f32 := spec1_2.stage ((cfg1 a).slots t 2)
abbrev hs1_2 (t : Fin (cfg1 a).N) : (ms1_2 a t).IsWhole := hstage1_2 (((cfg1 a).slots t 2).cast nbuf1_2)
/-- The row scratch: a whole scoped buffer of the kernel's own. -/
abbrev scM1 : Memref sig .tc .vmem S8x16000 .f32 := Memref.whole cc1_scratch0
/-- The row-number table and the filter matrix, whole. -/
abbrev tbM1 : Memref sig .tc .smem S1024 .i32 := Memref.whole main_arg8
abbrev hbM1 : Memref sig .tc .hbm S16000x16000 .f32 := Memref.whole main_arg1
/-- A memref's buffer on core `c`, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The filter matrix held at a share `q`: eight copies read it at once, each through a share of its own. -/
abbrev hbTok1 (c : Dev nD) (q : PosShare TreeShare) (f : HbBuf1 (F := F) c hbM1) : sProp 𝕄 :=
  hbM1.view.loc (c : Thread nD τ) ↦{q} f
/-- The numbers of the eight copy semaphores: each copy reads the matrix through the read share of its semaphore's number. -/
abbrev cells1 : List ℕ := [18, 19, 20, 21, 22, 23, 24, 25]
/-- The read shares below the first semaphore's number: split off and put back, never lent. -/
abbrev lowToks1 (c : Dev nD) (f : HbBuf1 (F := F) c hbM1) : sProp 𝕄 :=
  bigSep (Finset.range 18) fun i => hbM1.view.loc (c : Thread nD τ) ↦{Transfers.shareTokN fullShare i} f
/-- The matrix whole is the remainder, the low shares, and one read share per copy semaphore. -/
theorem hbToks1_eq (c : Dev nD) (f : HbBuf1 (F := F) c hbM1) :
    (iprop(hbTok1 c (Transfers.shareDrop fullShare 26) f ∗ bigSep (Finset.range 26) fun i => hbM1.view.loc (c : Thread nD τ) ↦{Transfers.shareTokN fullShare i} f) : sProp 𝕄)
      = iprop(hbTok1 c (Transfers.shareDrop fullShare 26) f ∗ lowToks1 c f
          ∗ hbTok1 c (Transfers.shareTokN fullShare 18) f ∗ hbTok1 c (Transfers.shareTokN fullShare 19) f ∗ hbTok1 c (Transfers.shareTokN fullShare 20) f ∗ hbTok1 c (Transfers.shareTokN fullShare 21) f ∗ hbTok1 c (Transfers.shareTokN fullShare 22) f ∗ hbTok1 c (Transfers.shareTokN fullShare 23) f ∗ hbTok1 c (Transfers.shareTokN fullShare 24) f ∗ hbTok1 c (Transfers.shareTokN fullShare 25) f) := by
  rw [BI.bigSep_sdiff_split (show Finset.range 18 ⊆ Finset.range 26 from by decide),
    BI.bigSep_eq_bigSepL_of_eq (S := Finset.range 26 \ Finset.range 18) cells1 (by decide) (by decide)]
  rfl

/-- The kernel body at point `t`, on what the pipeline calls it with. -/
abbrev bodyAt1 (t : Fin (cfg1 a).N) : Prog (TpuEff nD τ sig (Elt F) Λ₀ .tc) PUnit :=
  cc1__gather_mask_matmul_kernel (grid1.coords t) (Memref.whole main_arg8) (Memref.isWhole_whole _) (Memref.whole main_arg1) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (Memref.whole cc1_scratch0) (Memref.isWhole_whole _) cc1_scratch1

/-! ## The kernel's own semaphores and the operand it moves itself -/

/-- The eight copy semaphores, cell by cell. -/
abbrev osem1 : Fin 8 → SemLoc sig := fun j => (![SemLoc.dma 18, SemLoc.dma 19, SemLoc.dma 20, SemLoc.dma 21, SemLoc.dma 22, SemLoc.dma 23, SemLoc.dma 24, SemLoc.dma 25] : Fin 8 → SemLoc sig) j
theorem ownSemFacts1 : Pipeline.OwnSemFacts spec1 osem1 := by decide
/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0) := by
  rw [Pipeline.ownSems0_eq_of_list c osem1 [0, 1, 2, 3, 4, 5, 6, 7] (by decide) (by decide)]; rfl
/-- The filter matrix: unscoped, no window's array, no table. -/
def H1 : Finset (Ref sig .tc) := {main_arg1}
theorem H1_sub : H1 ⊆ Pipeline.restRefsP sig pre1 spec1 := by decide
theorem hbmPts1_eq (c : Dev nD) :
    (bigSep H1 (fun b => ((c : Thread nD τ).loc b) ↦{fullShare} V c b) : sProp 𝕄) = iprop(hbPt1 c hbM1 (V c main_arg1)) := by
  rw [BI.bigSep_eq_bigSepL_of_eq [main_arg1] (by decide) (by decide)]; rfl
/-- The one table, listed. -/
theorem prefHeld1_eq (c : Dev nD) (v : pre1.Contents (Elt F)) :
    (Pipeline.prefHeld (Ix := Unit) (Name := ℕ) (U := Pipeline.UD sig nD τ) (Lvl := ℕ) pre1 c (fun _ => fullShare) v : sProp 𝕄)
      = iprop(((c : Thread nD τ).loc (pre1.ref 0)) ↦{fullShare} v 0) := by
  unfold Pipeline.prefHeld
  rw [BI.bigSep_eq_bigSepL_of_eq [(0 : Fin 1)] (by decide) (by decide)]; rfl

/-- The row scratch among the core's scoped buffers that are no staging buffer of this region. -/
def Sc1 : Finset (Ref sig .tc) := {cc1_scratch0}
theorem Sc1_sub : Sc1 ⊆ (Finset.univ.filter fun b : Ref sig .tc => b.isScoped) \ Finset.univ.image (Pipeline.stageRef spec1) := by decide
/-- The core's other scoped buffers (no staging buffer of this region, not its scratch), each whole at some contents. -/
def others1 (c : Dev nD) : sProp 𝕄 :=
  bigSep (((Finset.univ.filter fun b : Ref sig .tc => b.isScoped) \ Finset.univ.image (Pipeline.stageRef spec1)) \ Sc1)
    fun b => iprop(∃ f : Buf (Elt F) ((c : Thread nD τ).loc b), ((c : Thread nD τ).loc b) ↦{fullShare} f)
/-- The scoped rest is the scratch, owned at some contents, and the others. -/
theorem scopedRest1_split (c : Dev nD) :
    (Pipeline.scopedRest (Ix := Unit) (Name := ℕ) (U := Pipeline.UD sig nD τ) (Lvl := ℕ) (Val := Elt F) spec1 c : sProp 𝕄)
      = iprop((∃ d, owns (c : Thread nD τ) scM1 fullShare d) ∗ others1 c) := by
  unfold Pipeline.scopedRest others1
  rw [BI.bigSep_sdiff_split Sc1_sub, BI.bigSep_eq_bigSepL_of_eq [cc1_scratch0] (by decide) (by decide)]
  simp only [scM1, owns_whole]; try rfl

/-- The region's invariant: what the copies need (the scoped rest with the scratch in it, the eight cells at zero, the
    filter matrix at its entry contents) and the row-number table at the contents the pipeline was pinned at. -/
def Phi1 (c : Dev nD) : sProp 𝕄 :=
  iprop(Pipeline.ΦD osem1 spec1 H1 V c ∗ Pipeline.prefHeld (Ix := Unit) (Name := ℕ) (U := Pipeline.UD sig nD τ) (Lvl := ℕ) pre1 c (fun _ => fullShare) a.1)

end Region1

/-! ## The body's run -/

-- (the run's proof term is large; the eight copies land in eight rows of ONE scratch and are all in flight before the
-- first wait, so each lends only its own row of the scratch and the rest stays behind for the next copy to issue into)
set_option maxHeartbeats 4000000 in
set_option sl_exec.dmaWindow true in
set_option sl_exec.dmaWindowSet true in
/-- What the body's one store leaves in the output's staging memref, as pieces, WITH the proof that on whole memrefs —
    the table at `x0`, the mask's and the embedding's at their contents, the output's and the scratch at anything, the
    filter matrix whole at `fh0`, the eight cells at zero — and under the side condition of each of the eight words, the
    body runs to the continuation holding all of that as it was, the scratch at some contents, and the output's buffer
    with its pieces written. -/
noncomputable def kernelRun1 (c : Dev nD) (i : grid1.Coords) (arg1 : Memref sig .tc .smem S1024 .i32) (harg1 : arg1.IsWhole)
    (arg3 : Memref sig .tc .vmem S8x16000 .f32) (harg3 : arg3.IsWhole) (arg4 : Memref sig .tc .vmem S16000x64 .f32) (harg4 : arg4.IsWhole)
    (arg5 : Memref sig .tc .vmem S8x64 .f32) (harg5 : arg5.IsWhole) (arg6 : Memref sig .tc .vmem S8x16000 .f32) (harg6 : arg6.IsWhole)
    (x0 : Vec F S1024 .i32) (x1 : Vec F S8x16000 .f32) (x2 : Vec F S16000x64 .f32) (fh0 : HbBuf1 (F := F) c hbM1)
    (k1_hw1 : k1_chk1 (arg1.view.readAt (Elt F) (Rect.unit (s := S1024) (k1_off1 i) S1.size (k1_off1_inb i)).toLoadRect (harg1.unread x0) (Shape.Idx.first (numel1_S1.symm ▸ Nat.one_pos))))
    (k1_hw2 : k1_chk2 (arg1.view.readAt (Elt F) (Rect.unit (s := S1024) (k1_off3 i) S1.size (k1_off3_inb i)).toLoadRect (harg1.unread x0) (Shape.Idx.first (numel1_S1.symm ▸ Nat.one_pos))))
    (k1_hw3 : k1_chk3 (arg1.view.readAt (Elt F) (Rect.unit (s := S1024) (k1_off5 i) S1.size (k1_off5_inb i)).toLoadRect (harg1.unread x0) (Shape.Idx.first (numel1_S1.symm ▸ Nat.one_pos))))
    (k1_hw4 : k1_chk4 (arg1.view.readAt (Elt F) (Rect.unit (s := S1024) (k1_off7 i) S1.size (k1_off7_inb i)).toLoadRect (harg1.unread x0) (Shape.Idx.first (numel1_S1.symm ▸ Nat.one_pos))))
    (k1_hw5 : k1_chk5 (arg1.view.readAt (Elt F) (Rect.unit (s := S1024) (k1_off9 i) S1.size (k1_off9_inb i)).toLoadRect (harg1.unread x0) (Shape.Idx.first (numel1_S1.symm ▸ Nat.one_pos))))
    (k1_hw6 : k1_chk6 (arg1.view.readAt (Elt F) (Rect.unit (s := S1024) (k1_off11 i) S1.size (k1_off11_inb i)).toLoadRect (harg1.unread x0) (Shape.Idx.first (numel1_S1.symm ▸ Nat.one_pos))))
    (k1_hw7 : k1_chk7 (arg1.view.readAt (Elt F) (Rect.unit (s := S1024) (k1_off13 i) S1.size (k1_off13_inb i)).toLoadRect (harg1.unread x0) (Shape.Idx.first (numel1_S1.symm ▸ Nat.one_pos))))
    (k1_hw8 : k1_chk8 (arg1.view.readAt (Elt F) (Rect.unit (s := S1024) (k1_off15 i) S1.size (k1_off15_inb i)).toLoadRect (harg1.unread x0) (Shape.Idx.first (numel1_S1.symm ▸ Nat.one_pos)))) :
    { L2 : List (View.Piece (Elt F) S8x64 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0
            ∗ hbPt1 c hbM1 fh0 ∗ owes (c : Thread nD τ) 0 W
            ∗ (iprop(owns (c : Thread nD τ) arg1 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L2) ∗ (∃ d, owns (c : Thread nD τ) arg6 fullShare d)
                ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0
                ∗ hbPt1 c hbM1 fh0 ∗ (∃ W', owes (c : Thread nD τ) 0 W')) -∗ K ⟨⟩))
          ⊢ wp frame (wpE (defs₀ (F := F)) Variants.none c none) Set.univ
              (cc1__gather_mask_matmul_kernel i arg1 harg1 (Memref.whole main_arg1) (Memref.isWhole_whole _) arg3 harg3 arg4 harg4 arg5 harg5 arg6 harg6 cc1_scratch1) K } := by
  refine ⟨?_, fun W K => ?run⟩
  case run =>
    simp only [cc1__gather_mask_matmul_kernel_eq_skeleton]; unfold cc1__gather_mask_matmul_kernel_skel
    simp only [k1_part1_eq_skeleton, k1_part2_eq_skeleton, k1_part3_eq_skeleton]
    unfold owns
    iintro ⟨⟨%f0, %hf0, Hw0⟩, ⟨%f1, %hf1, Hw1⟩, ⟨%f2, %hf2, Hw2⟩, ⟨%d3, %f3, -, Hw3⟩, ⟨%ds0, %fs0, -, HS0⟩, Hq0, Hq1, Hq2, Hq3, Hq4, Hq5, Hq6, Hq7, Hh0, HW, Hk⟩
    obtain rfl := harg1.eq_unread hf0; obtain rfl := harg3.eq_unread hf1; obtain rfl := harg4.eq_unread hf2
    -- the filter matrix as the remainder, the low shares, and one read share per copy semaphore
    ihave Hh' := ((Transfers.pointsTo_toks_range (Ix := Unit) (Name := ℕ) (U := Pipeline.UD sig nD τ) (Lvl := ℕ) (q := fullShare) (k := 26)).1.trans
      (Entails.of_eq (hbToks1_eq c fh0))) $$ Hh0
    icases Hh' with ⟨Hhr, Hhl, Ht0, Ht1, Ht2, Ht3, Ht4, Ht5, Ht6, Ht7⟩
    sl_exec (disch := first | sl_exact k1_hw1 | sl_exact k1_hw2 | sl_exact k1_hw3 | sl_exact k1_hw4 | sl_exact k1_hw5 | sl_exact k1_hw6 | sl_exact k1_hw7 | sl_exact k1_hw8)
    sl_step
    iapply Hk
    isplitl [Hw0]
    · iexists _; isplitr; · ipureintro; exact harg1.read_unread _
      iexact Hw0
    isplitl [Hw1]
    · iexists _; isplitr; · ipureintro; exact harg3.read_unread _
      iexact Hw1
    isplitl [Hw2]
    · iexists _; isplitr; · ipureintro; exact harg4.read_unread _
      iexact Hw2
    isplitl [Hw3]; · iexists _; iexact Hw3
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhr Hhl Ht0 Ht1 Ht2 Ht3 Ht4 Ht5 Ht6 Ht7]
    · iapply ((Entails.of_eq (hbToks1_eq c fh0).symm).trans
        (Transfers.pointsTo_toks_range (Ix := Unit) (Name := ℕ) (U := Pipeline.UD sig nD τ) (Lvl := ℕ) (q := fullShare) (k := 26)).2)
      isplitl [Hhr]; · iexact Hhr
      isplitl [Hhl]; · iexact Hhl
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    iexists _; iexact HW

/-! ## The side condition of each word -/

/-- A word read through the table's view is a word of the table: below the row count when every word is. -/
theorem word_lt1 (arg1 : Memref sig .tc .smem S1024 .i32) (harg1 : arg1.IsWhole) (x0 : Vec F S1024 .i32)
    (hT : ∀ j, (x0 j).toNat < 16000) (r : LoadRect S1024) (y : r.shape.Idx) :
    (arg1.view.readAt (Elt F) r (harg1.unread x0) y).toNat < 16000 := by
  simp only [View.readAt_apply, Memref.IsWhole.read_unread]; exact hT _

/-- A row number below the row count names a row inside the filter matrix: copy 1's side condition. -/
theorem r1chk1_of_lt (w : BitVec 32) (h : w.toNat < 16000) : k1_chk1 w := by
  unfold k1_chk1 k1_off2 k1_off17
  refine ⟨fun a => ?_, fun a => ?_⟩ <;> (fin_cases a <;> simp <;> omega)
/-- A row number below the row count names a row inside the filter matrix: copy 2's side condition. -/
theorem r1chk2_of_lt (w : BitVec 32) (h : w.toNat < 16000) : k1_chk2 w := by
  unfold k1_chk2 k1_off4 k1_off18
  refine ⟨fun a => ?_, fun a => ?_⟩ <;> (fin_cases a <;> simp <;> omega)
/-- A row number below the row count names a row inside the filter matrix: copy 3's side condition. -/
theorem r1chk3_of_lt (w : BitVec 32) (h : w.toNat < 16000) : k1_chk3 w := by
  unfold k1_chk3 k1_off6 k1_off19
  refine ⟨fun a => ?_, fun a => ?_⟩ <;> (fin_cases a <;> simp <;> omega)
/-- A row number below the row count names a row inside the filter matrix: copy 4's side condition. -/
theorem r1chk4_of_lt (w : BitVec 32) (h : w.toNat < 16000) : k1_chk4 w := by
  unfold k1_chk4 k1_off8 k1_off20
  refine ⟨fun a => ?_, fun a => ?_⟩ <;> (fin_cases a <;> simp <;> omega)
/-- A row number below the row count names a row inside the filter matrix: copy 5's side condition. -/
theorem r1chk5_of_lt (w : BitVec 32) (h : w.toNat < 16000) : k1_chk5 w := by
  unfold k1_chk5 k1_off10 k1_off21
  refine ⟨fun a => ?_, fun a => ?_⟩ <;> (fin_cases a <;> simp <;> omega)
/-- A row number below the row count names a row inside the filter matrix: copy 6's side condition. -/
theorem r1chk6_of_lt (w : BitVec 32) (h : w.toNat < 16000) : k1_chk6 w := by
  unfold k1_chk6 k1_off12 k1_off22
  refine ⟨fun a => ?_, fun a => ?_⟩ <;> (fin_cases a <;> simp <;> omega)
/-- A row number below the row count names a row inside the filter matrix: copy 7's side condition. -/
theorem r1chk7_of_lt (w : BitVec 32) (h : w.toNat < 16000) : k1_chk7 w := by
  unfold k1_chk7 k1_off14 k1_off23
  refine ⟨fun a => ?_, fun a => ?_⟩ <;> (fin_cases a <;> simp <;> omega)
theorem r1chk8_of_lt (w : BitVec 32) (h : w.toNat < 16000) : k1_chk8 w := by
  unfold k1_chk8 k1_off16
  intro a; fin_cases a <;> simp <;> omega

section Region1Data

variable (V : (c : Dev nD) → (b : Ref sig .tc) → Buf (Elt F) ((c : Thread nD τ).loc b))
variable (a : (pcfg1 (F := F)).Adm)
-- every word of the row-number table, as the pipeline was pinned at it, is a row number of the filter matrix
variable (hT : ∀ j, ((a.1 (0 : Fin 1) : Vec F S1024 .i32) j).toNat < 16000)

/-! ## What the output holds after each point -/

/-- The run at point `t`: the point's memrefs and blocks, the table at its pinned contents, every word's side condition
    from the table's range. -/
abbrev runAt1 (c : Dev nD) (t : Fin (cfg1 a).N) :=
  kernelRun1 (F := F) c (grid1.coords t) tbM1 (Memref.isWhole_whole _) (ms1_0 a t) (hs1_0 a t) (ms1_1 a t) (hs1_1 a t) (ms1_2 a t) (hs1_2 a t)
    scM1 (Memref.isWhole_whole _) (a.1 (0 : Fin 1)) (iblk1 V a c 0 t) (iblk1 V a c 1 t) (V c main_arg1)
    (r1chk1_of_lt _ (word_lt1 _ _ _ hT _ _)) (r1chk2_of_lt _ (word_lt1 _ _ _ hT _ _)) (r1chk3_of_lt _ (word_lt1 _ _ _ hT _ _)) (r1chk4_of_lt _ (word_lt1 _ _ _ hT _ _)) (r1chk5_of_lt _ (word_lt1 _ _ _ hT _ _)) (r1chk6_of_lt _ (word_lt1 _ _ _ hT _ _)) (r1chk7_of_lt _ (word_lt1 _ _ _ hT _ _)) (r1chk8_of_lt _ (word_lt1 _ _ _ hT _ _))

/-- The run's pieces tile the output block (one store of the whole block), so they cover it. -/
theorem cover1_2 (c : Dev nD) (t : Fin (cfg1 a).N) (y : S8x64.Idx) :
    ∃ pc ∈ (runAt1 V a hT c t).1, y ∈ pc.1.set :=
  View.cover_of_tiledL (runAt1 V a hT c t).1 S8x64.size (by sl_kernel_rfl) y

/-- What the output window's staging buffer holds after the body at point `t`: the run's pieces read back. -/
def outsAt1 (c : Dev nD) (t : Fin (cfg1 a).N) : Vec F S8x64 .f32 :=
  VO1_2.read (Elt F) (VO1_2.writes (Elt F) VO1_2.junk (runAt1 V a hT c t).1)

/-! ## The pipeline's proof data -/

/-- The proof data of the pipeline on core `c`: the arrays as the region finds them; after the body at point `t` each
    input's buffer at its block and the output's at `outsAt1`; the invariant `Phi1`; nothing owed; full shares. -/
def dat1 (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => iblk1 V a c 1 t
    | ⟨2, _⟩ => outsAt1 V a hT c t
  Φ _ := Phi1 V a c
  q _ := fullShare
  owed _ := 0

theorem A_eq1 (c : Dev nD) (w : Fin (cfg1 a).W) : (dat1 V a hT c).A w = V c (Pipeline.arrRef spec1 w) := by
  dsimp only [dat1]
theorem after1_0 (c : Dev nD) (t : Fin (cfg1 a).N) : (dat1 V a hT c).after 0 t = iblk1 V a c 0 t := rfl
theorem after1_1 (c : Dev nD) (t : Fin (cfg1 a).N) : (dat1 V a hT c).after 1 t = iblk1 V a c 1 t := rfl
theorem after1_2 (c : Dev nD) (t : Fin (cfg1 a).N) : (dat1 V a hT c).after 2 t = outsAt1 V a hT c t := rfl
theorem before1_0 (c : Dev nD) (t : Fin (cfg1 a).N) (d) : (dat1 V a hT c).before 0 t d = iblk1 V a c 0 t :=
  before1_0_of V a (dat1 V a hT c) (A_eq1 V a hT c 0) (after1_0 V a hT c) t d
theorem before1_1 (c : Dev nD) (t : Fin (cfg1 a).N) (d) : (dat1 V a hT c).before 1 t d = iblk1 V a c 1 t :=
  before1_1_of V a (dat1 V a hT c) (A_eq1 V a hT c 1) (after1_1 V a hT c) t d

/-! ## The invariant, conjunct by conjunct -/

theorem Phi1_eq (c : Dev nD) :
    (Phi1 V a c : sProp 𝕄)
      = iprop(iprop(iprop((∃ d, owns (c : Thread nD τ) scM1 fullShare d) ∗ others1 c)
          ∗ (∃ r, prngReg c r)
          ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)
          ∗ hbPt1 c hbM1 (V c main_arg1))
        ∗ owns (c : Thread nD τ) tbM1 fullShare (a.1 (0 : Fin 1))) := by
  unfold Phi1
  rw [Pipeline.ΦD_eq, scopedRest1_split, ownSems01_eq, hbmPts1_eq, prefHeld1_eq,
    show (owns (c : Thread nD τ) tbM1 fullShare (a.1 (0 : Fin 1)) : sProp 𝕄) = (((c : Thread nD τ).loc main_arg8) ↦{fullShare} a.1 (0 : Fin 1))
      from owns_whole _ _ _ _]
  rfl

/-! ## The body obligation -/

def bodyPre1 (c : Dev nD) (t : Fin (cfg1 a).N) : sProp 𝕄 :=
  iprop((dat1 V a hT c).Φ t.castSucc ∗ (dat1 V a hT c).owesAt () t.castSucc
    ∗ (∃ d, owns (c : Thread nD τ) (ms1_0 a t) fullShare ((dat1 V a hT c).before 0 t d))
    ∗ (∃ d, owns (c : Thread nD τ) (ms1_1 a t) fullShare ((dat1 V a hT c).before 1 t d))
    ∗ (∃ d, owns (c : Thread nD τ) (ms1_2 a t) fullShare ((dat1 V a hT c).before 2 t d)))

def bodyPost1 (c : Dev nD) (t : Fin (cfg1 a).N) : sProp 𝕄 :=
  iprop((dat1 V a hT c).Φ t.succ ∗ (dat1 V a hT c).owesAt () t.succ
    ∗ owns (c : Thread nD τ) (ms1_0 a t) fullShare ((dat1 V a hT c).after 0 t)
    ∗ owns (c : Thread nD τ) (ms1_1 a t) fullShare ((dat1 V a hT c).after 1 t)
    ∗ owns (c : Thread nD τ) (ms1_2 a t) fullShare ((dat1 V a hT c).after 2 t))

set_option maxHeartbeats 4000000 in
/-- The body at any point: the inputs' memrefs hold their blocks, the invariant hands the body its scratch, its eight
    cells at zero, the filter matrix and the table, and takes them back as they were; the core's `owes` goes in at what
    the points before recorded and comes back with this point's waits. -/
theorem sound_body1 (c : Dev nD) (t : Fin (cfg1 a).N) :
    bodyPre1 V a hT c t ⊢ wp frame (wpE (defs₀ (F := F)) Variants.none c none) Set.univ (bodyAt1 a t) (fun _ => bodyPost1 V a hT c t) := by
  unfold bodyPre1 bodyPost1 bodyAt1
  simp only [before1_0, before1_1]
  rw [show (dat1 V a hT c).Φ t.succ = (dat1 V a hT c).Φ t.castSucc from rfl,
    after1_0, after1_1, after1_2]
  rw [show (dat1 V a hT c).Φ t.castSucc = Phi1 V a c from rfl, Phi1_eq]
  unfold Dat.owesAt Pipeline.owesWithin
  rw [show (dat1 V a hT c).owed t.castSucc = 0 from rfl, show (dat1 V a hT c).owed t.succ = 0 from rfl]
  unfold outsAt1
  iintro ⟨⟨⟨⟨HS0, HR⟩, Hg, ⟨Hq0, Hq1, Hq2, Hq3, Hq4, Hq5, Hq6, Hq7⟩, Hh0⟩, HT⟩, ⟨%W, -, HW⟩, ⟨%d0, Hw0⟩, ⟨%d1, Hw1⟩, ⟨%d2, Hw2⟩⟩
  iapply ((runAt1 V a hT c t).2 W _)
  isplitl [HT]; · iexact HT
  isplitl [Hw0]; · iexact Hw0
  isplitl [Hw1]; · iexact Hw1
  isplitl [Hw2]; · iexists _; iexact Hw2
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨HT, Hw0, Hw1, ⟨%e2, Hw2⟩, HS0, Hq0, Hq1, Hq2, Hq3, Hq4, Hq5, Hq6, Hq7, Hh0, ⟨%W', HW'⟩⟩
  isplitl [HS0 HR Hg Hq0 Hq1 Hq2 Hq3 Hq4 Hq5 Hq6 Hq7 Hh0 HT]
  · isplitl [HS0 HR Hg Hq0 Hq1 Hq2 Hq3 Hq4 Hq5 Hq6 Hq7 Hh0]
    · isplitl [HS0 HR]
      · isplitl [HS0]; · iexact HS0
        iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact HT
  isplitl [HW']
  · iexists W'; isplitr; · ipureintro; exact fun _ _ => Or.inl trivial
    iexact HW'
  isplitl [Hw0]; · iexact Hw0
  isplitl [Hw1]; · iexact Hw1
  unfold owns; iexists _; isplitr
  swap; · iexact Hw2
  ipureintro; exact View.read_writes_of_cover _ _ _ _ _ (cover1_2 V a hT c t)

/-- The library's body obligation, at every point. -/
theorem body_obligation1 (c : Dev nD) : BodyObligation (dat1 (F := F) V a hT c) (defs₀ (F := F)) Variants.none () Set.univ := fun t => by
  rw [bigSep_W1, bigSep_W1]
  exact sound_body1 V a hT c t

end Region1Data

end Cert.Kernel.Hand

end
-- ==== Proof.KReg2.lean ====
/-
  Region 2 (the negative-item features): what one grid point of the gather, mask and multiply kernel does, and the proof data
  of its pipeline.

  At grid point `t` the body reads eight words `idx[8t], …, idx[8t+7]` of the row-number table, copies row `idx[8t+j]`
  of the filter matrix (left in the large memory) into row `j` of an 8-row scratch, each copy on a semaphore of its own,
  and waits for all eight. Every copy's source row lies inside the matrix because the word is below the row count: that
  is the side condition the body assumes of each word, and here it is a hypothesis of the run. Then it multiplies the
  scratch entry by entry with the 0/1 pattern `mask ≥ 0.1` of the point's mask block, multiplies the result by the
  whole embedding table, and stores the 8 × 64 product as the point's output block. Nothing is in flight between
  points, the table, the filter matrix and the scratch are only read or rewritten whole, so the region's invariant is the
  same at every point: the core's other scoped buffers at some contents, the eight semaphores at zero, the filter matrix
  and the row-number table at their entry contents.
-/
import proofs.«421540_j73229192397035_2_alg».proof.Proof.Gen.Kernel.Launch
import proofs.«421540_j73229192397035_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2

-- the core's buffer contents when the region is entered, and the row-number table's contents with the (empty) side
-- condition the pipeline asks of them: both parameters, instantiated by the launch
variable (V : (c : Dev nD) → (b : Ref sig .tc) → Buf (Elt F) ((c : Thread nD τ).loc b))
variable (a : (pcfg2 (F := F)).Adm)

/-! ## The windows' blocks -/

/-- Window `w`'s block at point `t`, read off its array as the region finds it. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The mask window's staging buffer holds its block at every point, for any proof data whose array is the entry
    contents and whose body leaves the block in place. -/
theorem before2_0_of {c : Dev nD} (dat : Dat τ (Elt F) Unit ℕ (Pipeline.UD sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the embedding table's window (one block, the whole table). -/
theorem before2_1_of {c : Dev nD} (dat : Dat τ (Elt F) Unit ℕ (Pipeline.UD sig nD τ) ℕ (cfg2 a) c) (hA : dat.A 1 = V c (Pipeline.arrRef spec2 1))
    (hafter : ∀ t, dat.after 1 t = iblk2 V a c 1 t) (t : Fin (cfg2 a).N) (d) : dat.before 1 t d = iblk2 V a c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The memrefs the body is called with -/

/-- One staging buffer of the output window, through which its contents are stated (the choice does not matter). -/
abbrev VO2_2 : View sig .tc .vmem S8x64 .f32 := (Memref.whole cc2_stg2_0 : Memref sig .tc .vmem S8x64 .f32).view
/-- Each window's current staging memref at point `t`, as the pipeline passes it, and its wholeness. -/
abbrev ms2_0 (t : Fin (cfg2 a).N) : Memref sig .tc .vmem S8x16000 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S16000x64 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S8x64 .f32 := spec2_2.stage ((cfg2 a).slots t 2)
abbrev hs2_2 (t : Fin (cfg2 a).N) : (ms2_2 a t).IsWhole := hstage2_2 (((cfg2 a).slots t 2).cast nbuf2_2)
/-- The row scratch: a whole scoped buffer of the kernel's own. -/
abbrev scM2 : Memref sig .tc .vmem S8x16000 .f32 := Memref.whole cc2_scratch0
/-- The row-number table and the filter matrix, whole. -/
abbrev tbM2 : Memref sig .tc .smem S1024 .i32 := Memref.whole main_arg9
abbrev hbM2 : Memref sig .tc .hbm S16000x16000 .f32 := Memref.whole main_arg1
/-- A memref's buffer on core `c`, and it held whole at `f`. -/
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- The filter matrix held at a share `q`: eight copies read it at once, each through a share of its own. -/
abbrev hbTok2 (c : Dev nD) (q : PosShare TreeShare) (f : HbBuf2 (F := F) c hbM2) : sProp 𝕄 :=
  hbM2.view.loc (c : Thread nD τ) ↦{q} f
/-- The numbers of the eight copy semaphores: each copy reads the matrix through the read share of its semaphore's number. -/
abbrev cells2 : List ℕ := [31, 32, 33, 34, 35, 36, 37, 38]
/-- The read shares below the first semaphore's number: split off and put back, never lent. -/
abbrev lowToks2 (c : Dev nD) (f : HbBuf2 (F := F) c hbM2) : sProp 𝕄 :=
  bigSep (Finset.range 31) fun i => hbM2.view.loc (c : Thread nD τ) ↦{Transfers.shareTokN fullShare i} f
/-- The matrix whole is the remainder, the low shares, and one read share per copy semaphore. -/
theorem hbToks2_eq (c : Dev nD) (f : HbBuf2 (F := F) c hbM2) :
    (iprop(hbTok2 c (Transfers.shareDrop fullShare 39) f ∗ bigSep (Finset.range 39) fun i => hbM2.view.loc (c : Thread nD τ) ↦{Transfers.shareTokN fullShare i} f) : sProp 𝕄)
      = iprop(hbTok2 c (Transfers.shareDrop fullShare 39) f ∗ lowToks2 c f
          ∗ hbTok2 c (Transfers.shareTokN fullShare 31) f ∗ hbTok2 c (Transfers.shareTokN fullShare 32) f ∗ hbTok2 c (Transfers.shareTokN fullShare 33) f ∗ hbTok2 c (Transfers.shareTokN fullShare 34) f ∗ hbTok2 c (Transfers.shareTokN fullShare 35) f ∗ hbTok2 c (Transfers.shareTokN fullShare 36) f ∗ hbTok2 c (Transfers.shareTokN fullShare 37) f ∗ hbTok2 c (Transfers.shareTokN fullShare 38) f) := by
  rw [BI.bigSep_sdiff_split (show Finset.range 31 ⊆ Finset.range 39 from by decide),
    BI.bigSep_eq_bigSepL_of_eq (S := Finset.range 39 \ Finset.range 31) cells2 (by decide) (by decide)]
  rfl

/-- The kernel body at point `t`, on what the pipeline calls it with. -/
abbrev bodyAt2 (t : Fin (cfg2 a).N) : Prog (TpuEff nD τ sig (Elt F) Λ₀ .tc) PUnit :=
  cc2__gather_mask_matmul_kernel (grid2.coords t) (Memref.whole main_arg9) (Memref.isWhole_whole _) (Memref.whole main_arg1) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))
    (Memref.whole cc2_scratch0) (Memref.isWhole_whole _) cc2_scratch1

/-! ## The kernel's own semaphores and the operand it moves itself -/

/-- The eight copy semaphores, cell by cell. -/
abbrev osem2 : Fin 8 → SemLoc sig := fun j => (![SemLoc.dma 31, SemLoc.dma 32, SemLoc.dma 33, SemLoc.dma 34, SemLoc.dma 35, SemLoc.dma 36, SemLoc.dma 37, SemLoc.dma 38] : Fin 8 → SemLoc sig) j
theorem ownSemFacts2 : Pipeline.OwnSemFacts spec2 osem2 := by decide
/-- The cells at zero, listed. -/
theorem ownSems02_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem2 [0, 1, 2, 3, 4, 5, 6, 7] (by decide) (by decide)]; rfl
/-- The filter matrix: unscoped, no window's array, no table. -/
def H2 : Finset (Ref sig .tc) := {main_arg1}
theorem H2_sub : H2 ⊆ Pipeline.restRefsP sig pre2 spec2 := by decide
theorem hbmPts2_eq (c : Dev nD) :
    (bigSep H2 (fun b => ((c : Thread nD τ).loc b) ↦{fullShare} V c b) : sProp 𝕄) = iprop(hbPt2 c hbM2 (V c main_arg1)) := by
  rw [BI.bigSep_eq_bigSepL_of_eq [main_arg1] (by decide) (by decide)]; rfl
/-- The one table, listed. -/
theorem prefHeld2_eq (c : Dev nD) (v : pre2.Contents (Elt F)) :
    (Pipeline.prefHeld (Ix := Unit) (Name := ℕ) (U := Pipeline.UD sig nD τ) (Lvl := ℕ) pre2 c (fun _ => fullShare) v : sProp 𝕄)
      = iprop(((c : Thread nD τ).loc (pre2.ref 0)) ↦{fullShare} v 0) := by
  unfold Pipeline.prefHeld
  rw [BI.bigSep_eq_bigSepL_of_eq [(0 : Fin 1)] (by decide) (by decide)]; rfl

/-- The row scratch among the core's scoped buffers that are no staging buffer of this region. -/
def Sc2 : Finset (Ref sig .tc) := {cc2_scratch0}
theorem Sc2_sub : Sc2 ⊆ (Finset.univ.filter fun b : Ref sig .tc => b.isScoped) \ Finset.univ.image (Pipeline.stageRef spec2) := by decide
/-- The core's other scoped buffers (no staging buffer of this region, not its scratch), each whole at some contents. -/
def others2 (c : Dev nD) : sProp 𝕄 :=
  bigSep (((Finset.univ.filter fun b : Ref sig .tc => b.isScoped) \ Finset.univ.image (Pipeline.stageRef spec2)) \ Sc2)
    fun b => iprop(∃ f : Buf (Elt F) ((c : Thread nD τ).loc b), ((c : Thread nD τ).loc b) ↦{fullShare} f)
/-- The scoped rest is the scratch, owned at some contents, and the others. -/
theorem scopedRest2_split (c : Dev nD) :
    (Pipeline.scopedRest (Ix := Unit) (Name := ℕ) (U := Pipeline.UD sig nD τ) (Lvl := ℕ) (Val := Elt F) spec2 c : sProp 𝕄)
      = iprop((∃ d, owns (c : Thread nD τ) scM2 fullShare d) ∗ others2 c) := by
  unfold Pipeline.scopedRest others2
  rw [BI.bigSep_sdiff_split Sc2_sub, BI.bigSep_eq_bigSepL_of_eq [cc2_scratch0] (by decide) (by decide)]
  simp only [scM2, owns_whole]; try rfl

/-- The region's invariant: what the copies need (the scoped rest with the scratch in it, the eight cells at zero, the
    filter matrix at its entry contents) and the row-number table at the contents the pipeline was pinned at. -/
def Phi2 (c : Dev nD) : sProp 𝕄 :=
  iprop(Pipeline.ΦD osem2 spec2 H2 V c ∗ Pipeline.prefHeld (Ix := Unit) (Name := ℕ) (U := Pipeline.UD sig nD τ) (Lvl := ℕ) pre2 c (fun _ => fullShare) a.1)

end Region2

/-! ## The body's run -/

-- (the run's proof term is large; the eight copies land in eight rows of ONE scratch and are all in flight before the
-- first wait, so each lends only its own row of the scratch and the rest stays behind for the next copy to issue into)
set_option maxHeartbeats 4000000 in
set_option sl_exec.dmaWindow true in
set_option sl_exec.dmaWindowSet true in
/-- What the body's one store leaves in the output's staging memref, as pieces, WITH the proof that on whole memrefs —
    the table at `x0`, the mask's and the embedding's at their contents, the output's and the scratch at anything, the
    filter matrix whole at `fh0`, the eight cells at zero — and under the side condition of each of the eight words, the
    body runs to the continuation holding all of that as it was, the scratch at some contents, and the output's buffer
    with its pieces written. -/
noncomputable def kernelRun2 (c : Dev nD) (i : grid2.Coords) (arg1 : Memref sig .tc .smem S1024 .i32) (harg1 : arg1.IsWhole)
    (arg3 : Memref sig .tc .vmem S8x16000 .f32) (harg3 : arg3.IsWhole) (arg4 : Memref sig .tc .vmem S16000x64 .f32) (harg4 : arg4.IsWhole)
    (arg5 : Memref sig .tc .vmem S8x64 .f32) (harg5 : arg5.IsWhole) (arg6 : Memref sig .tc .vmem S8x16000 .f32) (harg6 : arg6.IsWhole)
    (x0 : Vec F S1024 .i32) (x1 : Vec F S8x16000 .f32) (x2 : Vec F S16000x64 .f32) (fh0 : HbBuf2 (F := F) c hbM2)
    (k2_hw1 : k2_chk1 (arg1.view.readAt (Elt F) (Rect.unit (s := S1024) (k2_off1 i) S1.size (k2_off1_inb i)).toLoadRect (harg1.unread x0) (Shape.Idx.first (numel1_S1.symm ▸ Nat.one_pos))))
    (k2_hw2 : k2_chk2 (arg1.view.readAt (Elt F) (Rect.unit (s := S1024) (k2_off3 i) S1.size (k2_off3_inb i)).toLoadRect (harg1.unread x0) (Shape.Idx.first (numel1_S1.symm ▸ Nat.one_pos))))
    (k2_hw3 : k2_chk3 (arg1.view.readAt (Elt F) (Rect.unit (s := S1024) (k2_off5 i) S1.size (k2_off5_inb i)).toLoadRect (harg1.unread x0) (Shape.Idx.first (numel1_S1.symm ▸ Nat.one_pos))))
    (k2_hw4 : k2_chk4 (arg1.view.readAt (Elt F) (Rect.unit (s := S1024) (k2_off7 i) S1.size (k2_off7_inb i)).toLoadRect (harg1.unread x0) (Shape.Idx.first (numel1_S1.symm ▸ Nat.one_pos))))
    (k2_hw5 : k2_chk5 (arg1.view.readAt (Elt F) (Rect.unit (s := S1024) (k2_off9 i) S1.size (k2_off9_inb i)).toLoadRect (harg1.unread x0) (Shape.Idx.first (numel1_S1.symm ▸ Nat.one_pos))))
    (k2_hw6 : k2_chk6 (arg1.view.readAt (Elt F) (Rect.unit (s := S1024) (k2_off11 i) S1.size (k2_off11_inb i)).toLoadRect (harg1.unread x0) (Shape.Idx.first (numel1_S1.symm ▸ Nat.one_pos))))
    (k2_hw7 : k2_chk7 (arg1.view.readAt (Elt F) (Rect.unit (s := S1024) (k2_off13 i) S1.size (k2_off13_inb i)).toLoadRect (harg1.unread x0) (Shape.Idx.first (numel1_S1.symm ▸ Nat.one_pos))))
    (k2_hw8 : k2_chk8 (arg1.view.readAt (Elt F) (Rect.unit (s := S1024) (k2_off15 i) S1.size (k2_off15_inb i)).toLoadRect (harg1.unread x0) (Shape.Idx.first (numel1_S1.symm ▸ Nat.one_pos)))) :
    { L2 : List (View.Piece (Elt F) S8x64 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0
            ∗ hbPt2 c hbM2 fh0 ∗ owes (c : Thread nD τ) 0 W
            ∗ (iprop(owns (c : Thread nD τ) arg1 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L2) ∗ (∃ d, owns (c : Thread nD τ) arg6 fullShare d)
                ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0
                ∗ hbPt2 c hbM2 fh0 ∗ (∃ W', owes (c : Thread nD τ) 0 W')) -∗ K ⟨⟩))
          ⊢ wp frame (wpE (defs₀ (F := F)) Variants.none c none) Set.univ
              (cc2__gather_mask_matmul_kernel i arg1 harg1 (Memref.whole main_arg1) (Memref.isWhole_whole _) arg3 harg3 arg4 harg4 arg5 harg5 arg6 harg6 cc2_scratch1) K } := by
  refine ⟨?_, fun W K => ?run⟩
  case run =>
    simp only [cc2__gather_mask_matmul_kernel_eq_skeleton]; unfold cc2__gather_mask_matmul_kernel_skel
    simp only [k2_part1_eq_skeleton, k2_part2_eq_skeleton, k2_part3_eq_skeleton]
    unfold owns
    iintro ⟨⟨%f0, %hf0, Hw0⟩, ⟨%f1, %hf1, Hw1⟩, ⟨%f2, %hf2, Hw2⟩, ⟨%d3, %f3, -, Hw3⟩, ⟨%ds0, %fs0, -, HS0⟩, Hq0, Hq1, Hq2, Hq3, Hq4, Hq5, Hq6, Hq7, Hh0, HW, Hk⟩
    obtain rfl := harg1.eq_unread hf0; obtain rfl := harg3.eq_unread hf1; obtain rfl := harg4.eq_unread hf2
    -- the filter matrix as the remainder, the low shares, and one read share per copy semaphore
    ihave Hh' := ((Transfers.pointsTo_toks_range (Ix := Unit) (Name := ℕ) (U := Pipeline.UD sig nD τ) (Lvl := ℕ) (q := fullShare) (k := 39)).1.trans
      (Entails.of_eq (hbToks2_eq c fh0))) $$ Hh0
    icases Hh' with ⟨Hhr, Hhl, Ht0, Ht1, Ht2, Ht3, Ht4, Ht5, Ht6, Ht7⟩
    sl_exec (disch := first | sl_exact k2_hw1 | sl_exact k2_hw2 | sl_exact k2_hw3 | sl_exact k2_hw4 | sl_exact k2_hw5 | sl_exact k2_hw6 | sl_exact k2_hw7 | sl_exact k2_hw8)
    sl_step
    iapply Hk
    isplitl [Hw0]
    · iexists _; isplitr; · ipureintro; exact harg1.read_unread _
      iexact Hw0
    isplitl [Hw1]
    · iexists _; isplitr; · ipureintro; exact harg3.read_unread _
      iexact Hw1
    isplitl [Hw2]
    · iexists _; isplitr; · ipureintro; exact harg4.read_unread _
      iexact Hw2
    isplitl [Hw3]; · iexists _; iexact Hw3
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hhr Hhl Ht0 Ht1 Ht2 Ht3 Ht4 Ht5 Ht6 Ht7]
    · iapply ((Entails.of_eq (hbToks2_eq c fh0).symm).trans
        (Transfers.pointsTo_toks_range (Ix := Unit) (Name := ℕ) (U := Pipeline.UD sig nD τ) (Lvl := ℕ) (q := fullShare) (k := 39)).2)
      isplitl [Hhr]; · iexact Hhr
      isplitl [Hhl]; · iexact Hhl
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    iexists _; iexact HW

/-! ## The side condition of each word -/

/-- A word read through the table's view is a word of the table: below the row count when every word is. -/
theorem word_lt2 (arg1 : Memref sig .tc .smem S1024 .i32) (harg1 : arg1.IsWhole) (x0 : Vec F S1024 .i32)
    (hT : ∀ j, (x0 j).toNat < 16000) (r : LoadRect S1024) (y : r.shape.Idx) :
    (arg1.view.readAt (Elt F) r (harg1.unread x0) y).toNat < 16000 := by
  simp only [View.readAt_apply, Memref.IsWhole.read_unread]; exact hT _

/-- A row number below the row count names a row inside the filter matrix: copy 1's side condition. -/
theorem r2chk1_of_lt (w : BitVec 32) (h : w.toNat < 16000) : k2_chk1 w := by
  unfold k2_chk1 k2_off2 k2_off17
  refine ⟨fun a => ?_, fun a => ?_⟩ <;> (fin_cases a <;> simp <;> omega)
/-- A row number below the row count names a row inside the filter matrix: copy 2's side condition. -/
theorem r2chk2_of_lt (w : BitVec 32) (h : w.toNat < 16000) : k2_chk2 w := by
  unfold k2_chk2 k2_off4 k2_off18
  refine ⟨fun a => ?_, fun a => ?_⟩ <;> (fin_cases a <;> simp <;> omega)
/-- A row number below the row count names a row inside the filter matrix: copy 3's side condition. -/
theorem r2chk3_of_lt (w : BitVec 32) (h : w.toNat < 16000) : k2_chk3 w := by
  unfold k2_chk3 k2_off6 k2_off19
  refine ⟨fun a => ?_, fun a => ?_⟩ <;> (fin_cases a <;> simp <;> omega)
/-- A row number below the row count names a row inside the filter matrix: copy 4's side condition. -/
theorem r2chk4_of_lt (w : BitVec 32) (h : w.toNat < 16000) : k2_chk4 w := by
  unfold k2_chk4 k2_off8 k2_off20
  refine ⟨fun a => ?_, fun a => ?_⟩ <;> (fin_cases a <;> simp <;> omega)
/-- A row number below the row count names a row inside the filter matrix: copy 5's side condition. -/
theorem r2chk5_of_lt (w : BitVec 32) (h : w.toNat < 16000) : k2_chk5 w := by
  unfold k2_chk5 k2_off10 k2_off21
  refine ⟨fun a => ?_, fun a => ?_⟩ <;> (fin_cases a <;> simp <;> omega)
/-- A row number below the row count names a row inside the filter matrix: copy 6's side condition. -/
theorem r2chk6_of_lt (w : BitVec 32) (h : w.toNat < 16000) : k2_chk6 w := by
  unfold k2_chk6 k2_off12 k2_off22
  refine ⟨fun a => ?_, fun a => ?_⟩ <;> (fin_cases a <;> simp <;> omega)
/-- A row number below the row count names a row inside the filter matrix: copy 7's side condition. -/
theorem r2chk7_of_lt (w : BitVec 32) (h : w.toNat < 16000) : k2_chk7 w := by
  unfold k2_chk7 k2_off14 k2_off23
  refine ⟨fun a => ?_, fun a => ?_⟩ <;> (fin_cases a <;> simp <;> omega)
theorem r2chk8_of_lt (w : BitVec 32) (h : w.toNat < 16000) : k2_chk8 w := by
  unfold k2_chk8 k2_off16
  intro a; fin_cases a <;> simp <;> omega

section Region2Data

variable (V : (c : Dev nD) → (b : Ref sig .tc) → Buf (Elt F) ((c : Thread nD τ).loc b))
variable (a : (pcfg2 (F := F)).Adm)
-- every word of the row-number table, as the pipeline was pinned at it, is a row number of the filter matrix
variable (hT : ∀ j, ((a.1 (0 : Fin 1) : Vec F S1024 .i32) j).toNat < 16000)

/-! ## What the output holds after each point -/

/-- The run at point `t`: the point's memrefs and blocks, the table at its pinned contents, every word's side condition
    from the table's range. -/
abbrev runAt2 (c : Dev nD) (t : Fin (cfg2 a).N) :=
  kernelRun2 (F := F) c (grid2.coords t) tbM2 (Memref.isWhole_whole _) (ms2_0 a t) (hs2_0 a t) (ms2_1 a t) (hs2_1 a t) (ms2_2 a t) (hs2_2 a t)
    scM2 (Memref.isWhole_whole _) (a.1 (0 : Fin 1)) (iblk2 V a c 0 t) (iblk2 V a c 1 t) (V c main_arg1)
    (r2chk1_of_lt _ (word_lt2 _ _ _ hT _ _)) (r2chk2_of_lt _ (word_lt2 _ _ _ hT _ _)) (r2chk3_of_lt _ (word_lt2 _ _ _ hT _ _)) (r2chk4_of_lt _ (word_lt2 _ _ _ hT _ _)) (r2chk5_of_lt _ (word_lt2 _ _ _ hT _ _)) (r2chk6_of_lt _ (word_lt2 _ _ _ hT _ _)) (r2chk7_of_lt _ (word_lt2 _ _ _ hT _ _)) (r2chk8_of_lt _ (word_lt2 _ _ _ hT _ _))

/-- The run's pieces tile the output block (one store of the whole block), so they cover it. -/
theorem cover2_2 (c : Dev nD) (t : Fin (cfg2 a).N) (y : S8x64.Idx) :
    ∃ pc ∈ (runAt2 V a hT c t).1, y ∈ pc.1.set :=
  View.cover_of_tiledL (runAt2 V a hT c t).1 S8x64.size (by sl_kernel_rfl) y

/-- What the output window's staging buffer holds after the body at point `t`: the run's pieces read back. -/
def outsAt2 (c : Dev nD) (t : Fin (cfg2 a).N) : Vec F S8x64 .f32 :=
  VO2_2.read (Elt F) (VO2_2.writes (Elt F) VO2_2.junk (runAt2 V a hT c t).1)

/-! ## The pipeline's proof data -/

/-- The proof data of the pipeline on core `c`: the arrays as the region finds them; after the body at point `t` each
    input's buffer at its block and the output's at `outsAt2`; the invariant `Phi2`; nothing owed; full shares. -/
def dat2 (c : Dev nD) : Dat τ (Elt F) Unit ℕ (Pipeline.UD sig nD τ) ℕ (cfg2 a) c where
  A w := V c (Pipeline.arrRef spec2 w)
  after w t := match w with
    | ⟨0, _⟩ => iblk2 V a c 0 t
    | ⟨1, _⟩ => iblk2 V a c 1 t
    | ⟨2, _⟩ => outsAt2 V a hT c t
  Φ _ := Phi2 V a c
  q _ := fullShare
  owed _ := 0

theorem A_eq2 (c : Dev nD) (w : Fin (cfg2 a).W) : (dat2 V a hT c).A w = V c (Pipeline.arrRef spec2 w) := by
  dsimp only [dat2]
theorem after2_0 (c : Dev nD) (t : Fin (cfg2 a).N) : (dat2 V a hT c).after 0 t = iblk2 V a c 0 t := rfl
theorem after2_1 (c : Dev nD) (t : Fin (cfg2 a).N) : (dat2 V a hT c).after 1 t = iblk2 V a c 1 t := rfl
theorem after2_2 (c : Dev nD) (t : Fin (cfg2 a).N) : (dat2 V a hT c).after 2 t = outsAt2 V a hT c t := rfl
theorem before2_0 (c : Dev nD) (t : Fin (cfg2 a).N) (d) : (dat2 V a hT c).before 0 t d = iblk2 V a c 0 t :=
  before2_0_of V a (dat2 V a hT c) (A_eq2 V a hT c 0) (after2_0 V a hT c) t d
theorem before2_1 (c : Dev nD) (t : Fin (cfg2 a).N) (d) : (dat2 V a hT c).before 1 t d = iblk2 V a c 1 t :=
  before2_1_of V a (dat2 V a hT c) (A_eq2 V a hT c 1) (after2_1 V a hT c) t d

/-! ## The invariant, conjunct by conjunct -/

theorem Phi2_eq (c : Dev nD) :
    (Phi2 V a c : sProp 𝕄)
      = iprop(iprop(iprop((∃ d, owns (c : Thread nD τ) scM2 fullShare d) ∗ others2 c)
          ∗ (∃ r, prngReg c r)
          ∗ iprop(semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
          ∗ hbPt2 c hbM2 (V c main_arg1))
        ∗ owns (c : Thread nD τ) tbM2 fullShare (a.1 (0 : Fin 1))) := by
  unfold Phi2
  rw [Pipeline.ΦD_eq, scopedRest2_split, ownSems02_eq, hbmPts2_eq, prefHeld2_eq,
    show (owns (c : Thread nD τ) tbM2 fullShare (a.1 (0 : Fin 1)) : sProp 𝕄) = (((c : Thread nD τ).loc main_arg9) ↦{fullShare} a.1 (0 : Fin 1))
      from owns_whole _ _ _ _]
  rfl

/-! ## The body obligation -/

def bodyPre2 (c : Dev nD) (t : Fin (cfg2 a).N) : sProp 𝕄 :=
  iprop((dat2 V a hT c).Φ t.castSucc ∗ (dat2 V a hT c).owesAt () t.castSucc
    ∗ (∃ d, owns (c : Thread nD τ) (ms2_0 a t) fullShare ((dat2 V a hT c).before 0 t d))
    ∗ (∃ d, owns (c : Thread nD τ) (ms2_1 a t) fullShare ((dat2 V a hT c).before 1 t d))
    ∗ (∃ d, owns (c : Thread nD τ) (ms2_2 a t) fullShare ((dat2 V a hT c).before 2 t d)))

def bodyPost2 (c : Dev nD) (t : Fin (cfg2 a).N) : sProp 𝕄 :=
  iprop((dat2 V a hT c).Φ t.succ ∗ (dat2 V a hT c).owesAt () t.succ
    ∗ owns (c : Thread nD τ) (ms2_0 a t) fullShare ((dat2 V a hT c).after 0 t)
    ∗ owns (c : Thread nD τ) (ms2_1 a t) fullShare ((dat2 V a hT c).after 1 t)
    ∗ owns (c : Thread nD τ) (ms2_2 a t) fullShare ((dat2 V a hT c).after 2 t))

set_option maxHeartbeats 4000000 in
/-- The body at any point: the inputs' memrefs hold their blocks, the invariant hands the body its scratch, its eight
    cells at zero, the filter matrix and the table, and takes them back as they were; the core's `owes` goes in at what
    the points before recorded and comes back with this point's waits. -/
theorem sound_body2 (c : Dev nD) (t : Fin (cfg2 a).N) :
    bodyPre2 V a hT c t ⊢ wp frame (wpE (defs₀ (F := F)) Variants.none c none) Set.univ (bodyAt2 a t) (fun _ => bodyPost2 V a hT c t) := by
  unfold bodyPre2 bodyPost2 bodyAt2
  simp only [before2_0, before2_1]
  rw [show (dat2 V a hT c).Φ t.succ = (dat2 V a hT c).Φ t.castSucc from rfl,
    after2_0, after2_1, after2_2]
  rw [show (dat2 V a hT c).Φ t.castSucc = Phi2 V a c from rfl, Phi2_eq]
  unfold Dat.owesAt Pipeline.owesWithin
  rw [show (dat2 V a hT c).owed t.castSucc = 0 from rfl, show (dat2 V a hT c).owed t.succ = 0 from rfl]
  unfold outsAt2
  iintro ⟨⟨⟨⟨HS0, HR⟩, Hg, ⟨Hq0, Hq1, Hq2, Hq3, Hq4, Hq5, Hq6, Hq7⟩, Hh0⟩, HT⟩, ⟨%W, -, HW⟩, ⟨%d0, Hw0⟩, ⟨%d1, Hw1⟩, ⟨%d2, Hw2⟩⟩
  iapply ((runAt2 V a hT c t).2 W _)
  isplitl [HT]; · iexact HT
  isplitl [Hw0]; · iexact Hw0
  isplitl [Hw1]; · iexact Hw1
  isplitl [Hw2]; · iexists _; iexact Hw2
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨HT, Hw0, Hw1, ⟨%e2, Hw2⟩, HS0, Hq0, Hq1, Hq2, Hq3, Hq4, Hq5, Hq6, Hq7, Hh0, ⟨%W', HW'⟩⟩
  isplitl [HS0 HR Hg Hq0 Hq1 Hq2 Hq3 Hq4 Hq5 Hq6 Hq7 Hh0 HT]
  · isplitl [HS0 HR Hg Hq0 Hq1 Hq2 Hq3 Hq4 Hq5 Hq6 Hq7 Hh0]
    · isplitl [HS0 HR]
      · isplitl [HS0]; · iexact HS0
        iexact HR
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      iexact Hh0
    iexact HT
  isplitl [HW']
  · iexists W'; isplitr; · ipureintro; exact fun _ _ => Or.inl trivial
    iexact HW'
  isplitl [Hw0]; · iexact Hw0
  isplitl [Hw1]; · iexact Hw1
  unfold owns; iexists _; isplitr
  swap; · iexact Hw2
  ipureintro; exact View.read_writes_of_cover _ _ _ _ _ (cover2_2 V a hT c t)

/-- The library's body obligation, at every point. -/
theorem body_obligation2 (c : Dev nD) : BodyObligation (dat2 (F := F) V a hT c) (defs₀ (F := F)) Variants.none () Set.univ := fun t => by
  rw [bigSep_W2, bigSep_W2]
  exact sound_body2 V a hT c t

end Region2Data

end Cert.Kernel.Hand

end
-- ==== Proof.KReg3.lean ====
/-
  Region 3 (the loss): one grid point. The body loads the three feature matrices whole, computes the loss from them
  and stores it as the one entry of its output block. It keeps nothing between points and touches nothing else, so the
  region's invariant is only what the body may use and need not describe: the core's other scoped buffers at some
  contents and the generator register at some state.
-/
import proofs.«421540_j73229192397035_2_alg».proof.Proof.Gen.Kernel.Launch
import proofs.«421540_j73229192397035_2_alg».proof.Proof.Gen.Kernel.Skeleton
import proofs.«421540_j73229192397035_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, for any proof data whose array is the entry
    contents and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The body's one store -/

abbrev r3_0 : Rect S1x1 := Rect.unit (s := S1x1) ![0, 0] S1x1.size inb_S1x1_S1x1_0_0

/-- The value the body stores, from the three loaded feature matrices: the loss's arithmetic as the body spells it. -/
def lossPay (x0 x1 x2 : Vec F S1024x64 .f32) : FVec F S1x1 .f32 :=
  k3_pay1 (k3_pay5 x0 x1 x2) (k3_pay6 x0) (k3_pay7 x1) (k3_pay8 x2)

/-- The rectangle each feature matrix is loaded through: the whole block. -/
abbrev rIn3 : Rect S1024x64 := Rect.unit (s := S1024x64) ![0, 0] S1024x64.size inb_S1024x64_S1024x64_0_0

/-- The output window's staging buffer after the body: its one store, as a piece, of the three blocks as loaded. -/
def out3_3 (x0 x1 x2 : Vec F S1024x64 .f32) : Vec F S1x1 .f32 :=
  View.canon [⟨r3_0, lossPay (View.ld x0 rIn3) (View.ld x1 rIn3) (View.ld x2 rIn3)⟩]

/-- The store covers the one-entry buffer. -/
theorem cover3_3 (p0 : Vec F S1x1 .f32) (y : S1x1.Idx) :
    ∃ pc ∈ ([⟨r3_0, p0⟩] : List (View.Piece (Elt F) S1x1 .f32)), y ∈ pc.1.set :=
  View.cover_of_tiled [⟨r3_0, p0⟩] S1x1.size (by rfl) y

/-! ## The body's triple -/

set_option maxHeartbeats 4000000 in
/-- The body on whole staging memrefs, the inputs' at read contents and the output's at anything, runs to the
    continuation holding the inputs' as they were and the output's at `out3_3` of them. -/
theorem sound_kernel3 (c : Dev nD) (E : Set ℕ) (i : grid3.Coords) (arg1 : Memref sig .tc .vmem S1024x64 .f32) (harg1 : arg1.IsWhole)
    (arg2 : Memref sig .tc .vmem S1024x64 .f32) (harg2 : arg2.IsWhole) (arg3 : Memref sig .tc .vmem S1024x64 .f32) (harg3 : arg3.IsWhole)
    (arg4 : Memref sig .tc .vmem S1x1 .f32) (harg4 : arg4.IsWhole)
    (x0 x1 x2 : Vec F S1024x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__bpr_loss_kernel i arg1 harg1 arg2 harg2 arg3 harg3 arg4 harg4) K := by
  simp only [cc3__bpr_loss_kernel_eq_skeleton]; unfold cc3__bpr_loss_kernel_skel
  simp only [k3_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  exact View.read_writes_eq_canon _ _ _ (cover3_3 (F := F) _)

section Region3Data

variable (V : (c : Dev nD) → (b : Ref sig .tc) → Buf (Elt F) ((c : Thread nD τ).loc b))

/-! ## The pipeline's proof data -/

/-- The proof data of the loss pipeline on core `c`: the arrays as the region finds them; after the body each input's
    buffer at its block and the output's at the stored loss; the invariant the scoped rest and the generator register,
    untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at the point: the inputs' memrefs hold their blocks, so the triple applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3Data

end Cert.Kernel.Hand

end
-- ==== Proof.KLaunch.lean ====
/-
  The whole program: four kernel regions and one closing host operation, from the launch to the return.

  Between two items the core holds every unscoped buffer whole at known contents: the launch memory, then after each
  region that region's arrays at what its pipeline leaves and everything else as before, then the closing reshape. Each
  region is entered from those contents and left at the next ones; the run of the whole program then reads, for EVERY
  unscoped buffer, the final memory at the last contents. The frame (each argument ends as launched) and the value of
  the result are both read off that one statement.
-/
import proofs.«421540_j73229192397035_2_alg».proof.Proof.KReg0
import proofs.«421540_j73229192397035_2_alg».proof.Proof.KReg1
import proofs.«421540_j73229192397035_2_alg».proof.Proof.KReg2
import proofs.«421540_j73229192397035_2_alg».proof.Proof.KReg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The row-number tables the pipelines are pinned at -/

/-- Each table region's table, read at the launch memory (no item writes an argument). -/
def tbl0 : pre0.Contents (Elt F) := fun k => m (((0 : Dev nD) : Thread nD τ).loc (pre0.ref k))
def tbl1 : pre1.Contents (Elt F) := fun k => m (((0 : Dev nD) : Thread nD τ).loc (pre1.ref k))
def tbl2 : pre2.Contents (Elt F) := fun k => m (((0 : Dev nD) : Thread nD τ).loc (pre2.ref k))

/-- The admissible contents of every pipeline's tables: the side condition on them is empty. -/
def adm : (p : Fin 4) → (pcfgs (F := F) p).Adm
  | ⟨0, _⟩ => ⟨tbl0 m, trivial⟩
  | ⟨1, _⟩ => ⟨tbl1 m, trivial⟩
  | ⟨2, _⟩ => ⟨tbl2 m, trivial⟩
  | ⟨3, _⟩ => cfg3.toPCfg_adm

theorem hT0 (hU : ∀ j, ((m (((0 : Dev nD) : Thread nD τ).loc main_arg7) : Vec F S1024 .i32) j).toNat < 12000) :
    ∀ j, (((adm m 0).1 (0 : Fin 1) : Vec F S1024 .i32) j).toNat < 12000 := hU
theorem hT1 (hP : ∀ j, ((m (((0 : Dev nD) : Thread nD τ).loc main_arg8) : Vec F S1024 .i32) j).toNat < 16000) :
    ∀ j, (((adm m 1).1 (0 : Fin 1) : Vec F S1024 .i32) j).toNat < 16000 := hP
theorem hT2 (hN : ∀ j, ((m (((0 : Dev nD) : Thread nD τ).loc main_arg9) : Vec F S1024 .i32) j).toNat < 16000) :
    ∀ j, (((adm m 2).1 (0 : Fin 1) : Vec F S1024 .i32) j).toNat < 16000 := hN

/-- Every word of the three row-number vectors, as launched, is a row number of the filter it indexes. -/
structure Ranges (m : (ℓ : Loc nD τ sig) → Buf (Elt F) ℓ) : Prop where
  hU : ∀ j, ((m (((0 : Dev nD) : Thread nD τ).loc main_arg7) : Vec F S1024 .i32) j).toNat < 12000
  hP : ∀ j, ((m (((0 : Dev nD) : Thread nD τ).loc main_arg8) : Vec F S1024 .i32) j).toNat < 16000
  hN : ∀ j, ((m (((0 : Dev nD) : Thread nD τ).loc main_arg9) : Vec F S1024 .i32) j).toNat < 16000

/-! ## The buffer contents at each boundary -/

/-- Core `c`'s buffers at launch. -/
abbrev W0 (hR : Ranges m) : Dev nD → Valuation τ sig (Elt F) := fun c b => m ((c : Dev nD), b)
abbrev V0 (hR : Ranges m) : (c : Dev nD) → (b : Ref sig .tc) → Buf (Elt F) ((c : Thread nD τ).loc b) := fun c b => W0 m hR c b

/-- After region 0: its arrays at what the pipeline leaves, every other buffer as before it. -/
def W1 (hR : Ranges m) (c : Dev nD) : Valuation τ sig (Elt F) :=
  Pipeline.withArrays spec0 c (W0 m hR c) fun w => (dat0 (V0 m hR) (adm m 0) (hT0 m hR.hU) c).arrAt w (cfg0 (adm m 0)).N
theorem W1_arr (hR : Ranges m) (c : Dev nD) (w : Fin (cfg0 (adm m 0)).W) :
    W1 m hR c (Proc.devRef .tc (Pipeline.arrRef spec0 w)) = (dat0 (V0 m hR) (adm m 0) (hT0 m hR.hU) c).arrAt w (cfg0 (adm m 0)).N := by
  unfold W1; exact Pipeline.withArrays_arr spec0 (launch0 (F := F)).win.arr_inj c _ _ w
theorem W1_of_ne (hR : Ranges m) (c : Dev nD) (b : Ref sig .tc) (hb : ∀ w, Pipeline.arrRef spec0 w ≠ b) :
    W1 m hR c (Proc.devRef .tc b) = W0 m hR c (Proc.devRef .tc b) := by
  unfold W1; exact Pipeline.withArrays_of_ne spec0 c _ _ b hb
abbrev V1 (hR : Ranges m) : (c : Dev nD) → (b : Ref sig .tc) → Buf (Elt F) ((c : Thread nD τ).loc b) := fun c b => W1 m hR c b
theorem hF0 (hR : Ranges m) (c : Dev nD) (w : Fin (cfg0 (adm m 0)).W) : (dat0 (V0 m hR) (adm m 0) (hT0 m hR.hU) c).arrAt w (cfg0 (adm m 0)).N = V1 m hR c (Pipeline.arrRef spec0 w) :=
  (W1_arr m hR c w).symm
theorem hrest0 (hR : Ranges m) (c : Dev nD) : ∀ b, b ∉ Finset.univ.image (Pipeline.arrRef spec0) → V1 m hR c b = V0 m hR c b :=
  fun b hb => W1_of_ne m hR c b fun w e => hb (Finset.mem_image.mpr ⟨w, Finset.mem_univ _, e⟩)

/-- After region 1: its arrays at what the pipeline leaves, every other buffer as before it. -/
def W2 (hR : Ranges m) (c : Dev nD) : Valuation τ sig (Elt F) :=
  Pipeline.withArrays spec1 c (W1 m hR c) fun w => (dat1 (V1 m hR) (adm m 1) (hT1 m hR.hP) c).arrAt w (cfg1 (adm m 1)).N
theorem W2_arr (hR : Ranges m) (c : Dev nD) (w : Fin (cfg1 (adm m 1)).W) :
    W2 m hR c (Proc.devRef .tc (Pipeline.arrRef spec1 w)) = (dat1 (V1 m hR) (adm m 1) (hT1 m hR.hP) c).arrAt w (cfg1 (adm m 1)).N := by
  unfold W2; exact Pipeline.withArrays_arr spec1 (launch1 (F := F)).win.arr_inj c _ _ w
theorem W2_of_ne (hR : Ranges m) (c : Dev nD) (b : Ref sig .tc) (hb : ∀ w, Pipeline.arrRef spec1 w ≠ b) :
    W2 m hR c (Proc.devRef .tc b) = W1 m hR c (Proc.devRef .tc b) := by
  unfold W2; exact Pipeline.withArrays_of_ne spec1 c _ _ b hb
abbrev V2 (hR : Ranges m) : (c : Dev nD) → (b : Ref sig .tc) → Buf (Elt F) ((c : Thread nD τ).loc b) := fun c b => W2 m hR c b
theorem hF1 (hR : Ranges m) (c : Dev nD) (w : Fin (cfg1 (adm m 1)).W) : (dat1 (V1 m hR) (adm m 1) (hT1 m hR.hP) c).arrAt w (cfg1 (adm m 1)).N = V2 m hR c (Pipeline.arrRef spec1 w) :=
  (W2_arr m hR c w).symm
theorem hrest1 (hR : Ranges m) (c : Dev nD) : ∀ b, b ∉ Finset.univ.image (Pipeline.arrRef spec1) → V2 m hR c b = V1 m hR c b :=
  fun b hb => W2_of_ne m hR c b fun w e => hb (Finset.mem_image.mpr ⟨w, Finset.mem_univ _, e⟩)

/-- After region 2: its arrays at what the pipeline leaves, every other buffer as before it. -/
def W3 (hR : Ranges m) (c : Dev nD) : Valuation τ sig (Elt F) :=
  Pipeline.withArrays spec2 c (W2 m hR c) fun w => (dat2 (V2 m hR) (adm m 2) (hT2 m hR.hN) c).arrAt w (cfg2 (adm m 2)).N
theorem W3_arr (hR : Ranges m) (c : Dev nD) (w : Fin (cfg2 (adm m 2)).W) :
    W3 m hR c (Proc.devRef .tc (Pipeline.arrRef spec2 w)) = (dat2 (V2 m hR) (adm m 2) (hT2 m hR.hN) c).arrAt w (cfg2 (adm m 2)).N := by
  unfold W3; exact Pipeline.withArrays_arr spec2 (launch2 (F := F)).win.arr_inj c _ _ w
theorem W3_of_ne (hR : Ranges m) (c : Dev nD) (b : Ref sig .tc) (hb : ∀ w, Pipeline.arrRef spec2 w ≠ b) :
    W3 m hR c (Proc.devRef .tc b) = W2 m hR c (Proc.devRef .tc b) := by
  unfold W3; exact Pipeline.withArrays_of_ne spec2 c _ _ b hb
abbrev V3 (hR : Ranges m) : (c : Dev nD) → (b : Ref sig .tc) → Buf (Elt F) ((c : Thread nD τ).loc b) := fun c b => W3 m hR c b
theorem hF2 (hR : Ranges m) (c : Dev nD) (w : Fin (cfg2 (adm m 2)).W) : (dat2 (V2 m hR) (adm m 2) (hT2 m hR.hN) c).arrAt w (cfg2 (adm m 2)).N = V3 m hR c (Pipeline.arrRef spec2 w) :=
  (W3_arr m hR c w).symm
theorem hrest2 (hR : Ranges m) (c : Dev nD) : ∀ b, b ∉ Finset.univ.image (Pipeline.arrRef spec2) → V3 m hR c b = V2 m hR c b :=
  fun b hb => W3_of_ne m hR c b fun w e => hb (Finset.mem_image.mpr ⟨w, Finset.mem_univ _, e⟩)

/-- After region 3: its arrays at what the pipeline leaves, every other buffer as before it. -/
def W4 (hR : Ranges m) (c : Dev nD) : Valuation τ sig (Elt F) :=
  Pipeline.withArrays spec3 c (W3 m hR c) fun w => (dat3 (V3 m hR) c).arrAt w cfg3.N
theorem W4_arr (hR : Ranges m) (c : Dev nD) (w : Fin cfg3.W) :
    W4 m hR c (Proc.devRef .tc (Pipeline.arrRef spec3 w)) = (dat3 (V3 m hR) c).arrAt w cfg3.N := by
  unfold W4; exact Pipeline.withArrays_arr spec3 (launch3 (F := F)).win.arr_inj c _ _ w
theorem W4_of_ne (hR : Ranges m) (c : Dev nD) (b : Ref sig .tc) (hb : ∀ w, Pipeline.arrRef spec3 w ≠ b) :
    W4 m hR c (Proc.devRef .tc b) = W3 m hR c (Proc.devRef .tc b) := by
  unfold W4; exact Pipeline.withArrays_of_ne spec3 c _ _ b hb
abbrev V4 (hR : Ranges m) : (c : Dev nD) → (b : Ref sig .tc) → Buf (Elt F) ((c : Thread nD τ).loc b) := fun c b => W4 m hR c b
theorem hF3 (hR : Ranges m) (c : Dev nD) (w : Fin cfg3.W) : (dat3 (V3 m hR) c).arrAt w cfg3.N = V4 m hR c (Pipeline.arrRef spec3 w) :=
  (W4_arr m hR c w).symm
theorem hrest3 (hR : Ranges m) (c : Dev nD) : ∀ b, b ∉ Finset.univ.image (Pipeline.arrRef spec3) → V4 m hR c b = V3 m hR c b :=
  fun b hb => W4_of_ne m hR c b fun w e => hb (Finset.mem_image.mpr ⟨w, Finset.mem_univ _, e⟩)

/-- After the closing host operation. -/
abbrev W5 (hR : Ranges m) (c : Dev nD) : Valuation τ sig (Elt F) := StableHlo.after hostOps4 (W4 m hR c)

/-! ### No item writes an argument, so each table region finds its table as launched -/

theorem W0_main_arg7 (hR : Ranges m) (c : Dev nD) : W0 m hR c (Proc.devRef .tc main_arg7) = m ((c : Thread nD τ).loc main_arg7) := by
  rfl
/-- The table region 0 is pinned at is the table it finds. -/
theorem tbl0_eq (hR : Ranges m) : (fun k => V0 m hR (0 : Dev nD) (pre0.ref k)) = (adm m 0).1 := by
  funext k
  match k with
  | ⟨0, _⟩ => exact W0_main_arg7 m hR 0
theorem W1_main_arg8 (hR : Ranges m) (c : Dev nD) : W1 m hR c (Proc.devRef .tc main_arg8) = m ((c : Thread nD τ).loc main_arg8) := by
  rw [W1_of_ne m hR c main_arg8 (by decide)]
/-- The table region 1 is pinned at is the table it finds. -/
theorem tbl1_eq (hR : Ranges m) : (fun k => V1 m hR (0 : Dev nD) (pre1.ref k)) = (adm m 1).1 := by
  funext k
  match k with
  | ⟨0, _⟩ => exact W1_main_arg8 m hR 0
theorem W2_main_arg9 (hR : Ranges m) (c : Dev nD) : W2 m hR c (Proc.devRef .tc main_arg9) = m ((c : Thread nD τ).loc main_arg9) := by
  rw [W2_of_ne m hR c main_arg9 (by decide)]
  rw [W1_of_ne m hR c main_arg9 (by decide)]
/-- The table region 2 is pinned at is the table it finds. -/
theorem tbl2_eq (hR : Ranges m) : (fun k => V2 m hR (0 : Dev nD) (pre2.ref k)) = (adm m 2).1 := by
  funext k
  match k with
  | ⟨0, _⟩ => exact W2_main_arg9 m hR 0

/-! ## The proof data family and the thread state -/

/-- Every pipeline's proof data, each at its region's entry contents. -/
def pdats (hR : Ranges m) : (p : Fin 4) → (c : Dev nD) → Dat τ (Elt F) Unit ℕ (Pipeline.UD sig nD τ) ℕ (Pipeline.pin (pcfgs (F := F)) (adm m) p) c
  | ⟨0, _⟩ => fun c => dat0 (V0 m hR) (adm m 0) (hT0 m hR.hU) c
  | ⟨1, _⟩ => fun c => dat1 (V1 m hR) (adm m 1) (hT1 m hR.hP) c
  | ⟨2, _⟩ => fun c => dat2 (V2 m hR) (adm m 2) (hT2 m hR.hN) c
  | ⟨3, _⟩ => fun c => dat3 (V3 m hR) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's `owes`, at
    nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (hR : Ranges m) (c : Dev nD) : sProp 𝕄 := iprop(StableHlo.held (c : Thread nD τ) (Pipeline.ucRefs τ sig) (W5 m hR c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; of the rest, the
    row-number table goes to the pipeline (and through it to the body) and comes back, the filter matrix goes into the
    invariant beside the eight semaphores and the generator register and comes back, everything else bypasses. -/
def reg0 (hR : Ranges m) : Pipeline.RegionSeg (pcfgs (F := F)) (adm m) (pdats m hR) () defs₀ 𝒱₀ L lv 0 where
  win := (launch0 (F := F)).win.to₀
  block_pos := (launch0 (F := F)).block_pos
  stage_whole := (launch0 (F := F)).stage_whole
  K := Fin 8
  osem := osem0
  ho := ownSemFacts0
  hbody c := (body_obligation0 (V0 m hR) (adm m 0) (hT0 m hR.hU) c).loose
  hwaits := Pipeline.hwaits_of_owed_zero _ _ _ _ L lv 0 fun _ _ => rfl
  pre c := iprop(StableHlo.held (c : Thread nD τ) (Pipeline.ucRefs τ sig) (W0 m hR c) ∗ R c)
  post c := iprop(StableHlo.held (c : Thread nD τ) (Pipeline.ucRefs τ sig) (W1 m hR c) ∗ R c)
  X c := iprop((∃ r, prngReg c r) ∗ Pipeline.ownSems0 (Ix := Unit) (Name := ℕ) (U := Pipeline.UD sig nD τ) (Lvl := ℕ) (Val := Elt F) (τ := τ) osem0 c
      ∗ (bigSep H0 fun b => (((c : Thread nD τ)).loc b) ↦{fullShare} V0 m hR c b))
  Y c := iprop((∃ r, prngReg c r) ∗ (bigSep H0 fun b => (((c : Thread nD τ)).loc b) ↦{fullShare} V0 m hR c b)
      ∗ Pipeline.prefHeld (Ix := Unit) (Name := ℕ) (U := Pipeline.UD sig nD τ) (Lvl := ℕ) pre0 c (fun _ => fullShare) (adm m 0).1)
  Z c := bigSep (Pipeline.restRefsP sig pre0 spec0 \ H0) fun b => (((c : Thread nD τ)).loc b) ↦{fullShare} V0 m hR c b
  hentry c := by
    obtain rfl : c = 0 := Subsingleton.elim _ _
    have hsplit := Pipeline.arrays_of_unscopedBufs (p := 0) (pcfgs (F := F)) (adm m) (pdats m hR) (launch0 (F := F)).win (launch0 (F := F)).arr_whole 0
      ((pdats m hR 0 0).share_full fun _ => rfl) (V0 m hR 0) fun _ => rfl
    rw [Pipeline.unscopedBufs_held] at hsplit
    have hT : (Pipeline.unscopedRest (Ix := Unit) (Name := ℕ) (U := Pipeline.UD sig nD τ) (Lvl := ℕ) spec0 0 (V0 m hR 0) : sProp 𝕄)
        = iprop(Pipeline.prefHeld pre0 0 (fun _ => fullShare) (adm m 0).1 ∗ Pipeline.unscopedRestP pre0 spec0 0 (V0 m hR 0)) :=
      (Pipeline.unscopedRest_split (launch0 (F := F)).pre 0 (V0 m hR 0)).trans
        (congrArg (fun v => (iprop(Pipeline.prefHeld pre0 0 (fun _ => fullShare) v ∗ Pipeline.unscopedRestP pre0 spec0 0 (V0 m hR 0)) : sProp 𝕄)) (tbl0_eq m hR))
    have hH := Pipeline.unscopedRestP_sdiff pre0 spec0 H0 H0_sub (0 : Dev nD) (V0 m hR 0) (Val := Elt F)
    iintro ⟨⟨Hub, Hp, HO⟩, Hos, -⟩
    ihave H := hsplit $$ Hub
    icases H with ⟨Ha, Hrest⟩
    ihave H' := (Entails.of_eq hT) $$ Hrest
    icases H' with ⟨HT, HrP⟩
    ihave H'' := (Entails.of_eq hH) $$ HrP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hR 0 c).Φ 0 = Phi0 (V0 m hR) (adm m 0) c from rfl]; unfold Phi0; rw [Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m hR 0 c).Φ (Fin.last _) = Phi0 (V0 m hR) (adm m 0) c from rfl]; unfold Phi0; rw [Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    obtain rfl : c = 0 := Subsingleton.elim _ _
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole 0 (pdats m hR) ((pdats m hR 0 0).share_full fun _ => rfl)
      (V0 m hR 0) (V1 m hR 0) ((pdats m hR 0 0).arrAt · (cfg0 (adm m 0)).N) (hF0 m hR 0) (hrest0 m hR 0)
    rw [Pipeline.unscopedBufs_held] at hjoin
    have hT : (Pipeline.unscopedRest (Ix := Unit) (Name := ℕ) (U := Pipeline.UD sig nD τ) (Lvl := ℕ) spec0 0 (V0 m hR 0) : sProp 𝕄)
        = iprop(Pipeline.prefHeld pre0 0 (fun _ => fullShare) (adm m 0).1 ∗ Pipeline.unscopedRestP pre0 spec0 0 (V0 m hR 0)) :=
      (Pipeline.unscopedRest_split (launch0 (F := F)).pre 0 (V0 m hR 0)).trans
        (congrArg (fun v => (iprop(Pipeline.prefHeld pre0 0 (fun _ => fullShare) v ∗ Pipeline.unscopedRestP pre0 spec0 0 (V0 m hR 0)) : sProp 𝕄)) (tbl0_eq m hR))
    have hH := Pipeline.unscopedRestP_sdiff pre0 spec0 H0 H0_sub (0 : Dev nD) (V0 m hR 0) (Val := Elt F)
    iintro ⟨Ha, HO, ⟨HY, HH, HT⟩, HR⟩
    ihave HrP := (Entails.of_eq hH.symm) $$ [HH HR]
    · isplitl [HH]; · iexact HH
      iexact HR
    ihave Hrest := (Entails.of_eq hT.symm) $$ [HT HrP]
    · isplitl [HT]; · iexact HT
      iexact HrP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; of the rest, the
    row-number table goes to the pipeline (and through it to the body) and comes back, the filter matrix goes into the
    invariant beside the eight semaphores and the generator register and comes back, everything else bypasses. -/
def reg1 (hR : Ranges m) : Pipeline.RegionSeg (pcfgs (F := F)) (adm m) (pdats m hR) () defs₀ 𝒱₀ L lv 1 where
  win := (launch1 (F := F)).win.to₀
  block_pos := (launch1 (F := F)).block_pos
  stage_whole := (launch1 (F := F)).stage_whole
  K := Fin 8
  osem := osem1
  ho := ownSemFacts1
  hbody c := (body_obligation1 (V1 m hR) (adm m 1) (hT1 m hR.hP) c).loose
  hwaits := Pipeline.hwaits_of_owed_zero _ _ _ _ L lv 1 fun _ _ => rfl
  pre c := iprop(StableHlo.held (c : Thread nD τ) (Pipeline.ucRefs τ sig) (W1 m hR c) ∗ R c)
  post c := iprop(StableHlo.held (c : Thread nD τ) (Pipeline.ucRefs τ sig) (W2 m hR c) ∗ R c)
  X c := iprop((∃ r, prngReg c r) ∗ Pipeline.ownSems0 (Ix := Unit) (Name := ℕ) (U := Pipeline.UD sig nD τ) (Lvl := ℕ) (Val := Elt F) (τ := τ) osem1 c
      ∗ (bigSep H1 fun b => (((c : Thread nD τ)).loc b) ↦{fullShare} V1 m hR c b))
  Y c := iprop((∃ r, prngReg c r) ∗ (bigSep H1 fun b => (((c : Thread nD τ)).loc b) ↦{fullShare} V1 m hR c b)
      ∗ Pipeline.prefHeld (Ix := Unit) (Name := ℕ) (U := Pipeline.UD sig nD τ) (Lvl := ℕ) pre1 c (fun _ => fullShare) (adm m 1).1)
  Z c := bigSep (Pipeline.restRefsP sig pre1 spec1 \ H1) fun b => (((c : Thread nD τ)).loc b) ↦{fullShare} V1 m hR c b
  hentry c := by
    obtain rfl : c = 0 := Subsingleton.elim _ _
    have hsplit := Pipeline.arrays_of_unscopedBufs (p := 1) (pcfgs (F := F)) (adm m) (pdats m hR) (launch1 (F := F)).win (launch1 (F := F)).arr_whole 0
      ((pdats m hR 1 0).share_full fun _ => rfl) (V1 m hR 0) fun _ => rfl
    rw [Pipeline.unscopedBufs_held] at hsplit
    have hT : (Pipeline.unscopedRest (Ix := Unit) (Name := ℕ) (U := Pipeline.UD sig nD τ) (Lvl := ℕ) spec1 0 (V1 m hR 0) : sProp 𝕄)
        = iprop(Pipeline.prefHeld pre1 0 (fun _ => fullShare) (adm m 1).1 ∗ Pipeline.unscopedRestP pre1 spec1 0 (V1 m hR 0)) :=
      (Pipeline.unscopedRest_split (launch1 (F := F)).pre 0 (V1 m hR 0)).trans
        (congrArg (fun v => (iprop(Pipeline.prefHeld pre1 0 (fun _ => fullShare) v ∗ Pipeline.unscopedRestP pre1 spec1 0 (V1 m hR 0)) : sProp 𝕄)) (tbl1_eq m hR))
    have hH := Pipeline.unscopedRestP_sdiff pre1 spec1 H1 H1_sub (0 : Dev nD) (V1 m hR 0) (Val := Elt F)
    iintro ⟨⟨Hub, Hp, HO⟩, Hos, -⟩
    ihave H := hsplit $$ Hub
    icases H with ⟨Ha, Hrest⟩
    ihave H' := (Entails.of_eq hT) $$ Hrest
    icases H' with ⟨HT, HrP⟩
    ihave H'' := (Entails.of_eq hH) $$ HrP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hR 1 c).Φ 0 = Phi1 (V1 m hR) (adm m 1) c from rfl]; unfold Phi1; rw [Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m hR 1 c).Φ (Fin.last _) = Phi1 (V1 m hR) (adm m 1) c from rfl]; unfold Phi1; rw [Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    obtain rfl : c = 0 := Subsingleton.elim _ _
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole 0 (pdats m hR) ((pdats m hR 1 0).share_full fun _ => rfl)
      (V1 m hR 0) (V2 m hR 0) ((pdats m hR 1 0).arrAt · (cfg1 (adm m 1)).N) (hF1 m hR 0) (hrest1 m hR 0)
    rw [Pipeline.unscopedBufs_held] at hjoin
    have hT : (Pipeline.unscopedRest (Ix := Unit) (Name := ℕ) (U := Pipeline.UD sig nD τ) (Lvl := ℕ) spec1 0 (V1 m hR 0) : sProp 𝕄)
        = iprop(Pipeline.prefHeld pre1 0 (fun _ => fullShare) (adm m 1).1 ∗ Pipeline.unscopedRestP pre1 spec1 0 (V1 m hR 0)) :=
      (Pipeline.unscopedRest_split (launch1 (F := F)).pre 0 (V1 m hR 0)).trans
        (congrArg (fun v => (iprop(Pipeline.prefHeld pre1 0 (fun _ => fullShare) v ∗ Pipeline.unscopedRestP pre1 spec1 0 (V1 m hR 0)) : sProp 𝕄)) (tbl1_eq m hR))
    have hH := Pipeline.unscopedRestP_sdiff pre1 spec1 H1 H1_sub (0 : Dev nD) (V1 m hR 0) (Val := Elt F)
    iintro ⟨Ha, HO, ⟨HY, HH, HT⟩, HR⟩
    ihave HrP := (Entails.of_eq hH.symm) $$ [HH HR]
    · isplitl [HH]; · iexact HH
      iexact HR
    ihave Hrest := (Entails.of_eq hT.symm) $$ [HT HrP]
    · isplitl [HT]; · iexact HT
      iexact HrP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it. Its arrays are split out of the unscoped buffers and put back at the exit contents; of the rest, the
    row-number table goes to the pipeline (and through it to the body) and comes back, the filter matrix goes into the
    invariant beside the eight semaphores and the generator register and comes back, everything else bypasses. -/
def reg2 (hR : Ranges m) : Pipeline.RegionSeg (pcfgs (F := F)) (adm m) (pdats m hR) () defs₀ 𝒱₀ L lv 2 where
  win := (launch2 (F := F)).win.to₀
  block_pos := (launch2 (F := F)).block_pos
  stage_whole := (launch2 (F := F)).stage_whole
  K := Fin 8
  osem := osem2
  ho := ownSemFacts2
  hbody c := (body_obligation2 (V2 m hR) (adm m 2) (hT2 m hR.hN) c).loose
  hwaits := Pipeline.hwaits_of_owed_zero _ _ _ _ L lv 2 fun _ _ => rfl
  pre c := iprop(StableHlo.held (c : Thread nD τ) (Pipeline.ucRefs τ sig) (W2 m hR c) ∗ R c)
  post c := iprop(StableHlo.held (c : Thread nD τ) (Pipeline.ucRefs τ sig) (W3 m hR c) ∗ R c)
  X c := iprop((∃ r, prngReg c r) ∗ Pipeline.ownSems0 (Ix := Unit) (Name := ℕ) (U := Pipeline.UD sig nD τ) (Lvl := ℕ) (Val := Elt F) (τ := τ) osem2 c
      ∗ (bigSep H2 fun b => (((c : Thread nD τ)).loc b) ↦{fullShare} V2 m hR c b))
  Y c := iprop((∃ r, prngReg c r) ∗ (bigSep H2 fun b => (((c : Thread nD τ)).loc b) ↦{fullShare} V2 m hR c b)
      ∗ Pipeline.prefHeld (Ix := Unit) (Name := ℕ) (U := Pipeline.UD sig nD τ) (Lvl := ℕ) pre2 c (fun _ => fullShare) (adm m 2).1)
  Z c := bigSep (Pipeline.restRefsP sig pre2 spec2 \ H2) fun b => (((c : Thread nD τ)).loc b) ↦{fullShare} V2 m hR c b
  hentry c := by
    obtain rfl : c = 0 := Subsingleton.elim _ _
    have hsplit := Pipeline.arrays_of_unscopedBufs (p := 2) (pcfgs (F := F)) (adm m) (pdats m hR) (launch2 (F := F)).win (launch2 (F := F)).arr_whole 0
      ((pdats m hR 2 0).share_full fun _ => rfl) (V2 m hR 0) fun _ => rfl
    rw [Pipeline.unscopedBufs_held] at hsplit
    have hT : (Pipeline.unscopedRest (Ix := Unit) (Name := ℕ) (U := Pipeline.UD sig nD τ) (Lvl := ℕ) spec2 0 (V2 m hR 0) : sProp 𝕄)
        = iprop(Pipeline.prefHeld pre2 0 (fun _ => fullShare) (adm m 2).1 ∗ Pipeline.unscopedRestP pre2 spec2 0 (V2 m hR 0)) :=
      (Pipeline.unscopedRest_split (launch2 (F := F)).pre 0 (V2 m hR 0)).trans
        (congrArg (fun v => (iprop(Pipeline.prefHeld pre2 0 (fun _ => fullShare) v ∗ Pipeline.unscopedRestP pre2 spec2 0 (V2 m hR 0)) : sProp 𝕄)) (tbl2_eq m hR))
    have hH := Pipeline.unscopedRestP_sdiff pre2 spec2 H2 H2_sub (0 : Dev nD) (V2 m hR 0) (Val := Elt F)
    iintro ⟨⟨Hub, Hp, HO⟩, Hos, -⟩
    ihave H := hsplit $$ Hub
    icases H with ⟨Ha, Hrest⟩
    ihave H' := (Entails.of_eq hT) $$ Hrest
    icases H' with ⟨HT, HrP⟩
    ihave H'' := (Entails.of_eq hH) $$ HrP
    icases H'' with ⟨HH, HR⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m hR 2 c).Φ 0 = Phi2 (V2 m hR) (adm m 2) c from rfl]; unfold Phi2; rw [Pipeline.ΦD_eq]
    iintro ⟨⟨Hp, Ho, HH⟩, HT, Hr⟩
    isplitl [Hr Hp Ho HH]
    · isplitl [Hr]; · iexact Hr
      isplitl [Hp]; · iexact Hp
      isplitl [Ho]; · iexact Ho
      iexact HH
    iexact HT
  hout c := by
    rw [show (pdats m hR 2 c).Φ (Fin.last _) = Phi2 (V2 m hR) (adm m 2) c from rfl]; unfold Phi2; rw [Pipeline.ΦD_eq]
    iintro ⟨⟨Hr, Hp, Ho, HH⟩, HT⟩
    isplitl [Hp HH HT]
    · isplitl [Hp]; · iexact Hp
      isplitl [HH]; · iexact HH
      iexact HT
    isplitl [Ho]; · iexact Ho
    iexact Hr
  hexit c := by
    obtain rfl : c = 0 := Subsingleton.elim _ _
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole 0 (pdats m hR) ((pdats m hR 2 0).share_full fun _ => rfl)
      (V2 m hR 0) (V3 m hR 0) ((pdats m hR 2 0).arrAt · (cfg2 (adm m 2)).N) (hF2 m hR 0) (hrest2 m hR 0)
    rw [Pipeline.unscopedBufs_held] at hjoin
    have hT : (Pipeline.unscopedRest (Ix := Unit) (Name := ℕ) (U := Pipeline.UD sig nD τ) (Lvl := ℕ) spec2 0 (V2 m hR 0) : sProp 𝕄)
        = iprop(Pipeline.prefHeld pre2 0 (fun _ => fullShare) (adm m 2).1 ∗ Pipeline.unscopedRestP pre2 spec2 0 (V2 m hR 0)) :=
      (Pipeline.unscopedRest_split (launch2 (F := F)).pre 0 (V2 m hR 0)).trans
        (congrArg (fun v => (iprop(Pipeline.prefHeld pre2 0 (fun _ => fullShare) v ∗ Pipeline.unscopedRestP pre2 spec2 0 (V2 m hR 0)) : sProp 𝕄)) (tbl2_eq m hR))
    have hH := Pipeline.unscopedRestP_sdiff pre2 spec2 H2 H2_sub (0 : Dev nD) (V2 m hR 0) (Val := Elt F)
    iintro ⟨Ha, HO, ⟨HY, HH, HT⟩, HR⟩
    ihave HrP := (Entails.of_eq hH.symm) $$ [HH HR]
    · isplitl [HH]; · iexact HH
      iexact HR
    ihave Hrest := (Entails.of_eq hT.symm) $$ [HT HrP]
    · isplitl [HT]; · iexact HT
      iexact HrP
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the loss) over the thread state: its arrays split out and put back; the generator register into the
    invariant and out; nothing owed; no semaphore of the kernel's own; no table. -/
def reg3 (hR : Ranges m) : Pipeline.RegionSeg (pcfgs (F := F)) (adm m) (pdats m hR) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V3 m hR) c).loose
  hwaits := Pipeline.hwaits_of_owed_zero _ _ _ _ L lv 3 fun _ _ => rfl
  pre c := iprop(StableHlo.held (c : Thread nD τ) (Pipeline.ucRefs τ sig) (W3 m hR c) ∗ R c)
  post c := iprop(StableHlo.held (c : Thread nD τ) (Pipeline.ucRefs τ sig) (W4 m hR c) ∗ R c)
  X c := iprop(∃ r, prngReg c r)
  Y c := iprop(∃ r, prngReg c r)
  Z c := Pipeline.unscopedRest (Ix := Unit) (Name := ℕ) (U := Pipeline.UD sig nD τ) (Lvl := ℕ) spec3 c (V3 m hR c)
  hentry c := by
    rw [Pipeline.ownSems0_none]
    have hsplit := Pipeline.arrays_of_unscopedBufs (p := 3) (pcfgs (F := F)) (adm m) (pdats m hR) (launch3 (F := F)).win (launch3 (F := F)).arr_whole c
      ((pdats m hR 3 c).share_full fun _ => rfl) (V3 m hR c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hR 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m hR 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hR) ((pdats m hR 3 c).share_full fun _ => rfl)
      (V3 m hR c) (V4 m hR c) ((pdats m hR 3 c).arrAt · cfg3.N) (hF3 m hR c) (hrest3 m hR c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

theorem hostOps4_fresh : (hostOps4 : List (HloOp τ sig (Elt F))).Forall fun op => op.fresh = ∅ := by
  simp only [List.Forall]; repeat' constructor

abbrev segs (hR : Ranges m) : List (Pipeline.Seg (pcfgs (F := F)) (adm m) (pdats m hR) () defs₀ 𝒱₀ L lv) :=
  [ .region (reg0 m hR),
    .region (reg1 m hR),
    .region (reg2 m hR),
    .region (reg3 m hR),
    .host (hseg hostOps4 hostOps4_sub hostOps4_fresh (W4 m hR)) ]
theorem main_run (hR : Ranges m) (c : Dev nD) : main (F := F) c = Pipeline.Seg.run (segs m hR) := (main_chain c).trans (by chain_rfl)

set_option backward.isDefEq.respectTransparency.types false in
/-- THE RUN. From the launch memory with zero counters every weakly fair execution of the program terminates, nothing
    faulting, and every final memory holds EVERY unscoped buffer of the core at the last boundary's contents. -/
theorem run_all (hR : Ranges m) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m hR c b) :=
  Pipeline.θ_run_regions_kit (pcfgs (F := F)) (adm m) (pdats m hR) () (cellOf_inj (adm m)) embL defs₀ 𝒱₀ L lv m ρ main (segs m hR)
    (fun c Q => by rw [main_run m hR c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m hR c) ∗ R c)) (Tₙ := Tₙ m hR)
    (hch := ⟨fun _ => .rfl, fun _ => .rfl, fun _ => .rfl, fun _ => .rfl, fun _ => .rfl, fun c => by
      show (iprop(StableHlo.held (c : Thread nD τ) (Pipeline.ucRefs τ sig) (W5 m hR c) ∗ R c) : sProp 𝕄)
        ⊢ iprop(Tₙ m hR c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m hR c)
        from Pipeline.unscopedBufs_held c (W0 m hR c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hR c b)
    (hfin := fun c s' => by
      iintro ⟨⟨Hh, -⟩, HSI⟩
      unfold StableHlo.held
      imodintro
      iapply (pointsTo_read_all (Pipeline.ucRefs τ sig) (fun b => (((c : Thread nD τ)).1, b)) (W5 m hR c) s')
      isplitl [Hh] <;> iassumption)
    (hQ := fun s h c => h c)

end Cert.Kernel.Hand

end
-- ==== Proof.KReadBack.lean ====
/-
  Reading the last boundary back. No item writes an argument: a region reads it through an input window (whose array
  the pipeline leaves as it found it) or bypasses it, and the closing reshape writes only the result. So at every
  argument the last contents are the launch contents; and the result's buffer is the reshape of the loss region's
  output array, which is what its pipeline leaves there.
-/
import proofs.«421540_j73229192397035_2_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The closing host operation writes the result's buffer only. -/
abbrev hostOps4_W : List (Ref sig .tc) := [main_v4]
theorem hostOps4_writes : (hostOps4 : List (HloOp τ sig (Elt F))).Forall fun op => op.writes ⊆ (hostOps4_W.map (Proc.devRef (τ := τ) .tc)).toFinset := by
  simp only [List.Forall]; exact (by simp only [StableHlo.reshape_writes, Finset.singleton_subset_iff, List.mem_toFinset]; exact List.mem_map_of_mem (by decide))

variable (m : (ℓ : Loc nD τ sig) → Buf (Elt F) ℓ)

/-! ## Every argument ends as launched -/

theorem W5_main_arg0 (hR : Ranges m) (c : Dev nD) : W5 m hR c (Proc.devRef .tc main_arg0) = m ((c : Thread nD τ).loc main_arg0) :=
  calc W5 m hR c (Proc.devRef .tc main_arg0)
    _ = W4 m hR c (Proc.devRef .tc main_arg0) := StableHlo.after_of_writes_sub hostOps4 _ hostOps4_writes (by decide)
    _ = W3 m hR c (Proc.devRef .tc main_arg0) := W4_of_ne m hR c main_arg0 (by decide)
    _ = W2 m hR c (Proc.devRef .tc main_arg0) := W3_of_ne m hR c main_arg0 (by decide)
    _ = W1 m hR c (Proc.devRef .tc main_arg0) := W2_of_ne m hR c main_arg0 (by decide)
    _ = W0 m hR c (Proc.devRef .tc main_arg0) := W1_of_ne m hR c main_arg0 (by decide)
    _ = m ((c : Thread nD τ).loc main_arg0) := rfl

theorem W5_main_arg1 (hR : Ranges m) (c : Dev nD) : W5 m hR c (Proc.devRef .tc main_arg1) = m ((c : Thread nD τ).loc main_arg1) :=
  calc W5 m hR c (Proc.devRef .tc main_arg1)
    _ = W4 m hR c (Proc.devRef .tc main_arg1) := StableHlo.after_of_writes_sub hostOps4 _ hostOps4_writes (by decide)
    _ = W3 m hR c (Proc.devRef .tc main_arg1) := W4_of_ne m hR c main_arg1 (by decide)
    _ = W2 m hR c (Proc.devRef .tc main_arg1) := W3_of_ne m hR c main_arg1 (by decide)
    _ = W1 m hR c (Proc.devRef .tc main_arg1) := W2_of_ne m hR c main_arg1 (by decide)
    _ = W0 m hR c (Proc.devRef .tc main_arg1) := W1_of_ne m hR c main_arg1 (by decide)
    _ = m ((c : Thread nD τ).loc main_arg1) := rfl

theorem W5_main_arg2 (hR : Ranges m) (c : Dev nD) : W5 m hR c (Proc.devRef .tc main_arg2) = m ((c : Thread nD τ).loc main_arg2) :=
  calc W5 m hR c (Proc.devRef .tc main_arg2)
    _ = W4 m hR c (Proc.devRef .tc main_arg2) := StableHlo.after_of_writes_sub hostOps4 _ hostOps4_writes (by decide)
    _ = W3 m hR c (Proc.devRef .tc main_arg2) := W4_of_ne m hR c main_arg2 (by decide)
    _ = W2 m hR c (Proc.devRef .tc main_arg2) := W3_of_ne m hR c main_arg2 (by decide)
    _ = W1 m hR c (Proc.devRef .tc main_arg2) := W2_of_ne m hR c main_arg2 (by decide)
    _ = W0 m hR c (Proc.devRef .tc main_arg2) := (W1_arr m hR c 1).trans (((dat0 (V0 m hR) (adm m 0) (hT0 m hR.hU) c).arrAt_in 1 rfl _).trans (A_eq0 (V0 m hR) (adm m 0) (hT0 m hR.hU) c 1))
    _ = m ((c : Thread nD τ).loc main_arg2) := rfl

theorem W5_main_arg3 (hR : Ranges m) (c : Dev nD) : W5 m hR c (Proc.devRef .tc main_arg3) = m ((c : Thread nD τ).loc main_arg3) :=
  calc W5 m hR c (Proc.devRef .tc main_arg3)
    _ = W4 m hR c (Proc.devRef .tc main_arg3) := StableHlo.after_of_writes_sub hostOps4 _ hostOps4_writes (by decide)
    _ = W3 m hR c (Proc.devRef .tc main_arg3) := W4_of_ne m hR c main_arg3 (by decide)
    _ = W2 m hR c (Proc.devRef .tc main_arg3) := (W3_arr m hR c 1).trans (((dat2 (V2 m hR) (adm m 2) (hT2 m hR.hN) c).arrAt_in 1 rfl _).trans (A_eq2 (V2 m hR) (adm m 2) (hT2 m hR.hN) c 1))
    _ = W1 m hR c (Proc.devRef .tc main_arg3) := (W2_arr m hR c 1).trans (((dat1 (V1 m hR) (adm m 1) (hT1 m hR.hP) c).arrAt_in 1 rfl _).trans (A_eq1 (V1 m hR) (adm m 1) (hT1 m hR.hP) c 1))
    _ = W0 m hR c (Proc.devRef .tc main_arg3) := W1_of_ne m hR c main_arg3 (by decide)
    _ = m ((c : Thread nD τ).loc main_arg3) := rfl

theorem W5_main_arg4 (hR : Ranges m) (c : Dev nD) : W5 m hR c (Proc.devRef .tc main_arg4) = m ((c : Thread nD τ).loc main_arg4) :=
  calc W5 m hR c (Proc.devRef .tc main_arg4)
    _ = W4 m hR c (Proc.devRef .tc main_arg4) := StableHlo.after_of_writes_sub hostOps4 _ hostOps4_writes (by decide)
    _ = W3 m hR c (Proc.devRef .tc main_arg4) := W4_of_ne m hR c main_arg4 (by decide)
    _ = W2 m hR c (Proc.devRef .tc main_arg4) := W3_of_ne m hR c main_arg4 (by decide)
    _ = W1 m hR c (Proc.devRef .tc main_arg4) := W2_of_ne m hR c main_arg4 (by decide)
    _ = W0 m hR c (Proc.devRef .tc main_arg4) := (W1_arr m hR c 0).trans (((dat0 (V0 m hR) (adm m 0) (hT0 m hR.hU) c).arrAt_in 0 rfl _).trans (A_eq0 (V0 m hR) (adm m 0) (hT0 m hR.hU) c 0))
    _ = m ((c : Thread nD τ).loc main_arg4) := rfl

theorem W5_main_arg5 (hR : Ranges m) (c : Dev nD) : W5 m hR c (Proc.devRef .tc main_arg5) = m ((c : Thread nD τ).loc main_arg5) :=
  calc W5 m hR c (Proc.devRef .tc main_arg5)
    _ = W4 m hR c (Proc.devRef .tc main_arg5) := StableHlo.after_of_writes_sub hostOps4 _ hostOps4_writes (by decide)
    _ = W3 m hR c (Proc.devRef .tc main_arg5) := W4_of_ne m hR c main_arg5 (by decide)
    _ = W2 m hR c (Proc.devRef .tc main_arg5) := W3_of_ne m hR c main_arg5 (by decide)
    _ = W1 m hR c (Proc.devRef .tc main_arg5) := (W2_arr m hR c 0).trans (((dat1 (V1 m hR) (adm m 1) (hT1 m hR.hP) c).arrAt_in 0 rfl _).trans (A_eq1 (V1 m hR) (adm m 1) (hT1 m hR.hP) c 0))
    _ = W0 m hR c (Proc.devRef .tc main_arg5) := W1_of_ne m hR c main_arg5 (by decide)
    _ = m ((c : Thread nD τ).loc main_arg5) := rfl

theorem W5_main_arg6 (hR : Ranges m) (c : Dev nD) : W5 m hR c (Proc.devRef .tc main_arg6) = m ((c : Thread nD τ).loc main_arg6) :=
  calc W5 m hR c (Proc.devRef .tc main_arg6)
    _ = W4 m hR c (Proc.devRef .tc main_arg6) := StableHlo.after_of_writes_sub hostOps4 _ hostOps4_writes (by decide)
    _ = W3 m hR c (Proc.devRef .tc main_arg6) := W4_of_ne m hR c main_arg6 (by decide)
    _ = W2 m hR c (Proc.devRef .tc main_arg6) := (W3_arr m hR c 0).trans (((dat2 (V2 m hR) (adm m 2) (hT2 m hR.hN) c).arrAt_in 0 rfl _).trans (A_eq2 (V2 m hR) (adm m 2) (hT2 m hR.hN) c 0))
    _ = W1 m hR c (Proc.devRef .tc main_arg6) := W2_of_ne m hR c main_arg6 (by decide)
    _ = W0 m hR c (Proc.devRef .tc main_arg6) := W1_of_ne m hR c main_arg6 (by decide)
    _ = m ((c : Thread nD τ).loc main_arg6) := rfl

theorem W5_main_arg7 (hR : Ranges m) (c : Dev nD) : W5 m hR c (Proc.devRef .tc main_arg7) = m ((c : Thread nD τ).loc main_arg7) :=
  calc W5 m hR c (Proc.devRef .tc main_arg7)
    _ = W4 m hR c (Proc.devRef .tc main_arg7) := StableHlo.after_of_writes_sub hostOps4 _ hostOps4_writes (by decide)
    _ = W3 m hR c (Proc.devRef .tc main_arg7) := W4_of_ne m hR c main_arg7 (by decide)
    _ = W2 m hR c (Proc.devRef .tc main_arg7) := W3_of_ne m hR c main_arg7 (by decide)
    _ = W1 m hR c (Proc.devRef .tc main_arg7) := W2_of_ne m hR c main_arg7 (by decide)
    _ = W0 m hR c (Proc.devRef .tc main_arg7) := W1_of_ne m hR c main_arg7 (by decide)
    _ = m ((c : Thread nD τ).loc main_arg7) := rfl

theorem W5_main_arg8 (hR : Ranges m) (c : Dev nD) : W5 m hR c (Proc.devRef .tc main_arg8) = m ((c : Thread nD τ).loc main_arg8) :=
  calc W5 m hR c (Proc.devRef .tc main_arg8)
    _ = W4 m hR c (Proc.devRef .tc main_arg8) := StableHlo.after_of_writes_sub hostOps4 _ hostOps4_writes (by decide)
    _ = W3 m hR c (Proc.devRef .tc main_arg8) := W4_of_ne m hR c main_arg8 (by decide)
    _ = W2 m hR c (Proc.devRef .tc main_arg8) := W3_of_ne m hR c main_arg8 (by decide)
    _ = W1 m hR c (Proc.devRef .tc main_arg8) := W2_of_ne m hR c main_arg8 (by decide)
    _ = W0 m hR c (Proc.devRef .tc main_arg8) := W1_of_ne m hR c main_arg8 (by decide)
    _ = m ((c : Thread nD τ).loc main_arg8) := rfl

theorem W5_main_arg9 (hR : Ranges m) (c : Dev nD) : W5 m hR c (Proc.devRef .tc main_arg9) = m ((c : Thread nD τ).loc main_arg9) :=
  calc W5 m hR c (Proc.devRef .tc main_arg9)
    _ = W4 m hR c (Proc.devRef .tc main_arg9) := StableHlo.after_of_writes_sub hostOps4 _ hostOps4_writes (by decide)
    _ = W3 m hR c (Proc.devRef .tc main_arg9) := W4_of_ne m hR c main_arg9 (by decide)
    _ = W2 m hR c (Proc.devRef .tc main_arg9) := W3_of_ne m hR c main_arg9 (by decide)
    _ = W1 m hR c (Proc.devRef .tc main_arg9) := W2_of_ne m hR c main_arg9 (by decide)
    _ = W0 m hR c (Proc.devRef .tc main_arg9) := W1_of_ne m hR c main_arg9 (by decide)
    _ = m ((c : Thread nD τ).loc main_arg9) := rfl

/-! ## The frame -/

/-- Every weakly fair execution terminates, nothing faulting, and every argument array ends holding its launch
    contents. -/
theorem frame (hR : Ranges m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W5_main_arg0 m hR c),
     (h c _ (mem_uc main_arg1 (by decide))).trans (W5_main_arg1 m hR c),
     (h c _ (mem_uc main_arg2 (by decide))).trans (W5_main_arg2 m hR c),
     (h c _ (mem_uc main_arg3 (by decide))).trans (W5_main_arg3 m hR c),
     (h c _ (mem_uc main_arg4 (by decide))).trans (W5_main_arg4 m hR c),
     (h c _ (mem_uc main_arg5 (by decide))).trans (W5_main_arg5 m hR c),
     (h c _ (mem_uc main_arg6 (by decide))).trans (W5_main_arg6 m hR c),
     (h c _ (mem_uc main_arg7 (by decide))).trans (W5_main_arg7 m hR c),
     (h c _ (mem_uc main_arg8 (by decide))).trans (W5_main_arg8 m hR c),
     (h c _ (mem_uc main_arg9 (by decide))).trans (W5_main_arg9 m hR c)⟩)
    (run_all m hR ρ)

/-! ## The result -/

/-- The result's buffer at the end: the closing reshape of the loss region's output array. -/
theorem W5_main_v4 (hR : Ranges m) (c : Dev nD) :
    W5 m hR c (Proc.devRef .tc main_v4)
      = shapeCast S_ ((dat3 (V3 m hR) c).arrAt 3 cfg3.N : Vec F S1x1 .f32) shapeCasts_S1x1_S_ := by
  show StableHlo.after hostOps4 (W4 m hR c) (Proc.devRef .tc main_v4) = _
  after_results
  rw [show W4 m hR c (Proc.devRef .tc main_v3) = (dat3 (V3 m hR) c).arrAt 3 cfg3.N from W4_arr m hR c 3]
  rfl

/-- What the loss region finds in each feature array: what the table region before it left there. -/
theorem V3_main_v0 (hR : Ranges m) (c : Dev nD) : V3 m hR c main_v0 = (dat0 (V0 m hR) (adm m 0) (hT0 m hR.hU) c).arrAt 2 (cfg0 (adm m 0)).N :=
  (W3_of_ne m hR c main_v0 (by decide)).trans ((W2_of_ne m hR c main_v0 (by decide)).trans (W1_arr m hR c 2))
theorem V3_main_v1 (hR : Ranges m) (c : Dev nD) : V3 m hR c main_v1 = (dat1 (V1 m hR) (adm m 1) (hT1 m hR.hP) c).arrAt 2 (cfg1 (adm m 1)).N :=
  (W3_of_ne m hR c main_v1 (by decide)).trans (W2_arr m hR c 2)
theorem V3_main_v2 (hR : Ranges m) (c : Dev nD) : V3 m hR c main_v2 = (dat2 (V2 m hR) (adm m 2) (hT2 m hR.hN) c).arrAt 2 (cfg2 (adm m 2)).N :=
  W3_arr m hR c 2

/-- What each table region finds in its own arguments: the launch contents. -/
theorem V1_main_arg1 (hR : Ranges m) (c : Dev nD) : V1 m hR c main_arg1 = m ((c : Thread nD τ).loc main_arg1) :=
  (W1_of_ne m hR c main_arg1 (by decide)).trans <| rfl
theorem V1_main_arg3 (hR : Ranges m) (c : Dev nD) : V1 m hR c main_arg3 = m ((c : Thread nD τ).loc main_arg3) :=
  (W1_of_ne m hR c main_arg3 (by decide)).trans <| rfl
theorem V1_main_arg5 (hR : Ranges m) (c : Dev nD) : V1 m hR c main_arg5 = m ((c : Thread nD τ).loc main_arg5) :=
  (W1_of_ne m hR c main_arg5 (by decide)).trans <| rfl
theorem V2_main_arg1 (hR : Ranges m) (c : Dev nD) : V2 m hR c main_arg1 = m ((c : Thread nD τ).loc main_arg1) :=
  (W2_of_ne m hR c main_arg1 (by decide)).trans <| (W1_of_ne m hR c main_arg1 (by decide)).trans <| rfl
theorem V2_main_arg3 (hR : Ranges m) (c : Dev nD) : V2 m hR c main_arg3 = m ((c : Thread nD τ).loc main_arg3) :=
  ((W2_arr m hR c 1).trans (((dat1 (V1 m hR) (adm m 1) (hT1 m hR.hP) c).arrAt_in 1 rfl _).trans (A_eq1 (V1 m hR) (adm m 1) (hT1 m hR.hP) c 1))).trans <|
    (W1_of_ne m hR c main_arg3 (by decide)).trans <| rfl
theorem V2_main_arg6 (hR : Ranges m) (c : Dev nD) : V2 m hR c main_arg6 = m ((c : Thread nD τ).loc main_arg6) :=
  (W2_of_ne m hR c main_arg6 (by decide)).trans <| (W1_of_ne m hR c main_arg6 (by decide)).trans <| rfl

end Cert.Kernel.Hand

end
-- ==== Proof.Spec.lean ====
/-
  What the program computes, as mathematics over the extended reals.

  A filter matrix `L : [N, N]`, a dropout-noise matrix `mask : [1024, N]`, an embedding table `emb : [N, 64]`
  and a vector `idx` of 1024 row numbers give a FEATURE matrix `[1024, 64]`:

      feat (b, d) = ∑ n, (L (row b, n) · keep (mask (b, n))) · emb (n, d)

  where `row b` is the row the word `idx b` names and `keep x` is 1 when `x ≥ 0.1` (the noise keeps the entry)
  and 0 otherwise. Three such matrices (user, positive item, negative item) give the loss

      rn b = ∑ d, fu (b, d) · fn (b, d)          rp b = ∑ d, fu (b, d) · fp (b, d)
      w b  = 1 − log (1 − min (σ (rn b)) 0.99) · c          (c the shared literal read as 1 / ln 10)
      z b  = rp b − w b · rn b
      loss = ((0 − ∑ b, log (σ (z b))) + 0.01 · ((‖fu‖² + ‖fp‖²) + ‖fn‖²)) / 1024

  with `σ` the logistic function, `‖f‖² = ∑ b, ∑ d, f (b, d)²`, and every literal the binary value of its word.
  Sums are finite sums in the commutative monoid of extended reals, so their grouping is free.
-/
import Idealize.ShloMosaic.PureOps.Ideal
import Idealize.ShloMosaic.Lib.ValueIdx

noncomputable section

namespace Cert.Spec

open Idealize.ShloMosaic Idealize.ShloMosaic.ValueIdx
open scoped BigOperators

/-- The dropout threshold: the word of `0.1` in single precision, read exactly. -/
def thr : EReal := Ideal.ofBits .f32 0x3DCCCCCD#32
/-- The cap on the negative score's logistic: the word of `0.99`. -/
def cap : EReal := Ideal.ofBits .f32 0x3F7D70A4#32
/-- The factor that turns a natural logarithm into a decimal one: the word both programs carry. -/
def invLn10 : EReal := Ideal.ofBits .f32 0x3EDE5BD9#32
/-- The weight of the regulariser: the word of `0.01`. -/
def reg : EReal := Ideal.ofBits .f32 0x3C23D70A#32
/-- The number one and the batch size, as their words. -/
def one : EReal := Ideal.ofBits .f32 0x3F800000#32
def batch : EReal := Ideal.ofBits .f32 0x44800000#32

/-- An entry survives the noise when its noise value is at least the threshold: the comparison's bit as a number. -/
def keep (x : EReal) : EReal := (((Ideal.cmp .oge x thr).toNat : ℝ) : EReal)

/-- The row of an `N`-row table a 32-bit word names: its unsigned value, capped at the last row. -/
def rowOf (N : Nat) (hN : 0 < N) (w : BitVec 32) : Fin N := ⟨min w.toNat (N - 1), by omega⟩

theorem rowOf_val_of_lt {N : Nat} (hN : 0 < N) {w : BitVec 32} (h : w.toNat < N) : (rowOf N hN w).val = w.toNat := by
  unfold rowOf; simp only; omega

/-- The feature matrix: row `b` of the filter picked by the word `idx b`, masked entry by entry, times the table. -/
def feat {N : Nat} (hN : 0 < N) (L : (⟨2, ![N, N]⟩ : Shape).Idx → EReal) (mask : (⟨2, ![1024, N]⟩ : Shape).Idx → EReal)
    (emb : (⟨2, ![N, 64]⟩ : Shape).Idx → EReal) (idx : (⟨1, ![1024]⟩ : Shape).Idx → BitVec 32) :
    (⟨2, ![1024, 64]⟩ : Shape).Idx → EReal :=
  fun j => ∑ n : Fin N, (L (ix2 (rowOf N hN (idx (ix1 (j 0)))) n) * keep (mask (ix2 (j 0) n))) * emb (ix2 n (j 1))

/-- The inner product of row `b` of two feature matrices. -/
def rowDot (x y : (⟨2, ![1024, 64]⟩ : Shape).Idx → EReal) (b : Fin 1024) : EReal :=
  ∑ d : Fin 64, x (ix2 b d) * y (ix2 b d)

/-- The sum of the squares of a feature matrix, row by row. -/
def sqNorm (x : (⟨2, ![1024, 64]⟩ : Shape).Idx → EReal) : EReal := ∑ b : Fin 1024, rowDot x x b

/-- The weight of the negative score of row `b`. -/
def negWeight (rn : EReal) : EReal := one - Ideal.log (one - min (Ideal.logistic rn) cap) * invLn10

/-- The margin of row `b`. -/
def margin (fu fp fn : (⟨2, ![1024, 64]⟩ : Shape).Idx → EReal) (b : Fin 1024) : EReal :=
  rowDot fu fp b - negWeight (rowDot fu fn b) * rowDot fu fn b

/-- The loss. -/
def loss (fu fp fn : (⟨2, ![1024, 64]⟩ : Shape).Idx → EReal) : EReal :=
  Ideal.div ((0 - ∑ b : Fin 1024, Ideal.log (Ideal.logistic (margin fu fp fn b)))
      + reg * ((sqNorm fu + sqNorm fp) + sqNorm fn)) batch

/-- The whole program: the loss of the user, positive-item and negative-item feature matrices. The user matrix is read
    off the user filter and table, both item matrices off the item filter and table. -/
def result (Lu : (⟨2, ![12000, 12000]⟩ : Shape).Idx → EReal) (Li : (⟨2, ![16000, 16000]⟩ : Shape).Idx → EReal)
    (ue : (⟨2, ![12000, 64]⟩ : Shape).Idx → EReal) (ie : (⟨2, ![16000, 64]⟩ : Shape).Idx → EReal)
    (mu : (⟨2, ![1024, 12000]⟩ : Shape).Idx → EReal) (mp mn : (⟨2, ![1024, 16000]⟩ : Shape).Idx → EReal)
    (user pos nega : (⟨1, ![1024]⟩ : Shape).Idx → BitVec 32) : EReal :=
  loss (feat (N := 12000) (by decide) Lu mu ue user) (feat (N := 16000) (by decide) Li mp ie pos)
    (feat (N := 16000) (by decide) Li mn ie nega)

end Cert.Spec

end
-- ==== Proof.Open0.lean ====
/-
  Region 0: what the body's one store leaves in the output block at a grid point, as a value. After the point's eight
  copies row `r` of the scratch holds the filter's row named by the table word `8t + r`; the stored block is the body's
  arithmetic of the point's mask block, those eight rows, and the embedding table.
-/
import proofs.«421540_j73229192397035_2_alg».proof.Proof.Reg0
import proofs.«421540_j73229192397035_2_alg».proof.Proof.Spec
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-! ## Small facts -/

theorem o0_hz : (![0, 0] : Fin 2 → Nat) = fun _ => 0 := funext fun a => by fin_cases a <;> rfl

/-- The one coordinate of grid point `t` is `t`: the grid has one axis, of 128 points. -/
theorem o0_coord (t : Fin grid0.N) : (grid0.coords t 0).val = t.val := by
  have hN : grid0.N = 128 := N_0
  have ht := t.isLt
  show t.val / grid0.stride 0 % grid0.bound 0 = t.val
  rw [show grid0.stride 0 = 1 from by decide, show grid0.bound 0 = 128 from rfl, Nat.div_one]
  exact Nat.mod_eq_of_lt (by omega)

/-- The word the body reads at offset `8 t + j` of a whole table is the table's word at that position. -/
theorem o0_word (t : Fin grid0.N) (j : Nat) (hj : j < 8) {arg1 : Memref sig .tc .smem S1024 .i32} {harg1 : arg1.IsWhole}
    {x0 : Vec F S1024 .i32} {off : Fin 1 → Nat} (hoff : off = ![8 * (grid0.coords t 0).val + j])
    {inb : ∀ a, off a + S1.size a ≤ S1024.size a}
    {h1 : 0 < (Rect.unit (s := S1024) off S1.size inb).toLoadRect.shape.numel} :
    arg1.view.readAt (Elt F) (Rect.unit (s := S1024) off S1.size inb).toLoadRect (harg1.unread x0) (Shape.Idx.first h1)
      = x0 (ValueIdx.ix1 ⟨(8 * t.val + j) % 1024, Nat.mod_lt _ (by decide)⟩) := by
  subst hoff
  rw [View.readAt_apply, harg1.read_unread]
  refine congrArg x0 (funext fun d => Fin.ext ?_)
  have ht := t.isLt
  have hN : grid0.N = 128 := N_0
  match d with
  | ⟨0, _⟩ =>
    show (8 * (grid0.coords t 0).val + j) + 1 * 0 = (8 * t.val + j) % 1024
    rw [o0_coord t]
    omega

/-- A property of each of eight listed things is a property of every member of their list. -/
theorem o0_forall8 {α : Type*} {P : α → Prop} {a7 a6 a5 a4 a3 a2 a1 a0 : α} (h7 : P a7) (h6 : P a6) (h5 : P a5)
    (h4 : P a4) (h3 : P a3) (h2 : P a2) (h1 : P a1) (h0 : P a0) : ∀ p ∈ [a7, a6, a5, a4, a3, a2, a1, a0], P p := by
  intro p hp
  simp only [List.mem_cons, List.not_mem_nil, or_false] at hp
  rcases hp with rfl | rfl | rfl | rfl | rfl | rfl | rfl | rfl <;> assumption

/-! ## The gathered rows, for an arbitrary table and filter matrix -/

/-- Row `r` of the gathered rows: the filter's row named by the table word at position `8 t + r`. -/
def o0_G (t : Fin grid0.N) (x0 : Vec F S1024 .i32) (fh0 : Vec F S12000x12000 .f32) : Vec F S8x12000 .f32 :=
  fun y => fh0 (ValueIdx.ix2 (Cert.Spec.rowOf 12000 (by decide) (x0 (ValueIdx.ix1 ⟨(8 * t.val + (y 0).val) % 1024, Nat.mod_lt _ (by decide)⟩))) (y 1))

/-- The filter read through the one-row slice at row `w`, a row number in range: row `w`, entry by entry. -/
theorem o0_row (c : Dev nD) (fh0 : HbBuf0 (F := F) c hbM0) (w : BitVec 32) (hw : w.toNat < 12000) {off : Fin 2 → Nat}
    (hoff : off = ![w.toNat, 0]) {inb : ∀ a, off a + S1x12000.size a ≤ S12000x12000.size a}
    {hr : ∀ a, (Rect.unit (s := S12000x12000) off S1x12000.size inb).stride a = 1} (x : S1x12000.Idx) :
    ReadAs.same.apply (View.read (Elt F) ((Memref.whole main_arg0 : Memref sig .tc .hbm S12000x12000 .f32).slice
        (Rect.unit (s := S12000x12000) off S1x12000.size inb) hr).view fh0) x
      = (fh0 : Vec F S12000x12000 .f32) (ValueIdx.ix2 (Cert.Spec.rowOf 12000 (by decide) w) (⟨(x 1).val, (x 1).isLt⟩ : Fin 12000)) := by
  subst hoff
  have hx0 : (x 0).val < 1 := (x 0).isLt
  show (fh0 : Vec F S12000x12000 .f32) ((Rect.unit (s := S12000x12000) ![w.toNat, 0] S1x12000.size inb).toLoadRect.idx x) = _
  refine congrArg _ (funext fun d => Fin.ext ?_)
  match d with
  | ⟨0, _⟩ =>
    show w.toNat + 1 * (x 0).val = (Cert.Spec.rowOf 12000 (by decide) w).val
    rw [Cert.Spec.rowOf_val_of_lt _ hw]
    omega
  | ⟨1, _⟩ =>
    show 0 + 1 * (x 1).val = (x 1).val
    omega

/-- A payload that is the row named by the word at position `8 t + j` is row `j` of the gathered rows. -/
theorem o0_rowpiece (t : Fin grid0.N) (x0 : Vec F S1024 .i32) (fh0 : Vec F S12000x12000 .f32) (j : Nat) (hj : j < 8)
    {offD : Fin 2 → Nat} (hoffD : offD = ![j, 0]) {inbD : ∀ a, offD a + S1x12000.size a ≤ S8x12000.size a}
    (pay : S1x12000.Idx → Elt F .f32)
    (hpay : ∀ x : S1x12000.Idx, pay x = fh0 (ValueIdx.ix2 (Cert.Spec.rowOf 12000 (by decide)
      (x0 (ValueIdx.ix1 ⟨(8 * t.val + j) % 1024, Nat.mod_lt _ (by decide)⟩))) (⟨(x 1).val, (x 1).isLt⟩ : Fin 12000)))
    (x : (Rect.unit (s := S8x12000) offD S1x12000.size inbD).shape.Idx) :
    pay x = o0_G t x0 fh0 ((Rect.unit (s := S8x12000) offD S1x12000.size inbD).emb x) := by
  subst hoffD
  have hx0 : (x 0).val < 1 := (x 0).isLt
  rw [hpay x]
  unfold o0_G
  refine congrArg fh0 ?_
  have e0 : (⟨(8 * t.val + (((Rect.unit (s := S8x12000) ![j, 0] S1x12000.size inbD).emb x) 0).val) % 1024, Nat.mod_lt _ (by decide)⟩ : Fin 1024)
      = ⟨(8 * t.val + j) % 1024, Nat.mod_lt _ (by decide)⟩ :=
    Fin.ext (by show (8 * t.val + (j + 1 * (x 0).val)) % 1024 = (8 * t.val + j) % 1024; omega)
  rw [e0]
  refine congrArg _ (Fin.ext ?_)
  show (x 1).val = 0 + 1 * (x 1).val
  omega

/-- One copy's payload: the filter read through the one-row slice whose row is the word the body read
    at offset `8 t + j` of the table is the filter's row named by the table's word at that position. -/
theorem o0_copy (c : Dev nD) (t : Fin grid0.N) (j : Nat) (hj : j < 8) (arg1 : Memref sig .tc .smem S1024 .i32)
    (harg1 : arg1.IsWhole) (x0 : Vec F S1024 .i32) (fh0 : HbBuf0 (F := F) c hbM0) (hT : ∀ j, (x0 j).toNat < 12000)
    {offW : Fin 1 → Nat} (hoffW : offW = ![8 * (grid0.coords t 0).val + j]) {inbW : ∀ a, offW a + S1.size a ≤ S1024.size a}
    {h1 : 0 < (Rect.unit (s := S1024) offW S1.size inbW).toLoadRect.shape.numel}
    {offS : Fin 2 → Nat}
    (hoffS : offS = ![(arg1.view.readAt (Elt F) (Rect.unit (s := S1024) offW S1.size inbW).toLoadRect (harg1.unread x0)
      (Shape.Idx.first h1)).toNat, 0])
    {inbS : ∀ a, offS a + S1x12000.size a ≤ S12000x12000.size a}
    {hr : ∀ a, (Rect.unit (s := S12000x12000) offS S1x12000.size inbS).stride a = 1} (x : S1x12000.Idx) :
    ReadAs.same.apply (View.read (Elt F) ((Memref.whole main_arg0 : Memref sig .tc .hbm S12000x12000 .f32).slice
        (Rect.unit (s := S12000x12000) offS S1x12000.size inbS) hr).view fh0) x
      = (fh0 : Vec F S12000x12000 .f32) (ValueIdx.ix2 (Cert.Spec.rowOf 12000 (by decide)
          (x0 (ValueIdx.ix1 ⟨(8 * t.val + j) % 1024, Nat.mod_lt _ (by decide)⟩))) (⟨(x 1).val, (x 1).isLt⟩ : Fin 12000)) := by
  have hw := o0_word (F := F) t j hj (arg1 := arg1) (harg1 := harg1) (x0 := x0) hoffW (inb := inbW) (h1 := h1)
  rw [← hw]
  exact o0_row c fh0 _ (by rw [hw]; exact hT _) hoffS x

/-- The scratch loaded whole after the eight copies: the gathered rows. Each of the eight pieces is one copy's row. -/
theorem o0_v94 (c : Dev nD) (t : Fin grid0.N) (arg1 : Memref sig .tc .smem S1024 .i32) (harg1 : arg1.IsWhole)
    (arg6 : Memref sig .tc .vmem S8x12000 .f32) (x0 : Vec F S1024 .i32) (fh0 : HbBuf0 (F := F) c hbM0)
    (hT : ∀ j, (x0 j).toNat < 12000) (h1 : _) (h2 : _) (h3 : _) (h4 : _) (h5 : _) (h6 : _) (h7 : _) (h8 : _) :
    kernelRun0.sl.v94 c (grid0.coords t) arg1 harg1 arg6 x0 fh0 h1 h2 h3 h4 h5 h6 h7 h8 = o0_G t x0 fh0 := by
  unfold kernelRun0.sl.v94
  refine (View.readCov_eq_canon' _ _ _).trans ((View.ld_unit_zero (S := S8x12000) o0_hz _ (View.canon _)).trans ?_)
  funext y
  exact View.canon_apply_of_pieces (o0_G t x0 fh0) _
    (o0_forall8
      (o0_rowpiece t x0 fh0 7 (by decide) rfl (inbD := inb_S8x12000_S1x12000_7_0)
        (kernelRun0.sl.dma8 c (grid0.coords t) arg1 harg1 x0 fh0 h8) fun x => by
          unfold kernelRun0.sl.dma8 kernelRun0.sl.r_7
          exact o0_copy c t 7 (by decide) arg1 harg1 x0 fh0 hT (k0_off15_eq (grid0.coords t))
            (inbW := k0_off15_inb _) (h1 := numel1_S1.symm ▸ Nat.one_pos) rfl x)
      (o0_rowpiece t x0 fh0 6 (by decide) rfl (inbD := inb_S8x12000_S1x12000_6_0)
        (kernelRun0.sl.dma7 c (grid0.coords t) arg1 harg1 x0 fh0 h7) fun x => by
          unfold kernelRun0.sl.dma7 kernelRun0.sl.r_6
          exact o0_copy c t 6 (by decide) arg1 harg1 x0 fh0 hT (k0_off13_eq (grid0.coords t))
            (inbW := k0_off13_inb _) (h1 := numel1_S1.symm ▸ Nat.one_pos) rfl x)
      (o0_rowpiece t x0 fh0 5 (by decide) rfl (inbD := inb_S8x12000_S1x12000_5_0)
        (kernelRun0.sl.dma6 c (grid0.coords t) arg1 harg1 x0 fh0 h6) fun x => by
          unfold kernelRun0.sl.dma6 kernelRun0.sl.r_5
          exact o0_copy c t 5 (by decide) arg1 harg1 x0 fh0 hT (k0_off11_eq (grid0.coords t))
            (inbW := k0_off11_inb _) (h1 := numel1_S1.symm ▸ Nat.one_pos) rfl x)
      (o0_rowpiece t x0 fh0 4 (by decide) rfl (inbD := inb_S8x12000_S1x12000_4_0)
        (kernelRun0.sl.dma5 c (grid0.coords t) arg1 harg1 x0 fh0 h5) fun x => by
          unfold kernelRun0.sl.dma5 kernelRun0.sl.r_4
          exact o0_copy c t 4 (by decide) arg1 harg1 x0 fh0 hT (k0_off9_eq (grid0.coords t))
            (inbW := k0_off9_inb _) (h1 := numel1_S1.symm ▸ Nat.one_pos) rfl x)
      (o0_rowpiece t x0 fh0 3 (by decide) rfl (inbD := inb_S8x12000_S1x12000_3_0)
        (kernelRun0.sl.dma4 c (grid0.coords t) arg1 harg1 x0 fh0 h4) fun x => by
          unfold kernelRun0.sl.dma4 kernelRun0.sl.r_3
          exact o0_copy c t 3 (by decide) arg1 harg1 x0 fh0 hT (k0_off7_eq (grid0.coords t))
            (inbW := k0_off7_inb _) (h1 := numel1_S1.symm ▸ Nat.one_pos) rfl x)
      (o0_rowpiece t x0 fh0 2 (by decide) rfl (inbD := inb_S8x12000_S1x12000_2_0)
        (kernelRun0.sl.dma3 c (grid0.coords t) arg1 harg1 x0 fh0 h3) fun x => by
          unfold kernelRun0.sl.dma3 kernelRun0.sl.r_2
          exact o0_copy c t 2 (by decide) arg1 harg1 x0 fh0 hT (k0_off5_eq (grid0.coords t))
            (inbW := k0_off5_inb _) (h1 := numel1_S1.symm ▸ Nat.one_pos) rfl x)
      (o0_rowpiece t x0 fh0 1 (by decide) rfl (inbD := inb_S8x12000_S1x12000_1_0)
        (kernelRun0.sl.dma2 c (grid0.coords t) arg1 harg1 x0 fh0 h2) fun x => by
          unfold kernelRun0.sl.dma2 kernelRun0.sl.r_1
          exact o0_copy c t 1 (by decide) arg1 harg1 x0 fh0 hT (k0_off3_eq (grid0.coords t))
            (inbW := k0_off3_inb _) (h1 := numel1_S1.symm ▸ Nat.one_pos) rfl x)
      (o0_rowpiece t x0 fh0 0 (by decide) rfl (inbD := inb_S8x12000_S1x12000_0_0)
        (kernelRun0.sl.dma1 c (grid0.coords t) arg1 harg1 x0 fh0 h1) fun x => by
          unfold kernelRun0.sl.dma1 kernelRun0.sl.r
          exact o0_copy c t 0 (by decide) arg1 harg1 x0 fh0 hT (k0_off1_eq (grid0.coords t))
            (inbW := k0_off1_inb _) (h1 := numel1_S1.symm ▸ Nat.one_pos) rfl x))
    y (View.cover_of_tiledL (s := S8x12000) _ S1x12000.size (by sl_kernel_rfl) y)

/-! ## The output block -/

variable (V : (c : Dev nD) → (b : Ref sig .tc) → Buf (Elt F) ((c : Thread nD τ).loc b))
variable (a : (pcfg0 (F := F)).Adm)

/-- The scratch after the eight copies of point `t`: row `r` is the filter's row named by the table word `8t + r`. -/
def rows0 (c : Dev nD) (t : Fin (cfg0 a).N) : Vec F S8x12000 .f32 :=
  fun y => (V c main_arg0 : Vec F S12000x12000 .f32)
    (ValueIdx.ix2 (Cert.Spec.rowOf 12000 (by decide) ((a.1 (0 : Fin 1) : Vec F S1024 .i32) (ValueIdx.ix1 ⟨(8 * t.val + (y 0).val) % 1024, Nat.mod_lt _ (by decide)⟩))) (y 1))

variable (hT : ∀ j, ((a.1 (0 : Fin 1) : Vec F S1024 .i32) j).toNat < 12000)

/-- The output block after point `t`: the body's arithmetic of the mask block, the gathered rows and the embedding table. -/
theorem outsAt0_eq (c : Dev nD) (t : Fin (cfg0 a).N) :
    outsAt0 V a hT c t = k0_pay1 (iblk0 V a c 0 t) (rows0 V a c t) (iblk0 V a c 1 t) := by
  have key : ∀ {A A' : Vec F S8x12000 .f32} {B B' : Vec F S8x12000 .f32} {C C' : Vec F S12000x64 .f32},
      A = A' → B = B' → C = C' → k0_pay1 (F := F) A B C = k0_pay1 A' B' C' := by
    intros; subst_vars; rfl
  unfold outsAt0
  rw [View.read_writes_eq_canon _ _ _ (cover0_2 V a hT c t)]
  unfold runAt0 kernelRun0
  dsimp only
  -- one store of the whole block: what it leaves is its payload, the arithmetic of three loads
  rw [View.canon_unit_zero o0_hz]
  refine key ?_ ?_ ?_
  · -- the mask block, loaded whole
    simp only [View.readAt_eq_ld, View.ld_unit_zero (S := S8x12000) o0_hz]
    exact Memref.IsWhole.read_unread _ _
  · -- the scratch, loaded whole after the eight copies
    exact o0_v94 c t _ _ _ (a.1 (0 : Fin 1)) (V c main_arg0) hT _ _ _ _ _ _ _ _
  · -- the embedding table, loaded whole
    simp only [View.readAt_eq_ld, View.ld_unit_zero (S := S12000x64) o0_hz]
    exact Memref.IsWhole.read_unread _ _

end Cert.KernelIdeal.Hand

end
-- ==== Proof.PayValue.lean ====
/-
  The arithmetic of the four kernel bodies, read at an index, as the specification's formulas.

  A gather-mask-matmul body loads a block of noise `mk`, eight gathered filter rows `rows` and the embedding table
  `emb`, and stores the product of the masked rows with the table. At the extended reals the two changes of float format
  are the identity and the product into a zero accumulator is a plain sum over the contracted axis, so the stored block is

      (r, d) ↦ ∑ n, (rows (r, n) · keep (mk (r, n))) · emb (n, d)

  where `keep x` is the comparison bit of `x ≥ 0.1`, widened to 32 bits and read as a signed integer: a one-bit word
  widened by zeros is 0 or 1, so its signed value is the bit's natural value, which is the specification's `keep`.

  The loss body loads three feature matrices `fu`, `fp`, `fn`. A sum over the 64 columns, kept as a column [1024, 1], is
  the row inner product; a further sum over the 1024 rows, kept as [1, 1], is the total. Every other operation acts entry
  by entry, and every literal is the same word as the specification's, so the one stored entry is the specification's loss.
-/
import proofs.«421540_j73229192397035_2_alg».proof.Proof.Gen.KernelIdeal.Skeleton
import proofs.«421540_j73229192397035_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PayValue

open Idealize.ShloMosaic Idealize.ShloMosaic.ValueIdx Cert.KernelIdeal.Gen
open Cert.KernelIdeal (S8x12000 S12000x64 S8x64 S8x16000 S16000x64 S1024x64 S1024 S1024x1 S1 S1x1
  dot_S8x12000_S12000x64_S8x64_1_0_0_1_n_n dot_S8x16000_S16000x64_S8x64_1_0_0_1_n_n)
open scoped BigOperators

/-! ## The mask: a comparison bit, widened and converted -/

/-- A one-bit word widened by zeros to 32 bits, read as a signed integer, is the bit's natural value: the word is 0 or 1,
    far below the sign bit. -/
theorem bit_toInt (b : BitVec 1) : (b.setWidth 32).toInt = (b.toNat : Int) := by
  rcases BitVec.eq_zero_or_eq_one b with h | h <;> subst h <;> decide

/-- The body's mask entry — compare with the word of 0.1, widen, convert — is the specification's `keep`. -/
theorem keep_word (x : Ideal .f32) :
    FloatOps.sitofp (F := Ideal) .f32
        (BitVec.setWidth 32 (FloatOps.cmpf (F := Ideal) .oge x (Scalar.ofBits (F := Ideal) .f32 0x3DCCCCCD#32)))
      = Cert.Spec.keep x := by
  show (((BitVec.setWidth 32 (Ideal.cmp .oge x Cert.Spec.thr)).toInt : ℝ) : EReal)
    = (((Ideal.cmp .oge x Cert.Spec.thr).toNat : ℝ) : EReal)
  rw [bit_toInt, Int.cast_natCast]

/-! ## The product with the 12000-row table -/

/-- The left operand's row is the output's row … -/
theorem lhs12_0 (i : S8x64.Idx) (q : dot_S8x12000_S12000x64_S8x64_1_0_0_1_n_n.contr.Idx) :
    (dot_S8x12000_S12000x64_S8x64_1_0_0_1_n_n.lhsIdx i q 0).val = (i 0).val := by
  unfold DotDims.lhsIdx
  rw [dif_neg (show ¬(0 : Fin S8x12000.rank) ∈ dot_S8x12000_S12000x64_S8x64_1_0_0_1_n_n.lhsBatch by decide), dif_pos (show (0 : Fin S8x12000.rank) ∈ dot_S8x12000_S12000x64_S8x64_1_0_0_1_n_n.lhsNonContracting by decide)]
  rfl
/-- … its column the contracted coordinate; … -/
theorem lhs12_1 (i : S8x64.Idx) (q : dot_S8x12000_S12000x64_S8x64_1_0_0_1_n_n.contr.Idx) :
    (dot_S8x12000_S12000x64_S8x64_1_0_0_1_n_n.lhsIdx i q 1).val = (q ⟨0, by decide⟩).val :=
  dot_S8x12000_S12000x64_S8x64_1_0_0_1_n_n.lhsIdx_val_of_single rfl i q
/-- … the right operand's row is the contracted coordinate … -/
theorem rhs12_0 (i : S8x64.Idx) (q : dot_S8x12000_S12000x64_S8x64_1_0_0_1_n_n.contr.Idx) :
    (dot_S8x12000_S12000x64_S8x64_1_0_0_1_n_n.rhsIdx i q 0).val = (q ⟨0, by decide⟩).val :=
  dot_S8x12000_S12000x64_S8x64_1_0_0_1_n_n.rhsIdx_val_of_single rfl i q
/-- … and its column the output's column. -/
theorem rhs12_1 (i : S8x64.Idx) (q : dot_S8x12000_S12000x64_S8x64_1_0_0_1_n_n.contr.Idx) :
    (dot_S8x12000_S12000x64_S8x64_1_0_0_1_n_n.rhsIdx i q 1).val = (i 1).val := by
  unfold DotDims.rhsIdx
  rw [dif_neg (show ¬(1 : Fin S12000x64.rank) ∈ dot_S8x12000_S12000x64_S8x64_1_0_0_1_n_n.rhsBatch by decide), dif_pos (show (1 : Fin S12000x64.rank) ∈ dot_S8x12000_S12000x64_S8x64_1_0_0_1_n_n.rhsNonContracting by decide)]
  rfl

/-- An [8, 12000] block times a [12000, 64] block into the zero accumulator, at `(p, d)`: the sum over the 12000 shared
    coordinates of the products. -/
theorem matmul12_apply (l : FVec Ideal S8x12000 .bf16) (r : FVec Ideal S12000x64 .bf16) (p : Fin 8) (d : Fin 64) :
    matmul (F := Ideal) dot_S8x12000_S12000x64_S8x64_1_0_0_1_n_n none l r (constant (F := Ideal) S8x64 .f32 0x00000000#32) (ix2 p d)
      = ∑ n : Fin 12000, l (ix2 p n) * r (ix2 n d) := by
  refine (Ideal.matmul_constant_zero_apply dot_S8x12000_S12000x64_S8x64_1_0_0_1_n_n none l r (ix2 p d)).trans ?_
  rw [← Equiv.sum_comp (ValueIdx.contrEquiv1 dot_S8x12000_S12000x64_S8x64_1_0_0_1_n_n 12000 rfl rfl).symm]
  refine Finset.sum_congr rfl fun k _ => ?_
  have hk := ValueIdx.contrEquiv1_symm_val dot_S8x12000_S12000x64_S8x64_1_0_0_1_n_n 12000 rfl rfl k
  have el : dot_S8x12000_S12000x64_S8x64_1_0_0_1_n_n.lhsIdx (ix2 p d) ((ValueIdx.contrEquiv1 dot_S8x12000_S12000x64_S8x64_1_0_0_1_n_n 12000 rfl rfl).symm k) = ix2 p k := funext fun a => Fin.ext (by
    match a with
    | ⟨0, _⟩ => exact lhs12_0 _ _
    | ⟨1, _⟩ => exact (lhs12_1 _ _).trans hk)
  have er : dot_S8x12000_S12000x64_S8x64_1_0_0_1_n_n.rhsIdx (ix2 p d) ((ValueIdx.contrEquiv1 dot_S8x12000_S12000x64_S8x64_1_0_0_1_n_n 12000 rfl rfl).symm k) = ix2 k d := funext fun a => Fin.ext (by
    match a with
    | ⟨0, _⟩ => exact (rhs12_0 _ _).trans hk
    | ⟨1, _⟩ => exact rhs12_1 _ _)
  rw [el, er]

/-! ## The product with the 16000-row table -/

/-- The left operand's row is the output's row … -/
theorem lhs16_0 (i : S8x64.Idx) (q : dot_S8x16000_S16000x64_S8x64_1_0_0_1_n_n.contr.Idx) :
    (dot_S8x16000_S16000x64_S8x64_1_0_0_1_n_n.lhsIdx i q 0).val = (i 0).val := by
  unfold DotDims.lhsIdx
  rw [dif_neg (show ¬(0 : Fin S8x16000.rank) ∈ dot_S8x16000_S16000x64_S8x64_1_0_0_1_n_n.lhsBatch by decide), dif_pos (show (0 : Fin S8x16000.rank) ∈ dot_S8x16000_S16000x64_S8x64_1_0_0_1_n_n.lhsNonContracting by decide)]
  rfl
/-- … its column the contracted coordinate; … -/
theorem lhs16_1 (i : S8x64.Idx) (q : dot_S8x16000_S16000x64_S8x64_1_0_0_1_n_n.contr.Idx) :
    (dot_S8x16000_S16000x64_S8x64_1_0_0_1_n_n.lhsIdx i q 1).val = (q ⟨0, by decide⟩).val :=
  dot_S8x16000_S16000x64_S8x64_1_0_0_1_n_n.lhsIdx_val_of_single rfl i q
/-- … the right operand's row is the contracted coordinate … -/
theorem rhs16_0 (i : S8x64.Idx) (q : dot_S8x16000_S16000x64_S8x64_1_0_0_1_n_n.contr.Idx) :
    (dot_S8x16000_S16000x64_S8x64_1_0_0_1_n_n.rhsIdx i q 0).val = (q ⟨0, by decide⟩).val :=
  dot_S8x16000_S16000x64_S8x64_1_0_0_1_n_n.rhsIdx_val_of_single rfl i q
/-- … and its column the output's column. -/
theorem rhs16_1 (i : S8x64.Idx) (q : dot_S8x16000_S16000x64_S8x64_1_0_0_1_n_n.contr.Idx) :
    (dot_S8x16000_S16000x64_S8x64_1_0_0_1_n_n.rhsIdx i q 1).val = (i 1).val := by
  unfold DotDims.rhsIdx
  rw [dif_neg (show ¬(1 : Fin S16000x64.rank) ∈ dot_S8x16000_S16000x64_S8x64_1_0_0_1_n_n.rhsBatch by decide), dif_pos (show (1 : Fin S16000x64.rank) ∈ dot_S8x16000_S16000x64_S8x64_1_0_0_1_n_n.rhsNonContracting by decide)]
  rfl

/-- An [8, 16000] block times a [16000, 64] block into the zero accumulator, at `(p, d)`: the sum over the 16000 shared
    coordinates of the products. -/
theorem matmul16_apply (l : FVec Ideal S8x16000 .bf16) (r : FVec Ideal S16000x64 .bf16) (p : Fin 8) (d : Fin 64) :
    matmul (F := Ideal) dot_S8x16000_S16000x64_S8x64_1_0_0_1_n_n none l r (constant (F := Ideal) S8x64 .f32 0x00000000#32) (ix2 p d)
      = ∑ n : Fin 16000, l (ix2 p n) * r (ix2 n d) := by
  refine (Ideal.matmul_constant_zero_apply dot_S8x16000_S16000x64_S8x64_1_0_0_1_n_n none l r (ix2 p d)).trans ?_
  rw [← Equiv.sum_comp (ValueIdx.contrEquiv1 dot_S8x16000_S16000x64_S8x64_1_0_0_1_n_n 16000 rfl rfl).symm]
  refine Finset.sum_congr rfl fun k _ => ?_
  have hk := ValueIdx.contrEquiv1_symm_val dot_S8x16000_S16000x64_S8x64_1_0_0_1_n_n 16000 rfl rfl k
  have el : dot_S8x16000_S16000x64_S8x64_1_0_0_1_n_n.lhsIdx (ix2 p d) ((ValueIdx.contrEquiv1 dot_S8x16000_S16000x64_S8x64_1_0_0_1_n_n 16000 rfl rfl).symm k) = ix2 p k := funext fun a => Fin.ext (by
    match a with
    | ⟨0, _⟩ => exact lhs16_0 _ _
    | ⟨1, _⟩ => exact (lhs16_1 _ _).trans hk)
  have er : dot_S8x16000_S16000x64_S8x64_1_0_0_1_n_n.rhsIdx (ix2 p d) ((ValueIdx.contrEquiv1 dot_S8x16000_S16000x64_S8x64_1_0_0_1_n_n 16000 rfl rfl).symm k) = ix2 k d := funext fun a => Fin.ext (by
    match a with
    | ⟨0, _⟩ => exact (rhs16_0 _ _).trans hk
    | ⟨1, _⟩ => exact rhs16_1 _ _)
  rw [el, er]

/-! ## The three gather-mask-matmul bodies -/

/-- The user body's stored block at `(r, d)`: the masked filter rows times the user table. -/
theorem pay0_apply (mk rows : Vec Ideal Cert.KernelIdeal.S8x12000 .f32) (emb : Vec Ideal Cert.KernelIdeal.S12000x64 .f32)
    (r : Fin 8) (d : Fin 64) :
    Cert.KernelIdeal.Gen.k0_pay1 (F := Ideal) mk rows emb (ix2 r d)
      = ∑ n : Fin 12000, (rows (ix2 r n) * Cert.Spec.keep (mk (ix2 r n))) * emb (ix2 n d) := by
  unfold Cert.KernelIdeal.Gen.k0_pay1
  refine (matmul12_apply _ _ r d).trans (Finset.sum_congr rfl fun n _ => ?_)
  exact congrArg (fun t : EReal => (rows (ix2 r n) * t) * emb (ix2 n d)) (keep_word (mk (ix2 r n)))

/-- The positive-item body's stored block at `(r, d)`: the masked filter rows times the item table. -/
theorem pay1_apply (mk rows : Vec Ideal Cert.KernelIdeal.S8x16000 .f32) (emb : Vec Ideal Cert.KernelIdeal.S16000x64 .f32)
    (r : Fin 8) (d : Fin 64) :
    Cert.KernelIdeal.Gen.k1_pay1 (F := Ideal) mk rows emb (ix2 r d)
      = ∑ n : Fin 16000, (rows (ix2 r n) * Cert.Spec.keep (mk (ix2 r n))) * emb (ix2 n d) := by
  unfold Cert.KernelIdeal.Gen.k1_pay1
  refine (matmul16_apply _ _ r d).trans (Finset.sum_congr rfl fun n _ => ?_)
  exact congrArg (fun t : EReal => (rows (ix2 r n) * t) * emb (ix2 n d)) (keep_word (mk (ix2 r n)))

/-- The negative-item body's stored block at `(r, d)`: the same formula. -/
theorem pay2_apply (mk rows : Vec Ideal Cert.KernelIdeal.S8x16000 .f32) (emb : Vec Ideal Cert.KernelIdeal.S16000x64 .f32)
    (r : Fin 8) (d : Fin 64) :
    Cert.KernelIdeal.Gen.k2_pay1 (F := Ideal) mk rows emb (ix2 r d)
      = ∑ n : Fin 16000, (rows (ix2 r n) * Cert.Spec.keep (mk (ix2 r n))) * emb (ix2 n d) := by
  unfold Cert.KernelIdeal.Gen.k2_pay1
  refine (matmul16_apply _ _ r d).trans (Finset.sum_congr rfl fun n _ => ?_)
  exact congrArg (fun t : EReal => (rows (ix2 r n) * t) * emb (ix2 n d)) (keep_word (mk (ix2 r n)))

/-! ## Sums kept as columns, and shape casts that only add a unit axis -/

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a [1024, 64] matrix over its columns, at row `b`: the sum over the 64 entries of that row. -/
theorem rowSum_apply (x : FVec Ideal S1024x64 .f32) (h : S1024x64.Reduces [1] S1024) (hφ : FKind.Formats .f32)
    (hacc : (0x00000000#32 : BitVec 32) = FKind.add.neutral .f32 hφ) (b : Fin 1024) :
    multiReduction (F := Ideal) .add [1] S1024 x 0x00000000#32 h hφ hacc (ix1 b) = ∑ d : Fin 64, x (ix2 b d) :=
  (Ideal.multiReduction_add_single x 0x00000000#32 h hφ hacc (ix1 b)).trans
    (Finset.sum_congr rfl fun d _ => congrArg x (funext fun a => Fin.ext (by
      match a with
      | ⟨0, _⟩ => rfl
      | ⟨1, _⟩ => rfl)))

/-- The sum of a [1024, 1] column over its rows: the sum of its 1024 entries. -/
theorem colSum_apply (x : FVec Ideal S1024x1 .f32) (h : S1024x1.Reduces [0] S1) (hφ : FKind.Formats .f32)
    (hacc : (0x00000000#32 : BitVec 32) = FKind.add.neutral .f32 hφ) (u : Fin 1) :
    multiReduction (F := Ideal) .add [0] S1 x 0x00000000#32 h hφ hacc (ix1 u) = ∑ b : Fin 1024, x (ix2 b u) :=
  (Ideal.multiReduction_add_single x 0x00000000#32 h hφ hacc (ix1 u)).trans
    (Finset.sum_congr rfl fun b _ => congrArg x (funext fun a => Fin.ext (by
      match a with
      | ⟨0, _⟩ => rfl
      | ⟨1, _⟩ => rfl)))

/-- The column of row inner products: the entrywise product of two matrices, summed over the columns and kept as a
    column, is at row `b` the inner product of the two rows `b`. -/
theorem rowDotCol_apply (x' y' x y : FVec Ideal S1024x64 .f32) (hx : x' = x) (hy : y' = y)
    (h : S1024x64.Reduces [1] S1024) (hφ : FKind.Formats .f32)
    (hacc : (0x00000000#32 : BitVec 32) = FKind.add.neutral .f32 hφ) (hc : S1024.ShapeCasts S1024x1)
    (b : Fin 1024) (u : Fin 1) :
    shapeCast S1024x1 (multiReduction (F := Ideal) .add [1] S1024 (mulf x' y') 0x00000000#32 h hφ hacc) hc (ix2 b u)
      = Cert.Spec.rowDot x y b := by
  subst hx hy
  exact (shapeCast_a_a1_apply _ hc b u).trans (rowSum_apply _ h hφ hacc b)

/-- The sum of the squares of a matrix: its column of row inner products with itself, summed over the rows and kept as
    the one entry of a [1, 1] matrix. -/
theorem sqNorm_pay (x' x : FVec Ideal S1024x64 .f32) (hx : x' = x)
    (h1 : S1024x64.Reduces [1] S1024) (hφ1 : FKind.Formats .f32)
    (hacc1 : (0x00000000#32 : BitVec 32) = FKind.add.neutral .f32 hφ1) (hc : S1024.ShapeCasts S1024x1)
    (h0 : S1024x1.Reduces [0] S1) (hφ0 : FKind.Formats .f32)
    (hacc0 : (0x00000000#32 : BitVec 32) = FKind.add.neutral .f32 hφ0) (hc1 : S1.ShapeCasts S1x1) (u w : Fin 1) :
    shapeCast S1x1 (multiReduction (F := Ideal) .add [0] S1
        (shapeCast S1024x1 (multiReduction (F := Ideal) .add [1] S1024 (mulf x' x') 0x00000000#32 h1 hφ1 hacc1) hc)
        0x00000000#32 h0 hφ0 hacc0) hc1 (ix2 u w)
      = Cert.Spec.sqNorm x := by
  refine (shapeCast_a_1a_apply _ hc1 u w).trans ?_
  refine (colSum_apply _ h0 hφ0 hacc0 w).trans ?_
  show _ = ∑ b : Fin 1024, Cert.Spec.rowDot x x b
  exact Finset.sum_congr rfl fun b _ => rowDotCol_apply x' x' x x hx hx h1 hφ1 hacc1 hc b w

/-! ## The loss body -/

/-- The three shape casts of a loaded block to its own shape change nothing. -/
theorem k3_pay2_id (v : Vec Ideal S1024x64 .f32) : k3_pay2 (F := Ideal) v = v := by
  unfold k3_pay2; exact shapeCast_self v _
theorem k3_pay3_id (v : Vec Ideal S1024x64 .f32) : k3_pay3 (F := Ideal) v = v := by
  unfold k3_pay3; exact shapeCast_self v _
theorem k3_pay4_id (v : Vec Ideal S1024x64 .f32) : k3_pay4 (F := Ideal) v = v := by
  unfold k3_pay4; exact shapeCast_self v _

/-- The entrywise part of the margin and its logarithm: from the column `p` of positive scores and the column `n` of
    negative scores, the body computes `log σ(p − w(n) · n)` with `w(n) = 1 − log(1 − min(σ(n), 0.99)) · c`, every
    literal the specification's word. -/
theorem margin_pay (p n : FVec Ideal S1024x1 .f32) (i : S1024x1.Idx) (P N : EReal) (hp : p i = P) (hn : n i = N) :
    (log (F := Ideal) (logistic (F := Ideal) (subf (F := Ideal) p (mulf (F := Ideal)
        (subf (F := Ideal) (broadcast S1024x1 (Scalar.ofBits (F := Ideal) .f32 0x3F800000#32))
          (mulf (F := Ideal) (log (F := Ideal) (subf (F := Ideal) (broadcast S1024x1 (Scalar.ofBits (F := Ideal) .f32 0x3F800000#32))
            (minimumf (F := Ideal) (logistic (F := Ideal) n) (broadcast S1024x1 (Scalar.ofBits (F := Ideal) .f32 0x3F7D70A4#32)))))
            (broadcast S1024x1 (Scalar.ofBits (F := Ideal) .f32 0x3EDE5BD9#32))))
        n)))) i
      = Ideal.log (Ideal.logistic (P - Cert.Spec.negWeight N * N)) := by
  subst hp hn
  rfl

/-- The sum of the logarithms: the first of the four values the loss body hands to its last stage. -/
theorem k3_pay5_apply (fu fp fn : Vec Ideal S1024x64 .f32) (u w : Fin 1) :
    k3_pay5 (F := Ideal) fu fp fn (ix2 u w)
      = ∑ b : Fin 1024, Ideal.log (Ideal.logistic (Cert.Spec.margin fu fp fn b)) := by
  unfold k3_pay5
  refine (shapeCast_a_1a_apply _ _ u w).trans ?_
  refine (colSum_apply _ _ _ _ w).trans ?_
  refine Finset.sum_congr rfl fun b _ => ?_
  exact margin_pay _ _ (ix2 b w) _ _
    (rowDotCol_apply _ _ fu fp (k3_pay2_id fu) (k3_pay3_id fp) _ _ _ _ b w)
    (rowDotCol_apply _ _ fu fn (k3_pay2_id fu) (k3_pay4_id fn) _ _ _ _ b w)

/-- The second and third: the sums of the squares of the user and of the positive-item features. -/
theorem k3_pay6_apply (f : Vec Ideal S1024x64 .f32) (u w : Fin 1) :
    k3_pay6 (F := Ideal) f (ix2 u w) = Cert.Spec.sqNorm f := by
  unfold k3_pay6
  exact sqNorm_pay _ f (k3_pay2_id f) _ _ _ _ _ _ _ _ u w
theorem k3_pay7_apply (f : Vec Ideal S1024x64 .f32) (u w : Fin 1) :
    k3_pay7 (F := Ideal) f (ix2 u w) = Cert.Spec.sqNorm f := by
  unfold k3_pay7
  exact sqNorm_pay _ f (k3_pay3_id f) _ _ _ _ _ _ _ _ u w

/-- The fourth: the column of the negative-item rows' inner products with themselves. -/
theorem k3_pay8_apply (f : Vec Ideal S1024x64 .f32) (b : Fin 1024) (w : Fin 1) :
    k3_pay8 (F := Ideal) f (ix2 b w) = Cert.Spec.rowDot f f b := by
  unfold k3_pay8
  exact rowDotCol_apply _ _ f f (k3_pay4_id f) (k3_pay4_id f) _ _ _ _ b w

/-- The last stage, entry by entry: from the sum of logarithms `a`, the two sums of squares `p`, `q` and the third one
    `s`, the body stores `((0 − a) + 0.01 · ((p + q) + s)) / 1024`; the word of zero reads as zero. -/
theorem store_pay (a p q s : FVec Ideal S1x1 .f32) (i : S1x1.Idx) (A P Q T : EReal)
    (ha : a i = A) (hp : p i = P) (hq : q i = Q) (hs : s i = T) :
    (divf (F := Ideal) (addf (F := Ideal) (subf (F := Ideal) (broadcast S1x1 (Scalar.ofBits (F := Ideal) .f32 0x00000000#32)) a)
        (mulf (F := Ideal) (broadcast S1x1 (Scalar.ofBits (F := Ideal) .f32 0x3C23D70A#32)) (addf (F := Ideal) (addf (F := Ideal) p q) s)))
        (broadcast S1x1 (Scalar.ofBits (F := Ideal) .f32 0x44800000#32))) i
      = Ideal.div ((0 - A) + Cert.Spec.reg * ((P + Q) + T)) Cert.Spec.batch := by
  subst ha hp hq hs
  show Ideal.div ((Ideal.ofBits .f32 0x00000000#32 - a i) + Cert.Spec.reg * ((p i + q i) + s i)) Cert.Spec.batch = _
  rw [Ideal.ofBits_zero_f32]

/-- The last stage over the four values: the column of the negative-item squares is first summed over its rows. -/
theorem k3_pay1_apply (a p q : FVec Ideal S1x1 .f32) (c : FVec Ideal S1024x1 .f32) (u w : Fin 1) (A P Q : EReal)
    (C : Fin 1024 → EReal) (ha : a (ix2 u w) = A) (hp : p (ix2 u w) = P) (hq : q (ix2 u w) = Q)
    (hc : ∀ b, c (ix2 b w) = C b) :
    k3_pay1 (F := Ideal) a p q c (ix2 u w)
      = Ideal.div ((0 - A) + Cert.Spec.reg * ((P + Q) + ∑ b : Fin 1024, C b)) Cert.Spec.batch := by
  unfold k3_pay1
  exact store_pay _ _ _ _ (ix2 u w) _ _ _ _ ha hp hq
    (((shapeCast_a_1a_apply _ _ u w).trans (colSum_apply c _ _ _ w)).trans (Finset.sum_congr rfl fun b _ => hc b))

/-- The value the loss body stores, over the three loaded blocks: its last stage applied to the four values its first
    part hands over. -/
def lossPay (v0 v2 v4 : Vec Ideal Cert.KernelIdeal.S1024x64 .f32) : FVec Ideal Cert.KernelIdeal.S1x1 .f32 :=
  Cert.KernelIdeal.Gen.k3_pay1 (F := Ideal) (Cert.KernelIdeal.Gen.k3_pay5 (F := Ideal) v0 v2 v4)
    (Cert.KernelIdeal.Gen.k3_pay6 (F := Ideal) v0) (Cert.KernelIdeal.Gen.k3_pay7 (F := Ideal) v2)
    (Cert.KernelIdeal.Gen.k3_pay8 (F := Ideal) v4)

/-- The loss body's one stored entry is the specification's loss of the three feature matrices. -/
theorem loss_apply (fu fp fn : Vec Ideal Cert.KernelIdeal.S1024x64 .f32) (y : Cert.KernelIdeal.S1x1.Idx) :
    lossPay fu fp fn y = Cert.Spec.loss fu fp fn := by
  obtain ⟨u, w, rfl⟩ : ∃ (u w : Fin 1), y = ix2 u w := ⟨y 0, y 1, eq_ix2 y⟩
  unfold lossPay
  show _ = Ideal.div ((0 - ∑ b : Fin 1024, Ideal.log (Ideal.logistic (Cert.Spec.margin fu fp fn b)))
      + Cert.Spec.reg * ((Cert.Spec.sqNorm fu + Cert.Spec.sqNorm fp) + ∑ b : Fin 1024, Cert.Spec.rowDot fn fn b)) Cert.Spec.batch
  exact k3_pay1_apply _ _ _ _ u w _ _ _ _ (k3_pay5_apply fu fp fn u w) (k3_pay6_apply fu u w) (k3_pay7_apply fp u w)
    (fun b => k3_pay8_apply fn b w)

end Cert.PayValue

end
-- ==== Proof.KValue.lean ====
/-
  What each pipeline leaves in its output array, as the specification's formulas.

  The user-feature pipeline runs over 128 grid points. Point `t` reads rows `8t … 8t + 7` of the noise matrix (its mask
  block), the whole embedding table, and the eight filter rows named by the words `8t … 8t + 7` of the row-number table;
  it writes rows `8t … 8t + 7` of the output. Entry `(r, d)` of what it writes is the masked filter row times the table,
  which is entry `(8t + r, d)` of the specification's feature matrix: so every point writes back its own block of ONE
  matrix, the blocks cover the 1024 rows (row `b` lies in the block of point `b / 8`), and the output array ends
  holding that matrix.

  The loss pipeline has one point: its three input blocks are the three feature matrices whole, its one output entry the
  specification's loss of them.
-/
import proofs.«421540_j73229192397035_2_alg».proof.Proof.Reg0
import proofs.«421540_j73229192397035_2_alg».proof.Proof.Reg3
import proofs.«421540_j73229192397035_2_alg».proof.Proof.Open0
import proofs.«421540_j73229192397035_2_alg».proof.Proof.PayValue
import proofs.«421540_j73229192397035_2_alg».proof.Proof.Spec
import Idealize.ShloMosaic.Lib.Pipeline.Value

set_option maxRecDepth 16384

noncomputable section

namespace Cert.KValue

open Cert.KernelIdeal Cert.KernelIdeal.Gen Cert.KernelIdeal.Hand
open Idealize.ShloMosaic Idealize.ShloMosaic.TcCoe Idealize.SL Idealize.SL.Sem
open Idealize.ShloMosaic.Pipeline (Dat)
open scoped BigOperators

/-! ## The user features -/

section Features0

variable (V : (c : Dev nD) → (b : Ref sig .tc) → Buf (Elt Ideal) ((c : Thread nD τ).loc b))
variable (a : (pcfg0 (F := Ideal)).Adm)

/-- The filter matrix, the noise matrix, the embedding table and the row-number table, each at its literal shape. -/
abbrev filt (c : Dev nD) : Vec Ideal S12000x12000 .f32 := V c main_arg0
abbrev noise (c : Dev nD) : Vec Ideal S1024x12000 .f32 := V c main_arg4
abbrev table (c : Dev nD) : Vec Ideal S12000x64 .f32 := V c main_arg2
abbrev words : Vec Ideal S1024 .i32 := a.1 (0 : Fin 1)
/-- The mask block and the table block of point `t`, at their literal shapes. -/
abbrev maskBlk (c : Dev nD) (t : Fin (cfg0 a).N) : Vec Ideal S8x12000 .f32 := iblk0 V a c 0 t
abbrev embBlk (c : Dev nD) (t : Fin (cfg0 a).N) : Vec Ideal S12000x64 .f32 := iblk0 V a c 1 t
/-- The specification's user-feature matrix of those four arrays. -/
abbrev featArr (c : Dev nD) : Vec Ideal S1024x64 .f32 :=
  Cert.Spec.feat (N := 12000) (by decide) (filt V c) (noise V c) (table V c) (words a)

/-- The three index maps over the grid: the mask block and the output block of point `t` are block `(t, 0)`, the table's
    block is always block `(0, 0)`. They do not read the row-number table. -/
theorem idx_closed : ∀ t : Fin grid0.N,
    cc0_transform_1 (grid0.coords t) (0 : Fin 2) = t.val ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 2) = t.val ∧ cc0_transform_3 (grid0.coords t) (1 : Fin 2) = 0 := by
  decide +kernel

/-- The same of the pipeline's windows, whatever the row-number table holds. -/
theorem idx_facts (t : Fin (cfg0 a).N) :
    ((cfg0 a).win 0).index t (0 : Fin 2) = t.val ∧ ((cfg0 a).win 0).index t (1 : Fin 2) = 0
    ∧ ((cfg0 a).win 1).index t (0 : Fin 2) = 0 ∧ ((cfg0 a).win 1).index t (1 : Fin 2) = 0
    ∧ ((cfg0 a).win 2).index t (0 : Fin 2) = t.val ∧ ((cfg0 a).win 2).index t (1 : Fin 2) = 0 :=
  idx_closed t

/-- The output's block index changes at every point, so every point writes its block back. -/
theorem flush_closed : ∀ t : Fin grid0.N, Pipeline.Window.flushOf grid0 true cc0_transform_3 t = true := by
  decide +kernel
theorem flush0_2 (t : Fin (cfg0 a).N) : ((cfg0 a).win 2).flush t = true :=
  (Pipeline.Window.flush_eq_flushOf ((cfg0 a).win 2) t).trans (flush_closed t)

set_option backward.isDefEq.respectTransparency.types false in
/-- The mask block of point `t` is rows `8t … 8t + 7` of the noise matrix. -/
theorem maskBlk_apply (c : Dev nD) (t : Fin (cfg0 a).N) (x : S8x12000.Idx) (k : S1024x12000.Idx)
    (hk0 : (k 0).val = 8 * t.val + (x 0).val) (hk1 : (k 1).val = (x 1).val) :
    maskBlk V a c t x = noise V c k := by
  obtain ⟨e0, e1, -, -, -, -⟩ := idx_facts a t
  unfold maskBlk iblk0
  rw [View.read_apply]
  show noise V c _ = noise V c k
  refine congrArg (noise V c) ?_
  funext b
  apply Fin.ext
  match b with
  | ⟨0, _⟩ => show ((cfg0 a).win 0).index t (0 : Fin 2) * 8 + 1 * (x 0).val = (k 0).val; rw [e0, hk0]; omega
  | ⟨1, _⟩ => show ((cfg0 a).win 0).index t (1 : Fin 2) * 12000 + 1 * (x 1).val = (k 1).val; rw [e1, hk1]; omega

set_option backward.isDefEq.respectTransparency.types false in
/-- The table's block is the whole table at every point. -/
theorem embBlk_eq (c : Dev nD) (t : Fin (cfg0 a).N) : embBlk V a c t = table V c := by
  obtain ⟨-, -, e0, e1, -, -⟩ := idx_facts a t
  funext x
  unfold embBlk iblk0
  rw [View.read_apply]
  show table V c _ = table V c x
  refine congrArg (table V c) ?_
  funext b
  apply Fin.ext
  match b with
  | ⟨0, _⟩ => show ((cfg0 a).win 1).index t (0 : Fin 2) * 12000 + 1 * (x 0).val = (x 0).val; rw [e0]; omega
  | ⟨1, _⟩ => show ((cfg0 a).win 1).index t (1 : Fin 2) * 64 + 1 * (x 1).val = (x 1).val; rw [e1]; omega

/-- The gathered row `r` of point `t` is the filter row named by word `8t + r` (which is below 1024, so the
    reduction modulo 1024 changes nothing). -/
theorem rows0_apply (c : Dev nD) (t : Fin (cfg0 a).N) (r : Fin 8) (n : Fin 12000) (hr : 8 * t.val + r.val < 1024) :
    rows0 V a c t (ValueIdx.ix2 r n)
      = filt V c (ValueIdx.ix2 (Cert.Spec.rowOf 12000 (by decide) (words a (ValueIdx.ix1 (⟨8 * t.val + r.val, hr⟩ : Fin 1024)))) n) :=
  congrArg (fun z : Fin 1024 => filt V c (ValueIdx.ix2 (Cert.Spec.rowOf 12000 (by decide) (words a (ValueIdx.ix1 z))) n))
    (Fin.ext (Nat.mod_eq_of_lt hr) : (⟨(8 * t.val + r.val) % 1024, Nat.mod_lt _ (by decide)⟩ : Fin 1024) = ⟨8 * t.val + r.val, hr⟩)

/-- One term of the feature sum: the point's gathered row, mask block and table block are the filter row, the noise row
    and the table of the specification. -/
theorem term_eq (c : Dev nD) (t : Fin (cfg0 a).N) (r : Fin 8) (d : Fin 64) (n : Fin 12000) (hr : 8 * t.val + r.val < 1024) :
    (rows0 V a c t (ValueIdx.ix2 r n) * Cert.Spec.keep (maskBlk V a c t (ValueIdx.ix2 r n))) * embBlk V a c t (ValueIdx.ix2 n d)
      = (filt V c (ValueIdx.ix2 (Cert.Spec.rowOf 12000 (by decide) (words a (ValueIdx.ix1 (⟨8 * t.val + r.val, hr⟩ : Fin 1024)))) n)
          * Cert.Spec.keep (noise V c (ValueIdx.ix2 (⟨8 * t.val + r.val, hr⟩ : Fin 1024) n))) * table V c (ValueIdx.ix2 n d) := by
  have eL := rows0_apply V a c t r n hr
  have eM : maskBlk V a c t (ValueIdx.ix2 r n) = noise V c (ValueIdx.ix2 (⟨8 * t.val + r.val, hr⟩ : Fin 1024) n) :=
    maskBlk_apply V a c t (ValueIdx.ix2 r n) (ValueIdx.ix2 (⟨8 * t.val + r.val, hr⟩ : Fin 1024) n) rfl rfl
  have eE : embBlk V a c t (ValueIdx.ix2 n d) = table V c (ValueIdx.ix2 n d) := congrFun (embBlk_eq V a c t) (ValueIdx.ix2 n d)
  rw [eL, eM, eE]

variable (hT : ∀ j, ((a.1 (0 : Fin 1) : Vec Ideal S1024 .i32) j).toNat < 12000)

/-- What point `t` leaves in its output block at `(r, d)`: the feature matrix's entry `(8t + r, d)`. -/
theorem outBlk_ix (c : Dev nD) (t : Fin (cfg0 a).N) (r : Fin 8) (d : Fin 64) (hr : 8 * t.val + r.val < 1024) :
    (outsAt0 V a hT c t : Vec Ideal S8x64 .f32) (ValueIdx.ix2 r d) = featArr V a c (ValueIdx.ix2 (⟨8 * t.val + r.val, hr⟩ : Fin 1024) d) := by
  rw [outsAt0_eq]
  refine (Cert.PayValue.pay0_apply (maskBlk V a c t) (rows0 V a c t) (embBlk V a c t) r d).trans ?_
  show _ = ∑ n : Fin 12000, (filt V c (ValueIdx.ix2 (Cert.Spec.rowOf 12000 (by decide) (words a (ValueIdx.ix1 (⟨8 * t.val + r.val, hr⟩ : Fin 1024)))) n)
          * Cert.Spec.keep (noise V c (ValueIdx.ix2 (⟨8 * t.val + r.val, hr⟩ : Fin 1024) n))) * table V c (ValueIdx.ix2 n d)
  exact Finset.sum_congr rfl fun n _ => term_eq V a c t r d n hr

/-- The same at any entry `y` of the block and any entry `i` of the array in row `8t + y₀`, column `y₁`. -/
theorem outBlk_apply (c : Dev nD) (t : Fin (cfg0 a).N) (y : S8x64.Idx) (i : S1024x64.Idx)
    (hi0 : (i 0).val = 8 * t.val + (y 0).val) (hi1 : (i 1).val = (y 1).val) :
    (outsAt0 V a hT c t : Vec Ideal S8x64 .f32) y = featArr V a c i := by
  have hN : (cfg0 a).N = 128 := N_0
  obtain ⟨r, d, rfl⟩ : ∃ (r : Fin 8) (d : Fin 64), y = ValueIdx.ix2 r d := ⟨y 0, y 1, ValueIdx.eq_ix2 y⟩
  obtain ⟨p, q, rfl⟩ : ∃ (p : Fin 1024) (q : Fin 64), i = ValueIdx.ix2 p q := ⟨i 0, i 1, ValueIdx.eq_ix2 i⟩
  have hr : 8 * t.val + r.val < 1024 := by have := t.isLt; have := r.isLt; omega
  obtain rfl : p = ⟨8 * t.val + r.val, hr⟩ := Fin.ext hi0
  obtain rfl : d = q := (Fin.ext hi1).symm
  exact outBlk_ix V a hT c t r d hr

set_option backward.isDefEq.respectTransparency.types false in
/-- WHAT POINT `t` WRITES BACK is its block of the feature matrix. -/
theorem flushed_eq (c : Dev nD) (t : Fin (cfg0 a).N) :
    (dat0 V a hT c).flushed 2 t = (((cfg0 a).win 2).blk t).view.read (Elt Ideal) (featArr V a c) := by
  obtain ⟨-, -, -, -, e0, e1⟩ := idx_facts a t
  show ((cfg0 a).win 2).cut ((cfg0 a).grid.coords t) ((dat0 V a hT c).after 2 t) = _
  rw [after0_2]
  funext j
  rw [View.read_apply]
  have h0 : ((((cfg0 a).win 2).blk t).view.emb j (0 : Fin 2)).val
      = 8 * t.val + (((cfg0 a).win 2).xinj ((cfg0 a).grid.coords t) j (0 : Fin 2)).val := by
    show ((cfg0 a).win 2).index t (0 : Fin 2) * 8 + 1 * (j (0 : Fin 2)).val = 8 * t.val + (j (0 : Fin 2)).val
    rw [e0]; omega
  have h1 : ((((cfg0 a).win 2).blk t).view.emb j (1 : Fin 2)).val
      = (((cfg0 a).win 2).xinj ((cfg0 a).grid.coords t) j (1 : Fin 2)).val := by
    show ((cfg0 a).win 2).index t (1 : Fin 2) * 64 + 1 * (j (1 : Fin 2)).val = (j (1 : Fin 2)).val
    rw [e1]; omega
  show (outsAt0 V a hT c t : Vec Ideal S8x64 .f32) (((cfg0 a).win 2).xinj ((cfg0 a).grid.coords t) j)
    = featArr V a c ((((cfg0 a).win 2).blk t).view.emb j)
  exact outBlk_apply V a hT c t _ _ h0 h1

set_option backward.isDefEq.respectTransparency.types false in
/-- Every row of the output lies in some point's block: row `b` in that of point `b / 8`. -/
theorem cover (i : S1024x64.Idx) :
    ∃ t : Fin (cfg0 a).N, ((cfg0 a).win 2).flush t = true ∧ i ∈ (((cfg0 a).win 2).blk t).view.set := by
  have hN : (cfg0 a).N = 128 := N_0
  have hi0 : (i 0).val < 1024 := (i 0).isLt
  have hi1 : (i 1).val < 64 := (i 1).isLt
  obtain ⟨t, ht⟩ : ∃ t : Fin (cfg0 a).N, t.val = (i 0).val / 8 := ⟨⟨(i 0).val / 8, by omega⟩, rfl⟩
  obtain ⟨-, -, -, -, e0, e1⟩ := idx_facts a t
  refine ⟨t, flush0_2 a t, ?_⟩
  show i ∈ ((View.whole main_v0).slice (((cfg0 a).win 2).rect t)).set
  rw [View.set_slice_whole]
  refine Rect.mem_set_unit.mpr fun b => ?_
  match b with
  | ⟨0, _⟩ =>
    show ((cfg0 a).win 2).index t (0 : Fin 2) * 8 ≤ (i 0).val ∧ (i 0).val < ((cfg0 a).win 2).index t (0 : Fin 2) * 8 + 8
    rw [e0]; omega
  | ⟨1, _⟩ =>
    show ((cfg0 a).win 2).index t (1 : Fin 2) * 64 ≤ (i 1).val ∧ (i 1).val < ((cfg0 a).win 2).index t (1 : Fin 2) * 64 + 64
    rw [e1]; omega

/-- THE USER-FEATURE ARRAY after the run is the specification's feature matrix of the filter matrix, the noise matrix,
    the embedding table and the row-number table. -/
theorem feat0 (c : Dev nD) :
    ((dat0 V a hT c).arrAt 2 (cfg0 a).N : Vec Ideal S1024x64 .f32)
      = Cert.Spec.feat (N := 12000) (by decide) (V c main_arg0) (V c main_arg4) (V c main_arg2) (a.1 (0 : Fin 1)) :=
  (dat0 V a hT c).arrAt_eq_of_cover 2 (featArr V a c) (fun t _ => flushed_eq V a hT c t) (fun i => cover a i)

end Features0

/-! ## The loss -/

section Loss3

variable (V : (c : Dev nD) → (b : Ref sig .tc) → Buf (Elt Ideal) ((c : Thread nD τ).loc b))

theorem hz2 : (![0, 0] : Fin 2 → Nat) = fun _ => 0 := funext fun b => by fin_cases b <;> rfl

/-- Each input block of the one point is its whole feature matrix. -/
theorem iblk3_0 (c : Dev nD) (t : Fin cfg3.N) : (iblk3 V c 0 t : Vec Ideal S1024x64 .f32) = V c main_v0 := by
  obtain rfl := fin_N3 t
  have hz' : (fun b => win3_0.index t3_0 b * main_v0.ty.shape.size b) = fun _ => 0 := funext fun b => by fin_cases b <;> decide
  exact Memref.read_access_unit_zero (Elt Ideal) main_v0 hz' (fun b => by rw [congrFun hz' b]; simp) (V c main_v0)
theorem iblk3_1 (c : Dev nD) (t : Fin cfg3.N) : (iblk3 V c 1 t : Vec Ideal S1024x64 .f32) = V c main_v1 := by
  obtain rfl := fin_N3 t
  have hz' : (fun b => win3_1.index t3_0 b * main_v1.ty.shape.size b) = fun _ => 0 := funext fun b => by fin_cases b <;> decide
  exact Memref.read_access_unit_zero (Elt Ideal) main_v1 hz' (fun b => by rw [congrFun hz' b]; simp) (V c main_v1)
theorem iblk3_2 (c : Dev nD) (t : Fin cfg3.N) : (iblk3 V c 2 t : Vec Ideal S1024x64 .f32) = V c main_v2 := by
  obtain rfl := fin_N3 t
  have hz' : (fun b => win3_2.index t3_0 b * main_v2.ty.shape.size b) = fun _ => 0 := funext fun b => by fin_cases b <;> decide
  exact Memref.read_access_unit_zero (Elt Ideal) main_v2 hz' (fun b => by rw [congrFun hz' b]; simp) (V c main_v2)

/-- The one-entry array holding the specification's loss of the three feature arrays. -/
abbrev lossArr (c : Dev nD) : Vec Ideal S1x1 .f32 :=
  fun _ => Cert.Spec.loss (V c main_v0) (V c main_v1) (V c main_v2)

set_option backward.isDefEq.respectTransparency.types false in
/-- WHAT THE POINT WRITES BACK is the loss, at its one entry. -/
theorem flushed3_eq (c : Dev nD) (t : Fin cfg3.N) :
    (dat3 V c).flushed 3 t = ((cfg3.win 3).blk t).view.read (Elt Ideal) (lossArr V c) := by
  show (cfg3.win 3).cut (cfg3.grid.coords t) ((dat3 V c).after 3 t) = _
  rw [after3_3, iblk3_0, iblk3_1, iblk3_2]
  unfold out3_3
  rw [View.canon_unit_zero hz2]
  simp only [View.ld_unit_zero (S := S1024x64) hz2]
  funext j
  rw [View.read_apply]
  show Cert.PayValue.lossPay (V c main_v0) (V c main_v1) (V c main_v2) _ = Cert.Spec.loss (V c main_v0) (V c main_v1) (V c main_v2)
  exact Cert.PayValue.loss_apply _ _ _ _

set_option backward.isDefEq.respectTransparency.types false in
/-- The one point's block is the whole one-entry array. -/
theorem cover3 (i : S1x1.Idx) : ∃ t : Fin cfg3.N, (cfg3.win 3).flush t = true ∧ i ∈ ((cfg3.win 3).blk t).view.set := by
  refine ⟨t3_0, flush3_3 t3_0, ?_⟩
  show i ∈ ((View.whole main_v3).slice (win3_3.rect t3_0)).set
  rw [View.set_slice_whole]
  have h0 : (i 0 : Nat) < 1 := (i 0).isLt
  have h1 : (i 1 : Nat) < 1 := (i 1).isLt
  refine Rect.mem_set_unit.mpr fun b => ?_
  match b with
  | ⟨0, _⟩ =>
    show win3_3.index t3_0 0 * win3_3.size 0 ≤ (i 0 : Nat) ∧ (i 0 : Nat) < win3_3.index t3_0 0 * win3_3.size 0 + win3_3.xsize (grid3.coords t3_0) 0
    rw [show win3_3.index t3_0 0 * win3_3.size 0 = 0 from by decide +kernel, show win3_3.xsize (grid3.coords t3_0) 0 = 1 from by decide +kernel]; omega
  | ⟨1, _⟩ =>
    show win3_3.index t3_0 1 * win3_3.size 1 ≤ (i 1 : Nat) ∧ (i 1 : Nat) < win3_3.index t3_0 1 * win3_3.size 1 + win3_3.xsize (grid3.coords t3_0) 1
    rw [show win3_3.index t3_0 1 * win3_3.size 1 = 0 from by decide +kernel, show win3_3.xsize (grid3.coords t3_0) 1 = 1 from by decide +kernel]; omega

/-- THE LOSS ARRAY after the run holds the specification's loss of the three feature arrays as the region finds them. -/
theorem loss3 (c : Dev nD) :
    ((dat3 V c).arrAt 3 cfg3.N : Vec Ideal S1x1 .f32)
      = fun _ => Cert.Spec.loss (V c main_v0) (V c main_v1) (V c main_v2) :=
  (dat3 V c).arrAt_eq_of_cover 3 (lossArr V c) (fun t _ => flushed3_eq V c t) (fun i => cover3 i)

end Loss3

end Cert.KValue

end
-- ==== Proof.Open1.lean ====
/-
  Region 0: what the body's one store leaves in the output block at a grid point, as a value. After the point's eight
  copies row `r` of the scratch holds the filter's row named by the table word `8t + r`; the stored block is the body's
  arithmetic of the point's mask block, those eight rows, and the embedding table.
-/
import proofs.«421540_j73229192397035_2_alg».proof.Proof.Reg1
import proofs.«421540_j73229192397035_2_alg».proof.Proof.Spec
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-! ## Small facts -/

theorem o1_hz : (![0, 0] : Fin 2 → Nat) = fun _ => 0 := funext fun a => by fin_cases a <;> rfl

/-- The one coordinate of grid point `t` is `t`: the grid has one axis, of 128 points. -/
theorem o1_coord (t : Fin grid1.N) : (grid1.coords t 0).val = t.val := by
  have hN : grid1.N = 128 := N_1
  have ht := t.isLt
  show t.val / grid1.stride 0 % grid1.bound 0 = t.val
  rw [show grid1.stride 0 = 1 from by decide, show grid1.bound 0 = 128 from rfl, Nat.div_one]
  exact Nat.mod_eq_of_lt (by omega)

/-- The word the body reads at offset `8 t + j` of a whole table is the table's word at that position. -/
theorem o1_word (t : Fin grid1.N) (j : Nat) (hj : j < 8) {arg1 : Memref sig .tc .smem S1024 .i32} {harg1 : arg1.IsWhole}
    {x0 : Vec F S1024 .i32} {off : Fin 1 → Nat} (hoff : off = ![8 * (grid1.coords t 0).val + j])
    {inb : ∀ a, off a + S1.size a ≤ S1024.size a}
    {h1 : 0 < (Rect.unit (s := S1024) off S1.size inb).toLoadRect.shape.numel} :
    arg1.view.readAt (Elt F) (Rect.unit (s := S1024) off S1.size inb).toLoadRect (harg1.unread x0) (Shape.Idx.first h1)
      = x0 (ValueIdx.ix1 ⟨(8 * t.val + j) % 1024, Nat.mod_lt _ (by decide)⟩) := by
  subst hoff
  rw [View.readAt_apply, harg1.read_unread]
  refine congrArg x0 (funext fun d => Fin.ext ?_)
  have ht := t.isLt
  have hN : grid1.N = 128 := N_1
  match d with
  | ⟨0, _⟩ =>
    show (8 * (grid1.coords t 0).val + j) + 1 * 0 = (8 * t.val + j) % 1024
    rw [o1_coord t]
    omega

/-- A property of each of eight listed things is a property of every member of their list. -/
theorem o1_forall8 {α : Type*} {P : α → Prop} {a7 a6 a5 a4 a3 a2 a1 a0 : α} (h7 : P a7) (h6 : P a6) (h5 : P a5)
    (h4 : P a4) (h3 : P a3) (h2 : P a2) (h1 : P a1) (h0 : P a0) : ∀ p ∈ [a7, a6, a5, a4, a3, a2, a1, a0], P p := by
  intro p hp
  simp only [List.mem_cons, List.not_mem_nil, or_false] at hp
  rcases hp with rfl | rfl | rfl | rfl | rfl | rfl | rfl | rfl <;> assumption

/-! ## The gathered rows, for an arbitrary table and filter matrix -/

/-- Row `r` of the gathered rows: the filter's row named by the table word at position `8 t + r`. -/
def o1_G (t : Fin grid1.N) (x0 : Vec F S1024 .i32) (fh0 : Vec F S16000x16000 .f32) : Vec F S8x16000 .f32 :=
  fun y => fh0 (ValueIdx.ix2 (Cert.Spec.rowOf 16000 (by decide) (x0 (ValueIdx.ix1 ⟨(8 * t.val + (y 0).val) % 1024, Nat.mod_lt _ (by decide)⟩))) (y 1))

/-- The filter read through the one-row slice at row `w`, a row number in range: row `w`, entry by entry. -/
theorem o1_row (c : Dev nD) (fh0 : HbBuf1 (F := F) c hbM1) (w : BitVec 32) (hw : w.toNat < 16000) {off : Fin 2 → Nat}
    (hoff : off = ![w.toNat, 0]) {inb : ∀ a, off a + S1x16000.size a ≤ S16000x16000.size a}
    {hr : ∀ a, (Rect.unit (s := S16000x16000) off S1x16000.size inb).stride a = 1} (x : S1x16000.Idx) :
    ReadAs.same.apply (View.read (Elt F) ((Memref.whole main_arg1 : Memref sig .tc .hbm S16000x16000 .f32).slice
        (Rect.unit (s := S16000x16000) off S1x16000.size inb) hr).view fh0) x
      = (fh0 : Vec F S16000x16000 .f32) (ValueIdx.ix2 (Cert.Spec.rowOf 16000 (by decide) w) (⟨(x 1).val, (x 1).isLt⟩ : Fin 16000)) := by
  subst hoff
  have hx0 : (x 0).val < 1 := (x 0).isLt
  show (fh0 : Vec F S16000x16000 .f32) ((Rect.unit (s := S16000x16000) ![w.toNat, 0] S1x16000.size inb).toLoadRect.idx x) = _
  refine congrArg _ (funext fun d => Fin.ext ?_)
  match d with
  | ⟨0, _⟩ =>
    show w.toNat + 1 * (x 0).val = (Cert.Spec.rowOf 16000 (by decide) w).val
    rw [Cert.Spec.rowOf_val_of_lt _ hw]
    omega
  | ⟨1, _⟩ =>
    show 0 + 1 * (x 1).val = (x 1).val
    omega

/-- A payload that is the row named by the word at position `8 t + j` is row `j` of the gathered rows. -/
theorem o1_rowpiece (t : Fin grid1.N) (x0 : Vec F S1024 .i32) (fh0 : Vec F S16000x16000 .f32) (j : Nat) (hj : j < 8)
    {offD : Fin 2 → Nat} (hoffD : offD = ![j, 0]) {inbD : ∀ a, offD a + S1x16000.size a ≤ S8x16000.size a}
    (pay : S1x16000.Idx → Elt F .f32)
    (hpay : ∀ x : S1x16000.Idx, pay x = fh0 (ValueIdx.ix2 (Cert.Spec.rowOf 16000 (by decide)
      (x0 (ValueIdx.ix1 ⟨(8 * t.val + j) % 1024, Nat.mod_lt _ (by decide)⟩))) (⟨(x 1).val, (x 1).isLt⟩ : Fin 16000)))
    (x : (Rect.unit (s := S8x16000) offD S1x16000.size inbD).shape.Idx) :
    pay x = o1_G t x0 fh0 ((Rect.unit (s := S8x16000) offD S1x16000.size inbD).emb x) := by
  subst hoffD
  have hx0 : (x 0).val < 1 := (x 0).isLt
  rw [hpay x]
  unfold o1_G
  refine congrArg fh0 ?_
  have e0 : (⟨(8 * t.val + (((Rect.unit (s := S8x16000) ![j, 0] S1x16000.size inbD).emb x) 0).val) % 1024, Nat.mod_lt _ (by decide)⟩ : Fin 1024)
      = ⟨(8 * t.val + j) % 1024, Nat.mod_lt _ (by decide)⟩ :=
    Fin.ext (by show (8 * t.val + (j + 1 * (x 0).val)) % 1024 = (8 * t.val + j) % 1024; omega)
  rw [e0]
  refine congrArg _ (Fin.ext ?_)
  show (x 1).val = 0 + 1 * (x 1).val
  omega

/-- One copy's payload: the filter read through the one-row slice whose row is the word the body read
    at offset `8 t + j` of the table is the filter's row named by the table's word at that position. -/
theorem o1_copy (c : Dev nD) (t : Fin grid1.N) (j : Nat) (hj : j < 8) (arg1 : Memref sig .tc .smem S1024 .i32)
    (harg1 : arg1.IsWhole) (x0 : Vec F S1024 .i32) (fh0 : HbBuf1 (F := F) c hbM1) (hT : ∀ j, (x0 j).toNat < 16000)
    {offW : Fin 1 → Nat} (hoffW : offW = ![8 * (grid1.coords t 0).val + j]) {inbW : ∀ a, offW a + S1.size a ≤ S1024.size a}
    {h1 : 0 < (Rect.unit (s := S1024) offW S1.size inbW).toLoadRect.shape.numel}
    {offS : Fin 2 → Nat}
    (hoffS : offS = ![(arg1.view.readAt (Elt F) (Rect.unit (s := S1024) offW S1.size inbW).toLoadRect (harg1.unread x0)
      (Shape.Idx.first h1)).toNat, 0])
    {inbS : ∀ a, offS a + S1x16000.size a ≤ S16000x16000.size a}
    {hr : ∀ a, (Rect.unit (s := S16000x16000) offS S1x16000.size inbS).stride a = 1} (x : S1x16000.Idx) :
    ReadAs.same.apply (View.read (Elt F) ((Memref.whole main_arg1 : Memref sig .tc .hbm S16000x16000 .f32).slice
        (Rect.unit (s := S16000x16000) offS S1x16000.size inbS) hr).view fh0) x
      = (fh0 : Vec F S16000x16000 .f32) (ValueIdx.ix2 (Cert.Spec.rowOf 16000 (by decide)
          (x0 (ValueIdx.ix1 ⟨(8 * t.val + j) % 1024, Nat.mod_lt _ (by decide)⟩))) (⟨(x 1).val, (x 1).isLt⟩ : Fin 16000)) := by
  have hw := o1_word (F := F) t j hj (arg1 := arg1) (harg1 := harg1) (x0 := x0) hoffW (inb := inbW) (h1 := h1)
  rw [← hw]
  exact o1_row c fh0 _ (by rw [hw]; exact hT _) hoffS x

/-- The scratch loaded whole after the eight copies: the gathered rows. Each of the eight pieces is one copy's row. -/
theorem o1_v94 (c : Dev nD) (t : Fin grid1.N) (arg1 : Memref sig .tc .smem S1024 .i32) (harg1 : arg1.IsWhole)
    (arg6 : Memref sig .tc .vmem S8x16000 .f32) (x0 : Vec F S1024 .i32) (fh0 : HbBuf1 (F := F) c hbM1)
    (hT : ∀ j, (x0 j).toNat < 16000) (h1 : _) (h2 : _) (h3 : _) (h4 : _) (h5 : _) (h6 : _) (h7 : _) (h8 : _) :
    kernelRun1.sl.v94 c (grid1.coords t) arg1 harg1 arg6 x0 fh0 h1 h2 h3 h4 h5 h6 h7 h8 = o1_G t x0 fh0 := by
  unfold kernelRun1.sl.v94
  refine (View.readCov_eq_canon' _ _ _).trans ((View.ld_unit_zero (S := S8x16000) o1_hz _ (View.canon _)).trans ?_)
  funext y
  exact View.canon_apply_of_pieces (o1_G t x0 fh0) _
    (o1_forall8
      (o1_rowpiece t x0 fh0 7 (by decide) rfl (inbD := inb_S8x16000_S1x16000_7_0)
        (kernelRun1.sl.dma8 c (grid1.coords t) arg1 harg1 x0 fh0 h8) fun x => by
          unfold kernelRun1.sl.dma8 kernelRun1.sl.r_7
          exact o1_copy c t 7 (by decide) arg1 harg1 x0 fh0 hT (k1_off15_eq (grid1.coords t))
            (inbW := k1_off15_inb _) (h1 := numel1_S1.symm ▸ Nat.one_pos) rfl x)
      (o1_rowpiece t x0 fh0 6 (by decide) rfl (inbD := inb_S8x16000_S1x16000_6_0)
        (kernelRun1.sl.dma7 c (grid1.coords t) arg1 harg1 x0 fh0 h7) fun x => by
          unfold kernelRun1.sl.dma7 kernelRun1.sl.r_6
          exact o1_copy c t 6 (by decide) arg1 harg1 x0 fh0 hT (k1_off13_eq (grid1.coords t))
            (inbW := k1_off13_inb _) (h1 := numel1_S1.symm ▸ Nat.one_pos) rfl x)
      (o1_rowpiece t x0 fh0 5 (by decide) rfl (inbD := inb_S8x16000_S1x16000_5_0)
        (kernelRun1.sl.dma6 c (grid1.coords t) arg1 harg1 x0 fh0 h6) fun x => by
          unfold kernelRun1.sl.dma6 kernelRun1.sl.r_5
          exact o1_copy c t 5 (by decide) arg1 harg1 x0 fh0 hT (k1_off11_eq (grid1.coords t))
            (inbW := k1_off11_inb _) (h1 := numel1_S1.symm ▸ Nat.one_pos) rfl x)
      (o1_rowpiece t x0 fh0 4 (by decide) rfl (inbD := inb_S8x16000_S1x16000_4_0)
        (kernelRun1.sl.dma5 c (grid1.coords t) arg1 harg1 x0 fh0 h5) fun x => by
          unfold kernelRun1.sl.dma5 kernelRun1.sl.r_4
          exact o1_copy c t 4 (by decide) arg1 harg1 x0 fh0 hT (k1_off9_eq (grid1.coords t))
            (inbW := k1_off9_inb _) (h1 := numel1_S1.symm ▸ Nat.one_pos) rfl x)
      (o1_rowpiece t x0 fh0 3 (by decide) rfl (inbD := inb_S8x16000_S1x16000_3_0)
        (kernelRun1.sl.dma4 c (grid1.coords t) arg1 harg1 x0 fh0 h4) fun x => by
          unfold kernelRun1.sl.dma4 kernelRun1.sl.r_3
          exact o1_copy c t 3 (by decide) arg1 harg1 x0 fh0 hT (k1_off7_eq (grid1.coords t))
            (inbW := k1_off7_inb _) (h1 := numel1_S1.symm ▸ Nat.one_pos) rfl x)
      (o1_rowpiece t x0 fh0 2 (by decide) rfl (inbD := inb_S8x16000_S1x16000_2_0)
        (kernelRun1.sl.dma3 c (grid1.coords t) arg1 harg1 x0 fh0 h3) fun x => by
          unfold kernelRun1.sl.dma3 kernelRun1.sl.r_2
          exact o1_copy c t 2 (by decide) arg1 harg1 x0 fh0 hT (k1_off5_eq (grid1.coords t))
            (inbW := k1_off5_inb _) (h1 := numel1_S1.symm ▸ Nat.one_pos) rfl x)
      (o1_rowpiece t x0 fh0 1 (by decide) rfl (inbD := inb_S8x16000_S1x16000_1_0)
        (kernelRun1.sl.dma2 c (grid1.coords t) arg1 harg1 x0 fh0 h2) fun x => by
          unfold kernelRun1.sl.dma2 kernelRun1.sl.r_1
          exact o1_copy c t 1 (by decide) arg1 harg1 x0 fh0 hT (k1_off3_eq (grid1.coords t))
            (inbW := k1_off3_inb _) (h1 := numel1_S1.symm ▸ Nat.one_pos) rfl x)
      (o1_rowpiece t x0 fh0 0 (by decide) rfl (inbD := inb_S8x16000_S1x16000_0_0)
        (kernelRun1.sl.dma1 c (grid1.coords t) arg1 harg1 x0 fh0 h1) fun x => by
          unfold kernelRun1.sl.dma1 kernelRun1.sl.r
          exact o1_copy c t 0 (by decide) arg1 harg1 x0 fh0 hT (k1_off1_eq (grid1.coords t))
            (inbW := k1_off1_inb _) (h1 := numel1_S1.symm ▸ Nat.one_pos) rfl x))
    y (View.cover_of_tiledL (s := S8x16000) _ S1x16000.size (by sl_kernel_rfl) y)

/-! ## The output block -/

variable (V : (c : Dev nD) → (b : Ref sig .tc) → Buf (Elt F) ((c : Thread nD τ).loc b))
variable (a : (pcfg1 (F := F)).Adm)

/-- The scratch after the eight copies of point `t`: row `r` is the filter's row named by the table word `8t + r`. -/
def rows1 (c : Dev nD) (t : Fin (cfg1 a).N) : Vec F S8x16000 .f32 :=
  fun y => (V c main_arg1 : Vec F S16000x16000 .f32)
    (ValueIdx.ix2 (Cert.Spec.rowOf 16000 (by decide) ((a.1 (0 : Fin 1) : Vec F S1024 .i32) (ValueIdx.ix1 ⟨(8 * t.val + (y 0).val) % 1024, Nat.mod_lt _ (by decide)⟩))) (y 1))

variable (hT : ∀ j, ((a.1 (0 : Fin 1) : Vec F S1024 .i32) j).toNat < 16000)

/-- The output block after point `t`: the body's arithmetic of the mask block, the gathered rows and the embedding table. -/
theorem outsAt1_eq (c : Dev nD) (t : Fin (cfg1 a).N) :
    outsAt1 V a hT c t = k1_pay1 (iblk1 V a c 0 t) (rows1 V a c t) (iblk1 V a c 1 t) := by
  have key : ∀ {A A' : Vec F S8x16000 .f32} {B B' : Vec F S8x16000 .f32} {C C' : Vec F S16000x64 .f32},
      A = A' → B = B' → C = C' → k1_pay1 (F := F) A B C = k1_pay1 A' B' C' := by
    intros; subst_vars; rfl
  unfold outsAt1
  rw [View.read_writes_eq_canon _ _ _ (cover1_2 V a hT c t)]
  unfold runAt1 kernelRun1
  dsimp only
  -- one store of the whole block: what it leaves is its payload, the arithmetic of three loads
  rw [View.canon_unit_zero o1_hz]
  refine key ?_ ?_ ?_
  · -- the mask block, loaded whole
    simp only [View.readAt_eq_ld, View.ld_unit_zero (S := S8x16000) o1_hz]
    exact Memref.IsWhole.read_unread _ _
  · -- the scratch, loaded whole after the eight copies
    exact o1_v94 c t _ _ _ (a.1 (0 : Fin 1)) (V c main_arg1) hT _ _ _ _ _ _ _ _
  · -- the embedding table, loaded whole
    simp only [View.readAt_eq_ld, View.ld_unit_zero (S := S16000x64) o1_hz]
    exact Memref.IsWhole.read_unread _ _

end Cert.KernelIdeal.Hand

end
-- ==== Proof.KValue1.lean ====
/-
  What the positive-item feature pipeline leaves in its output array: the specification's feature matrix of the item filter
  matrix, the region's noise matrix, the item embedding table and the region's row-number table. Point `t` of the 128
  writes rows `8t ... 8t + 7`; each point writes its own block of ONE matrix and the blocks cover the 1024 rows.
-/
import proofs.«421540_j73229192397035_2_alg».proof.Proof.Reg1
import proofs.«421540_j73229192397035_2_alg».proof.Proof.Open1
import proofs.«421540_j73229192397035_2_alg».proof.Proof.PayValue
import proofs.«421540_j73229192397035_2_alg».proof.Proof.Spec
import Idealize.ShloMosaic.Lib.Pipeline.Value

set_option maxRecDepth 16384

noncomputable section

namespace Cert.KValue1

open Cert.KernelIdeal Cert.KernelIdeal.Gen Cert.KernelIdeal.Hand
open Idealize.ShloMosaic Idealize.ShloMosaic.TcCoe Idealize.SL Idealize.SL.Sem
open Idealize.ShloMosaic.Pipeline (Dat)
open scoped BigOperators

/-! ## The positive-item features -/

section Features1

variable (V : (c : Dev nD) → (b : Ref sig .tc) → Buf (Elt Ideal) ((c : Thread nD τ).loc b))
variable (a : (pcfg1 (F := Ideal)).Adm)

/-- The filter matrix, the noise matrix, the embedding table and the row-number table, each at its literal shape. -/
abbrev filt (c : Dev nD) : Vec Ideal S16000x16000 .f32 := V c main_arg1
abbrev noise (c : Dev nD) : Vec Ideal S1024x16000 .f32 := V c main_arg5
abbrev table (c : Dev nD) : Vec Ideal S16000x64 .f32 := V c main_arg3
abbrev words : Vec Ideal S1024 .i32 := a.1 (0 : Fin 1)
/-- The mask block and the table block of point `t`, at their literal shapes. -/
abbrev maskBlk (c : Dev nD) (t : Fin (cfg1 a).N) : Vec Ideal S8x16000 .f32 := iblk1 V a c 0 t
abbrev embBlk (c : Dev nD) (t : Fin (cfg1 a).N) : Vec Ideal S16000x64 .f32 := iblk1 V a c 1 t
/-- The specification's positive-item feature matrix of those four arrays. -/
abbrev featArr (c : Dev nD) : Vec Ideal S1024x64 .f32 :=
  Cert.Spec.feat (N := 16000) (by decide) (filt V c) (noise V c) (table V c) (words a)

/-- The three index maps over the grid: the mask block and the output block of point `t` are block `(t, 0)`, the table's
    block is always block `(0, 0)`. They do not read the row-number table. -/
theorem idx_closed : ∀ t : Fin grid1.N,
    cc1_transform_1 (grid1.coords t) (0 : Fin 2) = t.val ∧ cc1_transform_1 (grid1.coords t) (1 : Fin 2) = 0
    ∧ cc1_transform_2 (grid1.coords t) (0 : Fin 2) = 0 ∧ cc1_transform_2 (grid1.coords t) (1 : Fin 2) = 0
    ∧ cc1_transform_3 (grid1.coords t) (0 : Fin 2) = t.val ∧ cc1_transform_3 (grid1.coords t) (1 : Fin 2) = 0 := by
  decide +kernel

/-- The same of the pipeline's windows, whatever the row-number table holds. -/
theorem idx_facts (t : Fin (cfg1 a).N) :
    ((cfg1 a).win 0).index t (0 : Fin 2) = t.val ∧ ((cfg1 a).win 0).index t (1 : Fin 2) = 0
    ∧ ((cfg1 a).win 1).index t (0 : Fin 2) = 0 ∧ ((cfg1 a).win 1).index t (1 : Fin 2) = 0
    ∧ ((cfg1 a).win 2).index t (0 : Fin 2) = t.val ∧ ((cfg1 a).win 2).index t (1 : Fin 2) = 0 :=
  idx_closed t

/-- The output's block index changes at every point, so every point writes its block back. -/
theorem flush_closed : ∀ t : Fin grid1.N, Pipeline.Window.flushOf grid1 true cc1_transform_3 t = true := by
  decide +kernel
theorem flush1_2 (t : Fin (cfg1 a).N) : ((cfg1 a).win 2).flush t = true :=
  (Pipeline.Window.flush_eq_flushOf ((cfg1 a).win 2) t).trans (flush_closed t)

set_option backward.isDefEq.respectTransparency.types false in
/-- The mask block of point `t` is rows `8t … 8t + 7` of the noise matrix. -/
theorem maskBlk_apply (c : Dev nD) (t : Fin (cfg1 a).N) (x : S8x16000.Idx) (k : S1024x16000.Idx)
    (hk0 : (k 0).val = 8 * t.val + (x 0).val) (hk1 : (k 1).val = (x 1).val) :
    maskBlk V a c t x = noise V c k := by
  obtain ⟨e0, e1, -, -, -, -⟩ := idx_facts a t
  unfold maskBlk iblk1
  rw [View.read_apply]
  show noise V c _ = noise V c k
  refine congrArg (noise V c) ?_
  funext b
  apply Fin.ext
  match b with
  | ⟨0, _⟩ => show ((cfg1 a).win 0).index t (0 : Fin 2) * 8 + 1 * (x 0).val = (k 0).val; rw [e0, hk0]; omega
  | ⟨1, _⟩ => show ((cfg1 a).win 0).index t (1 : Fin 2) * 16000 + 1 * (x 1).val = (k 1).val; rw [e1, hk1]; omega

set_option backward.isDefEq.respectTransparency.types false in
/-- The table's block is the whole table at every point. -/
theorem embBlk_eq (c : Dev nD) (t : Fin (cfg1 a).N) : embBlk V a c t = table V c := by
  obtain ⟨-, -, e0, e1, -, -⟩ := idx_facts a t
  funext x
  unfold embBlk iblk1
  rw [View.read_apply]
  show table V c _ = table V c x
  refine congrArg (table V c) ?_
  funext b
  apply Fin.ext
  match b with
  | ⟨0, _⟩ => show ((cfg1 a).win 1).index t (0 : Fin 2) * 16000 + 1 * (x 0).val = (x 0).val; rw [e0]; omega
  | ⟨1, _⟩ => show ((cfg1 a).win 1).index t (1 : Fin 2) * 64 + 1 * (x 1).val = (x 1).val; rw [e1]; omega

/-- The gathered row `r` of point `t` is the filter row named by word `8t + r` (which is below 1024, so the
    reduction modulo 1024 changes nothing). -/
theorem rows1_apply (c : Dev nD) (t : Fin (cfg1 a).N) (r : Fin 8) (n : Fin 16000) (hr : 8 * t.val + r.val < 1024) :
    rows1 V a c t (ValueIdx.ix2 r n)
      = filt V c (ValueIdx.ix2 (Cert.Spec.rowOf 16000 (by decide) (words a (ValueIdx.ix1 (⟨8 * t.val + r.val, hr⟩ : Fin 1024)))) n) :=
  congrArg (fun z : Fin 1024 => filt V c (ValueIdx.ix2 (Cert.Spec.rowOf 16000 (by decide) (words a (ValueIdx.ix1 z))) n))
    (Fin.ext (Nat.mod_eq_of_lt hr) : (⟨(8 * t.val + r.val) % 1024, Nat.mod_lt _ (by decide)⟩ : Fin 1024) = ⟨8 * t.val + r.val, hr⟩)

/-- One term of the feature sum: the point's gathered row, mask block and table block are the filter row, the noise row
    and the table of the specification. -/
theorem term_eq (c : Dev nD) (t : Fin (cfg1 a).N) (r : Fin 8) (d : Fin 64) (n : Fin 16000) (hr : 8 * t.val + r.val < 1024) :
    (rows1 V a c t (ValueIdx.ix2 r n) * Cert.Spec.keep (maskBlk V a c t (ValueIdx.ix2 r n))) * embBlk V a c t (ValueIdx.ix2 n d)
      = (filt V c (ValueIdx.ix2 (Cert.Spec.rowOf 16000 (by decide) (words a (ValueIdx.ix1 (⟨8 * t.val + r.val, hr⟩ : Fin 1024)))) n)
          * Cert.Spec.keep (noise V c (ValueIdx.ix2 (⟨8 * t.val + r.val, hr⟩ : Fin 1024) n))) * table V c (ValueIdx.ix2 n d) := by
  have eL := rows1_apply V a c t r n hr
  have eM : maskBlk V a c t (ValueIdx.ix2 r n) = noise V c (ValueIdx.ix2 (⟨8 * t.val + r.val, hr⟩ : Fin 1024) n) :=
    maskBlk_apply V a c t (ValueIdx.ix2 r n) (ValueIdx.ix2 (⟨8 * t.val + r.val, hr⟩ : Fin 1024) n) rfl rfl
  have eE : embBlk V a c t (ValueIdx.ix2 n d) = table V c (ValueIdx.ix2 n d) := congrFun (embBlk_eq V a c t) (ValueIdx.ix2 n d)
  rw [eL, eM, eE]

variable (hT : ∀ j, ((a.1 (0 : Fin 1) : Vec Ideal S1024 .i32) j).toNat < 16000)

/-- What point `t` leaves in its output block at `(r, d)`: the feature matrix's entry `(8t + r, d)`. -/
theorem outBlk_ix (c : Dev nD) (t : Fin (cfg1 a).N) (r : Fin 8) (d : Fin 64) (hr : 8 * t.val + r.val < 1024) :
    (outsAt1 V a hT c t : Vec Ideal S8x64 .f32) (ValueIdx.ix2 r d) = featArr V a c (ValueIdx.ix2 (⟨8 * t.val + r.val, hr⟩ : Fin 1024) d) := by
  rw [outsAt1_eq]
  refine (Cert.PayValue.pay1_apply (maskBlk V a c t) (rows1 V a c t) (embBlk V a c t) r d).trans ?_
  show _ = ∑ n : Fin 16000, (filt V c (ValueIdx.ix2 (Cert.Spec.rowOf 16000 (by decide) (words a (ValueIdx.ix1 (⟨8 * t.val + r.val, hr⟩ : Fin 1024)))) n)
          * Cert.Spec.keep (noise V c (ValueIdx.ix2 (⟨8 * t.val + r.val, hr⟩ : Fin 1024) n))) * table V c (ValueIdx.ix2 n d)
  exact Finset.sum_congr rfl fun n _ => term_eq V a c t r d n hr

/-- The same at any entry `y` of the block and any entry `i` of the array in row `8t + y₀`, column `y₁`. -/
theorem outBlk_apply (c : Dev nD) (t : Fin (cfg1 a).N) (y : S8x64.Idx) (i : S1024x64.Idx)
    (hi0 : (i 0).val = 8 * t.val + (y 0).val) (hi1 : (i 1).val = (y 1).val) :
    (outsAt1 V a hT c t : Vec Ideal S8x64 .f32) y = featArr V a c i := by
  have hN : (cfg1 a).N = 128 := N_1
  obtain ⟨r, d, rfl⟩ : ∃ (r : Fin 8) (d : Fin 64), y = ValueIdx.ix2 r d := ⟨y 0, y 1, ValueIdx.eq_ix2 y⟩
  obtain ⟨p, q, rfl⟩ : ∃ (p : Fin 1024) (q : Fin 64), i = ValueIdx.ix2 p q := ⟨i 0, i 1, ValueIdx.eq_ix2 i⟩
  have hr : 8 * t.val + r.val < 1024 := by have := t.isLt; have := r.isLt; omega
  obtain rfl : p = ⟨8 * t.val + r.val, hr⟩ := Fin.ext hi0
  obtain rfl : d = q := (Fin.ext hi1).symm
  exact outBlk_ix V a hT c t r d hr

set_option backward.isDefEq.respectTransparency.types false in
/-- WHAT POINT `t` WRITES BACK is its block of the feature matrix. -/
theorem flushed_eq (c : Dev nD) (t : Fin (cfg1 a).N) :
    (dat1 V a hT c).flushed 2 t = (((cfg1 a).win 2).blk t).view.read (Elt Ideal) (featArr V a c) := by
  obtain ⟨-, -, -, -, e0, e1⟩ := idx_facts a t
  show ((cfg1 a).win 2).cut ((cfg1 a).grid.coords t) ((dat1 V a hT c).after 2 t) = _
  rw [after1_2]
  funext j
  rw [View.read_apply]
  have h0 : ((((cfg1 a).win 2).blk t).view.emb j (0 : Fin 2)).val
      = 8 * t.val + (((cfg1 a).win 2).xinj ((cfg1 a).grid.coords t) j (0 : Fin 2)).val := by
    show ((cfg1 a).win 2).index t (0 : Fin 2) * 8 + 1 * (j (0 : Fin 2)).val = 8 * t.val + (j (0 : Fin 2)).val
    rw [e0]; omega
  have h1 : ((((cfg1 a).win 2).blk t).view.emb j (1 : Fin 2)).val
      = (((cfg1 a).win 2).xinj ((cfg1 a).grid.coords t) j (1 : Fin 2)).val := by
    show ((cfg1 a).win 2).index t (1 : Fin 2) * 64 + 1 * (j (1 : Fin 2)).val = (j (1 : Fin 2)).val
    rw [e1]; omega
  show (outsAt1 V a hT c t : Vec Ideal S8x64 .f32) (((cfg1 a).win 2).xinj ((cfg1 a).grid.coords t) j)
    = featArr V a c ((((cfg1 a).win 2).blk t).view.emb j)
  exact outBlk_apply V a hT c t _ _ h0 h1

set_option backward.isDefEq.respectTransparency.types false in
/-- Every row of the output lies in some point's block: row `b` in that of point `b / 8`. -/
theorem cover (i : S1024x64.Idx) :
    ∃ t : Fin (cfg1 a).N, ((cfg1 a).win 2).flush t = true ∧ i ∈ (((cfg1 a).win 2).blk t).view.set := by
  have hN : (cfg1 a).N = 128 := N_1
  have hi0 : (i 0).val < 1024 := (i 0).isLt
  have hi1 : (i 1).val < 64 := (i 1).isLt
  obtain ⟨t, ht⟩ : ∃ t : Fin (cfg1 a).N, t.val = (i 0).val / 8 := ⟨⟨(i 0).val / 8, by omega⟩, rfl⟩
  obtain ⟨-, -, -, -, e0, e1⟩ := idx_facts a t
  refine ⟨t, flush1_2 a t, ?_⟩
  show i ∈ ((View.whole main_v1).slice (((cfg1 a).win 2).rect t)).set
  rw [View.set_slice_whole]
  refine Rect.mem_set_unit.mpr fun b => ?_
  match b with
  | ⟨0, _⟩ =>
    show ((cfg1 a).win 2).index t (0 : Fin 2) * 8 ≤ (i 0).val ∧ (i 0).val < ((cfg1 a).win 2).index t (0 : Fin 2) * 8 + 8
    rw [e0]; omega
  | ⟨1, _⟩ =>
    show ((cfg1 a).win 2).index t (1 : Fin 2) * 64 ≤ (i 1).val ∧ (i 1).val < ((cfg1 a).win 2).index t (1 : Fin 2) * 64 + 64
    rw [e1]; omega

/-- THE POSITIVE-ITEM FEATURE ARRAY after the run is the specification's feature matrix of the filter matrix, the noise matrix,
    the embedding table and the row-number table. -/
theorem feat1 (c : Dev nD) :
    ((dat1 V a hT c).arrAt 2 (cfg1 a).N : Vec Ideal S1024x64 .f32)
      = Cert.Spec.feat (N := 16000) (by decide) (V c main_arg1) (V c main_arg5) (V c main_arg3) (a.1 (0 : Fin 1)) :=
  (dat1 V a hT c).arrAt_eq_of_cover 2 (featArr V a c) (fun t _ => flushed_eq V a hT c t) (fun i => cover a i)

end Features1

end Cert.KValue1

end
-- ==== Proof.Open2.lean ====
/-
  Region 0: what the body's one store leaves in the output block at a grid point, as a value. After the point's eight
  copies row `r` of the scratch holds the filter's row named by the table word `8t + r`; the stored block is the body's
  arithmetic of the point's mask block, those eight rows, and the embedding table.
-/
import proofs.«421540_j73229192397035_2_alg».proof.Proof.Reg2
import proofs.«421540_j73229192397035_2_alg».proof.Proof.Spec
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-! ## Small facts -/

theorem o2_hz : (![0, 0] : Fin 2 → Nat) = fun _ => 0 := funext fun a => by fin_cases a <;> rfl

/-- The one coordinate of grid point `t` is `t`: the grid has one axis, of 128 points. -/
theorem o2_coord (t : Fin grid2.N) : (grid2.coords t 0).val = t.val := by
  have hN : grid2.N = 128 := N_2
  have ht := t.isLt
  show t.val / grid2.stride 0 % grid2.bound 0 = t.val
  rw [show grid2.stride 0 = 1 from by decide, show grid2.bound 0 = 128 from rfl, Nat.div_one]
  exact Nat.mod_eq_of_lt (by omega)

/-- The word the body reads at offset `8 t + j` of a whole table is the table's word at that position. -/
theorem o2_word (t : Fin grid2.N) (j : Nat) (hj : j < 8) {arg1 : Memref sig .tc .smem S1024 .i32} {harg1 : arg1.IsWhole}
    {x0 : Vec F S1024 .i32} {off : Fin 1 → Nat} (hoff : off = ![8 * (grid2.coords t 0).val + j])
    {inb : ∀ a, off a + S1.size a ≤ S1024.size a}
    {h1 : 0 < (Rect.unit (s := S1024) off S1.size inb).toLoadRect.shape.numel} :
    arg1.view.readAt (Elt F) (Rect.unit (s := S1024) off S1.size inb).toLoadRect (harg1.unread x0) (Shape.Idx.first h1)
      = x0 (ValueIdx.ix1 ⟨(8 * t.val + j) % 1024, Nat.mod_lt _ (by decide)⟩) := by
  subst hoff
  rw [View.readAt_apply, harg1.read_unread]
  refine congrArg x0 (funext fun d => Fin.ext ?_)
  have ht := t.isLt
  have hN : grid2.N = 128 := N_2
  match d with
  | ⟨0, _⟩ =>
    show (8 * (grid2.coords t 0).val + j) + 1 * 0 = (8 * t.val + j) % 1024
    rw [o2_coord t]
    omega

/-- A property of each of eight listed things is a property of every member of their list. -/
theorem o2_forall8 {α : Type*} {P : α → Prop} {a7 a6 a5 a4 a3 a2 a1 a0 : α} (h7 : P a7) (h6 : P a6) (h5 : P a5)
    (h4 : P a4) (h3 : P a3) (h2 : P a2) (h1 : P a1) (h0 : P a0) : ∀ p ∈ [a7, a6, a5, a4, a3, a2, a1, a0], P p := by
  intro p hp
  simp only [List.mem_cons, List.not_mem_nil, or_false] at hp
  rcases hp with rfl | rfl | rfl | rfl | rfl | rfl | rfl | rfl <;> assumption

/-! ## The gathered rows, for an arbitrary table and filter matrix -/

/-- Row `r` of the gathered rows: the filter's row named by the table word at position `8 t + r`. -/
def o2_G (t : Fin grid2.N) (x0 : Vec F S1024 .i32) (fh0 : Vec F S16000x16000 .f32) : Vec F S8x16000 .f32 :=
  fun y => fh0 (ValueIdx.ix2 (Cert.Spec.rowOf 16000 (by decide) (x0 (ValueIdx.ix1 ⟨(8 * t.val + (y 0).val) % 1024, Nat.mod_lt _ (by decide)⟩))) (y 1))

/-- The filter read through the one-row slice at row `w`, a row number in range: row `w`, entry by entry. -/
theorem o2_row (c : Dev nD) (fh0 : HbBuf2 (F := F) c hbM2) (w : BitVec 32) (hw : w.toNat < 16000) {off : Fin 2 → Nat}
    (hoff : off = ![w.toNat, 0]) {inb : ∀ a, off a + S1x16000.size a ≤ S16000x16000.size a}
    {hr : ∀ a, (Rect.unit (s := S16000x16000) off S1x16000.size inb).stride a = 1} (x : S1x16000.Idx) :
    ReadAs.same.apply (View.read (Elt F) ((Memref.whole main_arg1 : Memref sig .tc .hbm S16000x16000 .f32).slice
        (Rect.unit (s := S16000x16000) off S1x16000.size inb) hr).view fh0) x
      = (fh0 : Vec F S16000x16000 .f32) (ValueIdx.ix2 (Cert.Spec.rowOf 16000 (by decide) w) (⟨(x 1).val, (x 1).isLt⟩ : Fin 16000)) := by
  subst hoff
  have hx0 : (x 0).val < 1 := (x 0).isLt
  show (fh0 : Vec F S16000x16000 .f32) ((Rect.unit (s := S16000x16000) ![w.toNat, 0] S1x16000.size inb).toLoadRect.idx x) = _
  refine congrArg _ (funext fun d => Fin.ext ?_)
  match d with
  | ⟨0, _⟩ =>
    show w.toNat + 1 * (x 0).val = (Cert.Spec.rowOf 16000 (by decide) w).val
    rw [Cert.Spec.rowOf_val_of_lt _ hw]
    omega
  | ⟨1, _⟩ =>
    show 0 + 1 * (x 1).val = (x 1).val
    omega

/-- A payload that is the row named by the word at position `8 t + j` is row `j` of the gathered rows. -/
theorem o2_rowpiece (t : Fin grid2.N) (x0 : Vec F S1024 .i32) (fh0 : Vec F S16000x16000 .f32) (j : Nat) (hj : j < 8)
    {offD : Fin 2 → Nat} (hoffD : offD = ![j, 0]) {inbD : ∀ a, offD a + S1x16000.size a ≤ S8x16000.size a}
    (pay : S1x16000.Idx → Elt F .f32)
    (hpay : ∀ x : S1x16000.Idx, pay x = fh0 (ValueIdx.ix2 (Cert.Spec.rowOf 16000 (by decide)
      (x0 (ValueIdx.ix1 ⟨(8 * t.val + j) % 1024, Nat.mod_lt _ (by decide)⟩))) (⟨(x 1).val, (x 1).isLt⟩ : Fin 16000)))
    (x : (Rect.unit (s := S8x16000) offD S1x16000.size inbD).shape.Idx) :
    pay x = o2_G t x0 fh0 ((Rect.unit (s := S8x16000) offD S1x16000.size inbD).emb x) := by
  subst hoffD
  have hx0 : (x 0).val < 1 := (x 0).isLt
  rw [hpay x]
  unfold o2_G
  refine congrArg fh0 ?_
  have e0 : (⟨(8 * t.val + (((Rect.unit (s := S8x16000) ![j, 0] S1x16000.size inbD).emb x) 0).val) % 1024, Nat.mod_lt _ (by decide)⟩ : Fin 1024)
      = ⟨(8 * t.val + j) % 1024, Nat.mod_lt _ (by decide)⟩ :=
    Fin.ext (by show (8 * t.val + (j + 1 * (x 0).val)) % 1024 = (8 * t.val + j) % 1024; omega)
  rw [e0]
  refine congrArg _ (Fin.ext ?_)
  show (x 1).val = 0 + 1 * (x 1).val
  omega

/-- One copy's payload: the filter read through the one-row slice whose row is the word the body read
    at offset `8 t + j` of the table is the filter's row named by the table's word at that position. -/
theorem o2_copy (c : Dev nD) (t : Fin grid2.N) (j : Nat) (hj : j < 8) (arg1 : Memref sig .tc .smem S1024 .i32)
    (harg1 : arg1.IsWhole) (x0 : Vec F S1024 .i32) (fh0 : HbBuf2 (F := F) c hbM2) (hT : ∀ j, (x0 j).toNat < 16000)
    {offW : Fin 1 → Nat} (hoffW : offW = ![8 * (grid2.coords t 0).val + j]) {inbW : ∀ a, offW a + S1.size a ≤ S1024.size a}
    {h1 : 0 < (Rect.unit (s := S1024) offW S1.size inbW).toLoadRect.shape.numel}
    {offS : Fin 2 → Nat}
    (hoffS : offS = ![(arg1.view.readAt (Elt F) (Rect.unit (s := S1024) offW S1.size inbW).toLoadRect (harg1.unread x0)
      (Shape.Idx.first h1)).toNat, 0])
    {inbS : ∀ a, offS a + S1x16000.size a ≤ S16000x16000.size a}
    {hr : ∀ a, (Rect.unit (s := S16000x16000) offS S1x16000.size inbS).stride a = 1} (x : S1x16000.Idx) :
    ReadAs.same.apply (View.read (Elt F) ((Memref.whole main_arg1 : Memref sig .tc .hbm S16000x16000 .f32).slice
        (Rect.unit (s := S16000x16000) offS S1x16000.size inbS) hr).view fh0) x
      = (fh0 : Vec F S16000x16000 .f32) (ValueIdx.ix2 (Cert.Spec.rowOf 16000 (by decide)
          (x0 (ValueIdx.ix1 ⟨(8 * t.val + j) % 1024, Nat.mod_lt _ (by decide)⟩))) (⟨(x 1).val, (x 1).isLt⟩ : Fin 16000)) := by
  have hw := o2_word (F := F) t j hj (arg1 := arg1) (harg1 := harg1) (x0 := x0) hoffW (inb := inbW) (h1 := h1)
  rw [← hw]
  exact o2_row c fh0 _ (by rw [hw]; exact hT _) hoffS x

/-- The scratch loaded whole after the eight copies: the gathered rows. Each of the eight pieces is one copy's row. -/
theorem o2_v94 (c : Dev nD) (t : Fin grid2.N) (arg1 : Memref sig .tc .smem S1024 .i32) (harg1 : arg1.IsWhole)
    (arg6 : Memref sig .tc .vmem S8x16000 .f32) (x0 : Vec F S1024 .i32) (fh0 : HbBuf2 (F := F) c hbM2)
    (hT : ∀ j, (x0 j).toNat < 16000) (h1 : _) (h2 : _) (h3 : _) (h4 : _) (h5 : _) (h6 : _) (h7 : _) (h8 : _) :
    kernelRun2.sl.v94 c (grid2.coords t) arg1 harg1 arg6 x0 fh0 h1 h2 h3 h4 h5 h6 h7 h8 = o2_G t x0 fh0 := by
  unfold kernelRun2.sl.v94
  refine (View.readCov_eq_canon' _ _ _).trans ((View.ld_unit_zero (S := S8x16000) o2_hz _ (View.canon _)).trans ?_)
  funext y
  exact View.canon_apply_of_pieces (o2_G t x0 fh0) _
    (o2_forall8
      (o2_rowpiece t x0 fh0 7 (by decide) rfl (inbD := inb_S8x16000_S1x16000_7_0)
        (kernelRun2.sl.dma8 c (grid2.coords t) arg1 harg1 x0 fh0 h8) fun x => by
          unfold kernelRun2.sl.dma8 kernelRun2.sl.r_7
          exact o2_copy c t 7 (by decide) arg1 harg1 x0 fh0 hT (k2_off15_eq (grid2.coords t))
            (inbW := k2_off15_inb _) (h1 := numel1_S1.symm ▸ Nat.one_pos) rfl x)
      (o2_rowpiece t x0 fh0 6 (by decide) rfl (inbD := inb_S8x16000_S1x16000_6_0)
        (kernelRun2.sl.dma7 c (grid2.coords t) arg1 harg1 x0 fh0 h7) fun x => by
          unfold kernelRun2.sl.dma7 kernelRun2.sl.r_6
          exact o2_copy c t 6 (by decide) arg1 harg1 x0 fh0 hT (k2_off13_eq (grid2.coords t))
            (inbW := k2_off13_inb _) (h1 := numel1_S1.symm ▸ Nat.one_pos) rfl x)
      (o2_rowpiece t x0 fh0 5 (by decide) rfl (inbD := inb_S8x16000_S1x16000_5_0)
        (kernelRun2.sl.dma6 c (grid2.coords t) arg1 harg1 x0 fh0 h6) fun x => by
          unfold kernelRun2.sl.dma6 kernelRun2.sl.r_5
          exact o2_copy c t 5 (by decide) arg1 harg1 x0 fh0 hT (k2_off11_eq (grid2.coords t))
            (inbW := k2_off11_inb _) (h1 := numel1_S1.symm ▸ Nat.one_pos) rfl x)
      (o2_rowpiece t x0 fh0 4 (by decide) rfl (inbD := inb_S8x16000_S1x16000_4_0)
        (kernelRun2.sl.dma5 c (grid2.coords t) arg1 harg1 x0 fh0 h5) fun x => by
          unfold kernelRun2.sl.dma5 kernelRun2.sl.r_4
          exact o2_copy c t 4 (by decide) arg1 harg1 x0 fh0 hT (k2_off9_eq (grid2.coords t))
            (inbW := k2_off9_inb _) (h1 := numel1_S1.symm ▸ Nat.one_pos) rfl x)
      (o2_rowpiece t x0 fh0 3 (by decide) rfl (inbD := inb_S8x16000_S1x16000_3_0)
        (kernelRun2.sl.dma4 c (grid2.coords t) arg1 harg1 x0 fh0 h4) fun x => by
          unfold kernelRun2.sl.dma4 kernelRun2.sl.r_3
          exact o2_copy c t 3 (by decide) arg1 harg1 x0 fh0 hT (k2_off7_eq (grid2.coords t))
            (inbW := k2_off7_inb _) (h1 := numel1_S1.symm ▸ Nat.one_pos) rfl x)
      (o2_rowpiece t x0 fh0 2 (by decide) rfl (inbD := inb_S8x16000_S1x16000_2_0)
        (kernelRun2.sl.dma3 c (grid2.coords t) arg1 harg1 x0 fh0 h3) fun x => by
          unfold kernelRun2.sl.dma3 kernelRun2.sl.r_2
          exact o2_copy c t 2 (by decide) arg1 harg1 x0 fh0 hT (k2_off5_eq (grid2.coords t))
            (inbW := k2_off5_inb _) (h1 := numel1_S1.symm ▸ Nat.one_pos) rfl x)
      (o2_rowpiece t x0 fh0 1 (by decide) rfl (inbD := inb_S8x16000_S1x16000_1_0)
        (kernelRun2.sl.dma2 c (grid2.coords t) arg1 harg1 x0 fh0 h2) fun x => by
          unfold kernelRun2.sl.dma2 kernelRun2.sl.r_1
          exact o2_copy c t 1 (by decide) arg1 harg1 x0 fh0 hT (k2_off3_eq (grid2.coords t))
            (inbW := k2_off3_inb _) (h1 := numel1_S1.symm ▸ Nat.one_pos) rfl x)
      (o2_rowpiece t x0 fh0 0 (by decide) rfl (inbD := inb_S8x16000_S1x16000_0_0)
        (kernelRun2.sl.dma1 c (grid2.coords t) arg1 harg1 x0 fh0 h1) fun x => by
          unfold kernelRun2.sl.dma1 kernelRun2.sl.r
          exact o2_copy c t 0 (by decide) arg1 harg1 x0 fh0 hT (k2_off1_eq (grid2.coords t))
            (inbW := k2_off1_inb _) (h1 := numel1_S1.symm ▸ Nat.one_pos) rfl x))
    y (View.cover_of_tiledL (s := S8x16000) _ S1x16000.size (by sl_kernel_rfl) y)

/-! ## The output block -/

variable (V : (c : Dev nD) → (b : Ref sig .tc) → Buf (Elt F) ((c : Thread nD τ).loc b))
variable (a : (pcfg2 (F := F)).Adm)

/-- The scratch after the eight copies of point `t`: row `r` is the filter's row named by the table word `8t + r`. -/
def rows2 (c : Dev nD) (t : Fin (cfg2 a).N) : Vec F S8x16000 .f32 :=
  fun y => (V c main_arg1 : Vec F S16000x16000 .f32)
    (ValueIdx.ix2 (Cert.Spec.rowOf 16000 (by decide) ((a.1 (0 : Fin 1) : Vec F S1024 .i32) (ValueIdx.ix1 ⟨(8 * t.val + (y 0).val) % 1024, Nat.mod_lt _ (by decide)⟩))) (y 1))

variable (hT : ∀ j, ((a.1 (0 : Fin 1) : Vec F S1024 .i32) j).toNat < 16000)

/-- The output block after point `t`: the body's arithmetic of the mask block, the gathered rows and the embedding table. -/
theorem outsAt2_eq (c : Dev nD) (t : Fin (cfg2 a).N) :
    outsAt2 V a hT c t = k2_pay1 (iblk2 V a c 0 t) (rows2 V a c t) (iblk2 V a c 1 t) := by
  have key : ∀ {A A' : Vec F S8x16000 .f32} {B B' : Vec F S8x16000 .f32} {C C' : Vec F S16000x64 .f32},
      A = A' → B = B' → C = C' → k2_pay1 (F := F) A B C = k2_pay1 A' B' C' := by
    intros; subst_vars; rfl
  unfold outsAt2
  rw [View.read_writes_eq_canon _ _ _ (cover2_2 V a hT c t)]
  unfold runAt2 kernelRun2
  dsimp only
  -- one store of the whole block: what it leaves is its payload, the arithmetic of three loads
  rw [View.canon_unit_zero o2_hz]
  refine key ?_ ?_ ?_
  · -- the mask block, loaded whole
    simp only [View.readAt_eq_ld, View.ld_unit_zero (S := S8x16000) o2_hz]
    exact Memref.IsWhole.read_unread _ _
  · -- the scratch, loaded whole after the eight copies
    exact o2_v94 c t _ _ _ (a.1 (0 : Fin 1)) (V c main_arg1) hT _ _ _ _ _ _ _ _
  · -- the embedding table, loaded whole
    simp only [View.readAt_eq_ld, View.ld_unit_zero (S := S16000x64) o2_hz]
    exact Memref.IsWhole.read_unread _ _

end Cert.KernelIdeal.Hand

end
-- ==== Proof.KValue2.lean ====
/-
  What the negative-item feature pipeline leaves in its output array: the specification's feature matrix of the item filter
  matrix, the region's noise matrix, the item embedding table and the region's row-number table. Point `t` of the 128
  writes rows `8t ... 8t + 7`; each point writes its own block of ONE matrix and the blocks cover the 1024 rows.
-/
import proofs.«421540_j73229192397035_2_alg».proof.Proof.Reg2
import proofs.«421540_j73229192397035_2_alg».proof.Proof.Open2
import proofs.«421540_j73229192397035_2_alg».proof.Proof.PayValue
import proofs.«421540_j73229192397035_2_alg».proof.Proof.Spec
import Idealize.ShloMosaic.Lib.Pipeline.Value

set_option maxRecDepth 16384

noncomputable section

namespace Cert.KValue2

open Cert.KernelIdeal Cert.KernelIdeal.Gen Cert.KernelIdeal.Hand
open Idealize.ShloMosaic Idealize.ShloMosaic.TcCoe Idealize.SL Idealize.SL.Sem
open Idealize.ShloMosaic.Pipeline (Dat)
open scoped BigOperators

/-! ## The negative-item features -/

section Features2

variable (V : (c : Dev nD) → (b : Ref sig .tc) → Buf (Elt Ideal) ((c : Thread nD τ).loc b))
variable (a : (pcfg2 (F := Ideal)).Adm)

/-- The filter matrix, the noise matrix, the embedding table and the row-number table, each at its literal shape. -/
abbrev filt (c : Dev nD) : Vec Ideal S16000x16000 .f32 := V c main_arg1
abbrev noise (c : Dev nD) : Vec Ideal S1024x16000 .f32 := V c main_arg6
abbrev table (c : Dev nD) : Vec Ideal S16000x64 .f32 := V c main_arg3
abbrev words : Vec Ideal S1024 .i32 := a.1 (0 : Fin 1)
/-- The mask block and the table block of point `t`, at their literal shapes. -/
abbrev maskBlk (c : Dev nD) (t : Fin (cfg2 a).N) : Vec Ideal S8x16000 .f32 := iblk2 V a c 0 t
abbrev embBlk (c : Dev nD) (t : Fin (cfg2 a).N) : Vec Ideal S16000x64 .f32 := iblk2 V a c 1 t
/-- The specification's negative-item feature matrix of those four arrays. -/
abbrev featArr (c : Dev nD) : Vec Ideal S1024x64 .f32 :=
  Cert.Spec.feat (N := 16000) (by decide) (filt V c) (noise V c) (table V c) (words a)

/-- The three index maps over the grid: the mask block and the output block of point `t` are block `(t, 0)`, the table's
    block is always block `(0, 0)`. They do not read the row-number table. -/
theorem idx_closed : ∀ t : Fin grid2.N,
    cc2_transform_1 (grid2.coords t) (0 : Fin 2) = t.val ∧ cc2_transform_1 (grid2.coords t) (1 : Fin 2) = 0
    ∧ cc2_transform_2 (grid2.coords t) (0 : Fin 2) = 0 ∧ cc2_transform_2 (grid2.coords t) (1 : Fin 2) = 0
    ∧ cc2_transform_3 (grid2.coords t) (0 : Fin 2) = t.val ∧ cc2_transform_3 (grid2.coords t) (1 : Fin 2) = 0 := by
  decide +kernel

/-- The same of the pipeline's windows, whatever the row-number table holds. -/
theorem idx_facts (t : Fin (cfg2 a).N) :
    ((cfg2 a).win 0).index t (0 : Fin 2) = t.val ∧ ((cfg2 a).win 0).index t (1 : Fin 2) = 0
    ∧ ((cfg2 a).win 1).index t (0 : Fin 2) = 0 ∧ ((cfg2 a).win 1).index t (1 : Fin 2) = 0
    ∧ ((cfg2 a).win 2).index t (0 : Fin 2) = t.val ∧ ((cfg2 a).win 2).index t (1 : Fin 2) = 0 :=
  idx_closed t

/-- The output's block index changes at every point, so every point writes its block back. -/
theorem flush_closed : ∀ t : Fin grid2.N, Pipeline.Window.flushOf grid2 true cc2_transform_3 t = true := by
  decide +kernel
theorem flush2_2 (t : Fin (cfg2 a).N) : ((cfg2 a).win 2).flush t = true :=
  (Pipeline.Window.flush_eq_flushOf ((cfg2 a).win 2) t).trans (flush_closed t)

set_option backward.isDefEq.respectTransparency.types false in
/-- The mask block of point `t` is rows `8t … 8t + 7` of the noise matrix. -/
theorem maskBlk_apply (c : Dev nD) (t : Fin (cfg2 a).N) (x : S8x16000.Idx) (k : S1024x16000.Idx)
    (hk0 : (k 0).val = 8 * t.val + (x 0).val) (hk1 : (k 1).val = (x 1).val) :
    maskBlk V a c t x = noise V c k := by
  obtain ⟨e0, e1, -, -, -, -⟩ := idx_facts a t
  unfold maskBlk iblk2
  rw [View.read_apply]
  show noise V c _ = noise V c k
  refine congrArg (noise V c) ?_
  funext b
  apply Fin.ext
  match b with
  | ⟨0, _⟩ => show ((cfg2 a).win 0).index t (0 : Fin 2) * 8 + 1 * (x 0).val = (k 0).val; rw [e0, hk0]; omega
  | ⟨1, _⟩ => show ((cfg2 a).win 0).index t (1 : Fin 2) * 16000 + 1 * (x 1).val = (k 1).val; rw [e1, hk1]; omega

set_option backward.isDefEq.respectTransparency.types false in
/-- The table's block is the whole table at every point. -/
theorem embBlk_eq (c : Dev nD) (t : Fin (cfg2 a).N) : embBlk V a c t = table V c := by
  obtain ⟨-, -, e0, e1, -, -⟩ := idx_facts a t
  funext x
  unfold embBlk iblk2
  rw [View.read_apply]
  show table V c _ = table V c x
  refine congrArg (table V c) ?_
  funext b
  apply Fin.ext
  match b with
  | ⟨0, _⟩ => show ((cfg2 a).win 1).index t (0 : Fin 2) * 16000 + 1 * (x 0).val = (x 0).val; rw [e0]; omega
  | ⟨1, _⟩ => show ((cfg2 a).win 1).index t (1 : Fin 2) * 64 + 1 * (x 1).val = (x 1).val; rw [e1]; omega

/-- The gathered row `r` of point `t` is the filter row named by word `8t + r` (which is below 1024, so the
    reduction modulo 1024 changes nothing). -/
theorem rows2_apply (c : Dev nD) (t : Fin (cfg2 a).N) (r : Fin 8) (n : Fin 16000) (hr : 8 * t.val + r.val < 1024) :
    rows2 V a c t (ValueIdx.ix2 r n)
      = filt V c (ValueIdx.ix2 (Cert.Spec.rowOf 16000 (by decide) (words a (ValueIdx.ix1 (⟨8 * t.val + r.val, hr⟩ : Fin 1024)))) n) :=
  congrArg (fun z : Fin 1024 => filt V c (ValueIdx.ix2 (Cert.Spec.rowOf 16000 (by decide) (words a (ValueIdx.ix1 z))) n))
    (Fin.ext (Nat.mod_eq_of_lt hr) : (⟨(8 * t.val + r.val) % 1024, Nat.mod_lt _ (by decide)⟩ : Fin 1024) = ⟨8 * t.val + r.val, hr⟩)

/-- One term of the feature sum: the point's gathered row, mask block and table block are the filter row, the noise row
    and the table of the specification. -/
theorem term_eq (c : Dev nD) (t : Fin (cfg2 a).N) (r : Fin 8) (d : Fin 64) (n : Fin 16000) (hr : 8 * t.val + r.val < 1024) :
    (rows2 V a c t (ValueIdx.ix2 r n) * Cert.Spec.keep (maskBlk V a c t (ValueIdx.ix2 r n))) * embBlk V a c t (ValueIdx.ix2 n d)
      = (filt V c (ValueIdx.ix2 (Cert.Spec.rowOf 16000 (by decide) (words a (ValueIdx.ix1 (⟨8 * t.val + r.val, hr⟩ : Fin 1024)))) n)
          * Cert.Spec.keep (noise V c (ValueIdx.ix2 (⟨8 * t.val + r.val, hr⟩ : Fin 1024) n))) * table V c (ValueIdx.ix2 n d) := by
  have eL := rows2_apply V a c t r n hr
  have eM : maskBlk V a c t (ValueIdx.ix2 r n) = noise V c (ValueIdx.ix2 (⟨8 * t.val + r.val, hr⟩ : Fin 1024) n) :=
    maskBlk_apply V a c t (ValueIdx.ix2 r n) (ValueIdx.ix2 (⟨8 * t.val + r.val, hr⟩ : Fin 1024) n) rfl rfl
  have eE : embBlk V a c t (ValueIdx.ix2 n d) = table V c (ValueIdx.ix2 n d) := congrFun (embBlk_eq V a c t) (ValueIdx.ix2 n d)
  rw [eL, eM, eE]

variable (hT : ∀ j, ((a.1 (0 : Fin 1) : Vec Ideal S1024 .i32) j).toNat < 16000)

/-- What point `t` leaves in its output block at `(r, d)`: the feature matrix's entry `(8t + r, d)`. -/
theorem outBlk_ix (c : Dev nD) (t : Fin (cfg2 a).N) (r : Fin 8) (d : Fin 64) (hr : 8 * t.val + r.val < 1024) :
    (outsAt2 V a hT c t : Vec Ideal S8x64 .f32) (ValueIdx.ix2 r d) = featArr V a c (ValueIdx.ix2 (⟨8 * t.val + r.val, hr⟩ : Fin 1024) d) := by
  rw [outsAt2_eq]
  refine (Cert.PayValue.pay2_apply (maskBlk V a c t) (rows2 V a c t) (embBlk V a c t) r d).trans ?_
  show _ = ∑ n : Fin 16000, (filt V c (ValueIdx.ix2 (Cert.Spec.rowOf 16000 (by decide) (words a (ValueIdx.ix1 (⟨8 * t.val + r.val, hr⟩ : Fin 1024)))) n)
          * Cert.Spec.keep (noise V c (ValueIdx.ix2 (⟨8 * t.val + r.val, hr⟩ : Fin 1024) n))) * table V c (ValueIdx.ix2 n d)
  exact Finset.sum_congr rfl fun n _ => term_eq V a c t r d n hr

/-- The same at any entry `y` of the block and any entry `i` of the array in row `8t + y₀`, column `y₁`. -/
theorem outBlk_apply (c : Dev nD) (t : Fin (cfg2 a).N) (y : S8x64.Idx) (i : S1024x64.Idx)
    (hi0 : (i 0).val = 8 * t.val + (y 0).val) (hi1 : (i 1).val = (y 1).val) :
    (outsAt2 V a hT c t : Vec Ideal S8x64 .f32) y = featArr V a c i := by
  have hN : (cfg2 a).N = 128 := N_2
  obtain ⟨r, d, rfl⟩ : ∃ (r : Fin 8) (d : Fin 64), y = ValueIdx.ix2 r d := ⟨y 0, y 1, ValueIdx.eq_ix2 y⟩
  obtain ⟨p, q, rfl⟩ : ∃ (p : Fin 1024) (q : Fin 64), i = ValueIdx.ix2 p q := ⟨i 0, i 1, ValueIdx.eq_ix2 i⟩
  have hr : 8 * t.val + r.val < 1024 := by have := t.isLt; have := r.isLt; omega
  obtain rfl : p = ⟨8 * t.val + r.val, hr⟩ := Fin.ext hi0
  obtain rfl : d = q := (Fin.ext hi1).symm
  exact outBlk_ix V a hT c t r d hr

set_option backward.isDefEq.respectTransparency.types false in
/-- WHAT POINT `t` WRITES BACK is its block of the feature matrix. -/
theorem flushed_eq (c : Dev nD) (t : Fin (cfg2 a).N) :
    (dat2 V a hT c).flushed 2 t = (((cfg2 a).win 2).blk t).view.read (Elt Ideal) (featArr V a c) := by
  obtain ⟨-, -, -, -, e0, e1⟩ := idx_facts a t
  show ((cfg2 a).win 2).cut ((cfg2 a).grid.coords t) ((dat2 V a hT c).after 2 t) = _
  rw [after2_2]
  funext j
  rw [View.read_apply]
  have h0 : ((((cfg2 a).win 2).blk t).view.emb j (0 : Fin 2)).val
      = 8 * t.val + (((cfg2 a).win 2).xinj ((cfg2 a).grid.coords t) j (0 : Fin 2)).val := by
    show ((cfg2 a).win 2).index t (0 : Fin 2) * 8 + 1 * (j (0 : Fin 2)).val = 8 * t.val + (j (0 : Fin 2)).val
    rw [e0]; omega
  have h1 : ((((cfg2 a).win 2).blk t).view.emb j (1 : Fin 2)).val
      = (((cfg2 a).win 2).xinj ((cfg2 a).grid.coords t) j (1 : Fin 2)).val := by
    show ((cfg2 a).win 2).index t (1 : Fin 2) * 64 + 1 * (j (1 : Fin 2)).val = (j (1 : Fin 2)).val
    rw [e1]; omega
  show (outsAt2 V a hT c t : Vec Ideal S8x64 .f32) (((cfg2 a).win 2).xinj ((cfg2 a).grid.coords t) j)
    = featArr V a c ((((cfg2 a).win 2).blk t).view.emb j)
  exact outBlk_apply V a hT c t _ _ h0 h1

set_option backward.isDefEq.respectTransparency.types false in
/-- Every row of the output lies in some point's block: row `b` in that of point `b / 8`. -/
theorem cover (i : S1024x64.Idx) :
    ∃ t : Fin (cfg2 a).N, ((cfg2 a).win 2).flush t = true ∧ i ∈ (((cfg2 a).win 2).blk t).view.set := by
  have hN : (cfg2 a).N = 128 := N_2
  have hi0 : (i 0).val < 1024 := (i 0).isLt
  have hi1 : (i 1).val < 64 := (i 1).isLt
  obtain ⟨t, ht⟩ : ∃ t : Fin (cfg2 a).N, t.val = (i 0).val / 8 := ⟨⟨(i 0).val / 8, by omega⟩, rfl⟩
  obtain ⟨-, -, -, -, e0, e1⟩ := idx_facts a t
  refine ⟨t, flush2_2 a t, ?_⟩
  show i ∈ ((View.whole main_v2).slice (((cfg2 a).win 2).rect t)).set
  rw [View.set_slice_whole]
  refine Rect.mem_set_unit.mpr fun b => ?_
  match b with
  | ⟨0, _⟩ =>
    show ((cfg2 a).win 2).index t (0 : Fin 2) * 8 ≤ (i 0).val ∧ (i 0).val < ((cfg2 a).win 2).index t (0 : Fin 2) * 8 + 8
    rw [e0]; omega
  | ⟨1, _⟩ =>
    show ((cfg2 a).win 2).index t (1 : Fin 2) * 64 ≤ (i 1).val ∧ (i 1).val < ((cfg2 a).win 2).index t (1 : Fin 2) * 64 + 64
    rw [e1]; omega

/-- THE NEGATIVE-ITEM FEATURE ARRAY after the run is the specification's feature matrix of the filter matrix, the noise matrix,
    the embedding table and the row-number table. -/
theorem feat2 (c : Dev nD) :
    ((dat2 V a hT c).arrAt 2 (cfg2 a).N : Vec Ideal S1024x64 .f32)
      = Cert.Spec.feat (N := 16000) (by decide) (V c main_arg1) (V c main_arg6) (V c main_arg3) (a.1 (0 : Fin 1)) :=
  (dat2 V a hT c).arrAt_eq_of_cover 2 (featArr V a c) (fun t _ => flushed_eq V a hT c t) (fun i => cover a i)

end Features2

end Cert.KValue2

end
-- ==== Proof.ValueRun.lean ====
/-
  The idealized kernel's run with its result named: the result's buffer ends at the loss of the three feature matrices,
  each the specification's feature matrix of the launch arguments; every argument ends as launched.
-/
import proofs.«421540_j73229192397035_2_alg».proof.Proof.ReadBack
import proofs.«421540_j73229192397035_2_alg».proof.Proof.KValue
import proofs.«421540_j73229192397035_2_alg».proof.Proof.KValue1
import proofs.«421540_j73229192397035_2_alg».proof.Proof.KValue2

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The result's buffer at the last boundary is the specification's result of the launch arguments. -/
theorem result_val (hR : Ranges m) (c : Dev nD) :
    W5 m hR c (Proc.devRef .tc main_v4)
      = fun _ => Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  obtain rfl : c = 0 := Subsingleton.elim _ _
  rw [W5_main_v4, Cert.KValue.loss3, V3_main_v0, V3_main_v1, V3_main_v2, Cert.KValue.feat0, Cert.KValue1.feat1, Cert.KValue2.feat2,
    V1_main_arg1, V1_main_arg3, V1_main_arg5, V2_main_arg1, V2_main_arg3, V2_main_arg6]
  rfl

/-- THE VALUE RUN. -/
theorem value_run (hR : Ranges m) (ρ : Dev nD → PrngReg) :
    θ_run defs (onTc (τ := τ) (main (F := Ideal))) ⟨m, fun _ => 0, ρ⟩ (fun r => ∀ c : Dev nD,
      r.2.mem ((c.tc : Thread nD τ).loc main_v4)
        = (fun _ => Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v4 (by decide))).trans (result_val m hR c),
     (h c _ (mem_uc main_arg0 (by decide))).trans (W5_main_arg0 m hR c),
     (h c _ (mem_uc main_arg1 (by decide))).trans (W5_main_arg1 m hR c),
     (h c _ (mem_uc main_arg2 (by decide))).trans (W5_main_arg2 m hR c),
     (h c _ (mem_uc main_arg3 (by decide))).trans (W5_main_arg3 m hR c),
     (h c _ (mem_uc main_arg4 (by decide))).trans (W5_main_arg4 m hR c),
     (h c _ (mem_uc main_arg5 (by decide))).trans (W5_main_arg5 m hR c),
     (h c _ (mem_uc main_arg6 (by decide))).trans (W5_main_arg6 m hR c),
     (h c _ (mem_uc main_arg7 (by decide))).trans (W5_main_arg7 m hR c),
     (h c _ (mem_uc main_arg8 (by decide))).trans (W5_main_arg8 m hR c),
     (h c _ (mem_uc main_arg9 (by decide))).trans (W5_main_arg9 m hR c)⟩)
    (run_all m hR ρ)

end Cert.KernelIdeal.Hand

end
-- ==== Proof.LibEdgeAgg.lean ====
/-
  Whole rows of a table carried along the edges of a graph and summed at their destinations.

  Two array operations make the neighbour sum. The first reads, for every edge `e`, a whole ROW of a table
  `x : [N, C]`: the row whose number is the edge's source word `rows[e, 0]`, read as a SIGNED integer and clamped into
  `[0, N − 1]` (a row lookup always reads some row). The second adds every such row into an accumulator `acc : [N, C]`
  at the row whose number is the edge's destination word `dst[e, 0]`, read as a SIGNED integer and NOT clamped: an
  edge whose destination is not a row number of the accumulator is dropped. Read at one entry `(n, q)` the result is

      acc (n, q) + ∑ over the edges e with dst[e, 0] = n of x (clamp rows[e, 0], q).

  This file proves the two readings for the dimension numbers that say "whole rows": a row lookup
  (offset axis 1, collapsed axis 0, start index on axis 0, slices of one row) and a row accumulation
  (window axis 1, inserted axis 0, scattered to axis 0), both with the index vector along the last axis of an
  index array `[P, 1]`.
-/
import Idealize.ShloMosaic.PureOps
import Idealize.ShloMosaic.PureOps.Ideal
import Idealize.ShloMosaic.Lib.ValueIdx

noncomputable section

namespace EdgeAgg

open Idealize.ShloMosaic Idealize.ShloMosaic.ValueIdx
open scoped BigOperators

variable {α : Type}

/-! ## The row lookup -/

/-- The dimension numbers of a lookup of whole rows of a table `[N, C]` at a column `[P, 1]` of row numbers. -/
abbrev lookupDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The row a word names in a table of `N` rows: its signed value clamped into `[0, N − 1]`. -/
def clampTo (N : Nat) (hN : 0 < N) {w : Nat} (v : BitVec w) : Fin N := ⟨min v.toInt.toNat (N - 1), by omega⟩

/-- The lookup read at `(e, q)`: the table at the row the word `rows[e, 0]` names, column `q`. -/
theorem lookup_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (rows : IVec ⟨2, ![P, 1]⟩ w) (e : Fin P) (q : Fin C) :
    Host.gather (lookupDims N C P wf) x rows (ix2 e q) = x (ix2 (clampTo N hN (rows (ix2 e (0 : Fin 1)))) q) := by
  unfold Host.gather
  congr 1
  funext a
  refine Fin.ext ?_
  match a with
  | ⟨0, _⟩ =>
    show (lookupDims N C P wf).start (ix2 e q) rows 0 + (lookupDims N C P wf).batchCoord (ix2 e q) 0
      + (lookupDims N C P wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookupDims N C P wf).startIndexMap from List.mem_singleton.mpr rfl)]
    have hsi : (lookupDims N C P wf).siIdx (ix2 e q) ⟨List.idxOf (0 : Fin 2) (lookupDims N C P wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (lookupDims N C P wf).start (ix2 e q) rows 1 + (lookupDims N C P wf).batchCoord (ix2 e q) 1
      + (lookupDims N C P wf).offCoord (ix2 e q) 1 = q.val
    rw [GatherDims.batchCoord_eq_zero _ _ _ List.not_mem_nil]
    unfold GatherDims.start
    rw [dif_neg (show ¬ (1 : Fin 2) ∈ (lookupDims N C P wf).startIndexMap from
      (show ¬ (1 : Fin 2) ∈ ([0] : List (Fin 2)) by decide))]
    unfold GatherDims.offCoord
    rw [dif_pos (show (1 : Fin 2) ∈ (lookupDims N C P wf).sKept from
      (GatherDims.mem_sKept _ _).mpr ⟨(show ¬ (1 : Fin 2) ∈ ([0] : List (Fin 2)) by decide), List.not_mem_nil⟩)]
    simp only [Nat.zero_add, Nat.add_zero]
    rfl

/-! ## The row accumulation -/

/-- An update lands on entry `i` exactly when, on every axis, its window's start plus its window coordinate is
    `i`'s coordinate (whatever the dimension numbers). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have ha := h a
      rw [← e']
      exact (Int.toNat_of_nonneg ha.1).symm
    · intro e
      congr 1
      funext a
      refine Fin.ext ?_
      show (d.start j idx a + (d.window j a : Int)).toNat = (i a).val
      rw [e a]
      exact Int.toNat_natCast _
  · rename_i h
    constructor
    · intro e; cases e
    · intro e
      exfalso
      refine h fun a => ?_
      rw [e a]
      exact ⟨Int.natCast_nonneg _, by exact_mod_cast (i a).isLt⟩

/-- The dimension numbers of an accumulation of whole rows `[P, C]` into `[N, C]` at a column `[P, 1]` of row
    numbers. -/
abbrev accumDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section Accum

variable {N C P w : Nat} (wf : ScatterDims.WF ⟨2, ![N, C]⟩ ⟨2, ![P, 1]⟩ ⟨2, ![P, C]⟩ [1] [0] [0] 1)
  (dst : IVec ⟨2, ![P, 1]⟩ w)

/-- On the row axis the window of update `(e, c)` starts at the signed value of the destination word `dst[e, 0]`. -/
theorem accum_start_row (e : Fin P) (c : Fin C) :
    (accumDims N C P wf).start (ix2 e c) dst 0 = (dst (ix2 e (0 : Fin 1))).toInt := by
  unfold ScatterDims.start
  rw [dif_pos (show (0 : Fin 2) ∈ (accumDims N C P wf).scatterDimsToOperandDims from List.mem_singleton.mpr rfl)]
  congr 2
  funext b; refine Fin.ext ?_
  match b with
  | ⟨0, _⟩ => rfl
  | ⟨1, _⟩ => rfl

/-- On the column axis the window starts at zero. -/
theorem accum_start_col (e : Fin P) (c : Fin C) : (accumDims N C P wf).start (ix2 e c) dst 1 = 0 := by
  unfold ScatterDims.start
  rw [dif_neg (show ¬ (1 : Fin 2) ∈ (accumDims N C P wf).scatterDimsToOperandDims from
    (show ¬ (1 : Fin 2) ∈ ([0] : List (Fin 2)) by decide))]

/-- The row axis is inserted: no window coordinate. -/
theorem accum_window_row (e : Fin P) (c : Fin C) : (accumDims N C P wf).window (ix2 e c) 0 = 0 := by
  unfold ScatterDims.window
  rw [dif_neg (show ¬ (0 : Fin 2) ∈ (accumDims N C P wf).sKept from by simp [ScatterDims.sKept, Shape.kept])]

/-- The column axis is the window: its coordinate is the update's column. -/
theorem accum_window_col (e : Fin P) (c : Fin C) : (accumDims N C P wf).window (ix2 e c) 1 = c.val := by
  unfold ScatterDims.window
  rw [dif_pos (show (1 : Fin 2) ∈ (accumDims N C P wf).sKept from by simp [ScatterDims.sKept, Shape.kept])]
  rfl

/-- Update `(e, c)` lands on entry `(n, q)` exactly when the destination word of `e` is `n` and `c = q`. -/
theorem accum_lands_iff (e : Fin P) (c : Fin C) (n : Fin N) (q : Fin C) :
    (accumDims N C P wf).resultIdx? (ix2 e c) dst = some (ix2 n q)
      ↔ (dst (ix2 e (0 : Fin 1))).toInt = (n.val : Int) ∧ c = q := by
  rw [resultIdx?_eq_some_iff]
  constructor
  · intro h
    have h0 : (accumDims N C P wf).start (ix2 e c) dst 0 + ((accumDims N C P wf).window (ix2 e c) 0 : Int)
        = (n.val : Int) := h 0
    have h1 : (accumDims N C P wf).start (ix2 e c) dst 1 + ((accumDims N C P wf).window (ix2 e c) 1 : Int)
        = (q.val : Int) := h 1
    rw [accum_start_row, accum_window_row] at h0
    rw [accum_start_col, accum_window_col] at h1
    refine ⟨by simpa using h0, Fin.ext ?_⟩
    omega
  · rintro ⟨h0, rfl⟩ a
    match a with
    | ⟨0, _⟩ =>
      show (accumDims N C P wf).start (ix2 e c) dst 0 + ((accumDims N C P wf).window (ix2 e c) 0 : Int) = (n.val : Int)
      rw [accum_start_row, accum_window_row, h0]; simp
    | ⟨1, _⟩ =>
      show (accumDims N C P wf).start (ix2 e c) dst 1 + ((accumDims N C P wf).window (ix2 e c) 1 : Int) = (c.val : Int)
      rw [accum_start_col, accum_window_col]; simp

/-- The accumulation read at `(n, q)`: the accumulator's entry plus column `q` of every row whose destination word
    is `n`. -/
theorem accum_apply (acc : (⟨2, ![N, C]⟩ : Shape).Idx → EReal) (upd : (⟨2, ![P, C]⟩ : Shape).Idx → EReal)
    (n : Fin N) (q : Fin C) :
    Ideal.hostScatterAdd (accumDims N C P wf) acc dst upd (ix2 n q)
      = acc (ix2 n q) + ∑ e ∈ Finset.univ.filter (fun e : Fin P => (dst (ix2 e (0 : Fin 1))).toInt = (n.val : Int)),
          upd (ix2 e q) := by
  unfold Ideal.hostScatterAdd
  congr 1
  rw [Finset.sum_filter, sum_idx2, Finset.sum_filter]
  refine Finset.sum_congr rfl fun e _ => ?_
  by_cases he : (dst (ix2 e (0 : Fin 1))).toInt = (n.val : Int)
  · rw [if_pos he]
    rw [Finset.sum_eq_single q]
    · rw [if_pos ((accum_lands_iff wf dst e q n q).mpr ⟨he, rfl⟩)]
    · intro c _ hc
      rw [if_neg (fun h => hc ((accum_lands_iff wf dst e c n q).mp h).2)]
    · intro h; exact absurd (Finset.mem_univ q) h
  · rw [if_neg he]
    refine Finset.sum_eq_zero fun c _ => ?_
    rw [if_neg (fun h => he ((accum_lands_iff wf dst e c n q).mp h).1)]

end Accum

end EdgeAgg

end
-- ==== Proof.RefValue.lean ====
/-
  The reference's result, read one operation at a time, is the loss of the three feature matrices.
-/
import proofs.«421540_j73229192397035_2_alg».proof.Proof.Gen.ReferenceIdeal.Run
import proofs.«421540_j73229192397035_2_alg».proof.Proof.Gen.ReferenceIdeal.Read
import proofs.«421540_j73229192397035_2_alg».proof.Proof.Spec
import proofs.«421540_j73229192397035_2_alg».proof.Proof.LibEdgeAgg
import Idealize.ShloMosaic.Lib.IdealHost
import Idealize.ShloMosaic.Lib.ValueIdxRank1

noncomputable section

namespace Cert.RefValue

open Idealize.ShloMosaic Idealize.ShloMosaic.ValueIdx Idealize.SL.Sem
open Cert.ReferenceIdeal Cert.ReferenceIdeal.Gen Cert.ReferenceIdeal.Read
open scoped BigOperators

/-! ## Row words

A row number arrives as a 32-bit word. The program first wraps a negative word by the number of rows (a negative row
number counts from the end), then the lookup reads the word signed and clamps it into the table. A word whose
unsigned value is below the number of rows, itself at most `2^31`, has its sign bit clear: the wrap leaves it alone,
its signed value is its unsigned one, and the clamp does nothing. -/

/-- A select on "the word is negative" keeps a word whose unsigned value is below `2^31`. -/
theorem wrap_of_lt (w a : BitVec 32) (h : w.toNat < 2 ^ 31) :
    Scalar.select (IntOp.cmpi .slt w 0#32) a w = w := by
  have hm : w.msb = false := BitVec.msb_eq_false_iff_two_mul_lt.mpr (by omega)
  have hs : w.slt 0#32 = false := BitVec.slt_zero_eq_msb.trans hm
  have hc : IntOp.cmpi .slt w 0#32 = 0#1 := (congrArg BitVec.ofBool hs).trans rfl
  rw [hc, select_zero]

/-- Read signed and clamped into the rows of an `N`-row table, `N ≤ 2^31`, a word below `N` names the row of its
    unsigned value. -/
theorem clampTo_eq_rowOf {N : Nat} (hN : 0 < N) (hN31 : N ≤ 2 ^ 31) (w : BitVec 32) (h : w.toNat < N) :
    EdgeAgg.clampTo N hN w = Cert.Spec.rowOf N hN w := by
  refine Fin.ext ?_
  show min w.toInt.toNat (N - 1) = min w.toNat (N - 1)
  rw [BitVec.toInt_eq_toNat_of_lt (by omega), Int.toNat_natCast]

/-- A lookup of whole rows of a square table, read at `(e, q)` when the row word of `e` is in range: the table at
    the row that word names, column `q`. -/
theorem lookup_rowOf {N P : Nat} (hN : 0 < N) (hN31 : N ≤ 2 ^ 31)
    (wf : GatherDims.WF ⟨2, ![N, N]⟩ ⟨2, ![P, 1]⟩ ⟨2, ![P, N]⟩ [1] [0] [] [0] [] 1 ![1, N])
    (x : (⟨2, ![N, N]⟩ : Shape).Idx → EReal) (rows : IVec ⟨2, ![P, 1]⟩ 32) (w : BitVec 32) (e : Fin P) (q : Fin N)
    (hrow : rows (ix2 e (0 : Fin 1)) = w) (hw : w.toNat < N) :
    Host.gather (EdgeAgg.lookupDims N N P wf) x rows (ix2 e q) = x (ix2 (Cert.Spec.rowOf N hN w) q) := by
  rw [EdgeAgg.lookup_apply hN wf x rows e q, hrow, clampTo_eq_rowOf hN hN31 w hw]

/-! ## Sums over index sets -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of the squares of every entry of a feature matrix, taken over both axes at once, is the sum over the rows
    of each row's inner product with itself: the joint index set is the product of the two coordinate ranges. -/
theorem sum_sq_eq_sqNorm (f : (⟨2, ![1024, 64]⟩ : Shape).Idx → EReal) : ∑ j, f j * f j = Cert.Spec.sqNorm f := by
  rw [sum_idx2]
  rfl

/-- The quotient `1 / (1 + e^(−x))`, its two ones written as the word of one, is the logistic function. -/
theorem logistic_words (x : EReal) :
    Ideal.div (Ideal.ofBits .f32 0x3F800000#32) (Ideal.ofBits .f32 0x3F800000#32 + Ideal.exp (-x)) = Ideal.logistic x := by
  rw [Ideal.ofBits_one_f32]
  rfl

section Stages

variable (x0 : (⟨S12000x12000, .f32⟩ : BufTy).Contents (Elt Ideal)) (x1 : (⟨S16000x16000, .f32⟩ : BufTy).Contents (Elt Ideal))
  (x2 : (⟨S12000x64, .f32⟩ : BufTy).Contents (Elt Ideal)) (x3 : (⟨S16000x64, .f32⟩ : BufTy).Contents (Elt Ideal))
  (x4 : (⟨S1024x12000, .f32⟩ : BufTy).Contents (Elt Ideal)) (x5 x6 : (⟨S1024x16000, .f32⟩ : BufTy).Contents (Elt Ideal))
  (x7 x8 x9 : IVec S1024 32)

/-! ## The three row lookups

Each column of start words holds, at `(b, 0)`, the wrapped word of row `b`; in range, that is the word itself. -/

/-- The start words of the user lookup. -/
theorem startU_apply (hu : ∀ i, (x7 i).toNat < 12000) (b : Fin 1024) :
    val_main_v14 (F := Ideal) x7 (ix2 b (0 : Fin 1)) = x7 (ix1 b) := by
  have e : idx_main_v14 (ix2 b (0 : Fin 1)) = ix1 b := funext fun a => Fin.ext (by match a with | ⟨0, _⟩ => rfl)
  rw [val_main_v14_apply, e, val_main_v13_apply, val_main_v10_apply, val_main_v9_apply, val_main_c_apply]
  exact wrap_of_lt _ _ (by have := hu (ix1 b); omega)

/-- The start words of the positive-item lookup. -/
theorem startP_apply (hp : ∀ i, (x8 i).toNat < 16000) (b : Fin 1024) :
    val_main_v23 (F := Ideal) x8 (ix2 b (0 : Fin 1)) = x8 (ix1 b) := by
  have e : idx_main_v23 (ix2 b (0 : Fin 1)) = ix1 b := funext fun a => Fin.ext (by match a with | ⟨0, _⟩ => rfl)
  rw [val_main_v23_apply, e, val_main_v22_apply, val_main_v19_apply, val_main_v18_apply, val_main_c_3_apply]
  exact wrap_of_lt _ _ (by have := hp (ix1 b); omega)

/-- The start words of the negative-item lookup. -/
theorem startN_apply (hn : ∀ i, (x9 i).toNat < 16000) (b : Fin 1024) :
    val_main_v32 (F := Ideal) x9 (ix2 b (0 : Fin 1)) = x9 (ix1 b) := by
  have e : idx_main_v32 (ix2 b (0 : Fin 1)) = ix1 b := funext fun a => Fin.ext (by match a with | ⟨0, _⟩ => rfl)
  rw [val_main_v32_apply, e, val_main_v31_apply, val_main_v28_apply, val_main_v27_apply, val_main_c_5_apply]
  exact wrap_of_lt _ _ (by have := hn (ix1 b); omega)

/-- The user lookup at `(b, n)`: the user filter at the row the user word of `b` names, column `n`. -/
theorem rowsU_apply (hu : ∀ i, (x7 i).toNat < 12000) (b : Fin 1024) (n : Fin 12000) :
    val_main_v15 (F := Ideal) x0 x7 (ix2 b n) = x0 (ix2 (Cert.Spec.rowOf 12000 (by decide) (x7 (ix1 b))) n) :=
  lookup_rowOf (N := 12000) (P := 1024) (by decide) (by decide)
    gather_S12000x12000_S1024x1_S1024x12000_1_0_n_n_0_1_112000_wf x0 (val_main_v14 (F := Ideal) x7) (x7 (ix1 b)) b n
    (startU_apply x7 hu b) (hu (ix1 b))

/-- The positive-item lookup at `(b, n)`: the item filter at the row the positive word of `b` names. -/
theorem rowsP_apply (hp : ∀ i, (x8 i).toNat < 16000) (b : Fin 1024) (n : Fin 16000) :
    val_main_v24 (F := Ideal) x1 x8 (ix2 b n) = x1 (ix2 (Cert.Spec.rowOf 16000 (by decide) (x8 (ix1 b))) n) :=
  lookup_rowOf (N := 16000) (P := 1024) (by decide) (by decide)
    gather_S16000x16000_S1024x1_S1024x16000_1_0_n_n_0_1_116000_wf x1 (val_main_v23 (F := Ideal) x8) (x8 (ix1 b)) b n
    (startP_apply x8 hp b) (hp (ix1 b))

/-- The negative-item lookup at `(b, n)`: the item filter at the row the negative word of `b` names. -/
theorem rowsN_apply (hn : ∀ i, (x9 i).toNat < 16000) (b : Fin 1024) (n : Fin 16000) :
    val_main_v33 (F := Ideal) x1 x9 (ix2 b n) = x1 (ix2 (Cert.Spec.rowOf 16000 (by decide) (x9 (ix1 b))) n) :=
  lookup_rowOf (N := 16000) (P := 1024) (by decide) (by decide)
    gather_S16000x16000_S1024x1_S1024x16000_1_0_n_n_0_1_116000_wf x1 (val_main_v32 (F := Ideal) x9) (x9 (ix1 b)) b n
    (startN_apply x9 hn b) (hn (ix1 b))

/-! ## The three feature matrices

Entry `(b, d)` of a product `(rows · keep) @ table` is the sum over the table's rows `n` of the looked-up filter entry
`(b, n)`, times the noise's keep bit at `(b, n)` read as a number, times the table at `(n, d)`. -/

/-- The user feature matrix. -/
theorem featU_eq (hu : ∀ i, (x7 i).toNat < 12000) :
    val_main_v17 (F := Ideal) x0 x2 x4 x7 = Cert.Spec.feat (N := 12000) (by decide) x0 x4 x2 x7 := by
  funext i
  obtain ⟨b, d, rfl⟩ : ∃ (b : Fin 1024) (d : Fin 64), i = ix2 b d := ⟨i 0, i 1, eq_ix2 i⟩
  rw [val_main_v17_apply]
  show _ = ∑ n : Fin 12000,
    (x0 (ix2 (Cert.Spec.rowOf 12000 (by decide) (x7 (ix1 b))) n) * Cert.Spec.keep (x4 (ix2 b n))) * x2 (ix2 n d)
  refine Finset.sum_congr rfl fun n _ => ?_
  have el : lidx_main_v17 (ix2 b d) n = ix2 b n :=
    funext fun a => Fin.ext (by match a with | ⟨0, _⟩ => rfl | ⟨1, _⟩ => rfl)
  have er : ridx_main_v17 (ix2 b d) n = ix2 n d :=
    funext fun a => Fin.ext (by match a with | ⟨0, _⟩ => rfl | ⟨1, _⟩ => rfl)
  rw [el, er, val_main_v16_apply, rowsU_apply x0 x7 hu, val_main_v2_apply, val_main_v1_apply, val_main_v0_apply,
    val_main_cst_apply]
  rfl

/-- The positive-item feature matrix. -/
theorem featP_eq (hp : ∀ i, (x8 i).toNat < 16000) :
    val_main_v26 (F := Ideal) x1 x3 x5 x8 = Cert.Spec.feat (N := 16000) (by decide) x1 x5 x3 x8 := by
  funext i
  obtain ⟨b, d, rfl⟩ : ∃ (b : Fin 1024) (d : Fin 64), i = ix2 b d := ⟨i 0, i 1, eq_ix2 i⟩
  rw [val_main_v26_apply]
  show _ = ∑ n : Fin 16000,
    (x1 (ix2 (Cert.Spec.rowOf 16000 (by decide) (x8 (ix1 b))) n) * Cert.Spec.keep (x5 (ix2 b n))) * x3 (ix2 n d)
  refine Finset.sum_congr rfl fun n _ => ?_
  have el : lidx_main_v26 (ix2 b d) n = ix2 b n :=
    funext fun a => Fin.ext (by match a with | ⟨0, _⟩ => rfl | ⟨1, _⟩ => rfl)
  have er : ridx_main_v26 (ix2 b d) n = ix2 n d :=
    funext fun a => Fin.ext (by match a with | ⟨0, _⟩ => rfl | ⟨1, _⟩ => rfl)
  rw [el, er, val_main_v25_apply, rowsP_apply x1 x8 hp, val_main_v5_apply, val_main_v4_apply, val_main_v3_apply,
    val_main_cst_0_apply]
  rfl

/-- The negative-item feature matrix. -/
theorem featN_eq (hn : ∀ i, (x9 i).toNat < 16000) :
    val_main_v35 (F := Ideal) x1 x3 x6 x9 = Cert.Spec.feat (N := 16000) (by decide) x1 x6 x3 x9 := by
  funext i
  obtain ⟨b, d, rfl⟩ : ∃ (b : Fin 1024) (d : Fin 64), i = ix2 b d := ⟨i 0, i 1, eq_ix2 i⟩
  rw [val_main_v35_apply]
  show _ = ∑ n : Fin 16000,
    (x1 (ix2 (Cert.Spec.rowOf 16000 (by decide) (x9 (ix1 b))) n) * Cert.Spec.keep (x6 (ix2 b n))) * x3 (ix2 n d)
  refine Finset.sum_congr rfl fun n _ => ?_
  have el : lidx_main_v35 (ix2 b d) n = ix2 b n :=
    funext fun a => Fin.ext (by match a with | ⟨0, _⟩ => rfl | ⟨1, _⟩ => rfl)
  have er : ridx_main_v35 (ix2 b d) n = ix2 n d :=
    funext fun a => Fin.ext (by match a with | ⟨0, _⟩ => rfl | ⟨1, _⟩ => rfl)
  rw [el, er, val_main_v34_apply, rowsN_apply x1 x9 hn, val_main_v8_apply, val_main_v7_apply, val_main_v6_apply,
    val_main_cst_1_apply]
  rfl

/-! ## The loss, over the three feature matrices as they stand

From here on the feature matrices are not opened: every stage is read over them as whole functions. -/

/-- The negative score of row `b`: the zero word plus the sum over the 64 columns of the user row times the
    negative-item row. -/
theorem scoreN_apply (b : Fin 1024) :
    val_main_v37 (F := Ideal) x0 x1 x2 x3 x4 x6 x7 x9 (ix1 b) = Cert.Spec.rowDot (val_main_v17 (F := Ideal) x0 x2 x4 x7) (val_main_v35 (F := Ideal) x1 x3 x6 x9) b := by
  rw [val_main_v37_apply, val_main_cst_7_apply, Ideal.ofBits_def, Ideal.ofBits_zero_f32, zero_add]
  unfold Cert.Spec.rowDot
  refine Finset.sum_congr rfl fun d _ => ?_
  have e : idx_main_v37 (ix1 b) d = ix2 b d :=
    funext fun a => Fin.ext (by match a with | ⟨0, _⟩ => rfl | ⟨1, _⟩ => rfl)
  rw [e]
  rfl

/-- The positive score of row `b`, likewise over the user row and the positive-item row. -/
theorem scoreP_apply (b : Fin 1024) :
    val_main_v54 (F := Ideal) x0 x1 x2 x3 x4 x5 x7 x8 (ix1 b) = Cert.Spec.rowDot (val_main_v17 (F := Ideal) x0 x2 x4 x7) (val_main_v26 (F := Ideal) x1 x3 x5 x8) b := by
  rw [val_main_v54_apply, val_main_cst_14_apply, Ideal.ofBits_def, Ideal.ofBits_zero_f32, zero_add]
  unfold Cert.Spec.rowDot
  refine Finset.sum_congr rfl fun d _ => ?_
  have e : idx_main_v54 (ix1 b) d = ix2 b d :=
    funext fun a => Fin.ext (by match a with | ⟨0, _⟩ => rfl | ⟨1, _⟩ => rfl)
  rw [e]
  rfl

/-- The weight of the negative score of row `b`: one minus the decimal logarithm, written as the natural one times
    the shared literal, of one minus the capped logistic of the score. -/
theorem weight_apply (b : Fin 1024) :
    val_main_v52 (F := Ideal) x0 x1 x2 x3 x4 x6 x7 x9 (ix1 b)
      = Cert.Spec.negWeight (val_main_v37 (F := Ideal) x0 x1 x2 x3 x4 x6 x7 x9 (ix1 b)) := by
  rw [val_main_v52_apply, val_main_v51_apply, val_main_cst_13_apply, val_main_v50_apply, val_main_v49_apply,
    val_main_cst_12_apply, val_main_v48_apply, val_main_v47_apply, val_main_v46_apply, val_main_cst_11_apply,
    val_main_v45_apply, val_main_v44_apply, val_main_cst_10_apply, val_main_v43_apply, val_main_v42_apply,
    val_main_cst_9_apply, val_main_v41_apply, val_main_v40_apply, val_main_cst_8_apply, val_main_v39_apply,
    val_main_v38_apply]
  simp only [Ideal.ofBits_def, Ideal.subf_def, Ideal.mulf_def, Ideal.hostUnary_log_def, Ideal.minimumf_def,
    Ideal.hostDivf_def, Ideal.addf_def, Ideal.hostUnary_exp_def, Ideal.hostNegf_def, Ideal.negf_def]
  rw [logistic_words]
  rfl

/-- The margin of row `b`: the positive score minus the weighted negative score. -/
theorem margin_apply (b : Fin 1024) :
    val_main_v56 (F := Ideal) x0 x1 x2 x3 x4 x5 x6 x7 x8 x9 (ix1 b) = Cert.Spec.margin (val_main_v17 (F := Ideal) x0 x2 x4 x7) (val_main_v26 (F := Ideal) x1 x3 x5 x8) (val_main_v35 (F := Ideal) x1 x3 x6 x9) b := by
  rw [val_main_v56_apply, val_main_v55_apply, weight_apply, scoreP_apply, scoreN_apply]
  rfl

/-- The logarithm of the logistic of the margin of row `b`. -/
theorem logSig_apply (b : Fin 1024) :
    val_main_v72 (F := Ideal) x0 x1 x2 x3 x4 x5 x6 x7 x8 x9 (ix1 b)
      = Ideal.log (Ideal.logistic (Cert.Spec.margin (val_main_v17 (F := Ideal) x0 x2 x4 x7) (val_main_v26 (F := Ideal) x1 x3 x5 x8) (val_main_v35 (F := Ideal) x1 x3 x6 x9) b)) := by
  rw [val_main_v72_apply, val_main_v62_apply, val_main_v61_apply, val_main_cst_16_apply, val_main_v60_apply,
    val_main_v59_apply, val_main_cst_15_apply, val_main_v58_apply, val_main_v57_apply, margin_apply]
  simp only [Ideal.ofBits_def, Ideal.hostUnary_log_def, Ideal.hostDivf_def, Ideal.addf_def, Ideal.hostUnary_exp_def,
    Ideal.hostNegf_def, Ideal.negf_def]
  rw [logistic_words]

/-- Their sum over the 1024 rows, from the zero word. -/
theorem logSum_apply (i : S_.Idx) :
    val_main_v73 (F := Ideal) x0 x1 x2 x3 x4 x5 x6 x7 x8 x9 i
      = ∑ b : Fin 1024, Ideal.log (Ideal.logistic (Cert.Spec.margin (val_main_v17 (F := Ideal) x0 x2 x4 x7) (val_main_v26 (F := Ideal) x1 x3 x5 x8) (val_main_v35 (F := Ideal) x1 x3 x6 x9) b)) := by
  rw [val_main_v73_apply, val_main_cst_21_apply, Ideal.ofBits_def, Ideal.ofBits_zero_f32, zero_add, sum_idx1]
  exact Finset.sum_congr rfl fun b _ => logSig_apply x0 x1 x2 x3 x4 x5 x6 x7 x8 x9 b

/-- The sum of the squares of the user feature matrix, from the zero word. -/
theorem sqU_apply (i : S_.Idx) : val_main_v64 (F := Ideal) x0 x2 x4 x7 i = Cert.Spec.sqNorm (val_main_v17 (F := Ideal) x0 x2 x4 x7) := by
  rw [val_main_v64_apply, val_main_cst_17_apply, Ideal.ofBits_def, Ideal.ofBits_zero_f32, zero_add]
  exact sum_sq_eq_sqNorm (val_main_v17 (F := Ideal) x0 x2 x4 x7)

/-- The sum of the squares of the positive-item feature matrix. -/
theorem sqP_apply (i : S_.Idx) : val_main_v66 (F := Ideal) x1 x3 x5 x8 i = Cert.Spec.sqNorm (val_main_v26 (F := Ideal) x1 x3 x5 x8) := by
  rw [val_main_v66_apply, val_main_cst_18_apply, Ideal.ofBits_def, Ideal.ofBits_zero_f32, zero_add]
  exact sum_sq_eq_sqNorm (val_main_v26 (F := Ideal) x1 x3 x5 x8)

/-- The sum of the squares of the negative-item feature matrix. -/
theorem sqN_apply (i : S_.Idx) : val_main_v69 (F := Ideal) x1 x3 x6 x9 i = Cert.Spec.sqNorm (val_main_v35 (F := Ideal) x1 x3 x6 x9) := by
  rw [val_main_v69_apply, val_main_cst_19_apply, Ideal.ofBits_def, Ideal.ofBits_zero_f32, zero_add]
  exact sum_sq_eq_sqNorm (val_main_v35 (F := Ideal) x1 x3 x6 x9)

/-- The regulariser: its weight times the three sums of squares, added in the program's order. -/
theorem reg_apply (i : S_.Idx) :
    val_main_v71 (F := Ideal) x0 x1 x2 x3 x4 x5 x6 x7 x8 x9 i
      = Cert.Spec.reg * ((Cert.Spec.sqNorm (val_main_v17 (F := Ideal) x0 x2 x4 x7) + Cert.Spec.sqNorm (val_main_v26 (F := Ideal) x1 x3 x5 x8)) + Cert.Spec.sqNorm (val_main_v35 (F := Ideal) x1 x3 x6 x9)) := by
  rw [val_main_v71_apply, val_main_cst_20_apply, val_main_v70_apply, val_main_v67_apply, sqU_apply, sqP_apply,
    sqN_apply]
  rfl

/-- The last stage: minus the sum of the logarithms (a negation is zero minus its operand) plus the regulariser,
    divided by the batch size. -/
theorem loss_apply (i : S_.Idx) :
    val_main_v76 (F := Ideal) x0 x1 x2 x3 x4 x5 x6 x7 x8 x9 i = Cert.Spec.loss (val_main_v17 (F := Ideal) x0 x2 x4 x7) (val_main_v26 (F := Ideal) x1 x3 x5 x8) (val_main_v35 (F := Ideal) x1 x3 x6 x9) := by
  rw [val_main_v76_apply, val_main_cst_22_apply, val_main_v75_apply, val_main_v74_apply, logSum_apply, reg_apply]
  simp only [Ideal.ofBits_def, Ideal.hostDivf_def, Ideal.addf_def, Ideal.hostNegf_def, Ideal.negf_def]
  unfold Cert.Spec.loss
  rw [zero_sub]
  rfl

end Stages

/-! ## The result -/

/-- The reference's result, under in-range row words, is the specification's loss of the three feature matrices, at
    the one index of a scalar. -/
theorem result_eq (m : (ℓ : Loc Cert.ReferenceIdeal.nD Cert.ReferenceIdeal.τ Cert.ReferenceIdeal.sig) → Buf (Elt Ideal) ℓ)
    (c : Dev Cert.ReferenceIdeal.nD)
    (hu : ∀ i, ((m ((c.tc : Thread Cert.ReferenceIdeal.nD Cert.ReferenceIdeal.τ).loc Cert.ReferenceIdeal.main_arg7)) i).toNat < 12000)
    (hp : ∀ i, ((m ((c.tc : Thread Cert.ReferenceIdeal.nD Cert.ReferenceIdeal.τ).loc Cert.ReferenceIdeal.main_arg8)) i).toNat < 16000)
    (hn : ∀ i, ((m ((c.tc : Thread Cert.ReferenceIdeal.nD Cert.ReferenceIdeal.τ).loc Cert.ReferenceIdeal.main_arg9)) i).toNat < 16000) :
    Cert.ReferenceIdeal.Value.res_main_v76 (F := Ideal) m c
      = fun _ => Cert.Spec.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  rw [val_main_v76_eq]
  funext i
  rw [loss_apply, featU_eq _ _ _ _ hu, featP_eq _ _ _ _ hp, featN_eq _ _ _ _ hn]
  rfl

end Cert.RefValue

end
-- ==== Proof.lean ====
/-
  The five claims, assembled.

  The precondition says, beside the finiteness of the float arrays, that every row word is in range: every user word
  below 12000 and every positive and negative item word below 16000, read unsigned (`Cert.IdxRange.of_pre`). Under those
  three ranges
  * the kernel, as printed and idealized, runs to the end and leaves its ten arguments as launched (the two frames);
  * the idealized kernel's result is the specification's loss of the launch arguments (`value_run`);
  * the reference runs for any memory (it is a list of host operations), its arguments unchanged, and under the same
    ranges its result is the same loss (`Cert.RefValue.result_eq`).
  The two programs start from memories that agree on the arguments, so the reference's ranges are the kernel's, and
  the two losses are one number. Nothing was rewritten by the idealization, so that claim is `True`.
-/
import proofs.«421540_j73229192397035_2_alg».proof.Defs
import proofs.«421540_j73229192397035_2_alg».proof.Proof.Gen.Kernel
import proofs.«421540_j73229192397035_2_alg».proof.Proof.Gen.Kernel.Skeleton
import proofs.«421540_j73229192397035_2_alg».proof.Proof.Gen.Kernel.Launch
import proofs.«421540_j73229192397035_2_alg».proof.Proof.Gen.Kernel.Regions
import proofs.«421540_j73229192397035_2_alg».proof.Proof.Gen.Kernel.Points
import proofs.«421540_j73229192397035_2_alg».proof.Proof.Gen.KernelIdeal
import proofs.«421540_j73229192397035_2_alg».proof.Proof.Gen.KernelIdeal.Skeleton
import proofs.«421540_j73229192397035_2_alg».proof.Proof.Gen.KernelIdeal.Launch
import proofs.«421540_j73229192397035_2_alg».proof.Proof.Gen.KernelIdeal.Regions
import proofs.«421540_j73229192397035_2_alg».proof.Proof.Gen.KernelIdeal.Points
import proofs.«421540_j73229192397035_2_alg».proof.Proof.Gen.ReferenceIdeal
import proofs.«421540_j73229192397035_2_alg».proof.Proof.Gen.ReferenceIdeal.Run
import proofs.«421540_j73229192397035_2_alg».proof.Proof.Gen.Pre_finite_inputs
import proofs.«421540_j73229192397035_2_alg».proof.Proof.IdxRange
import proofs.«421540_j73229192397035_2_alg».proof.Proof.ReadBack
import proofs.«421540_j73229192397035_2_alg».proof.Proof.KReadBack
import proofs.«421540_j73229192397035_2_alg».proof.Proof.ValueRun
import proofs.«421540_j73229192397035_2_alg».proof.Proof.RefValue
import Idealize.ShloMosaic.Adequacy
import Idealize.ShloMosaic.Init

noncomputable section

namespace Cert.Proof

open Idealize.ShloMosaic Idealize.SL.Sem

/-! ## The ranges, read off the precondition on each program's own memory

The mesh has one device; the hand runs take the ranges at device 0, and a value is compared at a device `c` with the
ranges at `c`. -/

/-- The printed kernel's row words are in range on every device. -/
theorem ranges_Kernel (m : (ℓ : Loc Cert.Kernel.nD Cert.Kernel.τ Cert.Kernel.sig) → Buf (Elt Bits) ℓ) (hpre : Cert.Pre_Kernel m)
    (c : Dev Cert.Kernel.nD) :
    (∀ i, ((m ((c.tc : Thread Cert.Kernel.nD Cert.Kernel.τ).loc Cert.Kernel.main_arg7) : IVec Cert.Pre_finite_inputs.S1024 32) i).toNat < 12000)
    ∧ (∀ i, ((m ((c.tc : Thread Cert.Kernel.nD Cert.Kernel.τ).loc Cert.Kernel.main_arg8) : IVec Cert.Pre_finite_inputs.S1024 32) i).toNat < 16000)
    ∧ (∀ i, ((m ((c.tc : Thread Cert.Kernel.nD Cert.Kernel.τ).loc Cert.Kernel.main_arg9) : IVec Cert.Pre_finite_inputs.S1024 32) i).toNat < 16000) :=
  Cert.IdxRange.of_pre (F := Bits) _ _ _ _ _ _ _ _ _ _ (hpre c)

/-- The idealized kernel's row words are in range on every device. -/
theorem ranges_KernelIdeal (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ((m ((c.tc : Thread Cert.KernelIdeal.nD Cert.KernelIdeal.τ).loc Cert.KernelIdeal.main_arg7) : IVec Cert.Pre_finite_inputs.S1024 32) i).toNat < 12000)
    ∧ (∀ i, ((m ((c.tc : Thread Cert.KernelIdeal.nD Cert.KernelIdeal.τ).loc Cert.KernelIdeal.main_arg8) : IVec Cert.Pre_finite_inputs.S1024 32) i).toNat < 16000)
    ∧ (∀ i, ((m ((c.tc : Thread Cert.KernelIdeal.nD Cert.KernelIdeal.τ).loc Cert.KernelIdeal.main_arg9) : IVec Cert.Pre_finite_inputs.S1024 32) i).toNat < 16000) :=
  Cert.IdxRange.of_pre (F := Ideal) _ _ _ _ _ _ _ _ _ _ (hpre c)

/-- A range moves along an equation of the two word vectors. -/
theorem range_of_eq {S : Shape} {N : Nat} {a b : IVec S 32} (e : a = b) (h : ∀ i, (b i).toNat < N) :
    ∀ i, (a i).toNat < N := by
  subst e; exact h

/-! ## The claims -/

/-- The printed kernel runs and leaves its arguments as launched. -/
theorem frame_k : Cert.frame_Kernel := fun m ρ hpre =>
  Cert.Kernel.Hand.frame (F := Bits) m ⟨(ranges_Kernel m hpre 0).1, (ranges_Kernel m hpre 0).2.1, (ranges_Kernel m hpre 0).2.2⟩ ρ

/-- The idealized kernel runs and leaves its arguments as launched. -/
theorem frame_ki : Cert.frame_KernelIdeal := fun m ρ hpre =>
  Cert.KernelIdeal.Hand.frame (F := Ideal) m
    ⟨(ranges_KernelIdeal m hpre 0).1, (ranges_KernelIdeal m hpre 0).2.1, (ranges_KernelIdeal m hpre 0).2.2⟩ ρ

/-- The reference runs from any memory and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's loss of those arguments. -/
theorem algebraic : Cert.algebraic_KernelIdeal_ReferenceIdeal := by
  intro m ρ m' ρ' hpre hagree
  -- the kernel's side: its value run, under the ranges at device 0; the common value is read off its statement
  refine ⟨_, Cert.KernelIdeal.Hand.value_run m
    ⟨(ranges_KernelIdeal m hpre 0).1, (ranges_KernelIdeal m hpre 0).2.1, (ranges_KernelIdeal m hpre 0).2.2⟩ ρ, ?_⟩
  -- the reference's side: its run, the result rewritten
  refine (θ_run Cert.ReferenceIdeal.defs _ _).mono (fun _ h c => ⟨(h c).1.trans ?_, (h c).2⟩)
    (Cert.ReferenceIdeal.Value.run (F := Ideal) m' ρ')
  obtain ⟨hu, hp, hn⟩ := ranges_KernelIdeal m hpre c
  obtain ⟨e0, e1, e2, e3, e4, e5, e6, e7, e8, e9⟩ := hagree c
  -- the reference's words are the kernel's, so in range; its result is then the loss of its own arguments
  rewrite [Cert.RefValue.result_eq m' c (range_of_eq (S := Cert.Pre_finite_inputs.S1024) e7 hu)
    (range_of_eq (S := Cert.Pre_finite_inputs.S1024) e8 hp) (range_of_eq (S := Cert.Pre_finite_inputs.S1024) e9 hn)]
  -- and its arguments are the kernel's
  rewrite [e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
